-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x14 : Shape := ⟨2, ![200000, 14]⟩
abbrev S2x2000000 : Shape := ⟨2, ![2, 2000000]⟩
abbrev S2000000x3 : Shape := ⟨2, ![2000000, 3]⟩
abbrev S200000 : Shape := ⟨1, ![200000]⟩
abbrev S14x32 : Shape := ⟨2, ![14, 32]⟩
abbrev S32 : Shape := ⟨1, ![32]⟩
abbrev S3x32 : Shape := ⟨2, ![3, 32]⟩
abbrev S2x32x75 : Shape := ⟨3, ![2, 32, 75]⟩
abbrev S2x75 : Shape := ⟨2, ![2, 75]⟩
abbrev S2x75x32 : Shape := ⟨3, ![2, 75, 32]⟩
abbrev S2x32 : Shape := ⟨2, ![2, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩
abbrev S1x2000000 : Shape := ⟨2, ![1, 2000000]⟩
abbrev S2000000 : Shape := ⟨1, ![2000000]⟩

class Facts : Prop where
  bcast_S_S200000x14 : S_.BroadcastsInDim S200000x14 (![] : Fin 0 → Fin S200000x14.rank)
  reducesTo_S200000x14_S_d0_1 : S200000x14.ReducesTo [0, 1] S_
  h_S_ : 0 < S_.numel
  bcast_S_S2000000x3 : S_.BroadcastsInDim S2000000x3 (![] : Fin 0 → Fin S2000000x3.rank)
  reducesTo_S2000000x3_S_d0_1 : S2000000x3.ReducesTo [0, 1] S_
  bcast_S_S14x32 : S_.BroadcastsInDim S14x32 (![] : Fin 0 → Fin S14x32.rank)
  reducesTo_S14x32_S_d0_1 : S14x32.ReducesTo [0, 1] S_
  bcast_S_S32 : S_.BroadcastsInDim S32 (![] : Fin 0 → Fin S32.rank)
  reducesTo_S32_S_d0 : S32.ReducesTo [0] S_
  bcast_S_S3x32 : S_.BroadcastsInDim S3x32 (![] : Fin 0 → Fin S3x32.rank)
  reducesTo_S3x32_S_d0_1 : S3x32.ReducesTo [0, 1] S_
  bcast_S_S2x32x75 : S_.BroadcastsInDim S2x32x75 (![] : Fin 0 → Fin S2x32x75.rank)
  reducesTo_S2x32x75_S_d0_1_2 : S2x32x75.ReducesTo [0, 1, 2] S_
  bcast_S_S2x75 : S_.BroadcastsInDim S2x75 (![] : Fin 0 → Fin S2x75.rank)
  reducesTo_S2x75_S_d0_1 : S2x75.ReducesTo [0, 1] S_
  bcast_S_S2x75x32 : S_.BroadcastsInDim S2x75x32 (![] : Fin 0 → Fin S2x75x32.rank)
  reducesTo_S2x75x32_S_d0_1_2 : S2x75x32.ReducesTo [0, 1, 2] S_
  bcast_S_S2x32 : S_.BroadcastsInDim S2x32 (![] : Fin 0 → Fin S2x32.rank)
  reducesTo_S2x32_S_d0_1 : S2x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  reducesTo_S2000000_S_d0 : S2000000.ReducesTo [0] S_

variable [Facts]

def fn_part5 {F : FTy → Type} [FloatOps F] (main_v84 : IVec S_ 1) (main_v85 : IVec S1x2000000 32) : IVec S_ 1 :=
  let main_v86 : IVec S2000000 32 := shapeCast S2000000 main_v85 shapeCasts_S1x2000000_S2000000
  let main_c_32 : IVec S_ 32 := constantI S_ 32 200000#32
  let main_v87 : IVec S2000000 32 := broadcastInDim S2000000 ![] bcast_S_S2000000 main_c_32
  let main_v88 : IVec S2000000 1 := cmpi .slt main_v86 main_v87
  let main_c_33 : IVec S_ 1 := constantI S_ 1 1#1
  let main_v89 : IVec S_ 1 := (fun x v => Host.reduce IntOp.andi x v reducesTo_S2000000_S_d0 h_S_) main_v88 main_c_33
  let main_v90 : IVec S_ 1 := andi main_v84 main_v89
  main_v90

def fn_part4 {F : FTy → Type} [FloatOps F] (main_arg1 : IVec S2x2000000 32) (main_arg16 : FVec F S16x2 .f32) (main_arg17 : FVec F S2 .f32) (main_v63 : IVec S_ 1) (main_v67 : IVec S_ 1) : IVec S_ 1 :=
  let main_v68 : IVec S_ 1 := andi main_v63 main_v67
  let main_v69 : FVec F S16x2 .f32 := Host.absf main_arg16
  let main_cst_26 : FVec F S_ .f32 := constant S_ .f32 0x7F800000#32
  let main_v70 : FVec F S16x2 .f32 := broadcastInDim S16x2 ![] bcast_S_S16x2 main_cst_26
  let main_v71 : IVec S16x2 1 := cmpf .olt main_v69 main_v70
  let main_c_27 : IVec S_ 1 := constantI S_ 1 1#1
  let main_v72 : IVec S_ 1 := (fun x v => Host.reduce IntOp.andi x v reducesTo_S16x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : IVec S1x2000000 32 := (extractStridedSlice S1x2000000 ![0, 0] · slices_S2x2000000_S1x2000000_0_0) main_arg1
  let main_v80 : IVec S2000000 32 := shapeCast S2000000 main_v79 shapeCasts_S1x2000000_S2000000
  let main_c_30 : IVec S_ 32 := constantI S_ 32 0#32
  let main_v81 : IVec S2000000 32 := broadcastInDim S2000000 ![] bcast_S_S2000000 main_c_30
  let main_v82 : IVec S2000000 1 := cmpi .sge main_v80 main_v81
  let main_c_31 : IVec S_ 1 := constantI S_ 1 1#1
  let main_v83 : IVec S_ 1 := (fun x v => Host.reduce IntOp.andi x v reducesTo_S2000000_S_d0 h_S_) main_v82 main_c_31
  let main_v84 : IVec S_ 1 := andi main_v78 main_v83
  let main_v85 : IVec S1x2000000 32 := (extractStridedSlice S1x2000000 ![0, 0] · slices_S2x2000000_S1x2000000_0_0) main_arg1
  fn_part5 (F := F) main_v84 main_v85

def fn_part3 {F : FTy → Type} [FloatOps F] (main_arg1 : IVec S2x2000000 32) (main_arg13 : FVec F S2x32 .f32) (main_arg14 : FVec F S32x16 .f32) (main_arg15 : FVec F S16 .f32) (main_arg16 : FVec F S16x2 .f32) (main_arg17 : FVec F S2 .f32) (main_v48 : IVec S_ 1) (main_v49 : FVec F S2x32 .f32) (main_v50 : FVec F S2x32 .f32) : IVec S_ 1 :=
  let main_v51 : IVec S2x32 1 := cmpf .olt main_v49 main_v50
  let main_c_19 : IVec S_ 1 := constantI S_ 1 1#1
  let main_v52 : IVec S_ 1 := (fun x v => Host.reduce IntOp.andi x v reducesTo_S2x32_S_d0_1 h_S_) main_v51 main_c_19
  let main_v53 : IVec S_ 1 := andi main_v48 main_v52
  let main_v54 : FVec F S2x32 .f32 := Host.absf main_arg13
  let main_cst_20 : FVec F S_ .f32 := constant S_ .f32 0x7F800000#32
  let main_v55 : FVec F S2x32 .f32 := broadcastInDim S2x32 ![] bcast_S_S2x32 main_cst_20
  let main_v56 : IVec S2x32 1 := cmpf .olt main_v54 main_v55
  let main_c_21 : IVec S_ 1 := constantI S_ 1 1#1
  let main_v57 : IVec S_ 1 := (fun x v => Host.reduce IntOp.andi x v reducesTo_S2x32_S_d0_1 h_S_) main_v56 main_c_21
  let main_v58 : IVec S_ 1 := andi main_v53 main_v57
  let main_v59 : FVec F S32x16 .f32 := Host.absf main_arg14
  let main_cst_22 : FVec F S_ .f32 := constant S_ .f32 0x7F800000#32
  let main_v60 : FVec F S32x16 .f32 := broadcastInDim S32x16 ![] bcast_S_S32x16 main_cst_22
  let main_v61 : IVec S32x16 1 := cmpf .olt main_v59 main_v60
  let main_c_23 : IVec S_ 1 := constantI S_ 1 1#1
  let main_v62 : IVec S_ 1 := (fun x v => Host.reduce IntOp.andi x v reducesTo_S32x16_S_d0_1 h_S_) main_v61 main_c_23
  let main_v63 : IVec S_ 1 := andi main_v58 main_v62
  let main_v64 : FVec F S16 .f32 := Host.absf main_arg15
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg1 main_arg16 main_arg17 main_v63 main_v67

def fn_part2 {F : FTy → Type} [FloatOps F] (main_arg1 : IVec S2x2000000 32) (main_arg9 : FVec F S2x75 .f32) (main_arg10 : FVec F S2x75x32 .f32) (main_arg11 : FVec F S2x32 .f32) (main_arg12 : FVec F S2x32 .f32) (main_arg13 : FVec F S2x32 .f32) (main_arg14 : FVec F S32x16 .f32) (main_arg15 : FVec F S16 .f32) (main_arg16 : FVec F S16x2 .f32) (main_arg17 : FVec F S2 .f32) (main_v33 : IVec S_ 1) : IVec S_ 1 :=
  let main_v34 : FVec F S2x75 .f32 := Host.absf main_arg9
  let main_cst_12 : FVec F S_ .f32 := constant S_ .f32 0x7F800000#32
  let main_v35 : FVec F S2x75 .f32 := broadcastInDim S2x75 ![] bcast_S_S2x75 main_cst_12
  let main_v36 : IVec S2x75 1 := cmpf .olt main_v34 main_v35
  let main_c_13 : IVec S_ 1 := constantI S_ 1 1#1
  let main_v37 : IVec S_ 1 := (fun x v => Host.reduce IntOp.andi x v reducesTo_S2x75_S_d0_1 h_S_) main_v36 main_c_13
  let main_v38 : IVec S_ 1 := andi main_v33 main_v37
  let main_v39 : FVec F S2x75x32 .f32 := Host.absf main_arg10
  let main_cst_14 : FVec F S_ .f32 := constant S_ .f32 0x7F800000#32
  let main_v40 : FVec F S2x75x32 .f32 := broadcastInDim S2x75x32 ![] bcast_S_S2x75x32 main_cst_14
  let main_v41 : IVec S2x75x32 1 := cmpf .olt main_v39 main_v40
  let main_c_15 : IVec S_ 1 := constantI S_ 1 1#1
  let main_v42 : IVec S_ 1 := (fun x v => Host.reduce IntOp.andi x v reducesTo_S2x75x32_S_d0_1_2 h_S_) main_v41 main_c_15
  let main_v43 : IVec S_ 1 := andi main_v38 main_v42
  let main_v44 : FVec F S2x32 .f32 := Host.absf main_arg11
  let main_cst_16 : FVec F S_ .f32 := constant S_ .f32 0x7F800000#32
  let main_v45 : FVec F S2x32 .f32 := broadcastInDim S2x32 ![] bcast_S_S2x32 main_cst_16
  let main_v46 : IVec S2x32 1 := cmpf .olt main_v44 main_v45
  let main_c_17 : IVec S_ 1 := constantI S_ 1 1#1
  let main_v47 : IVec S_ 1 := (fun x v => Host.reduce IntOp.andi x v reducesTo_S2x32_S_d0_1 h_S_) main_v46 main_c_17
  let main_v48 : IVec S_ 1 := andi main_v43 main_v47
  let main_v49 : FVec F S2x32 .f32 := Host.absf main_arg12
  let main_cst_18 : FVec F S_ .f32 := constant S_ .f32 0x7F800000#32
  let main_v50 : FVec F S2x32 .f32 := broadcastInDim S2x32 ![] bcast_S_S2x32 main_cst_18
  fn_part3 (F := F) main_arg1 main_arg13 main_arg14 main_arg15 main_arg16 main_arg17 main_v48 main_v49 main_v50

def fn_part1 {F : FTy → Type} [FloatOps F] (main_arg1 : IVec S2x2000000 32) (main_arg6 : FVec F S3x32 .f32) (main_arg7 : FVec F S32 .f32) (main_arg8 : FVec F S2x32x75 .f32) (main_arg9 : FVec F S2x75 .f32) (main_arg10 : FVec F S2x75x32 .f32) (main_arg11 : FVec F S2x32 .f32) (main_arg12 : FVec F S2x32 .f32) (main_arg13 : FVec F S2x32 .f32) (main_arg14 : FVec F S32x16 .f32) (main_arg15 : FVec F S16 .f32) (main_arg16 : FVec F S16x2 .f32) (main_arg17 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S3x32 .f32 := Host.absf main_arg6
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S2x32x75 .f32 := Host.absf main_arg8
  let main_cst_10 : FVec F S_ .f32 := constant S_ .f32 0x7F800000#32
  let main_v30 : FVec F S2x32x75 .f32 := broadcastInDim S2x32x75 ![] bcast_S_S2x32x75 main_cst_10
  let main_v31 : IVec S2x32x75 1 := cmpf .olt main_v29 main_v30
  let main_c_11 : IVec S_ 1 := constantI S_ 1 1#1
  let main_v32 : IVec S_ 1 := (fun x v => Host.reduce IntOp.andi x v reducesTo_S2x32x75_S_d0_1_2 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S200000x14 .f32) (main_arg1 : IVec S2x2000000 32) (main_arg2 : FVec F S2000000x3 .f32) (main_arg3 : IVec S200000 32) (main_arg4 : FVec F S14x32 .f32) (main_arg5 : FVec F S32 .f32) (main_arg6 : FVec F S3x32 .f32) (main_arg7 : FVec F S32 .f32) (main_arg8 : FVec F S2x32x75 .f32) (main_arg9 : FVec F S2x75 .f32) (main_arg10 : FVec F S2x75x32 .f32) (main_arg11 : FVec F S2x32 .f32) (main_arg12 : FVec F S2x32 .f32) (main_arg13 : FVec F S2x32 .f32) (main_arg14 : FVec F S32x16 .f32) (main_arg15 : FVec F S16 .f32) (main_arg16 : FVec F S16x2 .f32) (main_arg17 : FVec F S2 .f32) : IVec S_ 1 :=
  let main_v0 : FVec F S200000x14 .f32 := Host.absf main_arg0
  let main_cst : FVec F S_ .f32 := constant S_ .f32 0x7F800000#32
  let main_v1 : FVec F S200000x14 .f32 := broadcastInDim S200000x14 ![] bcast_S_S200000x14 main_cst
  let main_v2 : IVec S200000x14 1 := cmpf .olt main_v0 main_v1
  let main_c : IVec S_ 1 := constantI S_ 1 1#1
  let main_v3 : IVec S_ 1 := (fun x v => Host.reduce IntOp.andi x v reducesTo_S200000x14_S_d0_1 h_S_) main_v2 main_c
  let main_v4 : FVec F S2000000x3 .f32 := Host.absf main_arg2
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S14x32 .f32 := Host.absf main_arg4
  let main_cst_2 : FVec F S_ .f32 := constant S_ .f32 0x7F800000#32
  let main_v10 : FVec F S14x32 .f32 := broadcastInDim S14x32 ![] bcast_S_S14x32 main_cst_2
  let main_v11 : IVec S14x32 1 := cmpf .olt main_v9 main_v10
  let main_c_3 : IVec S_ 1 := constantI S_ 1 1#1
  let main_v12 : IVec S_ 1 := (fun x v => Host.reduce IntOp.andi x v reducesTo_S14x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S200000x14 : Shape := ⟨2, ![200000, 14]⟩
abbrev S2x2000000 : Shape := ⟨2, ![2, 2000000]⟩
abbrev S2000000x3 : Shape := ⟨2, ![2000000, 3]⟩
abbrev S200000 : Shape := ⟨1, ![200000]⟩
abbrev S14x32 : Shape := ⟨2, ![14, 32]⟩
abbrev S32 : Shape := ⟨1, ![32]⟩
abbrev S3x32 : Shape := ⟨2, ![3, 32]⟩
abbrev S2x32x75 : Shape := ⟨3, ![2, 32, 75]⟩
abbrev S2x75 : Shape := ⟨2, ![2, 75]⟩
abbrev S2x75x32 : Shape := ⟨3, ![2, 75, 32]⟩
abbrev S2x32 : Shape := ⟨2, ![2, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x2000000 : Shape := ⟨2, ![1, 2000000]⟩
abbrev S2000000 : Shape := ⟨1, ![2000000]⟩
abbrev S1x32 : Shape := ⟨2, ![1, 32]⟩
abbrev S200000x32 : Shape := ⟨2, ![200000, 32]⟩
abbrev S8000x14 : Shape := ⟨2, ![8000, 14]⟩
abbrev S8000x32 : Shape := ⟨2, ![8000, 32]⟩
abbrev S2000000x32 : Shape := ⟨2, ![2000000, 32]⟩
abbrev S8000x3 : Shape := ⟨2, ![8000, 3]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S1x32x75 : Shape := ⟨3, ![1, 32, 75]⟩
abbrev S32x75 : Shape := ⟨2, ![32, 75]⟩
abbrev S1x75 : Shape := ⟨2, ![1, 75]⟩
abbrev S75 : Shape := ⟨1, ![75]⟩
abbrev S1x75x32 : Shape := ⟨3, ![1, 75, 32]⟩
abbrev S75x32 : Shape := ⟨2, ![75, 32]⟩
abbrev S50x1x32 : Shape := ⟨3, ![50, 1, 32]⟩
abbrev S4000x32 : Shape := ⟨2, ![4000, 32]⟩
abbrev S1x1x32 : Shape := ⟨3, ![1, 1, 32]⟩
abbrev S4000x75 : Shape := ⟨2, ![4000, 75]⟩
abbrev S50x32 : Shape := ⟨2, ![50, 32]⟩
abbrev S25x1x32 : Shape := ⟨3, ![25, 1, 32]⟩
abbrev S25x32 : Shape := ⟨2, ![25, 32]⟩
abbrev S10000 : Shape := ⟨1, ![10000]⟩
abbrev S200000x1 : Shape := ⟨2, ![200000, 1]⟩
abbrev S10000x32 : Shape := ⟨2, ![10000, 32]⟩
abbrev S10000x1 : Shape := ⟨2, ![10000, 1]⟩
abbrev S1x16 : Shape := ⟨2, ![1, 16]⟩
abbrev S1x2 : Shape := ⟨2, ![1, 2]⟩
abbrev S10000x2 : Shape := ⟨2, ![10000, 2]⟩
abbrev S2000x32 : Shape := ⟨2, ![2000, 32]⟩
abbrev S2000x2 : Shape := ⟨2, ![2000, 2]⟩
abbrev S2000x16 : Shape := ⟨2, ![2000, 16]⟩

abbrev nBuf : Space → Nat
  | .hbm => 193
  | .vmem => 66
  | .smem => 0
  | _ => 0

abbrev hbmTy0_0 (i : Nat) : BufTy := match i % 128 with
  | 0 => ⟨S200000x14, .f32⟩
  | 1 => ⟨S2x2000000, .i32⟩
  | 2 => ⟨S2000000x3, .f32⟩
  | 3 => ⟨S200000, .i32⟩
  | 4 => ⟨S14x32, .f32⟩
  | 5 => ⟨S32, .f32⟩
  | 6 => ⟨S3x32, .f32⟩
  | 7 => ⟨S32, .f32⟩
  | 8 => ⟨S2x32x75, .f32⟩
  | 9 => ⟨S2x75, .f32⟩
  | 10 => ⟨S2x75x32, .f32⟩
  | 11 => ⟨S2x32, .f32⟩
  | 12 => ⟨S2x32, .f32⟩
  | 13 => ⟨S2x32, .f32⟩
  | 14 => ⟨S32x16, .f32⟩
  | 15 => ⟨S16, .f32⟩
  | 16 => ⟨S16x2, .f32⟩
  | 17 => ⟨S2, .f32⟩
  | 18 => ⟨S1x2000000, .i32⟩
  | 19 => ⟨S2000000, .i32⟩
  | 20 => ⟨S1x2000000, .i32⟩
  | 21 => ⟨S2000000, .i32⟩
  | 22 => ⟨S1x32, .f32⟩
  | 23 => ⟨S200000x32, .f32⟩
  | 24 => ⟨S1x32, .f32⟩
  | 25 => ⟨S2000000x32, .f32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S1, .i32⟩
  | 35 => ⟨S_, .i32⟩
  | 36 => ⟨S2000000x1, .i32⟩
  | 37 => ⟨S2000000x1, .i1⟩
  | 38 => ⟨S1x1, .i32⟩
  | 39 => ⟨S2000000x1, .i32⟩
  | 40 => ⟨S2000000x1, .i1⟩
  | 41 => ⟨S2000000x1, .i1⟩
  | 42 => ⟨S_, .i1⟩
  | 43 => ⟨S2000000, .i1⟩
  | 44 => ⟨S2000000x32, .f32⟩
  | 45 => ⟨S2000000x32, .i1⟩
  | 46 => ⟨S_, .f32⟩
  | 47 => ⟨S2000000x32, .f32⟩
  | 48 => ⟨S2000000x32, .f32⟩
  | 49 => ⟨S2000000x32, .f32⟩
  | 50 => ⟨S_, .f32⟩
  | 51 => ⟨S2000000x32, .f32⟩
  | 52 => ⟨S2000000x32, .f32⟩
  | 53 => ⟨S_, .f32⟩
  | 54 => ⟨S200000x32, .f32⟩
  | 55 => ⟨S2000000x1, .i32⟩
  | 56 => ⟨S200000x32, .f32⟩
  | 57 => ⟨S1x32x75, .f32⟩
  | 58 => ⟨S32x75, .f32⟩
  | 59 => ⟨S1x75, .f32⟩
  | 60 => ⟨S75, .f32⟩
  | 61 => ⟨S1x75x32, .f32⟩
  | 62 => ⟨S75x32, .f32⟩
  | 63 => ⟨S1x32, .f32⟩
  | 64 => ⟨S32, .f32⟩
  | 65 => ⟨S1x75, .f32⟩
  | 66 => ⟨S1x32, .f32⟩
  | 67 => ⟨S200000x32, .f32⟩
  | 68 => ⟨S50x1x32, .f32⟩
  | 69 => ⟨S50x32, .f32⟩
  | 70 => ⟨S_, .f32⟩
  | 71 => ⟨S32, .f32⟩
  | 72 => ⟨S_, .f32⟩
  | 73 => ⟨S32, .f32⟩
  | 74 => ⟨S32, .f32⟩
  | 75 => ⟨S1x32, .f32⟩
  | 76 => ⟨S25x1x32, .f32⟩
  | 77 => ⟨S25x32, .f32⟩
  | 78 => ⟨S_, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S1x32, .f32⟩
  | 87 => ⟨S32, .f32⟩
  | 88 => ⟨S_, .f32⟩
  | 89 => ⟨S32, .f32⟩
  | 90 => ⟨S32, .f32⟩
  | 91 => ⟨S32, .f32⟩
  | 92 => ⟨S32, .f32⟩
  | 93 => ⟨S1x32, .f32⟩
  | 94 => ⟨S32, .f32⟩
  | 95 => ⟨S32, .f32⟩
  | 96 => ⟨S32, .f32⟩
  | 97 => ⟨S1x32, .f32⟩
  | 98 => ⟨S1x32, .f32⟩
  | 99 => ⟨S200000x32, .f32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i32⟩
  | 106 => ⟨S2000000, .i32⟩
  | 107 => ⟨S2000000x1, .i32⟩
  | 108 => ⟨S1, .i32⟩
  | 109 => ⟨S_, .i32⟩
  | 110 => ⟨S2000000x1, .i32⟩
  | 111 => ⟨S2000000x1, .i1⟩
  | 112 => ⟨S1x1, .i32⟩
  | 113 => ⟨S2000000x1, .i32⟩
  | 114 => ⟨S2000000x1, .i1⟩
  | 115 => ⟨S2000000x1, .i1⟩
  | 116 => ⟨S_, .i1⟩
  | 117 => ⟨S2000000, .i1⟩
  | 118 => ⟨S2000000x32, .f32⟩
  | 119 => ⟨S2000000x32, .i1⟩
  | 120 => ⟨S_, .f32⟩
  | 121 => ⟨S2000000x32, .f32⟩
  | 122 => ⟨S2000000x32, .f32⟩
  | 123 => ⟨S2000000x32, .f32⟩
  | 124 => ⟨S_, .f32⟩
  | 125 => ⟨S2000000x32, .f32⟩
  | 126 => ⟨S2000000x32, .f32⟩
  | 127 => ⟨S_, .f32⟩
  | _ => ⟨S200000x14, .f32⟩

abbrev hbmTy0_1 (i : Nat) : BufTy := match i % 128 with
  | 0 => ⟨S200000x32, .f32⟩
  | 1 => ⟨S2000000x1, .i32⟩
  | 2 => ⟨S200000x32, .f32⟩
  | 3 => ⟨S1x32x75, .f32⟩
  | 4 => ⟨S32x75, .f32⟩
  | 5 => ⟨S1x75, .f32⟩
  | 6 => ⟨S75, .f32⟩
  | 7 => ⟨S1x75x32, .f32⟩
  | 8 => ⟨S75x32, .f32⟩
  | 9 => ⟨S1x32, .f32⟩
  | 10 => ⟨S32, .f32⟩
  | 11 => ⟨S1x75, .f32⟩
  | 12 => ⟨S1x32, .f32⟩
  | 13 => ⟨S200000x32, .f32⟩
  | 14 => ⟨S50x1x32, .f32⟩
  | 15 => ⟨S50x32, .f32⟩
  | 16 => ⟨S_, .f32⟩
  | 17 => ⟨S32, .f32⟩
  | 18 => ⟨S_, .f32⟩
  | 19 => ⟨S32, .f32⟩
  | 20 => ⟨S32, .f32⟩
  | 21 => ⟨S1x32, .f32⟩
  | 22 => ⟨S25x1x32, .f32⟩
  | 23 => ⟨S25x32, .f32⟩
  | 24 => ⟨S_, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S1x32, .f32⟩
  | 33 => ⟨S32, .f32⟩
  | 34 => ⟨S_, .f32⟩
  | 35 => ⟨S32, .f32⟩
  | 36 => ⟨S32, .f32⟩
  | 37 => ⟨S32, .f32⟩
  | 38 => ⟨S32, .f32⟩
  | 39 => ⟨S1x32, .f32⟩
  | 40 => ⟨S32, .f32⟩
  | 41 => ⟨S32, .f32⟩
  | 42 => ⟨S32, .f32⟩
  | 43 => ⟨S1x32, .f32⟩
  | 44 => ⟨S1x32, .f32⟩
  | 45 => ⟨S200000x32, .f32⟩
  | 46 => ⟨S_, .f32⟩
  | 47 => ⟨S200000, .f32⟩
  | 48 => ⟨S_, .f32⟩
  | 49 => ⟨S10000, .f32⟩
  | 50 => ⟨S200000x1, .i32⟩
  | 51 => ⟨S10000, .f32⟩
  | 52 => ⟨S_, .f32⟩
  | 53 => ⟨S10000x32, .f32⟩
  | 54 => ⟨S200000x1, .i32⟩
  | 55 => ⟨S10000x32, .f32⟩
  | 56 => ⟨S_, .f32⟩
  | 57 => ⟨S10000, .f32⟩
  | 58 => ⟨S10000, .f32⟩
  | 59 => ⟨S10000x1, .f32⟩
  | 60 => ⟨S10000x32, .f32⟩
  | 61 => ⟨S10000x32, .f32⟩
  | 62 => ⟨S1x16, .f32⟩
  | 63 => ⟨S1x2, .f32⟩
  | 64 => ⟨S10000x2, .f32⟩
  | _ => ⟨S200000x14, .f32⟩

abbrev hbmTy (i : Nat) : BufTy := match i / 128 with
  | 0 => hbmTy0_0 i
  | 1 => hbmTy0_1 i
  | _ => ⟨S200000x14, .f32⟩

abbrev bufTy : (tb : Table) → Fin (tcTables nBuf tb) → BufTy
  | .hbm, ⟨i, _⟩ => hbmTy i
  | .local _ .vmem, ⟨0, _⟩ => ⟨S8000x14, .f32⟩
  | .local _ .vmem, ⟨1, _⟩ => ⟨S8000x14, .f32⟩
  | .local _ .vmem, ⟨2, _⟩ => ⟨S14x32, .f32⟩
  | .local _ .vmem, ⟨3, _⟩ => ⟨S1x32, .f32⟩
  | .local _ .vmem, ⟨4, _⟩ => ⟨S8000x32, .f32⟩
  | .local _ .vmem, ⟨5, _⟩ => ⟨S8000x32, .f32⟩
  | .local _ .vmem, ⟨6, _⟩ => ⟨S8000x3, .f32⟩
  | .local _ .vmem, ⟨7, _⟩ => ⟨S8000x3, .f32⟩
  | .local _ .vmem, ⟨8, _⟩ => ⟨S3x32, .f32⟩
  | .local _ .vmem, ⟨9, _⟩ => ⟨S1x32, .f32⟩
  | .local _ .vmem, ⟨10, _⟩ => ⟨S8000x32, .f32⟩
  | .local _ .vmem, ⟨11, _⟩ => ⟨S8000x32, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S32x75, .f32⟩
  | .local _ .vmem, ⟨17, _⟩ => ⟨S1x75, .f32⟩
  | .local _ .vmem, ⟨18, _⟩ => ⟨S75x32, .f32⟩
  | .local _ .vmem, ⟨19, _⟩ => ⟨S1x32, .f32⟩
  | .local _ .vmem, ⟨20, _⟩ => ⟨S4000x32, .f32⟩
  | .local _ .vmem, ⟨21, _⟩ => ⟨S4000x32, .f32⟩
  | .local _ .vmem, ⟨22, _⟩ => ⟨S1x1x32, .f32⟩
  | .local _ .vmem, ⟨23, _⟩ => ⟨S1x1x32, .f32⟩
  | .local _ .vmem, ⟨24, _⟩ => ⟨S8000x32, .f32⟩
  | .local _ .vmem, ⟨25, _⟩ => ⟨S8000x32, .f32⟩
  | .local _ .vmem, ⟨26, _⟩ => ⟨S1x32, .f32⟩
  | .local _ .vmem, ⟨27, _⟩ => ⟨S1x1x32, .f32⟩
  | .local _ .vmem, ⟨28, _⟩ => ⟨S1x1x32, .f32⟩
  | .local _ .vmem, ⟨29, _⟩ => ⟨S8000x32, .f32⟩
  | .local _ .vmem, ⟨30, _⟩ => ⟨S8000x32, .f32⟩
  | .local _ .vmem, ⟨31, _⟩ => ⟨S1x32, .f32⟩
  | .local _ .vmem, ⟨32, _⟩ => ⟨S1x32, .f32⟩
  | .local _ .vmem, ⟨33, _⟩ => ⟨S8000x32, .f32⟩
  | .local _ .vmem, ⟨34, _⟩ => ⟨S8000x32, .f32⟩
  | .local _ .vmem, ⟨35, _⟩ => ⟨S4000x32, .f32⟩
  | .local _ .vmem, ⟨36, _⟩ => ⟨S4000x32, .f32⟩
  | .local _ .vmem, ⟨37, _⟩ => ⟨S4000x32, .f32⟩
  | .local _ .vmem, ⟨38, _⟩ => ⟨S4000x32, .f32⟩
  | .local _ .vmem, ⟨39, _⟩ => ⟨S32x75, .f32⟩
  | .local _ .vmem, ⟨40, _⟩ => ⟨S1x75, .f32⟩
  | .local _ .vmem, ⟨41, _⟩ => ⟨S75x32, .f32⟩
  | .local _ .vmem, ⟨42, _⟩ => ⟨S1x32, .f32⟩
  | .local _ .vmem, ⟨43, _⟩ => ⟨S4000x32, .f32⟩
  | .local _ .vmem, ⟨44, _⟩ => ⟨S4000x32, .f32⟩
  | .local _ .vmem, ⟨45, _⟩ => ⟨S1x1x32, .f32⟩
  | .local _ .vmem, ⟨46, _⟩ => ⟨S1x1x32, .f32⟩
  | .local _ .vmem, ⟨47, _⟩ => ⟨S8000x32, .f32⟩
  | .local _ .vmem, ⟨48, _⟩ => ⟨S8000x32, .f32⟩
  | .local _ .vmem, ⟨49, _⟩ => ⟨S1x32, .f32⟩
  | .local _ .vmem, ⟨50, _⟩ => ⟨S1x1x32, .f32⟩
  | .local _ .vmem, ⟨51, _⟩ => ⟨S1x1x32, .f32⟩
  | .local _ .vmem, ⟨52, _⟩ => ⟨S8000x32, .f32⟩
  | .local _ .vmem, ⟨53, _⟩ => ⟨S8000x32, .f32⟩
  | .local _ .vmem, ⟨54, _⟩ => ⟨S1x32, .f32⟩
  | .local _ .vmem, ⟨55, _⟩ => ⟨S1x32, .f32⟩
  | .local _ .vmem, ⟨56, _⟩ => ⟨S8000x32, .f32⟩
  | .local _ .vmem, ⟨57, _⟩ => ⟨S8000x32, .f32⟩
  | .local _ .vmem, ⟨58, _⟩ => ⟨S2000x32, .f32⟩
  | .local _ .vmem, ⟨59, _⟩ => ⟨S2000x32, .f32⟩
  | .local _ .vmem, ⟨60, _⟩ => ⟨S32x16, .f32⟩
  | .local _ .vmem, ⟨61, _⟩ => ⟨S1x16, .f32⟩
  | .local _ .vmem, ⟨62, _⟩ => ⟨S16x2, .f32⟩
  | .local _ .vmem, ⟨63, _⟩ => ⟨S1x2, .f32⟩
  | .local _ .vmem, ⟨64, _⟩ => ⟨S2000x2, .f32⟩
  | .local _ .vmem, ⟨65, _⟩ => ⟨S2000x2, .f32⟩
  | _, _ => ⟨S200000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v8 : Ref sig .tc := ⟨.hbm, 48, rfl⟩
abbrev main_v9 : Ref sig .tc := ⟨.hbm, 49, rfl⟩
abbrev main_call1_cst : Ref sig .tc := ⟨.hbm, 50, rfl⟩
abbrev main_call1_v0 : Ref sig .tc := ⟨.hbm, 51, rfl⟩
abbrev main_v10 : Ref sig .tc := ⟨.hbm, 52, rfl⟩
abbrev main_cst : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24_0 : Ref sig .tc := ⟨.hbm, 67, rfl⟩
abbrev main_v24_1 : Ref sig .tc := ⟨.hbm, 68, rfl⟩
abbrev main_v25 : Ref sig .tc := ⟨.hbm, 69, rfl⟩
abbrev main_cst_0 : Ref sig .tc := ⟨.hbm, 70, rfl⟩
abbrev main_v26 : Ref sig .tc := ⟨.hbm, 71, rfl⟩
abbrev main_cst_1 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_2 : Ref sig .tc := ⟨.hbm, 78, rfl⟩
abbrev main_v32 : Ref sig .tc := ⟨.hbm, 79, rfl⟩
abbrev main_cst_3 : Ref sig .tc := ⟨.hbm, 80, rfl⟩
abbrev main_v33 : Ref sig .tc := ⟨.hbm, 81, rfl⟩
abbrev main_v34 : Ref sig .tc := ⟨.hbm, 82, rfl⟩
abbrev main_cst_4 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_5 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v50 : Ref sig .tc := ⟨.hbm, 122, rfl⟩
abbrev main_v51 : Ref sig .tc := ⟨.hbm, 123, rfl⟩
abbrev main_call3_cst : Ref sig .tc := ⟨.hbm, 124, rfl⟩
abbrev main_call3_v0 : Ref sig .tc := ⟨.hbm, 125, rfl⟩
abbrev main_v52 : Ref sig .tc := ⟨.hbm, 126, rfl⟩
abbrev main_cst_6 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66_0 : Ref sig .tc := ⟨.hbm, 141, rfl⟩
abbrev main_v66_1 : Ref sig .tc := ⟨.hbm, 142, rfl⟩
abbrev main_v67 : Ref sig .tc := ⟨.hbm, 143, rfl⟩
abbrev main_cst_7 : Ref sig .tc := ⟨.hbm, 144, rfl⟩
abbrev main_v68 : Ref sig .tc := ⟨.hbm, 145, rfl⟩
abbrev main_cst_8 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_cst_9 : Ref sig .tc := ⟨.hbm, 152, rfl⟩
abbrev main_v74 : Ref sig .tc := ⟨.hbm, 153, rfl⟩
abbrev main_cst_10 : Ref sig .tc := ⟨.hbm, 154, rfl⟩
abbrev main_v75 : Ref sig .tc := ⟨.hbm, 155, rfl⟩
abbrev main_v76 : Ref sig .tc := ⟨.hbm, 156, rfl⟩
abbrev main_cst_11 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_12 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_13 : Ref sig .tc := ⟨.hbm, 174, rfl⟩
abbrev main_v92 : Ref sig .tc := ⟨.hbm, 175, rfl⟩
abbrev main_cst_14 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_cst_15 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_cst_16 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc5_stg7_0 : Ref sig .tc := ⟨.vmem, 45, rfl⟩
abbrev cc5_stg7_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg2_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg3_1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg4_0 : Ref sig .tc := ⟨.vmem, 63, rfl⟩
abbrev cc8_stg5_0 : Ref sig .tc := ⟨.vmem, 64, rfl⟩
abbrev cc8_stg5_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc5_sem7_0 : DmaSem sig := 45
abbrev cc5_sem7_1 : DmaSem sig := 46
abbrev cc6_sem0_0 : DmaSem sig := 47
abbrev cc6_sem0_1 : DmaSem sig := 48
abbrev cc6_sem1_0 : DmaSem sig := 49
abbrev cc6_sem2_0 : DmaSem sig := 50
abbrev cc6_sem2_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem3_1 : DmaSem sig := 57
abbrev cc8_sem0_0 : DmaSem sig := 58
abbrev cc8_sem0_1 : DmaSem sig := 59
abbrev cc8_sem1_0 : DmaSem sig := 60
abbrev cc8_sem2_0 : DmaSem sig := 61
abbrev cc8_sem3_0 : DmaSem sig := 62
abbrev cc8_sem4_0 : DmaSem sig := 63
abbrev cc8_sem5_0 : DmaSem sig := 64
abbrev cc8_sem5_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x75 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x75 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S75x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S4000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x75 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x75 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S75x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x1x32 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S8000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x1x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S8000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S16x2 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x2 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x2 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  shapeCasts_S32_S1x32 : S32.ShapeCasts S1x32
  inb_S8000x14_S8000x14_0_0 : ∀ a, (![0, 0] : Fin 2 → Nat) a + S8000x14.size a ≤ S8000x14.size a
  h_S8000x14 : 0 < S8000x14.numel
  bitsLt_bf16_f32 : FTy.bits .bf16 < FTy.bits .f32
  inb_S14x32_S14x32_0_0 : ∀ a, (![0, 0] : Fin 2 → Nat) a + S14x32.size a ≤ S14x32.size a
  h_S14x32 : 0 < S14x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  inb_S8000x3_S8000x3_0_0 : ∀ a, (![0, 0] : Fin 2 → Nat) a + S8000x3.size a ≤ S8000x3.size a
  h_S8000x3 : 0 < S8000x3.numel
  inb_S3x32_S3x32_0_0 : ∀ a, (![0, 0] : Fin 2 → Nat) a + S3x32.size a ≤ S3x32.size a
  h_S3x32 : 0 < S3x32.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x32_0 : S2000000.BroadcastsInDim S2000000x32 (![0] : Fin 1 → Fin S2000000x32.rank)
  bcast_S_S2000000x32 : S_.BroadcastsInDim S2000000x32 (![] : Fin 0 → Fin S2000000x32.rank)
  bcast_S_S200000x32 : S_.BroadcastsInDim S200000x32 (![] : Fin 0 → Fin S200000x32.rank)
  slices_S2x32x75_S1x32x75_0_0_0 : S2x32x75.Slices ![0, 0, 0] S1x32x75
  shapeCasts_S1x32x75_S32x75 : S1x32x75.ShapeCasts S32x75
  slices_S2x75_S1x75_0_0 : S2x75.Slices ![0, 0] S1x75
  shapeCasts_S1x75_S75 : S1x75.ShapeCasts S75
  slices_S2x75x32_S1x75x32_0_0_0 : S2x75x32.Slices ![0, 0, 0] S1x75x32
  shapeCasts_S1x75x32_S75x32 : S1x75x32.ShapeCasts S75x32
  slices_S2x32_S1x32_0_0 : S2x32.Slices ![0, 0] S1x32
  shapeCasts_S1x32_S32 : S1x32.ShapeCasts S32
  shapeCasts_S75_S1x75 : S75.ShapeCasts S1x75
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S32x75_S32x75_0_0 : ∀ a, (![0, 0] : Fin 2 → Nat) a + S32x75.size a ≤ S32x75.size a
  h_S32x75 : 0 < S32x75.numel
  shapeCasts_S32x75_S32x75 : S32x75.ShapeCasts S32x75
  inb_S1x75_S1x75_0_0 : ∀ a, (![0, 0] : Fin 2 → Nat) a + S1x75.size a ≤ S1x75.size a
  h_S1x75 : 0 < S1x75.numel
  shapeCasts_S1x75_S1x75 : S1x75.ShapeCasts S1x75
  broadcasts_S1x75_S4000x75 : S1x75.Broadcasts S4000x75
  inb_S75x32_S75x32_0_0 : ∀ a, (![0, 0] : Fin 2 → Nat) a + S75x32.size a ≤ S75x32.size a
  h_S75x32 : 0 < S75x32.numel
  shapeCasts_S75x32_S75x32 : S75x32.ShapeCasts S75x32
  broadcasts_S1x32_S4000x32 : S1x32.Broadcasts S4000x32
  reduces_S4000x32_S32 : S4000x32.Reduces [0] S32
  shapeCasts_S1x32_S1x1x32 : S1x32.ShapeCasts S1x1x32
  inb_S1x1x32_S1x1x32_0_0_0 : ∀ a, (![0, 0, 0] : Fin 3 → Nat) a + S1x1x32.size a ≤ S1x1x32.size a
  h_S1x1x32 : 0 < S1x1x32.numel
  shapeCasts_S50x1x32_S50x32 : S50x1x32.ShapeCasts S50x32
  reducesTo_S50x32_S32_d0 : S50x32.ReducesTo [0] S32
  bcast_S_S32 : S_.BroadcastsInDim S32 (![] : Fin 0 → Fin S32.rank)
  shapeCasts_S8000x32_S8000x32 : S8000x32.ShapeCasts S8000x32
  reduces_S8000x32_S32 : S8000x32.Reduces [0] S32
  shapeCasts_S25x1x32_S25x32 : S25x1x32.ShapeCasts S25x32
  reducesTo_S25x32_S32_d0 : S25x32.ReducesTo [0] S32
  slices_S2x32x75_S1x32x75_1_0_0 : S2x32x75.Slices ![1, 0, 0] S1x32x75
  slices_S2x75_S1x75_1_0 : S2x75.Slices ![1, 0] S1x75
  slices_S2x75x32_S1x75x32_1_0_0 : S2x75x32.Slices ![1, 0, 0] S1x75x32
  slices_S2x32_S1x32_1_0 : S2x32.Slices ![1, 0] S1x32
  bcast_S_S200000 : S_.BroadcastsInDim S200000 (![] : Fin 0 → Fin S200000.rank)
  bcast_S_S10000 : S_.BroadcastsInDim S10000 (![] : Fin 0 → Fin S10000.rank)
  bcast_S200000_S200000x1_0 : S200000.BroadcastsInDim S200000x1 (![0] : Fin 1 → Fin S200000x1.rank)
  bcast_S_S10000x32 : S_.BroadcastsInDim S10000x32 (![] : Fin 0 → Fin S10000x32.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  shapeCasts_S16_S1x16 : S16.ShapeCasts S1x16
  shapeCasts_S2_S1x2 : S2.ShapeCasts S1x2
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  dot_S8000x14_S14x32_S8000x32_1_0_0_1_n_n_wf : DotDims.WF S8000x14 S14x32 S8000x32 [1] [0] [0] [1] [] []
  dot_S8000x3_S3x32_S8000x32_1_0_0_1_n_n_wf : DotDims.WF S8000x3 S3x32 S8000x32 [1] [0] [0] [1] [] []
  gather_S200000x32_S2000000x1_S2000000x32_1_0_n_n_0_1_132_wf : GatherDims.WF S200000x32 S2000000x1 S2000000x32 [1] [0] [] [0] [] 1 ![1, 32]
  scatter_S200000x32_S2000000x1_S2000000x32_1_0_0_1_wf : ScatterDims.WF S200000x32 S2000000x1 S2000000x32 [1] [0] [0] 1
  dot_S4000x32_S32x75_S4000x75_1_0_0_1_n_n_wf : DotDims.WF S4000x32 S32x75 S4000x75 [1] [0] [0] [1] [] []
  dot_S4000x75_S75x32_S4000x32_1_0_0_1_n_n_wf : DotDims.WF S4000x75 S75x32 S4000x32 [1] [0] [0] [1] [] []
  scatter_S10000_S200000x1_S200000_n_0_0_1_wf : ScatterDims.WF S10000 S200000x1 S200000 [] [0] [0] 1
  scatter_S10000x32_S200000x1_S200000x32_1_0_0_1_wf : ScatterDims.WF S10000x32 S200000x1 S200000x32 [1] [0] [0] 1
  dot_S2000x32_S32x16_S2000x16_1_0_0_1_n_n_wf : DotDims.WF S2000x32 S32x16 S2000x16 [1] [0] [0] [1] [] []
  dot_S2000x16_S16x2_S2000x2_1_0_0_1_n_n_wf : DotDims.WF S2000x16 S16x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x14.size a ≤ S200000x14.size a
  hwx0_0 : ∀ i : grid0.Coords, EltTy.bits .f32 = 32 ∨ (Rect.block (s := S200000x14) S8000x14.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x32.size a ≤ S14x32.size a
  hwx0_1 : ∀ i : grid0.Coords, EltTy.bits .f32 = 32 ∨ (Rect.block (s := S14x32) S14x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S200000x32.size a
  hwx0_3 : ∀ i : grid0.Coords, EltTy.bits .f32 = 32 ∨ (Rect.block (s := S200000x32) S8000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x3.size a ≤ S2000000x3.size a
  hwx1_0 : ∀ i : grid1.Coords, EltTy.bits .f32 = 32 ∨ (Rect.block (s := S2000000x3) S8000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x32.size a ≤ S3x32.size a
  hwx1_1 : ∀ i : grid1.Coords, EltTy.bits .f32 = 32 ∨ (Rect.block (s := S3x32) S3x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x32.size a ≤ S2000000x32.size a
  hwx1_3 : ∀ i : grid1.Coords, EltTy.bits .f32 = 32 ∨ (Rect.block (s := S2000000x32) S8000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S200000x32.size a
  hwx2_0 : ∀ i : grid2.Coords, EltTy.bits .f32 = 32 ∨ (Rect.block (s := S200000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S200000x32.size a
  hwx2_1 : ∀ i : grid2.Coords, EltTy.bits .f32 = 32 ∨ (Rect.block (s := S200000x32) S4000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x75.size a ≤ S32x75.size a
  hwx2_2 : ∀ i : grid2.Coords, EltTy.bits .f32 = 32 ∨ (Rect.block (s := S32x75) S32x75.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x75.size a ≤ S1x75.size a
  hwx2_3 : ∀ i : grid2.Coords, EltTy.bits .f32 = 32 ∨ (Rect.block (s := S1x75) S1x75.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S75x32.size a ≤ S75x32.size a
  hwx2_4 : ∀ i : grid2.Coords, EltTy.bits .f32 = 32 ∨ (Rect.block (s := S75x32) S75x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x32.size a ≤ S200000x32.size a
  hwx2_6 : ∀ i : grid2.Coords, EltTy.bits .f32 = 32 ∨ (Rect.block (s := S200000x32) S4000x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x32.size a ≤ S50x1x32.size a
  hwx2_7 : ∀ i : grid2.Coords, EltTy.bits .f32 = 32 ∨ (Rect.block (s := S50x1x32) S1x1x32.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S200000x32.size a
  hwx3_0 : ∀ i : grid3.Coords, EltTy.bits .f32 = 32 ∨ (Rect.block (s := S200000x32) S8000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x32.size a ≤ S25x1x32.size a
  hwx3_2 : ∀ i : grid3.Coords, EltTy.bits .f32 = 32 ∨ (Rect.block (s := S25x1x32) S1x1x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S200000x32.size a
  hwx4_0 : ∀ i : grid4.Coords, EltTy.bits .f32 = 32 ∨ (Rect.block (s := S200000x32) S8000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x32.size a ≤ S200000x32.size a
  hwx4_3 : ∀ i : grid4.Coords, EltTy.bits .f32 = 32 ∨ (Rect.block (s := S200000x32) S8000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x32.size a ≤ S200000x32.size a
  hwx5_0 : ∀ i : grid5.Coords, EltTy.bits .f32 = 32 ∨ (Rect.block (s := S200000x32) S4000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x32.size a ≤ S200000x32.size a
  hwx5_1 : ∀ i : grid5.Coords, EltTy.bits .f32 = 32 ∨ (Rect.block (s := S200000x32) S4000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x75.size a ≤ S32x75.size a
  hwx5_2 : ∀ i : grid5.Coords, EltTy.bits .f32 = 32 ∨ (Rect.block (s := S32x75) S32x75.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x75.size a ≤ S1x75.size a
  hwx5_3 : ∀ i : grid5.Coords, EltTy.bits .f32 = 32 ∨ (Rect.block (s := S1x75) S1x75.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S75x32.size a ≤ S75x32.size a
  hwx5_4 : ∀ i : grid5.Coords, EltTy.bits .f32 = 32 ∨ (Rect.block (s := S75x32) S75x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x32.size a ≤ S200000x32.size a
  hwx5_6 : ∀ i : grid5.Coords, EltTy.bits .f32 = 32 ∨ (Rect.block (s := S200000x32) S4000x32.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x1x32.size a ≤ S50x1x32.size a
  hwx5_7 : ∀ i : grid5.Coords, EltTy.bits .f32 = 32 ∨ (Rect.block (s := S50x1x32) S1x1x32.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x32.size a ≤ S200000x32.size a
  hwx6_0 : ∀ i : grid6.Coords, EltTy.bits .f32 = 32 ∨ (Rect.block (s := S200000x32) S8000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x32.size a ≤ S1x32.size a
  hwx6_1 : ∀ i : grid6.Coords, EltTy.bits .f32 = 32 ∨ (Rect.block (s := S1x32) S1x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1x32.size a ≤ S25x1x32.size a
  hwx6_2 : ∀ i : grid6.Coords, EltTy.bits .f32 = 32 ∨ (Rect.block (s := S25x1x32) S1x1x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x32.size a ≤ S200000x32.size a
  hwx7_0 : ∀ i : grid7.Coords, EltTy.bits .f32 = 32 ∨ (Rect.block (s := S200000x32) S8000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8000x32.size a ≤ S200000x32.size a
  hwx7_3 : ∀ i : grid7.Coords, EltTy.bits .f32 = 32 ∨ (Rect.block (s := S200000x32) S8000x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x32.size a ≤ S10000x32.size a
  hwx8_0 : ∀ i : grid8.Coords, EltTy.bits .f32 = 32 ∨ (Rect.block (s := S10000x32) S2000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x16.size a ≤ S32x16.size a
  hwx8_1 : ∀ i : grid8.Coords, EltTy.bits .f32 = 32 ∨ (Rect.block (s := S32x16) S32x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x16.size a ≤ S1x16.size a
  hwx8_2 : ∀ i : grid8.Coords, EltTy.bits .f32 = 32 ∨ (Rect.block (s := S1x16) S1x16.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S16x2.size a ≤ S16x2.size a
  hwx8_3 : ∀ i : grid8.Coords, EltTy.bits .f32 = 32 ∨ (Rect.block (s := S16x2) S16x2.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x2.size a ≤ S1x2.size a
  hwx8_4 : ∀ i : grid8.Coords, EltTy.bits .f32 = 32 ∨ (Rect.block (s := S1x2) S1x2.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x2.size a ≤ S10000x2.size a
  hwx8_5 : ∀ i : grid8.Coords, EltTy.bits .f32 = 32 ∨ (Rect.block (s := S10000x2) S2000x2.size (cc8_transform_5 i) (hinb8_5 i)).WholeWords (EltTy.packing .f32)

variable [Facts₀]

def dot_S8000x14_S14x32_S8000x32_1_0_0_1_n_n : DotDims S8000x14 S14x32 S8000x32 where
  lhsContracting := [1]
  rhsContracting := [0]
  lhsNonContracting := [0]
  rhsNonContracting := [1]
  lhsBatch := []
  rhsBatch := []
  wf := dot_S8000x14_S14x32_S8000x32_1_0_0_1_n_n_wf
def dot_S8000x3_S3x32_S8000x32_1_0_0_1_n_n : DotDims S8000x3 S3x32 S8000x32 where
  lhsContracting := [1]
  rhsContracting := [0]
  lhsNonContracting := [0]
  rhsNonContracting := [1]
  lhsBatch := []
  rhsBatch := []
  wf := dot_S8000x3_S3x32_S8000x32_1_0_0_1_n_n_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def dot_S4000x32_S32x75_S4000x75_1_0_0_1_n_n : DotDims S4000x32 S32x75 S4000x75 where
  lhsContracting := [1]
  rhsContracting := [0]
  lhsNonContracting := [0]
  rhsNonContracting := [1]
  lhsBatch := []
  rhsBatch := []
  wf := dot_S4000x32_S32x75_S4000x75_1_0_0_1_n_n_wf
def dot_S4000x75_S75x32_S4000x32_1_0_0_1_n_n : DotDims S4000x75 S75x32 S4000x32 where
  lhsContracting := [1]
  rhsContracting := [0]
  lhsNonContracting := [0]
  rhsNonContracting := [1]
  lhsBatch := []
  rhsBatch := []
  wf := dot_S4000x75_S75x32_S4000x32_1_0_0_1_n_n_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def scatter_S10000x32_S200000x1_S200000x32_1_0_0_1 : ScatterDims S10000x32 S200000x1 S200000x32 where
  updateWindowDims := [1]
  insertedWindowDims := [0]
  scatterDimsToOperandDims := [0]
  indexVectorDim := 1
  wf := scatter_S10000x32_S200000x1_S200000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def dot_S2000x16_S16x2_S2000x2_1_0_0_1_n_n : DotDims S2000x16 S16x2 S2000x2 where
  lhsContracting := [1]
  rhsContracting := [0]
  lhsNonContracting := [0]
  rhsNonContracting := [1]
  lhsBatch := []
  rhsBatch := []
  wf := dot_S2000x16_S16x2_S2000x2_1_0_0_1_n_n_wf

abbrev win0_0 : Pipeline.Window sig grid0 :=
  Pipeline.Window.ofSpec (Memref.whole main_arg0) S8000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S14x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S3x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S32x75.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x75.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S75x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24_0) S4000x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v24_1) S1x1x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v24_0) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x1x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v24_0) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S8000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v49) S4000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S4000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v57) S32x75.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S1x75.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61) S75x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S1x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v66_0) S4000x32.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v66_1) S1x1x32.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v66_0) S8000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S1x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v72) S1x1x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v66_0) S8000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v89) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v91) S8000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v103) S2000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg14) S32x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S1x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg16) S16x2.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v105) S1x2.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v106) S2000x2.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S200000x14 : Shape := ⟨2, ![200000, 14]⟩
abbrev S2x2000000 : Shape := ⟨2, ![2, 2000000]⟩
abbrev S2000000x3 : Shape := ⟨2, ![2000000, 3]⟩
abbrev S200000 : Shape := ⟨1, ![200000]⟩
abbrev S14x32 : Shape := ⟨2, ![14, 32]⟩
abbrev S32 : Shape := ⟨1, ![32]⟩
abbrev S3x32 : Shape := ⟨2, ![3, 32]⟩
abbrev S2x32x75 : Shape := ⟨3, ![2, 32, 75]⟩
abbrev S2x75 : Shape := ⟨2, ![2, 75]⟩
abbrev S2x75x32 : Shape := ⟨3, ![2, 75, 32]⟩
abbrev S2x32 : Shape := ⟨2, ![2, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x2000000 : Shape := ⟨2, ![1, 2000000]⟩
abbrev S2000000 : Shape := ⟨1, ![2000000]⟩
abbrev S200000x32 : Shape := ⟨2, ![200000, 32]⟩
abbrev S1x32 : Shape := ⟨2, ![1, 32]⟩
abbrev S2000000x32 : Shape := ⟨2, ![2000000, 32]⟩
abbrev S_ : Shape := ⟨0, ![]⟩
abbrev S2000000x1 : Shape := ⟨2, ![2000000, 1]⟩
abbrev S1x32x75 : Shape := ⟨3, ![1, 32, 75]⟩
abbrev S32x75 : Shape := ⟨2, ![32, 75]⟩
abbrev S200000x75 : Shape := ⟨2, ![200000, 75]⟩
abbrev S1x75 : Shape := ⟨2, ![1, 75]⟩
abbrev S75 : Shape := ⟨1, ![75]⟩
abbrev S1x75x32 : Shape := ⟨3, ![1, 75, 32]⟩
abbrev S75x32 : Shape := ⟨2, ![75, 32]⟩
abbrev S10000 : Shape := ⟨1, ![10000]⟩
abbrev S200000x1 : Shape := ⟨2, ![200000, 1]⟩
abbrev S10000x32 : Shape := ⟨2, ![10000, 32]⟩
abbrev S10000x1 : Shape := ⟨2, ![10000, 1]⟩
abbrev S10000x16 : Shape := ⟨2, ![10000, 16]⟩
abbrev S1x16 : Shape := ⟨2, ![1, 16]⟩
abbrev S10000x2 : Shape := ⟨2, ![10000, 2]⟩
abbrev S1x2 : Shape := ⟨2, ![1, 2]⟩

abbrev nBuf : Space → Nat
  | .hbm => 233
  | .vmem => 0
  | .smem => 0
  | _ => 0

abbrev hbmTy0_0 (i : Nat) : BufTy := match i % 128 with
  | 0 => ⟨S200000x14, .f32⟩
  | 1 => ⟨S2x2000000, .i32⟩
  | 2 => ⟨S2000000x3, .f32⟩
  | 3 => ⟨S200000, .i32⟩
  | 4 => ⟨S14x32, .f32⟩
  | 5 => ⟨S32, .f32⟩
  | 6 => ⟨S3x32, .f32⟩
  | 7 => ⟨S32, .f32⟩
  | 8 => ⟨S2x32x75, .f32⟩
  | 9 => ⟨S2x75, .f32⟩
  | 10 => ⟨S2x75x32, .f32⟩
  | 11 => ⟨S2x32, .f32⟩
  | 12 => ⟨S2x32, .f32⟩
  | 13 => ⟨S2x32, .f32⟩
  | 14 => ⟨S32x16, .f32⟩
  | 15 => ⟨S16, .f32⟩
  | 16 => ⟨S16x2, .f32⟩
  | 17 => ⟨S2, .f32⟩
  | 18 => ⟨S1x2000000, .i32⟩
  | 19 => ⟨S2000000, .i32⟩
  | 20 => ⟨S1x2000000, .i32⟩
  | 21 => ⟨S2000000, .i32⟩
  | 22 => ⟨S200000x32, .f32⟩
  | 23 => ⟨S1x32, .f32⟩
  | 24 => ⟨S200000x32, .f32⟩
  | 25 => ⟨S200000x32, .f32⟩
  | 26 => ⟨S2000000x32, .f32⟩
  | 27 => ⟨S1x32, .f32⟩
  | 28 => ⟨S2000000x32, .f32⟩
  | 29 => ⟨S2000000x32, .f32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S2000000x1, .i32⟩
  | 38 => ⟨S2000000x32, .f32⟩
  | 39 => ⟨S2000000x32, .f32⟩
  | 40 => ⟨S_, .f32⟩
  | 41 => ⟨S2000000x32, .f32⟩
  | 42 => ⟨S2000000x32, .f32⟩
  | 43 => ⟨S_, .f32⟩
  | 44 => ⟨S200000x32, .f32⟩
  | 45 => ⟨S2000000x1, .i32⟩
  | 46 => ⟨S200000x32, .f32⟩
  | 47 => ⟨S200000x32, .f32⟩
  | 48 => ⟨S1x32x75, .f32⟩
  | 49 => ⟨S32x75, .f32⟩
  | 50 => ⟨S200000x75, .f32⟩
  | 51 => ⟨S1x75, .f32⟩
  | 52 => ⟨S75, .f32⟩
  | 53 => ⟨S1x75, .f32⟩
  | 54 => ⟨S200000x75, .f32⟩
  | 55 => ⟨S200000x75, .f32⟩
  | 56 => ⟨S_, .f32⟩
  | 57 => ⟨S200000x75, .f32⟩
  | 58 => ⟨S200000x75, .f32⟩
  | 59 => ⟨S1x75x32, .f32⟩
  | 60 => ⟨S75x32, .f32⟩
  | 61 => ⟨S200000x32, .f32⟩
  | 62 => ⟨S1x32, .f32⟩
  | 63 => ⟨S32, .f32⟩
  | 64 => ⟨S1x32, .f32⟩
  | 65 => ⟨S200000x32, .f32⟩
  | 66 => ⟨S200000x32, .f32⟩
  | 67 => ⟨S_, .f32⟩
  | 68 => ⟨S32, .f32⟩
  | 69 => ⟨S_, .f32⟩
  | 70 => ⟨S32, .f32⟩
  | 71 => ⟨S32, .f32⟩
  | 72 => ⟨S_, .i32⟩
  | 73 => ⟨S_, .f32⟩
  | 74 => ⟨S32, .f32⟩
  | 75 => ⟨S1x32, .f32⟩
  | 76 => ⟨S_, .f32⟩
  | 77 => ⟨S1x32, .f32⟩
  | 78 => ⟨S1x32, .f32⟩
  | 79 => ⟨S200000x32, .f32⟩
  | 80 => ⟨S200000x32, .f32⟩
  | 81 => ⟨S200000x32, .f32⟩
  | 82 => ⟨S_, .f32⟩
  | 83 => ⟨S_, .f32⟩
  | 84 => ⟨S_, .f32⟩
  | 85 => ⟨S_, .f32⟩
  | 86 => ⟨S32, .f32⟩
  | 87 => ⟨S32, .f32⟩
  | 88 => ⟨S32, .f32⟩
  | 89 => ⟨S_, .f32⟩
  | 90 => ⟨S_, .i1⟩
  | 91 => ⟨S_, .f32⟩
  | 92 => ⟨S_, .f32⟩
  | 93 => ⟨S32, .f32⟩
  | 94 => ⟨S32, .f32⟩
  | 95 => ⟨S1x32, .f32⟩
  | 96 => ⟨S200000x32, .f32⟩
  | 97 => ⟨S200000x32, .f32⟩
  | 98 => ⟨S_, .f32⟩
  | 99 => ⟨S32, .f32⟩
  | 100 => ⟨S32, .f32⟩
  | 101 => ⟨S32, .f32⟩
  | 102 => ⟨S1x32, .f32⟩
  | 103 => ⟨S200000x32, .f32⟩
  | 104 => ⟨S200000x32, .f32⟩
  | 105 => ⟨S1x32, .f32⟩
  | 106 => ⟨S32, .f32⟩
  | 107 => ⟨S1x32, .f32⟩
  | 108 => ⟨S200000x32, .f32⟩
  | 109 => ⟨S200000x32, .f32⟩
  | 110 => ⟨S1x32, .f32⟩
  | 111 => ⟨S32, .f32⟩
  | 112 => ⟨S1x32, .f32⟩
  | 113 => ⟨S200000x32, .f32⟩
  | 114 => ⟨S200000x32, .f32⟩
  | 115 => ⟨S_, .f32⟩
  | 116 => ⟨S200000x32, .f32⟩
  | 117 => ⟨S200000x32, .f32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x32, .f32⟩
  | 127 => ⟨S2000000x32, .f32⟩
  | _ => ⟨S200000x14, .f32⟩

abbrev hbmTy0_1 (i : Nat) : BufTy := match i % 128 with
  | 0 => ⟨S_, .f32⟩
  | 1 => ⟨S2000000x32, .f32⟩
  | 2 => ⟨S2000000x32, .f32⟩
  | 3 => ⟨S_, .f32⟩
  | 4 => ⟨S200000x32, .f32⟩
  | 5 => ⟨S2000000x1, .i32⟩
  | 6 => ⟨S200000x32, .f32⟩
  | 7 => ⟨S200000x32, .f32⟩
  | 8 => ⟨S1x32x75, .f32⟩
  | 9 => ⟨S32x75, .f32⟩
  | 10 => ⟨S200000x75, .f32⟩
  | 11 => ⟨S1x75, .f32⟩
  | 12 => ⟨S75, .f32⟩
  | 13 => ⟨S1x75, .f32⟩
  | 14 => ⟨S200000x75, .f32⟩
  | 15 => ⟨S200000x75, .f32⟩
  | 16 => ⟨S_, .f32⟩
  | 17 => ⟨S200000x75, .f32⟩
  | 18 => ⟨S200000x75, .f32⟩
  | 19 => ⟨S1x75x32, .f32⟩
  | 20 => ⟨S75x32, .f32⟩
  | 21 => ⟨S200000x32, .f32⟩
  | 22 => ⟨S1x32, .f32⟩
  | 23 => ⟨S32, .f32⟩
  | 24 => ⟨S1x32, .f32⟩
  | 25 => ⟨S200000x32, .f32⟩
  | 26 => ⟨S200000x32, .f32⟩
  | 27 => ⟨S_, .f32⟩
  | 28 => ⟨S32, .f32⟩
  | 29 => ⟨S_, .f32⟩
  | 30 => ⟨S32, .f32⟩
  | 31 => ⟨S32, .f32⟩
  | 32 => ⟨S_, .i32⟩
  | 33 => ⟨S_, .f32⟩
  | 34 => ⟨S32, .f32⟩
  | 35 => ⟨S1x32, .f32⟩
  | 36 => ⟨S_, .f32⟩
  | 37 => ⟨S1x32, .f32⟩
  | 38 => ⟨S1x32, .f32⟩
  | 39 => ⟨S200000x32, .f32⟩
  | 40 => ⟨S200000x32, .f32⟩
  | 41 => ⟨S200000x32, .f32⟩
  | 42 => ⟨S_, .f32⟩
  | 43 => ⟨S_, .f32⟩
  | 44 => ⟨S_, .f32⟩
  | 45 => ⟨S_, .f32⟩
  | 46 => ⟨S32, .f32⟩
  | 47 => ⟨S32, .f32⟩
  | 48 => ⟨S32, .f32⟩
  | 49 => ⟨S_, .f32⟩
  | 50 => ⟨S_, .i1⟩
  | 51 => ⟨S_, .f32⟩
  | 52 => ⟨S_, .f32⟩
  | 53 => ⟨S32, .f32⟩
  | 54 => ⟨S32, .f32⟩
  | 55 => ⟨S1x32, .f32⟩
  | 56 => ⟨S200000x32, .f32⟩
  | 57 => ⟨S200000x32, .f32⟩
  | 58 => ⟨S_, .f32⟩
  | 59 => ⟨S32, .f32⟩
  | 60 => ⟨S32, .f32⟩
  | 61 => ⟨S32, .f32⟩
  | 62 => ⟨S1x32, .f32⟩
  | 63 => ⟨S200000x32, .f32⟩
  | 64 => ⟨S200000x32, .f32⟩
  | 65 => ⟨S1x32, .f32⟩
  | 66 => ⟨S32, .f32⟩
  | 67 => ⟨S1x32, .f32⟩
  | 68 => ⟨S200000x32, .f32⟩
  | 69 => ⟨S200000x32, .f32⟩
  | 70 => ⟨S1x32, .f32⟩
  | 71 => ⟨S32, .f32⟩
  | 72 => ⟨S1x32, .f32⟩
  | 73 => ⟨S200000x32, .f32⟩
  | 74 => ⟨S200000x32, .f32⟩
  | 75 => ⟨S_, .f32⟩
  | 76 => ⟨S200000x32, .f32⟩
  | 77 => ⟨S200000x32, .f32⟩
  | 78 => ⟨S_, .f32⟩
  | 79 => ⟨S200000, .f32⟩
  | 80 => ⟨S_, .f32⟩
  | 81 => ⟨S10000, .f32⟩
  | 82 => ⟨S200000x1, .i32⟩
  | 83 => ⟨S10000, .f32⟩
  | 84 => ⟨S_, .f32⟩
  | 85 => ⟨S10000x32, .f32⟩
  | 86 => ⟨S200000x1, .i32⟩
  | 87 => ⟨S10000x32, .f32⟩
  | 88 => ⟨S_, .f32⟩
  | 89 => ⟨S10000, .f32⟩
  | 90 => ⟨S10000, .f32⟩
  | 91 => ⟨S10000x1, .f32⟩
  | 92 => ⟨S10000x32, .f32⟩
  | 93 => ⟨S10000x32, .f32⟩
  | 94 => ⟨S10000x16, .f32⟩
  | 95 => ⟨S1x16, .f32⟩
  | 96 => ⟨S10000x16, .f32⟩
  | 97 => ⟨S10000x16, .f32⟩
  | 98 => ⟨S_, .f32⟩
  | 99 => ⟨S10000x16, .f32⟩
  | 100 => ⟨S10000x16, .f32⟩
  | 101 => ⟨S10000x2, .f32⟩
  | 102 => ⟨S1x2, .f32⟩
  | 103 => ⟨S10000x2, .f32⟩
  | 104 => ⟨S10000x2, .f32⟩
  | _ => ⟨S200000x14, .f32⟩

abbrev hbmTy (i : Nat) : BufTy := match i / 128 with
  | 0 => hbmTy0_0 i
  | 1 => hbmTy0_1 i
  | _ => ⟨S200000x14, .f32⟩

abbrev bufTy : (tb : Table) → Fin (tcTables nBuf tb) → BufTy
  | .hbm, ⟨i, _⟩ => hbmTy i
  | _, _ => ⟨S200000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_cst : Ref sig .tc := ⟨.hbm, 56, rfl⟩
abbrev main_call1_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_cst_2 : Ref sig .tc := ⟨.hbm, 69, rfl⟩
abbrev main_v43 : Ref sig .tc := ⟨.hbm, 70, rfl⟩
abbrev main_v44 : Ref sig .tc := ⟨.hbm, 71, rfl⟩
abbrev main_c_3 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_4 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_call3_cst : Ref sig .tc := ⟨.hbm, 115, rfl⟩
abbrev main_call3_v0 : Ref sig .tc := ⟨.hbm, 116, rfl⟩
abbrev main_v65 : Ref sig .tc := ⟨.hbm, 117, rfl⟩
abbrev main_c_5 : Ref sig .tc := ⟨.hbm, 118, rfl⟩
abbrev main_v66 : Ref sig .tc := ⟨.hbm, 119, rfl⟩
abbrev main_v67 : Ref sig .tc := ⟨.hbm, 120, rfl⟩
abbrev main_c_6 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call4_cst : Ref sig .tc := ⟨.hbm, 128, rfl⟩
abbrev main_call4_v0 : Ref sig .tc := ⟨.hbm, 129, rfl⟩
abbrev main_v74 : Ref sig .tc := ⟨.hbm, 130, rfl⟩
abbrev main_cst_7 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_call5_cst : Ref sig .tc := ⟨.hbm, 144, rfl⟩
abbrev main_call5_v0 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_8 : Ref sig .tc := ⟨.hbm, 155, rfl⟩
abbrev main_v96 : Ref sig .tc := ⟨.hbm, 156, rfl⟩
abbrev main_cst_9 : Ref sig .tc := ⟨.hbm, 157, rfl⟩
abbrev main_v97 : Ref sig .tc := ⟨.hbm, 158, rfl⟩
abbrev main_v98 : Ref sig .tc := ⟨.hbm, 159, rfl⟩
abbrev main_c_10 : Ref sig .tc := ⟨.hbm, 160, rfl⟩
abbrev main_call6_cst : Ref sig .tc := ⟨.hbm, 161, rfl⟩
abbrev main_call6_v0 : Ref sig .tc := ⟨.hbm, 162, rfl⟩
abbrev main_call6_v1 : Ref sig .tc := ⟨.hbm, 163, rfl⟩
abbrev main_call6_cst_0 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_v5 : Ref sig .tc := ⟨.hbm, 168, rfl⟩
abbrev main_call6_v6 : Ref sig .tc := ⟨.hbm, 169, rfl⟩
abbrev main_call6_v7 : Ref sig .tc := ⟨.hbm, 170, rfl⟩
abbrev main_call6_cst_1 : Ref sig .tc := ⟨.hbm, 171, rfl⟩
abbrev main_call6_v8 : Ref sig .tc := ⟨.hbm, 172, rfl⟩
abbrev main_call6_cst_2 : Ref sig .tc := ⟨.hbm, 173, rfl⟩
abbrev main_call6_v9 : Ref sig .tc := ⟨.hbm, 174, rfl⟩
abbrev main_call6_v10 : Ref sig .tc := ⟨.hbm, 175, rfl⟩
abbrev main_call6_v11 : Ref sig .tc := ⟨.hbm, 176, rfl⟩
abbrev main_call6_cst_3 : Ref sig .tc := ⟨.hbm, 177, rfl⟩
abbrev main_call6_v12 : Ref sig .tc := ⟨.hbm, 178, rfl⟩
abbrev main_call6_cst_4 : Ref sig .tc := ⟨.hbm, 179, rfl⟩
abbrev main_call6_call0_v0 : Ref sig .tc := ⟨.hbm, 180, rfl⟩
abbrev main_call6_call0_v1 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_cst_11 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_call7_cst : Ref sig .tc := ⟨.hbm, 203, rfl⟩
abbrev main_call7_v0 : Ref sig .tc := ⟨.hbm, 204, rfl⟩
abbrev main_v119 : Ref sig .tc := ⟨.hbm, 205, rfl⟩
abbrev main_cst_12 : Ref sig .tc := ⟨.hbm, 206, rfl⟩
abbrev main_v120 : Ref sig .tc := ⟨.hbm, 207, rfl⟩
abbrev main_cst_13 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_cst_14 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_cst_15 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_call8_cst : Ref sig .tc := ⟨.hbm, 226, rfl⟩
abbrev main_call8_v0 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S1x32_S2000000x32_0_1 : S1x32.BroadcastsInDim S2000000x32 (![0, 1] : Fin 2 → Fin S2000000x32.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x32 : S_.BroadcastsInDim S2000000x32 (![] : Fin 0 → Fin S2000000x32.rank)
  bcast_S_S200000x32 : S_.BroadcastsInDim S200000x32 (![] : Fin 0 → Fin S200000x32.rank)
  slices_S2x32x75_S1x32x75_0_0_0 : S2x32x75.Slices ![0, 0, 0] S1x32x75
  shapeCasts_S1x32x75_S32x75 : S1x32x75.ShapeCasts S32x75
  slices_S2x75_S1x75_0_0 : S2x75.Slices ![0, 0] S1x75
  shapeCasts_S1x75_S75 : S1x75.ShapeCasts S75
  bcast_S75_S1x75_1 : S75.BroadcastsInDim S1x75 (![1] : Fin 1 → Fin S1x75.rank)
  bcast_S1x75_S200000x75_0_1 : S1x75.BroadcastsInDim S200000x75 (![0, 1] : Fin 2 → Fin S200000x75.rank)
  bcast_S_S200000x75 : S_.BroadcastsInDim S200000x75 (![] : Fin 0 → Fin S200000x75.rank)
  slices_S2x75x32_S1x75x32_0_0_0 : S2x75x32.Slices ![0, 0, 0] S1x75x32
  shapeCasts_S1x75x32_S75x32 : S1x75x32.ShapeCasts S75x32
  slices_S2x32_S1x32_0_0 : S2x32.Slices ![0, 0] S1x32
  shapeCasts_S1x32_S32 : S1x32.ShapeCasts S32
  reducesTo_S200000x32_S32_d0 : S200000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  slices_S2x32x75_S1x32x75_1_0_0 : S2x32x75.Slices ![1, 0, 0] S1x32x75
  slices_S2x75_S1x75_1_0 : S2x75.Slices ![1, 0] S1x75
  slices_S2x75x32_S1x75x32_1_0_0 : S2x75x32.Slices ![1, 0, 0] S1x75x32
  slices_S2x32_S1x32_1_0 : S2x32.Slices ![1, 0] S1x32
  bcast_S_S200000 : S_.BroadcastsInDim S200000 (![] : Fin 0 → Fin S200000.rank)
  bcast_S_S10000 : S_.BroadcastsInDim S10000 (![] : Fin 0 → Fin S10000.rank)
  bcast_S200000_S200000x1_0 : S200000.BroadcastsInDim S200000x1 (![0] : Fin 1 → Fin S200000x1.rank)
  bcast_S_S10000x32 : S_.BroadcastsInDim S10000x32 (![] : Fin 0 → Fin S10000x32.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  dot_S200000x14_S14x32_S200000x32_1_0_0_1_n_n_wf : DotDims.WF S200000x14 S14x32 S200000x32 [1] [0] [0] [1] [] []
  dot_S2000000x3_S3x32_S2000000x32_1_0_0_1_n_n_wf : DotDims.WF S2000000x3 S3x32 S2000000x32 [1] [0] [0] [1] [] []
  gather_S200000x32_S2000000x1_S2000000x32_1_0_n_n_0_1_132_wf : GatherDims.WF S200000x32 S2000000x1 S2000000x32 [1] [0] [] [0] [] 1 ![1, 32]
  scatter_S200000x32_S2000000x1_S2000000x32_1_0_0_1_wf : ScatterDims.WF S200000x32 S2000000x1 S2000000x32 [1] [0] [0] 1
  dot_S200000x32_S32x75_S200000x75_1_0_0_1_n_n_wf : DotDims.WF S200000x32 S32x75 S200000x75 [1] [0] [0] [1] [] []
  dot_S200000x75_S75x32_S200000x32_1_0_0_1_n_n_wf : DotDims.WF S200000x75 S75x32 S200000x32 [1] [0] [0] [1] [] []
  scatter_S10000_S200000x1_S200000_n_0_0_1_wf : ScatterDims.WF S10000 S200000x1 S200000 [] [0] [0] 1
  scatter_S10000x32_S200000x1_S200000x32_1_0_0_1_wf : ScatterDims.WF S10000x32 S200000x1 S200000x32 [1] [0] [0] 1
  dot_S10000x32_S32x16_S10000x16_1_0_0_1_n_n_wf : DotDims.WF S10000x32 S32x16 S10000x16 [1] [0] [0] [1] [] []
  dot_S10000x16_S16x2_S10000x2_1_0_0_1_n_n_wf : DotDims.WF S10000x16 S16x2 S10000x2 [1] [0] [0] [1] [] []

variable [Facts₀]

def dot_S200000x14_S14x32_S200000x32_1_0_0_1_n_n : DotDims S200000x14 S14x32 S200000x32 where
  lhsContracting := [1]
  rhsContracting := [0]
  lhsNonContracting := [0]
  rhsNonContracting := [1]
  lhsBatch := []
  rhsBatch := []
  wf := dot_S200000x14_S14x32_S200000x32_1_0_0_1_n_n_wf
def dot_S2000000x3_S3x32_S2000000x32_1_0_0_1_n_n : DotDims S2000000x3 S3x32 S2000000x32 where
  lhsContracting := [1]
  rhsContracting := [0]
  lhsNonContracting := [0]
  rhsNonContracting := [1]
  lhsBatch := []
  rhsBatch := []
  wf := dot_S2000000x3_S3x32_S2000000x32_1_0_0_1_n_n_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def dot_S200000x32_S32x75_S200000x75_1_0_0_1_n_n : DotDims S200000x32 S32x75 S200000x75 where
  lhsContracting := [1]
  rhsContracting := [0]
  lhsNonContracting := [0]
  rhsNonContracting := [1]
  lhsBatch := []
  rhsBatch := []
  wf := dot_S200000x32_S32x75_S200000x75_1_0_0_1_n_n_wf
def dot_S200000x75_S75x32_S200000x32_1_0_0_1_n_n : DotDims S200000x75 S75x32 S200000x32 where
  lhsContracting := [1]
  rhsContracting := [0]
  lhsNonContracting := [0]
  rhsNonContracting := [1]
  lhsBatch := []
  rhsBatch := []
  wf := dot_S200000x75_S75x32_S200000x32_1_0_0_1_n_n_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def scatter_S10000x32_S200000x1_S200000x32_1_0_0_1 : ScatterDims S10000x32 S200000x1 S200000x32 where
  updateWindowDims := [1]
  insertedWindowDims := [0]
  scatterDimsToOperandDims := [0]
  indexVectorDim := 1
  wf := scatter_S10000x32_S200000x1_S200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf

class Facts : Prop extends Facts₀ where

variable [Facts]
-- ==== Proof.Spec.lean ====
/-
  The network's stages as index-by-index functions on extended-real arrays.

  A node-embedding, an edge-embedding and both dense layers of the readout head and of the per-layer
  perceptron are affine maps `x ↦ x·w + b` (a finite sum over the contracted axis, then the bias of the
  column), composed with `max · 0`. Batch normalisation needs, per column, the sum of a column, the mean
  (that sum over the number of rows) and the centred sum of squares over the number of rows; it is applied
  either in its textbook form `((z − μ)·(σ² + ε)^(-1/2))·γ + β` or in the folded form `z·s + t` with
  `s = γ·(max σ² 0 + ε)^(-1/2)`, `t = β − μ·s`. The two forms agree where every quantity is a real number
  (distributivity), and `max σ² 0 = σ²` because a sum of squares is nonnegative.
-/
import Idealize.ShloMosaic.PureOps.Ideal
import Idealize.ShloMosaic.Lib.ValueIdx

open scoped BigOperators

noncomputable section

namespace Cert.Net

open Idealize.ShloMosaic Idealize.ShloMosaic.ValueIdx

/-- Extended-real arrays of rank 1, 2 and 3 over literal extents. -/
abbrev A1 (n : Nat) : Type := (⟨1, ![n]⟩ : Shape).Idx → EReal
abbrev A2 (a b : Nat) : Type := (⟨2, ![a, b]⟩ : Shape).Idx → EReal
abbrev A3 (a b c : Nat) : Type := (⟨3, ![a, b, c]⟩ : Shape).Idx → EReal

/-- The affine map: row `i` of `x` against column `j` of `w`, plus the bias of column `j`. -/
def lin {N D M : Nat} (x : A2 N D) (w : A2 D M) (b : A1 M) : A2 N M :=
  fun i => (∑ k : Fin D, x (ix2 (i 0) k) * w (ix2 k (i 1))) + b (ix1 (i 1))

/-- `max · 0`, entry by entry. -/
def relu {N M : Nat} (x : A2 N M) : A2 N M := fun i => max (x i) 0

/-- Two affine maps with `max · 0` between them. -/
def mlp {N D H M : Nat} (u : A2 N D) (w1 : A2 D H) (b1 : A1 H) (w2 : A2 H M) (b2 : A1 M) : A2 N M :=
  lin (relu (lin u w1 b1)) w2 b2

/-- Layer `l` of a stacked weight (`[L, a, b]`) and of a stacked bias (`[L, a]`). -/
def layer3 {L a b : Nat} (w : A3 L a b) (l : Fin L) : A2 a b := fun i => w (ix3 l (i 0) (i 1))
def layer2 {L a : Nat} (w : A2 L a) (l : Fin L) : A1 a := fun j => w (ix2 l (j 0))

/-- The one row of a `1 × M` array, as a vector. -/
def rowOf {M : Nat} (r : A2 1 M) : A1 M := fun j => r (ix2 0 (j 0))

/-- The entrywise sum of two arrays. -/
def add2 {N M : Nat} (x y : A2 N M) : A2 N M := fun i => x i + y i

/-- The sum of each column. -/
def colSum {N M : Nat} (z : A2 N M) : A1 M := fun j => ∑ i : Fin N, z (ix2 i (j 0))

/-- The sums of the columns over the rows of block `b` (blocks of `T` consecutive rows): entry `(b, 0, j)`. -/
def blockSums {B T M : Nat} (z : A2 (B * T) M) : A3 B 1 M :=
  fun i => ∑ r : Fin T, z (ix2 ⟨(i 0).val * T + r.val, by
    have h0 : (i 0).val < B := (i 0).isLt
    have hr : r.val < T := r.isLt
    calc (i 0).val * T + r.val < (i 0).val * T + T := by omega
      _ = ((i 0).val + 1) * T := by ring
      _ ≤ B * T := Nat.mul_le_mul_right T h0⟩ (i 2))

/-- The number of rows, as the program's literal `2.0e5`. -/
def nRows : EReal := Ideal.ofBits .f32 0x48435000#32
/-- The program's literal `1e-5` (its nearest single-precision value). -/
def bnEps : EReal := Ideal.ofBits .f32 0x3727C5AC#32

/-- The column means. -/
def colMean {N M : Nat} (z : A2 N M) : A1 M := fun j => Ideal.div (colSum z j) nRows

/-- The centred squares `(z − μ)²`. -/
def sqDev {N M : Nat} (z : A2 N M) (mu : A1 M) : A2 N M :=
  fun i => (z i - mu (ix1 (i 1))) * (z i - mu (ix1 (i 1)))

/-- The biased column variances about `mu`. -/
def colVar {N M : Nat} (z : A2 N M) (mu : A1 M) : A1 M := fun j => Ideal.div (colSum (sqDev z mu) j) nRows

/-- Batch normalisation in its textbook form, then `max · 0`. -/
def bnRef {N M : Nat} (z : A2 N M) (mu var g b : A1 M) : A2 N M :=
  fun i => max (((z i - mu (ix1 (i 1))) * Ideal.rsqrt (var (ix1 (i 1)) + bnEps)) * g (ix1 (i 1)) + b (ix1 (i 1))) 0

/-- The folded scale `γ·(max σ² 0 + ε)^(-1/2)`. -/
def bnScale {M : Nat} (var g : A1 M) : A1 M := fun j => g j * Ideal.rsqrt (max (var j) 0 + bnEps)
/-- The folded shift `β − μ·s`. -/
def bnShift {M : Nat} (mu scale b : A1 M) : A1 M := fun j => b j - mu j * scale j

/-- Batch normalisation in its folded form `z·s + t`, then `max · 0`. -/
def bnFold {N M : Nat} (z : A2 N M) (scale shift : A1 M) : A2 N M :=
  fun i => max (z i * scale (ix1 (i 1)) + shift (ix1 (i 1))) 0

end Cert.Net

end
-- ==== Proof.KPass.lean ====
/-
  Buffers that nothing writes between two boundaries of the kernel program.

  The program runs as an alternation of host stretches and pipelined regions. A host stretch rewrites exactly
  the result buffers of its operations; a region rewrites exactly the arrays of its output windows and hands
  back the arrays of its input windows as it found them. So the contents of a buffer at a boundary equal its
  contents at an earlier boundary as soon as no operation of the stretches in between has it as a result and
  no region in between has it as an output array. Each lemma below walks back one segment at a time.
-/
import proofs.«412989_j17643725652192_3_alg».proof.Proof.Gen.KernelIdeal.Frame
import Idealize.ShloMosaic.PureOps.Ideal

set_option maxRecDepth 16384

noncomputable section

namespace Cert.KernelIdeal.Val

open Cert.KernelIdeal Cert.KernelIdeal.Gen Idealize.ShloMosaic Idealize.ShloMosaic.TcCoe

variable (m : (ℓ : Loc nD τ sig) → Buf (Elt Ideal) ℓ) (ρ : Dev nD → PrngReg)

/-! ## One step per segment -/

/-- Across a host stretch: the buffer is the result of none of its operations (the result buffers are
    compared with it one by one), so the stretch leaves it as it was. -/
macro "skip_host " h:ident : tactic => `(tactic|
  refine Eq.trans (StableHlo.after_of_forall_not_mem _ _ (List.forall_iff_forall_mem.mp (by
    simp only [$h:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))) ?_)

/-- Across a region none of whose windows has the buffer as its array: the region leaves it as it was. -/
macro "skip_region " l:ident : tactic => `(tactic| refine Eq.trans ($l:ident _ _ _ _ (by decide)) ?_)

/-- Across a region that has the buffer as the array of an INPUT window `w`: at the exit the array holds what
    the pipeline leaves, an input's array is never written back, and the proof data's array is the entry contents. -/
macro "through_window " a:ident d:ident e:ident w:term:max : tactic => `(tactic|
  refine Eq.trans (($a:ident _ _ _ $w).trans ((Pipeline.Dat.arrAt_in ($d:ident _ _) $w rfl _).trans ($e:ident _ _ $w))) ?_)

/-! ## Runs of segments

Each of these walks back over a fixed run of consecutive segments, for a buffer that no segment of the run
writes and no region of the run holds as a window's array. -/

/-- From region 1's exit back to region 0's entry: region 1, one host stretch, region 0. -/
macro "back_4_1" : tactic => `(tactic| (skip_region W4_of_ne; skip_host hostOps1; skip_region W2_of_ne))
/-- The three host stretches between region 1's exit and the boundary before region 2's last stretch. -/
macro "back_7_4" : tactic => `(tactic| (skip_host hostOps2_2; skip_host hostOps2_1; skip_host hostOps2))
/-- From that boundary back to the launch. -/
macro "back_7_0" : tactic => `(tactic| (back_7_4; back_4_1; skip_host hostOps0))
/-- From region 3's exit back over region 3, its host stretch, region 2 and the stretch before it. -/
macro "back_11_7" : tactic => `(tactic|
  (skip_region W11_of_ne; skip_host hostOps3; skip_region W9_of_ne; skip_host hostOps2_3))
/-- Region 4 and the host stretch before it. -/
macro "back_13_11" : tactic => `(tactic| (skip_region W13_of_ne; skip_host hostOps4))
/-- The three host stretches after region 4's exit. -/
macro "back_16_13" : tactic => `(tactic| (skip_host hostOps5_2; skip_host hostOps5_1; skip_host hostOps5))
/-- From region 6's exit back over region 6, its host stretch, region 5 and the stretch before it. -/
macro "back_20_16" : tactic => `(tactic|
  (skip_region W20_of_ne; skip_host hostOps6; skip_region W18_of_ne; skip_host hostOps5_3))
/-- Region 7 and the host stretch before it. -/
macro "back_22_20" : tactic => `(tactic| (skip_region W22_of_ne; skip_host hostOps7))
/-- From region 7's exit back to the launch. -/
macro "back_22_0" : tactic => `(tactic|
  (back_22_20; back_20_16; back_16_13; back_13_11; back_11_7; back_7_0))

/-! ## The argument arrays, still as launched when they are first read

An argument array is the result of no operation and the output of no region, so at every boundary it holds
the launch memory; each is stated at the boundary where the program reads it. -/

theorem W1_main_arg0 (c : Dev nD) :
    W1 m ρ c (Proc.devRef .tc main_arg0) = m ((c : Thread nD τ).loc main_arg0) := by
  skip_host hostOps0
  rfl

theorem W1_main_arg4 (c : Dev nD) :
    W1 m ρ c (Proc.devRef .tc main_arg4) = m ((c : Thread nD τ).loc main_arg4) := by
  skip_host hostOps0
  rfl

theorem W2_main_arg7 (c : Dev nD) :
    W2 m ρ c (Proc.devRef .tc main_arg7) = m ((c : Thread nD τ).loc main_arg7) := by
  skip_region W2_of_ne
  skip_host hostOps0
  rfl

theorem W3_main_arg2 (c : Dev nD) :
    W3 m ρ c (Proc.devRef .tc main_arg2) = m ((c : Thread nD τ).loc main_arg2) := by
  skip_host hostOps1
  skip_region W2_of_ne
  skip_host hostOps0
  rfl

theorem W3_main_arg6 (c : Dev nD) :
    W3 m ρ c (Proc.devRef .tc main_arg6) = m ((c : Thread nD τ).loc main_arg6) := by
  skip_host hostOps1
  skip_region W2_of_ne
  skip_host hostOps0
  rfl

theorem W7_main_arg8 (c : Dev nD) :
    W7 m ρ c (Proc.devRef .tc main_arg8) = m ((c : Thread nD τ).loc main_arg8) := by
  back_7_0
  rfl

theorem W7_main_arg9 (c : Dev nD) :
    W7 m ρ c (Proc.devRef .tc main_arg9) = m ((c : Thread nD τ).loc main_arg9) := by
  back_7_0
  rfl

theorem W7_main_arg10 (c : Dev nD) :
    W7 m ρ c (Proc.devRef .tc main_arg10) = m ((c : Thread nD τ).loc main_arg10) := by
  back_7_0
  rfl

theorem W7_main_arg11 (c : Dev nD) :
    W7 m ρ c (Proc.devRef .tc main_arg11) = m ((c : Thread nD τ).loc main_arg11) := by
  back_7_0
  rfl

theorem W11_main_arg12 (c : Dev nD) :
    W11 m ρ c (Proc.devRef .tc main_arg12) = m ((c : Thread nD τ).loc main_arg12) := by
  back_11_7
  back_7_0
  rfl

theorem W11_main_arg13 (c : Dev nD) :
    W11 m ρ c (Proc.devRef .tc main_arg13) = m ((c : Thread nD τ).loc main_arg13) := by
  back_11_7
  back_7_0
  rfl

theorem W16_main_arg8 (c : Dev nD) :
    W16 m ρ c (Proc.devRef .tc main_arg8) = m ((c : Thread nD τ).loc main_arg8) := by
  back_16_13
  back_13_11
  back_11_7
  exact W7_main_arg8 m ρ c

theorem W16_main_arg9 (c : Dev nD) :
    W16 m ρ c (Proc.devRef .tc main_arg9) = m ((c : Thread nD τ).loc main_arg9) := by
  back_16_13
  back_13_11
  back_11_7
  exact W7_main_arg9 m ρ c

theorem W16_main_arg10 (c : Dev nD) :
    W16 m ρ c (Proc.devRef .tc main_arg10) = m ((c : Thread nD τ).loc main_arg10) := by
  back_16_13
  back_13_11
  back_11_7
  exact W7_main_arg10 m ρ c

theorem W16_main_arg11 (c : Dev nD) :
    W16 m ρ c (Proc.devRef .tc main_arg11) = m ((c : Thread nD τ).loc main_arg11) := by
  back_16_13
  back_13_11
  back_11_7
  exact W7_main_arg11 m ρ c

theorem W20_main_arg12 (c : Dev nD) :
    W20 m ρ c (Proc.devRef .tc main_arg12) = m ((c : Thread nD τ).loc main_arg12) := by
  back_20_16
  back_16_13
  back_13_11
  exact W11_main_arg12 m ρ c

theorem W20_main_arg13 (c : Dev nD) :
    W20 m ρ c (Proc.devRef .tc main_arg13) = m ((c : Thread nD τ).loc main_arg13) := by
  back_20_16
  back_16_13
  back_13_11
  exact W11_main_arg13 m ρ c

theorem W22_main_arg3 (c : Dev nD) :
    W22 m ρ c (Proc.devRef .tc main_arg3) = m ((c : Thread nD τ).loc main_arg3) := by
  back_22_0
  rfl

theorem W22_main_arg15 (c : Dev nD) :
    W22 m ρ c (Proc.devRef .tc main_arg15) = m ((c : Thread nD τ).loc main_arg15) := by
  back_22_0
  rfl

theorem W22_main_arg17 (c : Dev nD) :
    W22 m ρ c (Proc.devRef .tc main_arg17) = m ((c : Thread nD τ).loc main_arg17) := by
  back_22_0
  rfl

theorem W23_main_arg14 (c : Dev nD) :
    W23 m ρ c (Proc.devRef .tc main_arg14) = m ((c : Thread nD τ).loc main_arg14) := by
  skip_host hostOps8
  back_22_0
  rfl

theorem W23_main_arg16 (c : Dev nD) :
    W23 m ρ c (Proc.devRef .tc main_arg16) = m ((c : Thread nD τ).loc main_arg16) := by
  skip_host hostOps8
  back_22_0
  rfl

/-! ## Intermediate buffers, unchanged from where they are produced to where they are read -/

/-- The source indices: produced before region 0, untouched through region 1 … -/
theorem W4_v1 (c : Dev nD) :
    W4 m ρ c (Proc.devRef .tc main_v1) = W1 m ρ c (Proc.devRef .tc main_v1) := by
  back_4_1
  rfl

/-- … and through region 4. -/
theorem W13_v1 (c : Dev nD) :
    W13 m ρ c (Proc.devRef .tc main_v1) = W1 m ρ c (Proc.devRef .tc main_v1) := by
  back_13_11
  back_11_7
  back_7_4
  exact W4_v1 m ρ c

/-- The destination indices: produced before region 0, untouched through region 1 … -/
theorem W4_v3 (c : Dev nD) :
    W4 m ρ c (Proc.devRef .tc main_v3) = W1 m ρ c (Proc.devRef .tc main_v3) := by
  back_4_1
  rfl

/-- … and through region 4. -/
theorem W13_v3 (c : Dev nD) :
    W13 m ρ c (Proc.devRef .tc main_v3) = W1 m ρ c (Proc.devRef .tc main_v3) := by
  back_13_11
  back_11_7
  back_7_4
  exact W4_v3 m ρ c

/-- Region 0's output: untouched through region 1 … -/
theorem W4_v5 (c : Dev nD) :
    W4 m ρ c (Proc.devRef .tc main_v5) = W2 m ρ c (Proc.devRef .tc main_v5) := by
  skip_region W4_of_ne
  skip_host hostOps1
  rfl

/-- … and up to region 2's entry. -/
theorem W8_v5 (c : Dev nD) :
    W8 m ρ c (Proc.devRef .tc main_v5) = W2 m ρ c (Proc.devRef .tc main_v5) := by
  skip_host hostOps2_3
  back_7_4
  exact W4_v5 m ρ c

/-- Region 1's output: untouched through region 4. -/
theorem W13_v7 (c : Dev nD) :
    W13 m ρ c (Proc.devRef .tc main_v7) = W4 m ρ c (Proc.devRef .tc main_v7) := by
  back_13_11
  back_11_7
  back_7_4
  rfl

/-- Region 2's first output: untouched by the host stretch after it … -/
theorem W10_v24_0 (c : Dev nD) :
    W10 m ρ c (Proc.devRef .tc main_v24_0) = W9 m ρ c (Proc.devRef .tc main_v24_0) := by
  skip_host hostOps3
  rfl

/-- … read by region 3 through its input window 0, which hands it back as found, and untouched by the
    stretch after region 3. -/
theorem W12_v24_0 (c : Dev nD) :
    W12 m ρ c (Proc.devRef .tc main_v24_0) = W9 m ρ c (Proc.devRef .tc main_v24_0) := by
  skip_host hostOps4
  through_window W11_arr dat3 A_eq3 0
  exact W10_v24_0 m ρ c

/-- The column means of layer 1: region 3 does not hold them. -/
theorem W11_v28 (c : Dev nD) :
    W11 m ρ c (Proc.devRef .tc main_v28) = W10 m ρ c (Proc.devRef .tc main_v28) := by
  skip_region W11_of_ne
  rfl

/-- Region 4's output: untouched by the four host stretches up to region 5's entry. -/
theorem W17_v49 (c : Dev nD) :
    W17 m ρ c (Proc.devRef .tc main_v49) = W13 m ρ c (Proc.devRef .tc main_v49) := by
  skip_host hostOps5_3
  back_16_13
  rfl

/-- Region 5's first output: untouched by the host stretch after it … -/
theorem W19_v66_0 (c : Dev nD) :
    W19 m ρ c (Proc.devRef .tc main_v66_0) = W18 m ρ c (Proc.devRef .tc main_v66_0) := by
  skip_host hostOps6
  rfl

/-- … read by region 6 through its input window 0, which hands it back as found, and untouched by the
    stretch after region 6. -/
theorem W21_v66_0 (c : Dev nD) :
    W21 m ρ c (Proc.devRef .tc main_v66_0) = W18 m ρ c (Proc.devRef .tc main_v66_0) := by
  skip_host hostOps7
  through_window W20_arr dat6 A_eq6 0
  exact W19_v66_0 m ρ c

/-- The column means of layer 2: region 6 does not hold them. -/
theorem W20_v70 (c : Dev nD) :
    W20 m ρ c (Proc.devRef .tc main_v70) = W19 m ρ c (Proc.devRef .tc main_v70) := by
  skip_region W20_of_ne
  rfl

end Cert.KernelIdeal.Val
-- ==== Proof.KEmbed0.lean ====
/-
  The node embedding (region 0 of the kernel program) as one function of the arrays the region finds.

  The region runs over 25 points; point `t` loads rows `8000·t … 8000·t + 7999` of the `200000 × 14` features, the
  whole `14 × 32` weight and the whole `1 × 32` bias row, multiplies the rows by the weight (narrowing the operands
  first, which is the identity on extended reals), adds the bias row to every row, and writes those rows of the
  `200000 × 32` result back. Entry `(p, q)` of a block is `∑ₖ x(p,k)·w(k,q) + bias(0,q)`; row `r` of the result is
  written by point `r / 8000` from row `r` of the features; so the result is the affine map of the specification.
-/
import proofs.«412989_j17643725652192_3_alg».proof.Proof.Gen.KernelIdeal.Frame
import proofs.«412989_j17643725652192_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Val

open Cert.KernelIdeal Cert.KernelIdeal.Gen Cert.Net Idealize.ShloMosaic Idealize.ShloMosaic.TcCoe Idealize.ShloMosaic.ValueIdx
open Idealize.ShloMosaic.Pipeline (Dat Cfg Window)

/-! ## The product of a block of rows with the weight, entry by entry -/

/-- The left operand of the product is read at the result's row … -/
theorem lhs_embed0_0 (j : S8000x32.Idx) (k : dot_S8000x14_S14x32_S8000x32_1_0_0_1_n_n.contr.Idx) :
    (dot_S8000x14_S14x32_S8000x32_1_0_0_1_n_n.lhsIdx j k 0 : ℕ) = j 0 := by
  simp [DotDims.lhsIdx, dot_S8000x14_S14x32_S8000x32_1_0_0_1_n_n]; rfl
/-- … and at the contracted position; -/
theorem lhs_embed0_1 (j : S8000x32.Idx) (k : dot_S8000x14_S14x32_S8000x32_1_0_0_1_n_n.contr.Idx) :
    (dot_S8000x14_S14x32_S8000x32_1_0_0_1_n_n.lhsIdx j k 1 : ℕ) = k ⟨0, by decide⟩ := by
  simp [DotDims.lhsIdx, dot_S8000x14_S14x32_S8000x32_1_0_0_1_n_n]; rfl
/-- the right operand at the contracted position … -/
theorem rhs_embed0_0 (j : S8000x32.Idx) (k : dot_S8000x14_S14x32_S8000x32_1_0_0_1_n_n.contr.Idx) :
    (dot_S8000x14_S14x32_S8000x32_1_0_0_1_n_n.rhsIdx j k 0 : ℕ) = k ⟨0, by decide⟩ := by
  simp [DotDims.rhsIdx, dot_S8000x14_S14x32_S8000x32_1_0_0_1_n_n]; rfl
/-- … and at the result's column. -/
theorem rhs_embed0_1 (j : S8000x32.Idx) (k : dot_S8000x14_S14x32_S8000x32_1_0_0_1_n_n.contr.Idx) :
    (dot_S8000x14_S14x32_S8000x32_1_0_0_1_n_n.rhsIdx j k 1 : ℕ) = j 1 := by
  simp [DotDims.rhsIdx, dot_S8000x14_S14x32_S8000x32_1_0_0_1_n_n]; rfl

/-- The product started from zero, at row `p` and column `q`, is the sum over the 14 contracted positions. -/
theorem matmul_embed0 (a : FVec Ideal S8000x14 .bf16) (b : FVec Ideal S14x32 .bf16) (p : Fin 8000) (q : Fin 32) :
    matmul dot_S8000x14_S14x32_S8000x32_1_0_0_1_n_n none a b (constant (F := Ideal) S8000x32 .f32 0x00000000#32) (ix2 p q)
      = ∑ k : Fin 14, a (ix2 p k) * b (ix2 k q) := by
  refine (Ideal.matmul_constant_zero_apply dot_S8000x14_S14x32_S8000x32_1_0_0_1_n_n none a b (ix2 p q)).trans ?_
  rw [← Equiv.sum_comp (contrEquiv1 dot_S8000x14_S14x32_S8000x32_1_0_0_1_n_n 14 rfl rfl).symm]
  refine Finset.sum_congr rfl fun k _ => ?_
  have hk := contrEquiv1_symm_val dot_S8000x14_S14x32_S8000x32_1_0_0_1_n_n 14 rfl rfl k
  have hl : dot_S8000x14_S14x32_S8000x32_1_0_0_1_n_n.lhsIdx (ix2 p q) ((contrEquiv1 dot_S8000x14_S14x32_S8000x32_1_0_0_1_n_n 14 rfl rfl).symm k) = ix2 p k := by
    funext a; apply Fin.ext
    match a with
    | ⟨0, _⟩ => exact lhs_embed0_0 _ _
    | ⟨1, _⟩ => exact (lhs_embed0_1 _ _).trans hk
  have hr : dot_S8000x14_S14x32_S8000x32_1_0_0_1_n_n.rhsIdx (ix2 p q) ((contrEquiv1 dot_S8000x14_S14x32_S8000x32_1_0_0_1_n_n 14 rfl rfl).symm k) = ix2 k q := by
    funext a; apply Fin.ext
    match a with
    | ⟨0, _⟩ => exact (rhs_embed0_0 _ _).trans hk
    | ⟨1, _⟩ => exact rhs_embed0_1 _ _
  rw [hl, hr]

/-- The bias row, repeated down the rows of the block, read at row `p` and column `q`. -/
theorem biasRow_embed0 (r : FVec Ideal S1x32 .f32) (p : Fin 8000) (q : Fin 32) :
    broadcastTo S8000x32 (shapeCast S1x32 r shapeCasts_S1x32_S1x32) broadcasts_S1x32_S8000x32 (ix2 p q) = r (ix2 0 q) := by
  rw [shapeCast_self]
  refine broadcastTo_apply r broadcasts_S1x32_S8000x32 (ix2 p q) (ix2 0 q) fun a => ?_
  match a with
  | ⟨0, _⟩ => rfl
  | ⟨1, _⟩ => rfl

/-- What the body stores, at row `p` and column `q` of the block: row `p` of the loaded rows against column `q` of the
    weight, plus the bias of column `q` (the narrowing of the operands is the identity on extended reals). -/
theorem pay_embed0 (x : FVec Ideal S8000x14 .f32) (w : FVec Ideal S14x32 .f32) (r : FVec Ideal S1x32 .f32) (p : Fin 8000) (q : Fin 32) :
    k0_pay1 x w r (ix2 p q) = (∑ k : Fin 14, x (ix2 p k) * w (ix2 k q)) + r (ix2 0 q) := by
  unfold k0_pay1
  rw [addf_apply, matmul_embed0, biasRow_embed0]
  rfl

/-- One entry of one block: if row `p` of the loaded rows is row `n·8000 + p` of `X`, and the loaded weight and bias row
    are `W` and `R` where the entry reads them, what the body stores at `(p, q)` is the affine map at `(n·8000 + p, q)`. -/
theorem point_embed0 (X : A2 200000 14) (W : A2 14 32) (R : A2 1 32)
    (x : FVec Ideal S8000x14 .f32) (w : FVec Ideal S14x32 .f32) (r : FVec Ideal S1x32 .f32)
    (n : Nat) (p : Fin 8000) (q : Fin 32) (hb : n * 8000 + p.val < 200000)
    (hx : ∀ k : Fin 14, x (ix2 p k) = X (ix2 (⟨n * 8000 + p.val, hb⟩ : Fin 200000) k))
    (hw : ∀ k : Fin 14, w (ix2 k q) = W (ix2 k q))
    (hr : r (ix2 (0 : Fin 1) q) = R (ix2 (0 : Fin 1) q)) :
    k0_pay1 (F := Ideal) x w r (ix2 p q) = lin X W (rowOf R) (ix2 (⟨n * 8000 + p.val, hb⟩ : Fin 200000) q) := by
  rw [pay_embed0]
  simp only [hx, hw, hr]
  rfl

/-! ## From the blocks to the array

Point `t` of the 25 handles rows `8000·t … 8000·t + 7999`: it loads those rows of `x`, the whole weight and the
whole bias row, and writes back those rows of the result. Row `r` of the result is therefore written by point
`r / 8000`, from row `r` of `x`. -/

theorem zeroOffsets_embed0 : (![0, 0] : Fin 2 → Nat) = fun _ => 0 :=
  funext fun a => by match a with | ⟨0, _⟩ => rfl | ⟨1, _⟩ => rfl

/-- The printed index maps, decided over the grid: the row windows sit at block `t` along the rows, every other
    block index is `0`. -/
theorem blockIdx_embed0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the affine map of the arrays as the region finds them. -/
theorem flushed_embed0 (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (lin (V c main_arg0) (V c main_arg4) (rowOf (V c main_v4))) := by
  show (cfg0.win 3).cut (grid0.coords t) ((dat0 (F := Ideal) V c).after 3 t) = _
  rw [after0_3]
  unfold out0_3
  rw [View.canon_unit_zero zeroOffsets_embed0]
  simp only [View.ld_unit_zero (S := S8000x14) zeroOffsets_embed0, View.ld_unit_zero (S := S14x32) zeroOffsets_embed0,
    View.ld_unit_zero (S := S1x32) zeroOffsets_embed0]
  obtain ⟨e00, e01, e10, e11, e20, e21, e30, e31⟩ := blockIdx_embed0 t
  have ht : t.val < 25 := t.isLt
  funext j
  obtain ⟨p, q, rfl⟩ : ∃ (p : Fin 8000) (q : Fin 32), j = ix2 p q := ⟨j 0, j 1, eq_ix2 j⟩
  have hp : p.val < 8000 := p.isLt
  have hb : t.val * 8000 + p.val < 200000 := by omega
  -- the row of the array that row `p` of block `t` is
  have h3 : ((cfg0.win 3).blk t).view.emb (ix2 p q) = ix2 (⟨t.val * 8000 + p.val, hb⟩ : Fin 200000) q := by
    funext a; apply Fin.ext
    match a with
    | ⟨0, _⟩ => show win0_3.index t (0 : Fin 2) * 8000 + 1 * p.val = t.val * 8000 + p.val; omega
    | ⟨1, _⟩ => show win0_3.index t (1 : Fin 2) * 32 + 1 * q.val = q.val; omega
  have h0 : ∀ k : Fin 14, ((cfg0.win 0).blk t).view.emb (ix2 p k) = ix2 (⟨t.val * 8000 + p.val, hb⟩ : Fin 200000) k := fun k => by
    funext a; apply Fin.ext
    match a with
    | ⟨0, _⟩ => show win0_0.index t (0 : Fin 2) * 8000 + 1 * p.val = t.val * 8000 + p.val; omega
    | ⟨1, _⟩ => show win0_0.index t (1 : Fin 2) * 14 + 1 * k.val = k.val; omega
  have h1 : ∀ k : Fin 14, ((cfg0.win 1).blk t).view.emb (ix2 k q) = ix2 k q := fun k => by
    funext a; apply Fin.ext
    match a with
    | ⟨0, _⟩ => show win0_1.index t (0 : Fin 2) * 14 + 1 * k.val = k.val; omega
    | ⟨1, _⟩ => show win0_1.index t (1 : Fin 2) * 32 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 32 + 1 * q.val = q.val; omega
  show k0_pay1 (iblk0 V c 0 t) (iblk0 V c 1 t) (iblk0 V c 2 t) (ix2 p q)
    = lin (V c main_arg0) (V c main_arg4) (rowOf (V c main_v4)) (((cfg0.win 3).blk t).view.emb (ix2 p q))
  rw [h3]
  exact point_embed0 (V c main_arg0) (V c main_arg4) (V c main_v4) (iblk0 V c 0 t) (iblk0 V c 1 t) (iblk0 V c 2 t) t.val p q hb
    (fun k => congrArg (V c main_arg0) (h0 k)) (fun k => congrArg (V c main_arg4) (h1 k)) (congrArg (V c main_v4) h2)

/-- An index of the array is in point `t`'s block iff each coordinate is in the block's range on its axis. -/
theorem mem_blk_embed0 (t : Fin cfg0.N) (i : S200000x32.Idx) :
    i ∈ ((cfg0.win 3).blk t).view.set
      ↔ ∀ a : Fin 2, win0_3.index t a * S8000x32.size a ≤ (i a).val ∧ (i a).val < win0_3.index t a * S8000x32.size a + S8000x32.size a := by
  show i ∈ ((View.whole main_v5).slice (win0_3.rect t)).set ↔ _
  rw [View.set_slice_whole, Rect.mem_set_unit]
  exact Iff.rfl

/-- Row `r` of the result lies in the block of point `r / 8000`, which writes its block back. -/
theorem cover_embed0 (i : S200000x32.Idx) :
    ∃ t : Fin cfg0.N, (cfg0.win 3).flush t = true ∧ i ∈ ((cfg0.win 3).blk t).view.set := by
  have hi0 : (i 0).val < 200000 := (i 0).isLt
  have hi1 : (i 1).val < 32 := (i 1).isLt
  have hq : (i 0).val / 8000 < 25 := by omega
  obtain ⟨-, -, -, -, -, -, e30, e31⟩ := blockIdx_embed0 ⟨(i 0).val / 8000, hq⟩
  have e30' : win0_3.index (⟨(i 0).val / 8000, hq⟩ : Fin cfg0.N) (0 : Fin 2) = (i 0).val / 8000 := e30
  refine ⟨⟨(i 0).val / 8000, hq⟩, flush0_3 _, ?_⟩
  rw [mem_blk_embed0]
  intro a
  match a with
  | ⟨0, _⟩ =>
    show win0_3.index (⟨(i 0).val / 8000, hq⟩ : Fin cfg0.N) (0 : Fin 2) * 8000 ≤ (i 0).val
      ∧ (i 0).val < win0_3.index (⟨(i 0).val / 8000, hq⟩ : Fin cfg0.N) (0 : Fin 2) * 8000 + 8000
    omega
  | ⟨1, _⟩ =>
    show win0_3.index (⟨(i 0).val / 8000, hq⟩ : Fin cfg0.N) (1 : Fin 2) * 32 ≤ (i 1).val
      ∧ (i 1).val < win0_3.index (⟨(i 0).val / 8000, hq⟩ : Fin cfg0.N) (1 : Fin 2) * 32 + 32
    omega

/-- THE ARRAY after the region: the affine map of the node features, the weight and the bias row, as the region
    finds them. -/
theorem final0 (V : (c : Dev nD) → (b : Ref sig .tc) → Buf (Elt Ideal) ((c : Thread nD τ).loc b)) (c : Dev nD) :
    (dat0 (F := Ideal) V c).arrAt 3 cfg0.N = lin (V c main_arg0) (V c main_arg4) (rowOf (V c main_v4)) :=
  (dat0 (F := Ideal) V c).arrAt_eq_of_cover 3 (lin (V c main_arg0) (V c main_arg4) (rowOf (V c main_v4)))
    (fun t _ => flushed_embed0 V c t) cover_embed0

end Cert.KernelIdeal.Val

end
-- ==== Proof.KEmbed1.lean ====
/-
  The edge embedding (region 1 of the kernel program) as one function of the arrays the region finds.

  The region runs over 250 points; point `t` loads rows `8000·t … 8000·t + 7999` of the `2000000 × 3` features, the
  whole `3 × 32` weight and the whole `1 × 32` bias row, multiplies the rows by the weight (narrowing the operands
  first, which is the identity on extended reals), adds the bias row to every row, and writes those rows of the
  `2000000 × 32` result back. Entry `(p, q)` of a block is `∑ₖ x(p,k)·w(k,q) + bias(0,q)`; row `r` of the result is
  written by point `r / 8000` from row `r` of the features; so the result is the affine map of the specification.
-/
import proofs.«412989_j17643725652192_3_alg».proof.Proof.Gen.KernelIdeal.Frame
import proofs.«412989_j17643725652192_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Val

open Cert.KernelIdeal Cert.KernelIdeal.Gen Cert.Net Idealize.ShloMosaic Idealize.ShloMosaic.TcCoe Idealize.ShloMosaic.ValueIdx
open Idealize.ShloMosaic.Pipeline (Dat Cfg Window)

/-! ## The product of a block of rows with the weight, entry by entry -/

/-- The left operand of the product is read at the result's row … -/
theorem lhs_embed1_0 (j : S8000x32.Idx) (k : dot_S8000x3_S3x32_S8000x32_1_0_0_1_n_n.contr.Idx) :
    (dot_S8000x3_S3x32_S8000x32_1_0_0_1_n_n.lhsIdx j k 0 : ℕ) = j 0 := by
  simp [DotDims.lhsIdx, dot_S8000x3_S3x32_S8000x32_1_0_0_1_n_n]; rfl
/-- … and at the contracted position; -/
theorem lhs_embed1_1 (j : S8000x32.Idx) (k : dot_S8000x3_S3x32_S8000x32_1_0_0_1_n_n.contr.Idx) :
    (dot_S8000x3_S3x32_S8000x32_1_0_0_1_n_n.lhsIdx j k 1 : ℕ) = k ⟨0, by decide⟩ := by
  simp [DotDims.lhsIdx, dot_S8000x3_S3x32_S8000x32_1_0_0_1_n_n]; rfl
/-- the right operand at the contracted position … -/
theorem rhs_embed1_0 (j : S8000x32.Idx) (k : dot_S8000x3_S3x32_S8000x32_1_0_0_1_n_n.contr.Idx) :
    (dot_S8000x3_S3x32_S8000x32_1_0_0_1_n_n.rhsIdx j k 0 : ℕ) = k ⟨0, by decide⟩ := by
  simp [DotDims.rhsIdx, dot_S8000x3_S3x32_S8000x32_1_0_0_1_n_n]; rfl
/-- … and at the result's column. -/
theorem rhs_embed1_1 (j : S8000x32.Idx) (k : dot_S8000x3_S3x32_S8000x32_1_0_0_1_n_n.contr.Idx) :
    (dot_S8000x3_S3x32_S8000x32_1_0_0_1_n_n.rhsIdx j k 1 : ℕ) = j 1 := by
  simp [DotDims.rhsIdx, dot_S8000x3_S3x32_S8000x32_1_0_0_1_n_n]; rfl

/-- The product started from zero, at row `p` and column `q`, is the sum over the 3 contracted positions. -/
theorem matmul_embed1 (a : FVec Ideal S8000x3 .bf16) (b : FVec Ideal S3x32 .bf16) (p : Fin 8000) (q : Fin 32) :
    matmul dot_S8000x3_S3x32_S8000x32_1_0_0_1_n_n none a b (constant (F := Ideal) S8000x32 .f32 0x00000000#32) (ix2 p q)
      = ∑ k : Fin 3, a (ix2 p k) * b (ix2 k q) := by
  refine (Ideal.matmul_constant_zero_apply dot_S8000x3_S3x32_S8000x32_1_0_0_1_n_n none a b (ix2 p q)).trans ?_
  rw [← Equiv.sum_comp (contrEquiv1 dot_S8000x3_S3x32_S8000x32_1_0_0_1_n_n 3 rfl rfl).symm]
  refine Finset.sum_congr rfl fun k _ => ?_
  have hk := contrEquiv1_symm_val dot_S8000x3_S3x32_S8000x32_1_0_0_1_n_n 3 rfl rfl k
  have hl : dot_S8000x3_S3x32_S8000x32_1_0_0_1_n_n.lhsIdx (ix2 p q) ((contrEquiv1 dot_S8000x3_S3x32_S8000x32_1_0_0_1_n_n 3 rfl rfl).symm k) = ix2 p k := by
    funext a; apply Fin.ext
    match a with
    | ⟨0, _⟩ => exact lhs_embed1_0 _ _
    | ⟨1, _⟩ => exact (lhs_embed1_1 _ _).trans hk
  have hr : dot_S8000x3_S3x32_S8000x32_1_0_0_1_n_n.rhsIdx (ix2 p q) ((contrEquiv1 dot_S8000x3_S3x32_S8000x32_1_0_0_1_n_n 3 rfl rfl).symm k) = ix2 k q := by
    funext a; apply Fin.ext
    match a with
    | ⟨0, _⟩ => exact (rhs_embed1_0 _ _).trans hk
    | ⟨1, _⟩ => exact rhs_embed1_1 _ _
  rw [hl, hr]

/-- The bias row, repeated down the rows of the block, read at row `p` and column `q`. -/
theorem biasRow_embed1 (r : FVec Ideal S1x32 .f32) (p : Fin 8000) (q : Fin 32) :
    broadcastTo S8000x32 (shapeCast S1x32 r shapeCasts_S1x32_S1x32) broadcasts_S1x32_S8000x32 (ix2 p q) = r (ix2 0 q) := by
  rw [shapeCast_self]
  refine broadcastTo_apply r broadcasts_S1x32_S8000x32 (ix2 p q) (ix2 0 q) fun a => ?_
  match a with
  | ⟨0, _⟩ => rfl
  | ⟨1, _⟩ => rfl

/-- What the body stores, at row `p` and column `q` of the block: row `p` of the loaded rows against column `q` of the
    weight, plus the bias of column `q` (the narrowing of the operands is the identity on extended reals). -/
theorem pay_embed1 (x : FVec Ideal S8000x3 .f32) (w : FVec Ideal S3x32 .f32) (r : FVec Ideal S1x32 .f32) (p : Fin 8000) (q : Fin 32) :
    k1_pay1 x w r (ix2 p q) = (∑ k : Fin 3, x (ix2 p k) * w (ix2 k q)) + r (ix2 0 q) := by
  unfold k1_pay1
  rw [addf_apply, matmul_embed1, biasRow_embed1]
  rfl

/-- One entry of one block: if row `p` of the loaded rows is row `n·8000 + p` of `X`, and the loaded weight and bias row
    are `W` and `R` where the entry reads them, what the body stores at `(p, q)` is the affine map at `(n·8000 + p, q)`. -/
theorem point_embed1 (X : A2 2000000 3) (W : A2 3 32) (R : A2 1 32)
    (x : FVec Ideal S8000x3 .f32) (w : FVec Ideal S3x32 .f32) (r : FVec Ideal S1x32 .f32)
    (n : Nat) (p : Fin 8000) (q : Fin 32) (hb : n * 8000 + p.val < 2000000)
    (hx : ∀ k : Fin 3, x (ix2 p k) = X (ix2 (⟨n * 8000 + p.val, hb⟩ : Fin 2000000) k))
    (hw : ∀ k : Fin 3, w (ix2 k q) = W (ix2 k q))
    (hr : r (ix2 (0 : Fin 1) q) = R (ix2 (0 : Fin 1) q)) :
    k1_pay1 (F := Ideal) x w r (ix2 p q) = lin X W (rowOf R) (ix2 (⟨n * 8000 + p.val, hb⟩ : Fin 2000000) q) := by
  rw [pay_embed1]
  simp only [hx, hw, hr]
  rfl

/-! ## From the blocks to the array

Point `t` of the 250 handles rows `8000·t … 8000·t + 7999`: it loads those rows of `x`, the whole weight and the
whole bias row, and writes back those rows of the result. Row `r` of the result is therefore written by point
`r / 8000`, from row `r` of `x`. -/

theorem zeroOffsets_embed1 : (![0, 0] : Fin 2 → Nat) = fun _ => 0 :=
  funext fun a => by match a with | ⟨0, _⟩ => rfl | ⟨1, _⟩ => rfl

/-- The printed index maps, decided over the grid: the row windows sit at block `t` along the rows, every other
    block index is `0`. -/
theorem blockIdx_embed1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the affine map of the arrays as the region finds them. -/
theorem flushed_embed1 (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (lin (V c main_arg2) (V c main_arg6) (rowOf (V c main_v6))) := by
  show (cfg1.win 3).cut (grid1.coords t) ((dat1 (F := Ideal) V c).after 3 t) = _
  rw [after1_3]
  unfold out1_3
  rw [View.canon_unit_zero zeroOffsets_embed1]
  simp only [View.ld_unit_zero (S := S8000x3) zeroOffsets_embed1, View.ld_unit_zero (S := S3x32) zeroOffsets_embed1,
    View.ld_unit_zero (S := S1x32) zeroOffsets_embed1]
  obtain ⟨e00, e01, e10, e11, e20, e21, e30, e31⟩ := blockIdx_embed1 t
  have ht : t.val < 250 := t.isLt
  funext j
  obtain ⟨p, q, rfl⟩ : ∃ (p : Fin 8000) (q : Fin 32), j = ix2 p q := ⟨j 0, j 1, eq_ix2 j⟩
  have hp : p.val < 8000 := p.isLt
  have hb : t.val * 8000 + p.val < 2000000 := by omega
  -- the row of the array that row `p` of block `t` is
  have h3 : ((cfg1.win 3).blk t).view.emb (ix2 p q) = ix2 (⟨t.val * 8000 + p.val, hb⟩ : Fin 2000000) q := by
    funext a; apply Fin.ext
    match a with
    | ⟨0, _⟩ => show win1_3.index t (0 : Fin 2) * 8000 + 1 * p.val = t.val * 8000 + p.val; omega
    | ⟨1, _⟩ => show win1_3.index t (1 : Fin 2) * 32 + 1 * q.val = q.val; omega
  have h0 : ∀ k : Fin 3, ((cfg1.win 0).blk t).view.emb (ix2 p k) = ix2 (⟨t.val * 8000 + p.val, hb⟩ : Fin 2000000) k := fun k => by
    funext a; apply Fin.ext
    match a with
    | ⟨0, _⟩ => show win1_0.index t (0 : Fin 2) * 8000 + 1 * p.val = t.val * 8000 + p.val; omega
    | ⟨1, _⟩ => show win1_0.index t (1 : Fin 2) * 3 + 1 * k.val = k.val; omega
  have h1 : ∀ k : Fin 3, ((cfg1.win 1).blk t).view.emb (ix2 k q) = ix2 k q := fun k => by
    funext a; apply Fin.ext
    match a with
    | ⟨0, _⟩ => show win1_1.index t (0 : Fin 2) * 3 + 1 * k.val = k.val; omega
    | ⟨1, _⟩ => show win1_1.index t (1 : Fin 2) * 32 + 1 * q.val = q.val; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 32 + 1 * q.val = q.val; omega
  show k1_pay1 (iblk1 V c 0 t) (iblk1 V c 1 t) (iblk1 V c 2 t) (ix2 p q)
    = lin (V c main_arg2) (V c main_arg6) (rowOf (V c main_v6)) (((cfg1.win 3).blk t).view.emb (ix2 p q))
  rw [h3]
  exact point_embed1 (V c main_arg2) (V c main_arg6) (V c main_v6) (iblk1 V c 0 t) (iblk1 V c 1 t) (iblk1 V c 2 t) t.val p q hb
    (fun k => congrArg (V c main_arg2) (h0 k)) (fun k => congrArg (V c main_arg6) (h1 k)) (congrArg (V c main_v6) h2)

/-- An index of the array is in point `t`'s block iff each coordinate is in the block's range on its axis. -/
theorem mem_blk_embed1 (t : Fin cfg1.N) (i : S2000000x32.Idx) :
    i ∈ ((cfg1.win 3).blk t).view.set
      ↔ ∀ a : Fin 2, win1_3.index t a * S8000x32.size a ≤ (i a).val ∧ (i a).val < win1_3.index t a * S8000x32.size a + S8000x32.size a := by
  show i ∈ ((View.whole main_v7).slice (win1_3.rect t)).set ↔ _
  rw [View.set_slice_whole, Rect.mem_set_unit]
  exact Iff.rfl

/-- Row `r` of the result lies in the block of point `r / 8000`, which writes its block back. -/
theorem cover_embed1 (i : S2000000x32.Idx) :
    ∃ t : Fin cfg1.N, (cfg1.win 3).flush t = true ∧ i ∈ ((cfg1.win 3).blk t).view.set := by
  have hi0 : (i 0).val < 2000000 := (i 0).isLt
  have hi1 : (i 1).val < 32 := (i 1).isLt
  have hq : (i 0).val / 8000 < 250 := by omega
  obtain ⟨-, -, -, -, -, -, e30, e31⟩ := blockIdx_embed1 ⟨(i 0).val / 8000, hq⟩
  have e30' : win1_3.index (⟨(i 0).val / 8000, hq⟩ : Fin cfg1.N) (0 : Fin 2) = (i 0).val / 8000 := e30
  refine ⟨⟨(i 0).val / 8000, hq⟩, flush1_3 _, ?_⟩
  rw [mem_blk_embed1]
  intro a
  match a with
  | ⟨0, _⟩ =>
    show win1_3.index (⟨(i 0).val / 8000, hq⟩ : Fin cfg1.N) (0 : Fin 2) * 8000 ≤ (i 0).val
      ∧ (i 0).val < win1_3.index (⟨(i 0).val / 8000, hq⟩ : Fin cfg1.N) (0 : Fin 2) * 8000 + 8000
    omega
  | ⟨1, _⟩ =>
    show win1_3.index (⟨(i 0).val / 8000, hq⟩ : Fin cfg1.N) (1 : Fin 2) * 32 ≤ (i 1).val
      ∧ (i 1).val < win1_3.index (⟨(i 0).val / 8000, hq⟩ : Fin cfg1.N) (1 : Fin 2) * 32 + 32
    omega

/-- THE ARRAY after the region: the affine map of the edge features, the weight and the bias row, as the region
    finds them. -/
theorem final1 (V : (c : Dev nD) → (b : Ref sig .tc) → Buf (Elt Ideal) ((c : Thread nD τ).loc b)) (c : Dev nD) :
    (dat1 (F := Ideal) V c).arrAt 3 cfg1.N = lin (V c main_arg2) (V c main_arg6) (rowOf (V c main_v6)) :=
  (dat1 (F := Ideal) V c).arrAt_eq_of_cover 3 (lin (V c main_arg2) (V c main_arg6) (rowOf (V c main_v6)))
    (fun t _ => flushed_embed1 V c t) cover_embed1

end Cert.KernelIdeal.Val

end
-- ==== Proof.KMlp2.lean ====
/-
  The per-layer perceptron kernel, read as a function of the arrays its windows stage.

  Each grid point holds 4000 consecutive rows of the node features and of the aggregated messages, and the whole of
  the two weight matrices and the two bias rows. Its body adds the two row blocks entry by entry, multiplies by the
  first weights (a finite sum over 32 columns), adds the first bias row, takes `max · 0`, multiplies by the second
  weights (a finite sum over 75 columns) and adds the second bias row; the changes of format in between are the
  identity on extended reals and the matrix unit's zero accumulator adds nothing. It stores that block, and the sum
  of each of its columns over the 4000 rows.

  The perceptron of a matrix is computed row by row, so the block a point stores is rows `4000 t … 4000 t + 3999` of
  the perceptron of the whole arrays. Row `r` of the first output is covered by point `r / 4000`, entry `(b, 0, q)` of
  the second by point `b`; so the first output ends as the perceptron of the sum of the two inputs and the second as
  its column sums over each block of 4000 rows.
-/
import proofs.«412989_j17643725652192_3_alg».proof.Proof.Gen.KernelIdeal.Frame
import proofs.«412989_j17643725652192_3_alg».proof.Proof.Spec
import Idealize.ShloMosaic.PureOps.Ideal.Laws
import Idealize.ShloMosaic.Lib.Pipeline.Value
import Idealize.ShloMosaic.Lib.ValueLayout
import Idealize.ShloMosaic.Lib.KernelVsHost
import Idealize.ShloMosaic.Lib.StackMember

set_option maxRecDepth 16384

open scoped BigOperators

noncomputable section

namespace Cert.KernelIdeal.Val

open Cert.KernelIdeal Cert.KernelIdeal.Gen Cert.Net Idealize.ShloMosaic Idealize.ShloMosaic.TcCoe Idealize.ShloMosaic.ValueIdx

/-- The two products' dimension numbers are those of the plain product of a matrix by a matrix. -/
theorem mlp2_dotA_eq : dot_S4000x32_S32x75_S4000x75_1_0_0_1_n_n = DotDims.plain 4000 32 75 := rfl
theorem mlp2_dotB_eq : dot_S4000x75_S75x32_S4000x32_1_0_0_1_n_n = DotDims.plain 4000 75 32 := rfl

/-- The first product into the zero accumulator, at an entry: row `p` against column `q`. -/
theorem mlp2_mmA_apply (A : FVec Ideal S4000x32 .bf16) (B : FVec Ideal S32x75 .bf16) (p : Fin 4000) (q : Fin 75) :
    matmul dot_S4000x32_S32x75_S4000x75_1_0_0_1_n_n none A B (constant (F := Ideal) S4000x75 .f32 0x00000000#32) (ix2 p q)
      = ∑ k : Fin 32, A (ix2 p k) * B (ix2 k q) := by
  rw [matmul_zero_eq_dotGeneral, mlp2_dotA_eq]
  exact StackMember.dotGeneral_plain_apply none A B p q

/-- The second product likewise. -/
theorem mlp2_mmB_apply (A : FVec Ideal S4000x75 .bf16) (B : FVec Ideal S75x32 .bf16) (p : Fin 4000) (q : Fin 32) :
    matmul dot_S4000x75_S75x32_S4000x32_1_0_0_1_n_n none A B (constant (F := Ideal) S4000x32 .f32 0x00000000#32) (ix2 p q)
      = ∑ k : Fin 75, A (ix2 p k) * B (ix2 k q) := by
  rw [matmul_zero_eq_dotGeneral, mlp2_dotB_eq]
  exact StackMember.dotGeneral_plain_apply none A B p q

/-- The body's first payload is the perceptron of the sum of its two row blocks. -/
theorem mlp2_pay1_eq (x0 x1 : Vec Ideal S4000x32 .f32) (x2 : Vec Ideal S32x75 .f32) (x3 : Vec Ideal S1x75 .f32)
    (x4 : Vec Ideal S75x32 .f32) (x5 : Vec Ideal S1x32 .f32) :
    k2_pay1 x0 x1 x2 x3 x4 x5 = mlp (add2 x0 x1) x2 (rowOf x3) x4 (rowOf x5) := by
  funext j
  obtain ⟨p, q, rfl⟩ : ∃ (p : Fin 4000) (q : Fin 32), j = ix2 p q := ⟨j 0, j 1, eq_ix2 j⟩
  unfold k2_pay1
  simp only [shapeCast_self]
  refine (addf_apply _ _ _).trans ?_
  refine (congrArg₂ (· + ·) (mlp2_mmB_apply _ _ p q) (broadcastTo_1b_ab_apply _ _ p q)).trans ?_
  show _ = (∑ k : Fin 75, max ((∑ l : Fin 32, (x0 (ix2 p l) + x1 (ix2 p l)) * x2 (ix2 l k)) + x3 (ix2 0 k)) 0 * x4 (ix2 k q)) + x5 (ix2 0 q)
  refine congrArg (· + x5 (ix2 (0 : Fin 1) q)) (Finset.sum_congr rfl fun k _ => ?_)
  refine congrArg (· * x4 (ix2 k q)) ?_
  show max (matmul dot_S4000x32_S32x75_S4000x75_1_0_0_1_n_n none _ _ (constant (F := Ideal) S4000x75 .f32 0x00000000#32) (ix2 p k) + broadcastTo S4000x75 x3 broadcasts_S1x75_S4000x75 (ix2 p k)) (Ideal.ofBits .f32 0x00000000#32) = _
  rw [mlp2_mmA_apply, broadcastTo_1b_ab_apply, Ideal.ofBits_zero_f32]
  rfl

/-- The body's second payload, at column `q`: the first payload's column `q` summed over the block's 4000 rows. -/
theorem mlp2_pay2_apply (x0 x1 : Vec Ideal S4000x32 .f32) (x2 : Vec Ideal S32x75 .f32) (x3 : Vec Ideal S1x75 .f32)
    (x4 : Vec Ideal S75x32 .f32) (x5 : Vec Ideal S1x32 .f32) (q : Fin 32) :
    k2_pay2 x0 x1 x2 x3 x4 x5 (ix3 (0 : Fin 1) (0 : Fin 1) q) = ∑ r : Fin 4000, k2_pay1 x0 x1 x2 x3 x4 x5 (ix2 r q) := by
  unfold k2_pay2
  refine (shapeCast_ab_1ab_apply _ _ 0 0 q).trans ?_
  refine (shapeCast_a_1a_apply _ _ 0 q).trans ?_
  refine (Ideal.multiReduction_add_single _ _ _ _ _ (ix1 q)).trans ?_
  refine Finset.sum_congr rfl fun r _ => congrArg _ (funext fun a => Fin.ext ?_)
  match a with
  | ⟨0, _⟩ => rfl
  | ⟨1, _⟩ => rfl

/-- The perceptron is computed row by row: where row `p` of two blocks is row `P` of two arrays and the weights are
    the same, row `p` of the blocks' perceptron is row `P` of the arrays'. -/
theorem mlp2_row_congr {N N' : Nat} (x0 x1 : A2 N 32) (H A : A2 N' 32) (w1 w1' : A2 32 75) (r1 r1' : A2 1 75)
    (w2 w2' : A2 75 32) (r2 r2' : A2 1 32) (p : Fin N) (P : Fin N') (q : Fin 32)
    (h0 : ∀ l, x0 (ix2 p l) = H (ix2 P l)) (h1 : ∀ l, x1 (ix2 p l) = A (ix2 P l))
    (e1 : w1 = w1') (e2 : r1 = r1') (e3 : w2 = w2') (e4 : r2 = r2') :
    mlp (add2 x0 x1) w1 (rowOf r1) w2 (rowOf r2) (ix2 p q) = mlp (add2 H A) w1' (rowOf r1') w2' (rowOf r2') (ix2 P q) := by
  subst e1 e2 e3 e4
  show (∑ k : Fin 75, max ((∑ l : Fin 32, (x0 (ix2 p l) + x1 (ix2 p l)) * w1 (ix2 l k)) + r1 (ix2 0 k)) 0 * w2 (ix2 k q)) + r2 (ix2 0 q)
    = (∑ k : Fin 75, max ((∑ l : Fin 32, (H (ix2 P l) + A (ix2 P l)) * w1 (ix2 l k)) + r1 (ix2 0 k)) 0 * w2 (ix2 k q)) + r2 (ix2 0 q)
  simp only [h0, h1]

theorem mlp2_hz2 : (![0, 0] : Fin 2 → Nat) = fun _ => 0 := funext fun a => by fin_cases a <;> rfl
theorem mlp2_hz3 : (![0, 0, 0] : Fin 3 → Nat) = fun _ => 0 := funext fun a => by fin_cases a <;> rfl

/-- The printed index maps over the grid: the row-blocked windows sit at block row `t`, the weights and biases at block 0. -/
theorem mlp2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0 :=
  (by decide +kernel : ∀ t : Fin grid2.N, _)

variable (V : (c : Dev nD) → (b : Ref sig .tc) → Buf (Elt Ideal) ((c : Thread nD τ).loc b))

/-- Window 0's block at point `t` is rows `4000 t … 4000 t + 3999` of its array. -/
theorem mlp2_iblk0_apply (c : Dev nD) (t : Fin cfg2.N) (p : Fin 4000) (l : Fin 32) (P : Fin 200000) (hP : P.val = t.val * 4000 + p.val) :
    (iblk2 V c 0 t : Vec Ideal S4000x32 .f32) (ix2 p l) = (V c main_v5 : Vec Ideal S200000x32 .f32) (ix2 P l) := by
  obtain ⟨e0, e1, -⟩ := mlp2_idx t
  unfold iblk2
  rw [View.read_apply]
  show V c main_v5 _ = V c main_v5 _
  congr 1
  funext a
  apply Fin.ext
  match a with
  | ⟨0, _⟩ => show win2_0.index t (0 : Fin 2) * 4000 + 1 * p.val = P.val; rw [e0, hP]; omega
  | ⟨1, _⟩ => show win2_0.index t (1 : Fin 2) * 32 + 1 * l.val = l.val; rw [e1]; omega

/-- Window 1's block likewise. -/
theorem mlp2_iblk1_apply (c : Dev nD) (t : Fin cfg2.N) (p : Fin 4000) (l : Fin 32) (P : Fin 200000) (hP : P.val = t.val * 4000 + p.val) :
    (iblk2 V c 1 t : Vec Ideal S4000x32 .f32) (ix2 p l) = (V c main_v13 : Vec Ideal S200000x32 .f32) (ix2 P l) := by
  obtain ⟨-, -, e0, e1, -⟩ := mlp2_idx t
  unfold iblk2
  rw [View.read_apply]
  show V c main_v13 _ = V c main_v13 _
  congr 1
  funext a
  apply Fin.ext
  match a with
  | ⟨0, _⟩ => show win2_1.index t (0 : Fin 2) * 4000 + 1 * p.val = P.val; rw [e0, hP]; omega
  | ⟨1, _⟩ => show win2_1.index t (1 : Fin 2) * 32 + 1 * l.val = l.val; rw [e1]; omega

/-- The weight and bias windows hold their whole arrays at every point. -/
theorem mlp2_iblk2_eq (c : Dev nD) (t : Fin cfg2.N) : (iblk2 V c 2 t : Vec Ideal S32x75 .f32) = (V c main_v15 : Vec Ideal S32x75 .f32) := by
  obtain ⟨-, -, -, -, e0, e1, -⟩ := mlp2_idx t
  funext y
  unfold iblk2
  rw [View.read_apply]
  show V c main_v15 _ = V c main_v15 _
  congr 1
  funext a
  apply Fin.ext
  match a with
  | ⟨0, _⟩ => show win2_2.index t (0 : Fin 2) * 32 + 1 * (y 0).val = (y 0).val; rw [e0]; omega
  | ⟨1, _⟩ => show win2_2.index t (1 : Fin 2) * 75 + 1 * (y 1).val = (y 1).val; rw [e1]; omega

theorem mlp2_iblk3_eq (c : Dev nD) (t : Fin cfg2.N) : (iblk2 V c 3 t : Vec Ideal S1x75 .f32) = (V c main_v22 : Vec Ideal S1x75 .f32) := by
  obtain ⟨-, -, -, -, -, -, e0, e1, -⟩ := mlp2_idx t
  funext y
  unfold iblk2
  rw [View.read_apply]
  show V c main_v22 _ = V c main_v22 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 75 + 1 * (y 1).val = (y 1).val; rw [e1]; omega

theorem mlp2_iblk4_eq (c : Dev nD) (t : Fin cfg2.N) : (iblk2 V c 4 t : Vec Ideal S75x32 .f32) = (V c main_v19 : Vec Ideal S75x32 .f32) := by
  obtain ⟨-, -, -, -, -, -, -, -, e0, e1, -⟩ := mlp2_idx t
  funext y
  unfold iblk2
  rw [View.read_apply]
  show V c main_v19 _ = V c main_v19 _
  congr 1
  funext a
  apply Fin.ext
  match a with
  | ⟨0, _⟩ => show win2_4.index t (0 : Fin 2) * 75 + 1 * (y 0).val = (y 0).val; rw [e0]; omega
  | ⟨1, _⟩ => show win2_4.index t (1 : Fin 2) * 32 + 1 * (y 1).val = (y 1).val; rw [e1]; omega

theorem mlp2_iblk5_eq (c : Dev nD) (t : Fin cfg2.N) : (iblk2 V c 5 t : Vec Ideal S1x32 .f32) = (V c main_v23 : Vec Ideal S1x32 .f32) := by
  obtain ⟨-, -, -, -, -, -, -, -, -, -, e0, e1, -⟩ := mlp2_idx t
  funext y
  unfold iblk2
  rw [View.read_apply]
  show V c main_v23 _ = V c main_v23 _
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 32 + 1 * (y 1).val = (y 1).val; rw [e1]; omega

/-- The perceptron of the region's arrays: what the first output array ends holding. -/
abbrev mlp2_G (c : Dev nD) : A2 200000 32 :=
  mlp (add2 (V c main_v5) (V c main_v13)) (V c main_v15) (rowOf (V c main_v22)) (V c main_v19) (rowOf (V c main_v23))

/-- Row `p` of the perceptron of point `t`'s blocks is row `4000 t + p` of the perceptron of the arrays. -/
theorem mlp2_blk_apply (c : Dev nD) (t : Fin cfg2.N) (p : Fin 4000) (q : Fin 32) (P : Fin 200000) (hP : P.val = t.val * 4000 + p.val) :
    mlp (add2 (iblk2 V c 0 t : Vec Ideal S4000x32 .f32) (iblk2 V c 1 t : Vec Ideal S4000x32 .f32)) (iblk2 V c 2 t : Vec Ideal S32x75 .f32)
        (rowOf (iblk2 V c 3 t : Vec Ideal S1x75 .f32)) (iblk2 V c 4 t : Vec Ideal S75x32 .f32) (rowOf (iblk2 V c 5 t : Vec Ideal S1x32 .f32)) (ix2 p q)
      = mlp2_G V c (ix2 P q) :=
  mlp2_row_congr (iblk2 V c 0 t : Vec Ideal S4000x32 .f32) (iblk2 V c 1 t : Vec Ideal S4000x32 .f32) (V c main_v5) (V c main_v13)
    (iblk2 V c 2 t : Vec Ideal S32x75 .f32) (V c main_v15) (iblk2 V c 3 t : Vec Ideal S1x75 .f32) (V c main_v22)
    (iblk2 V c 4 t : Vec Ideal S75x32 .f32) (V c main_v19) (iblk2 V c 5 t : Vec Ideal S1x32 .f32) (V c main_v23) p P q
    (fun l => mlp2_iblk0_apply V c t p l P hP) (fun l => mlp2_iblk1_apply V c t p l P hP)
    (mlp2_iblk2_eq V c t) (mlp2_iblk3_eq V c t) (mlp2_iblk4_eq V c t) (mlp2_iblk5_eq V c t)

/-- What point `t` writes back to the first output array is block `t` of `mlp2_G`. -/
theorem mlp2_flushed6_eq (c : Dev nD) (t : Fin cfg2.N) :
    (dat2 (F := Ideal) V c).flushed 6 t = ((cfg2.win 6).blk t).view.read (Elt Ideal) (mlp2_G V c) := by
  obtain ⟨-, -, -, -, -, -, -, -, -, -, -, -, e0, e1, -⟩ := mlp2_idx t
  have hN : cfg2.N = 50 := N_2
  show (cfg2.win 6).cut (grid2.coords t) ((dat2 (F := Ideal) V c).after 6 t) = _
  rw [after2_6]
  unfold out2_6
  rw [View.canon_unit_zero mlp2_hz2]
  simp only [View.ld_unit_zero (S := S4000x32) mlp2_hz2, View.ld_unit_zero (S := S32x75) mlp2_hz2, View.ld_unit_zero (S := S1x75) mlp2_hz2,
    View.ld_unit_zero (S := S75x32) mlp2_hz2, View.ld_unit_zero (S := S1x32) mlp2_hz2]
  rw [mlp2_pay1_eq (iblk2 V c 0 t) (iblk2 V c 1 t) (iblk2 V c 2 t) (iblk2 V c 3 t) (iblk2 V c 4 t) (iblk2 V c 5 t)]
  funext j
  obtain ⟨p, q, rfl⟩ : ∃ (p : Fin 4000) (q : Fin 32), j = ix2 p q := ⟨j 0, j 1, eq_ix2 j⟩
  rw [View.read_apply]
  have hP : t.val * 4000 + p.val < 200000 := by have := t.isLt; omega
  refine (mlp2_blk_apply V c t p q ⟨t.val * 4000 + p.val, hP⟩ rfl).trans ?_
  congr 1
  funext a
  apply Fin.ext
  match a with
  | ⟨0, _⟩ => show t.val * 4000 + p.val = win2_6.index t (0 : Fin 2) * 4000 + 1 * p.val; rw [e0]; omega
  | ⟨1, _⟩ => show q.val = win2_6.index t (1 : Fin 2) * 32 + 1 * q.val; rw [e1]; omega

/-- An index of the first output array is in point `t`'s block iff each coordinate is in the block's range on its axis. -/
theorem mlp2_mem_blk6 (t : Fin cfg2.N) (i : S200000x32.Idx) :
    i ∈ ((cfg2.win 6).blk t).view.set ↔ ∀ a : Fin 2, win2_6.index t a * S4000x32.size a ≤ (i a).val ∧ (i a).val < win2_6.index t a * S4000x32.size a + S4000x32.size a := by
  show i ∈ ((View.whole main_v24_0).slice (win2_6.rect t)).set ↔ _
  rw [View.set_slice_whole, Rect.mem_set_unit]
  exact Iff.rfl

/-- Row `r` of the first output array is written back by point `r / 4000`. -/
theorem mlp2_covered6 (i : S200000x32.Idx) :
    ∃ t : Fin cfg2.N, (cfg2.win 6).flush t = true ∧ i ∈ ((cfg2.win 6).blk t).view.set := by
  have hi0 : (i 0).val < 200000 := (i 0).isLt
  have hi1 : (i 1).val < 32 := (i 1).isLt
  have hN : cfg2.N = 50 := N_2
  obtain ⟨t, ht⟩ : ∃ t : Fin cfg2.N, t.val = (i 0).val / 4000 := ⟨⟨(i 0).val / 4000, by rw [hN]; omega⟩, rfl⟩
  obtain ⟨-, -, -, -, -, -, -, -, -, -, -, -, e0, e1, -⟩ := mlp2_idx t
  refine ⟨t, flush2_6 t, ?_⟩
  rw [mlp2_mem_blk6]
  intro a
  match a with
  | ⟨0, _⟩ => show win2_6.index t (0 : Fin 2) * 4000 ≤ (i 0).val ∧ (i 0).val < win2_6.index t (0 : Fin 2) * 4000 + 4000; rw [e0, ht]; omega
  | ⟨1, _⟩ => show win2_6.index t (1 : Fin 2) * 32 ≤ (i 1).val ∧ (i 1).val < win2_6.index t (1 : Fin 2) * 32 + 32; rw [e1]; omega

/-- The first output array after the region: the perceptron of the sum of the two input arrays. -/
theorem final2_z (c : Dev nD) :
    (dat2 (F := Ideal) V c).arrAt 6 cfg2.N = mlp (add2 (V c main_v5) (V c main_v13)) (V c main_v15) (rowOf (V c main_v22)) (V c main_v19) (rowOf (V c main_v23)) :=
  (dat2 (F := Ideal) V c).arrAt_eq_of_cover 6 (mlp2_G V c) (fun t _ => mlp2_flushed6_eq V c t) mlp2_covered6

/-- What point `t` writes back to the second output array is block `t` of the block sums of `mlp2_G`: the column sums of the
    point's 4000 rows. -/
theorem mlp2_flushed7_eq (c : Dev nD) (t : Fin cfg2.N) :
    (dat2 (F := Ideal) V c).flushed 7 t = ((cfg2.win 7).blk t).view.read (Elt Ideal) (blockSums (B := 50) (T := 4000) (mlp2_G V c)) := by
  obtain ⟨-, -, -, -, -, -, -, -, -, -, -, -, -, -, e0, e1, e2⟩ := mlp2_idx t
  have hN : cfg2.N = 50 := N_2
  have ht : t.val < 50 := by have := t.isLt; omega
  show (cfg2.win 7).cut (grid2.coords t) ((dat2 (F := Ideal) V c).after 7 t) = _
  rw [after2_7]
  unfold out2_7
  rw [View.canon_unit_zero mlp2_hz3]
  simp only [View.ld_unit_zero (S := S4000x32) mlp2_hz2, View.ld_unit_zero (S := S32x75) mlp2_hz2, View.ld_unit_zero (S := S1x75) mlp2_hz2,
    View.ld_unit_zero (S := S75x32) mlp2_hz2, View.ld_unit_zero (S := S1x32) mlp2_hz2]
  funext j
  obtain ⟨u, v, q, rfl⟩ : ∃ (u : Fin 1) (v : Fin 1) (q : Fin 32), j = ix3 u v q := ⟨j 0, j 1, j 2, eq_ix3 j⟩
  obtain rfl : u = 0 := Subsingleton.elim _ _
  obtain rfl : v = 0 := Subsingleton.elim _ _
  rw [View.read_apply]
  refine (mlp2_pay2_apply (iblk2 V c 0 t) (iblk2 V c 1 t) (iblk2 V c 2 t) (iblk2 V c 3 t) (iblk2 V c 4 t) (iblk2 V c 5 t) q).trans ?_
  rw [mlp2_pay1_eq (iblk2 V c 0 t) (iblk2 V c 1 t) (iblk2 V c 2 t) (iblk2 V c 3 t) (iblk2 V c 4 t) (iblk2 V c 5 t)]
  refine (Finset.sum_congr rfl fun r _ =>
    mlp2_blk_apply V c t r q ⟨t.val * 4000 + r.val, by have := r.isLt; omega⟩ rfl).trans ?_
  have hemb : ((cfg2.win 7).blk t).view.emb (ix3 (0 : Fin 1) (0 : Fin 1) q) = ix3 (⟨t.val, ht⟩ : Fin 50) (0 : Fin 1) q := by
    funext a
    apply Fin.ext
    match a with
    | ⟨0, _⟩ => show win2_7.index t (0 : Fin 3) * 1 + 1 * (0 : Fin 1).val = t.val; rw [e0]; simp
    | ⟨1, _⟩ => show win2_7.index t (1 : Fin 3) * 1 + 1 * (0 : Fin 1).val = 0; rw [e1]; simp
    | ⟨2, _⟩ => show win2_7.index t (2 : Fin 3) * 32 + 1 * q.val = q.val; rw [e2]; omega
  rw [hemb]
  rfl

/-- An index of the second output array is in point `t`'s block iff each coordinate is in the block's range on its axis. -/
theorem mlp2_mem_blk7 (t : Fin cfg2.N) (i : S50x1x32.Idx) :
    i ∈ ((cfg2.win 7).blk t).view.set ↔ ∀ a : Fin 3, win2_7.index t a * S1x1x32.size a ≤ (i a).val ∧ (i a).val < win2_7.index t a * S1x1x32.size a + S1x1x32.size a := by
  show i ∈ ((View.whole main_v24_1).slice (win2_7.rect t)).set ↔ _
  rw [View.set_slice_whole, Rect.mem_set_unit]
  exact Iff.rfl

/-- Entry `(b, 0, q)` of the second output array is written back by point `b`. -/
theorem mlp2_covered7 (i : S50x1x32.Idx) :
    ∃ t : Fin cfg2.N, (cfg2.win 7).flush t = true ∧ i ∈ ((cfg2.win 7).blk t).view.set := by
  have hi0 : (i 0).val < 50 := (i 0).isLt
  have hi1 : (i 1).val < 1 := (i 1).isLt
  have hi2 : (i 2).val < 32 := (i 2).isLt
  have hN : cfg2.N = 50 := N_2
  obtain ⟨t, ht⟩ : ∃ t : Fin cfg2.N, t.val = (i 0).val := ⟨⟨(i 0).val, by rw [hN]; omega⟩, rfl⟩
  obtain ⟨-, -, -, -, -, -, -, -, -, -, -, -, -, -, e0, e1, e2⟩ := mlp2_idx t
  refine ⟨t, flush2_7 t, ?_⟩
  rw [mlp2_mem_blk7]
  intro a
  match a with
  | ⟨0, _⟩ => show win2_7.index t (0 : Fin 3) * 1 ≤ (i 0).val ∧ (i 0).val < win2_7.index t (0 : Fin 3) * 1 + 1; rw [e0, ht]; omega
  | ⟨1, _⟩ => show win2_7.index t (1 : Fin 3) * 1 ≤ (i 1).val ∧ (i 1).val < win2_7.index t (1 : Fin 3) * 1 + 1; rw [e1]; omega
  | ⟨2, _⟩ => show win2_7.index t (2 : Fin 3) * 32 ≤ (i 2).val ∧ (i 2).val < win2_7.index t (2 : Fin 3) * 32 + 32; rw [e2]; omega

/-- The second output array after the region: per block of 4000 rows, the column sums of the first. -/
theorem final2_s (c : Dev nD) :
    (dat2 (F := Ideal) V c).arrAt 7 cfg2.N = blockSums (B := 50) (T := 4000) (mlp (add2 (V c main_v5) (V c main_v13)) (V c main_v15) (rowOf (V c main_v22)) (V c main_v19) (rowOf (V c main_v23))) :=
  (dat2 (F := Ideal) V c).arrAt_eq_of_cover 7 (blockSums (B := 50) (T := 4000) (mlp2_G V c)) (fun t _ => mlp2_flushed7_eq V c t) mlp2_covered7

end Cert.KernelIdeal.Val

end
-- ==== Proof.KMlp5.lean ====
/-
  The per-layer perceptron kernel, read as a function of the arrays its windows stage.

  Each grid point holds 4000 consecutive rows of the node features and of the aggregated messages, and the whole of
  the two weight matrices and the two bias rows. Its body adds the two row blocks entry by entry, multiplies by the
  first weights (a finite sum over 32 columns), adds the first bias row, takes `max · 0`, multiplies by the second
  weights (a finite sum over 75 columns) and adds the second bias row; the changes of format in between are the
  identity on extended reals and the matrix unit's zero accumulator adds nothing. It stores that block, and the sum
  of each of its columns over the 4000 rows.

  The perceptron of a matrix is computed row by row, so the block a point stores is rows `4000 t … 4000 t + 3999` of
  the perceptron of the whole arrays. Row `r` of the first output is covered by point `r / 4000`, entry `(b, 0, q)` of
  the second by point `b`; so the first output ends as the perceptron of the sum of the two inputs and the second as
  its column sums over each block of 4000 rows.
-/
import proofs.«412989_j17643725652192_3_alg».proof.Proof.Gen.KernelIdeal.Frame
import proofs.«412989_j17643725652192_3_alg».proof.Proof.Spec
import Idealize.ShloMosaic.PureOps.Ideal.Laws
import Idealize.ShloMosaic.Lib.Pipeline.Value
import Idealize.ShloMosaic.Lib.ValueLayout
import Idealize.ShloMosaic.Lib.KernelVsHost
import Idealize.ShloMosaic.Lib.StackMember

set_option maxRecDepth 16384

open scoped BigOperators

noncomputable section

namespace Cert.KernelIdeal.Val

open Cert.KernelIdeal Cert.KernelIdeal.Gen Cert.Net Idealize.ShloMosaic Idealize.ShloMosaic.TcCoe Idealize.ShloMosaic.ValueIdx

/-- The two products' dimension numbers are those of the plain product of a matrix by a matrix. -/
theorem mlp5_dotA_eq : dot_S4000x32_S32x75_S4000x75_1_0_0_1_n_n = DotDims.plain 4000 32 75 := rfl
theorem mlp5_dotB_eq : dot_S4000x75_S75x32_S4000x32_1_0_0_1_n_n = DotDims.plain 4000 75 32 := rfl

/-- The first product into the zero accumulator, at an entry: row `p` against column `q`. -/
theorem mlp5_mmA_apply (A : FVec Ideal S4000x32 .bf16) (B : FVec Ideal S32x75 .bf16) (p : Fin 4000) (q : Fin 75) :
    matmul dot_S4000x32_S32x75_S4000x75_1_0_0_1_n_n none A B (constant (F := Ideal) S4000x75 .f32 0x00000000#32) (ix2 p q)
      = ∑ k : Fin 32, A (ix2 p k) * B (ix2 k q) := by
  rw [matmul_zero_eq_dotGeneral, mlp5_dotA_eq]
  exact StackMember.dotGeneral_plain_apply none A B p q

/-- The second product likewise. -/
theorem mlp5_mmB_apply (A : FVec Ideal S4000x75 .bf16) (B : FVec Ideal S75x32 .bf16) (p : Fin 4000) (q : Fin 32) :
    matmul dot_S4000x75_S75x32_S4000x32_1_0_0_1_n_n none A B (constant (F := Ideal) S4000x32 .f32 0x00000000#32) (ix2 p q)
      = ∑ k : Fin 75, A (ix2 p k) * B (ix2 k q) := by
  rw [matmul_zero_eq_dotGeneral, mlp5_dotB_eq]
  exact StackMember.dotGeneral_plain_apply none A B p q

/-- The body's first payload is the perceptron of the sum of its two row blocks. -/
theorem mlp5_pay1_eq (x0 x1 : Vec Ideal S4000x32 .f32) (x2 : Vec Ideal S32x75 .f32) (x3 : Vec Ideal S1x75 .f32)
    (x4 : Vec Ideal S75x32 .f32) (x5 : Vec Ideal S1x32 .f32) :
    k5_pay1 x0 x1 x2 x3 x4 x5 = mlp (add2 x0 x1) x2 (rowOf x3) x4 (rowOf x5) := by
  funext j
  obtain ⟨p, q, rfl⟩ : ∃ (p : Fin 4000) (q : Fin 32), j = ix2 p q := ⟨j 0, j 1, eq_ix2 j⟩
  unfold k5_pay1
  simp only [shapeCast_self]
  refine (addf_apply _ _ _).trans ?_
  refine (congrArg₂ (· + ·) (mlp5_mmB_apply _ _ p q) (broadcastTo_1b_ab_apply _ _ p q)).trans ?_
  show _ = (∑ k : Fin 75, max ((∑ l : Fin 32, (x0 (ix2 p l) + x1 (ix2 p l)) * x2 (ix2 l k)) + x3 (ix2 0 k)) 0 * x4 (ix2 k q)) + x5 (ix2 0 q)
  refine congrArg (· + x5 (ix2 (0 : Fin 1) q)) (Finset.sum_congr rfl fun k _ => ?_)
  refine congrArg (· * x4 (ix2 k q)) ?_
  show max (matmul dot_S4000x32_S32x75_S4000x75_1_0_0_1_n_n none _ _ (constant (F := Ideal) S4000x75 .f32 0x00000000#32) (ix2 p k) + broadcastTo S4000x75 x3 broadcasts_S1x75_S4000x75 (ix2 p k)) (Ideal.ofBits .f32 0x00000000#32) = _
  rw [mlp5_mmA_apply, broadcastTo_1b_ab_apply, Ideal.ofBits_zero_f32]
  rfl

/-- The body's second payload, at column `q`: the first payload's column `q` summed over the block's 4000 rows. -/
theorem mlp5_pay2_apply (x0 x1 : Vec Ideal S4000x32 .f32) (x2 : Vec Ideal S32x75 .f32) (x3 : Vec Ideal S1x75 .f32)
    (x4 : Vec Ideal S75x32 .f32) (x5 : Vec Ideal S1x32 .f32) (q : Fin 32) :
    k5_pay2 x0 x1 x2 x3 x4 x5 (ix3 (0 : Fin 1) (0 : Fin 1) q) = ∑ r : Fin 4000, k5_pay1 x0 x1 x2 x3 x4 x5 (ix2 r q) := by
  unfold k5_pay2
  refine (shapeCast_ab_1ab_apply _ _ 0 0 q).trans ?_
  refine (shapeCast_a_1a_apply _ _ 0 q).trans ?_
  refine (Ideal.multiReduction_add_single _ _ _ _ _ (ix1 q)).trans ?_
  refine Finset.sum_congr rfl fun r _ => congrArg _ (funext fun a => Fin.ext ?_)
  match a with
  | ⟨0, _⟩ => rfl
  | ⟨1, _⟩ => rfl

/-- The perceptron is computed row by row: where row `p` of two blocks is row `P` of two arrays and the weights are
    the same, row `p` of the blocks' perceptron is row `P` of the arrays'. -/
theorem mlp5_row_congr {N N' : Nat} (x0 x1 : A2 N 32) (H A : A2 N' 32) (w1 w1' : A2 32 75) (r1 r1' : A2 1 75)
    (w2 w2' : A2 75 32) (r2 r2' : A2 1 32) (p : Fin N) (P : Fin N') (q : Fin 32)
    (h0 : ∀ l, x0 (ix2 p l) = H (ix2 P l)) (h1 : ∀ l, x1 (ix2 p l) = A (ix2 P l))
    (e1 : w1 = w1') (e2 : r1 = r1') (e3 : w2 = w2') (e4 : r2 = r2') :
    mlp (add2 x0 x1) w1 (rowOf r1) w2 (rowOf r2) (ix2 p q) = mlp (add2 H A) w1' (rowOf r1') w2' (rowOf r2') (ix2 P q) := by
  subst e1 e2 e3 e4
  show (∑ k : Fin 75, max ((∑ l : Fin 32, (x0 (ix2 p l) + x1 (ix2 p l)) * w1 (ix2 l k)) + r1 (ix2 0 k)) 0 * w2 (ix2 k q)) + r2 (ix2 0 q)
    = (∑ k : Fin 75, max ((∑ l : Fin 32, (H (ix2 P l) + A (ix2 P l)) * w1 (ix2 l k)) + r1 (ix2 0 k)) 0 * w2 (ix2 k q)) + r2 (ix2 0 q)
  simp only [h0, h1]

theorem mlp5_hz2 : (![0, 0] : Fin 2 → Nat) = fun _ => 0 := funext fun a => by fin_cases a <;> rfl
theorem mlp5_hz3 : (![0, 0, 0] : Fin 3 → Nat) = fun _ => 0 := funext fun a => by fin_cases a <;> rfl

/-- The printed index maps over the grid: the row-blocked windows sit at block row `t`, the weights and biases at block 0. -/
theorem mlp5_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 3) = t.val ∧ win5_7.index t (1 : Fin 3) = 0 ∧ win5_7.index t (2 : Fin 3) = 0 :=
  (by decide +kernel : ∀ t : Fin grid5.N, _)

variable (V : (c : Dev nD) → (b : Ref sig .tc) → Buf (Elt Ideal) ((c : Thread nD τ).loc b))

/-- Window 0's block at point `t` is rows `4000 t … 4000 t + 3999` of its array. -/
theorem mlp5_iblk0_apply (c : Dev nD) (t : Fin cfg5.N) (p : Fin 4000) (l : Fin 32) (P : Fin 200000) (hP : P.val = t.val * 4000 + p.val) :
    (iblk5 V c 0 t : Vec Ideal S4000x32 .f32) (ix2 p l) = (V c main_v49 : Vec Ideal S200000x32 .f32) (ix2 P l) := by
  obtain ⟨e0, e1, -⟩ := mlp5_idx t
  unfold iblk5
  rw [View.read_apply]
  show V c main_v49 _ = V c main_v49 _
  congr 1
  funext a
  apply Fin.ext
  match a with
  | ⟨0, _⟩ => show win5_0.index t (0 : Fin 2) * 4000 + 1 * p.val = P.val; rw [e0, hP]; omega
  | ⟨1, _⟩ => show win5_0.index t (1 : Fin 2) * 32 + 1 * l.val = l.val; rw [e1]; omega

/-- Window 1's block likewise. -/
theorem mlp5_iblk1_apply (c : Dev nD) (t : Fin cfg5.N) (p : Fin 4000) (l : Fin 32) (P : Fin 200000) (hP : P.val = t.val * 4000 + p.val) :
    (iblk5 V c 1 t : Vec Ideal S4000x32 .f32) (ix2 p l) = (V c main_v55 : Vec Ideal S200000x32 .f32) (ix2 P l) := by
  obtain ⟨-, -, e0, e1, -⟩ := mlp5_idx t
  unfold iblk5
  rw [View.read_apply]
  show V c main_v55 _ = V c main_v55 _
  congr 1
  funext a
  apply Fin.ext
  match a with
  | ⟨0, _⟩ => show win5_1.index t (0 : Fin 2) * 4000 + 1 * p.val = P.val; rw [e0, hP]; omega
  | ⟨1, _⟩ => show win5_1.index t (1 : Fin 2) * 32 + 1 * l.val = l.val; rw [e1]; omega

/-- The weight and bias windows hold their whole arrays at every point. -/
theorem mlp5_iblk2_eq (c : Dev nD) (t : Fin cfg5.N) : (iblk5 V c 2 t : Vec Ideal S32x75 .f32) = (V c main_v57 : Vec Ideal S32x75 .f32) := by
  obtain ⟨-, -, -, -, e0, e1, -⟩ := mlp5_idx t
  funext y
  unfold iblk5
  rw [View.read_apply]
  show V c main_v57 _ = V c main_v57 _
  congr 1
  funext a
  apply Fin.ext
  match a with
  | ⟨0, _⟩ => show win5_2.index t (0 : Fin 2) * 32 + 1 * (y 0).val = (y 0).val; rw [e0]; omega
  | ⟨1, _⟩ => show win5_2.index t (1 : Fin 2) * 75 + 1 * (y 1).val = (y 1).val; rw [e1]; omega

theorem mlp5_iblk3_eq (c : Dev nD) (t : Fin cfg5.N) : (iblk5 V c 3 t : Vec Ideal S1x75 .f32) = (V c main_v64 : Vec Ideal S1x75 .f32) := by
  obtain ⟨-, -, -, -, -, -, e0, e1, -⟩ := mlp5_idx t
  funext y
  unfold iblk5
  rw [View.read_apply]
  show V c main_v64 _ = V c main_v64 _
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 75 + 1 * (y 1).val = (y 1).val; rw [e1]; omega

theorem mlp5_iblk4_eq (c : Dev nD) (t : Fin cfg5.N) : (iblk5 V c 4 t : Vec Ideal S75x32 .f32) = (V c main_v61 : Vec Ideal S75x32 .f32) := by
  obtain ⟨-, -, -, -, -, -, -, -, e0, e1, -⟩ := mlp5_idx t
  funext y
  unfold iblk5
  rw [View.read_apply]
  show V c main_v61 _ = V c main_v61 _
  congr 1
  funext a
  apply Fin.ext
  match a with
  | ⟨0, _⟩ => show win5_4.index t (0 : Fin 2) * 75 + 1 * (y 0).val = (y 0).val; rw [e0]; omega
  | ⟨1, _⟩ => show win5_4.index t (1 : Fin 2) * 32 + 1 * (y 1).val = (y 1).val; rw [e1]; omega

theorem mlp5_iblk5_eq (c : Dev nD) (t : Fin cfg5.N) : (iblk5 V c 5 t : Vec Ideal S1x32 .f32) = (V c main_v65 : Vec Ideal S1x32 .f32) := by
  obtain ⟨-, -, -, -, -, -, -, -, -, -, e0, e1, -⟩ := mlp5_idx t
  funext y
  unfold iblk5
  rw [View.read_apply]
  show V c main_v65 _ = V c main_v65 _
  congr 1
  funext a
  apply Fin.ext
  match a with
  | ⟨0, _⟩ => show win5_5.index t (0 : Fin 2) * 1 + 1 * (y 0).val = (y 0).val; rw [e0]; omega
  | ⟨1, _⟩ => show win5_5.index t (1 : Fin 2) * 32 + 1 * (y 1).val = (y 1).val; rw [e1]; omega

/-- The perceptron of the region's arrays: what the first output array ends holding. -/
abbrev mlp5_G (c : Dev nD) : A2 200000 32 :=
  mlp (add2 (V c main_v49) (V c main_v55)) (V c main_v57) (rowOf (V c main_v64)) (V c main_v61) (rowOf (V c main_v65))

/-- Row `p` of the perceptron of point `t`'s blocks is row `4000 t + p` of the perceptron of the arrays. -/
theorem mlp5_blk_apply (c : Dev nD) (t : Fin cfg5.N) (p : Fin 4000) (q : Fin 32) (P : Fin 200000) (hP : P.val = t.val * 4000 + p.val) :
    mlp (add2 (iblk5 V c 0 t : Vec Ideal S4000x32 .f32) (iblk5 V c 1 t : Vec Ideal S4000x32 .f32)) (iblk5 V c 2 t : Vec Ideal S32x75 .f32)
        (rowOf (iblk5 V c 3 t : Vec Ideal S1x75 .f32)) (iblk5 V c 4 t : Vec Ideal S75x32 .f32) (rowOf (iblk5 V c 5 t : Vec Ideal S1x32 .f32)) (ix2 p q)
      = mlp5_G V c (ix2 P q) :=
  mlp5_row_congr (iblk5 V c 0 t : Vec Ideal S4000x32 .f32) (iblk5 V c 1 t : Vec Ideal S4000x32 .f32) (V c main_v49) (V c main_v55)
    (iblk5 V c 2 t : Vec Ideal S32x75 .f32) (V c main_v57) (iblk5 V c 3 t : Vec Ideal S1x75 .f32) (V c main_v64)
    (iblk5 V c 4 t : Vec Ideal S75x32 .f32) (V c main_v61) (iblk5 V c 5 t : Vec Ideal S1x32 .f32) (V c main_v65) p P q
    (fun l => mlp5_iblk0_apply V c t p l P hP) (fun l => mlp5_iblk1_apply V c t p l P hP)
    (mlp5_iblk2_eq V c t) (mlp5_iblk3_eq V c t) (mlp5_iblk4_eq V c t) (mlp5_iblk5_eq V c t)

/-- What point `t` writes back to the first output array is block `t` of `mlp5_G`. -/
theorem mlp5_flushed6_eq (c : Dev nD) (t : Fin cfg5.N) :
    (dat5 (F := Ideal) V c).flushed 6 t = ((cfg5.win 6).blk t).view.read (Elt Ideal) (mlp5_G V c) := by
  obtain ⟨-, -, -, -, -, -, -, -, -, -, -, -, e0, e1, -⟩ := mlp5_idx t
  have hN : cfg5.N = 50 := N_5
  show (cfg5.win 6).cut (grid5.coords t) ((dat5 (F := Ideal) V c).after 6 t) = _
  rw [after5_6]
  unfold out5_6
  rw [View.canon_unit_zero mlp5_hz2]
  simp only [View.ld_unit_zero (S := S4000x32) mlp5_hz2, View.ld_unit_zero (S := S32x75) mlp5_hz2, View.ld_unit_zero (S := S1x75) mlp5_hz2,
    View.ld_unit_zero (S := S75x32) mlp5_hz2, View.ld_unit_zero (S := S1x32) mlp5_hz2]
  rw [mlp5_pay1_eq (iblk5 V c 0 t) (iblk5 V c 1 t) (iblk5 V c 2 t) (iblk5 V c 3 t) (iblk5 V c 4 t) (iblk5 V c 5 t)]
  funext j
  obtain ⟨p, q, rfl⟩ : ∃ (p : Fin 4000) (q : Fin 32), j = ix2 p q := ⟨j 0, j 1, eq_ix2 j⟩
  rw [View.read_apply]
  have hP : t.val * 4000 + p.val < 200000 := by have := t.isLt; omega
  refine (mlp5_blk_apply V c t p q ⟨t.val * 4000 + p.val, hP⟩ rfl).trans ?_
  congr 1
  funext a
  apply Fin.ext
  match a with
  | ⟨0, _⟩ => show t.val * 4000 + p.val = win5_6.index t (0 : Fin 2) * 4000 + 1 * p.val; rw [e0]; omega
  | ⟨1, _⟩ => show q.val = win5_6.index t (1 : Fin 2) * 32 + 1 * q.val; rw [e1]; omega

/-- An index of the first output array is in point `t`'s block iff each coordinate is in the block's range on its axis. -/
theorem mlp5_mem_blk6 (t : Fin cfg5.N) (i : S200000x32.Idx) :
    i ∈ ((cfg5.win 6).blk t).view.set ↔ ∀ a : Fin 2, win5_6.index t a * S4000x32.size a ≤ (i a).val ∧ (i a).val < win5_6.index t a * S4000x32.size a + S4000x32.size a := by
  show i ∈ ((View.whole main_v66_0).slice (win5_6.rect t)).set ↔ _
  rw [View.set_slice_whole, Rect.mem_set_unit]
  exact Iff.rfl

/-- Row `r` of the first output array is written back by point `r / 4000`. -/
theorem mlp5_covered6 (i : S200000x32.Idx) :
    ∃ t : Fin cfg5.N, (cfg5.win 6).flush t = true ∧ i ∈ ((cfg5.win 6).blk t).view.set := by
  have hi0 : (i 0).val < 200000 := (i 0).isLt
  have hi1 : (i 1).val < 32 := (i 1).isLt
  have hN : cfg5.N = 50 := N_5
  obtain ⟨t, ht⟩ : ∃ t : Fin cfg5.N, t.val = (i 0).val / 4000 := ⟨⟨(i 0).val / 4000, by rw [hN]; omega⟩, rfl⟩
  obtain ⟨-, -, -, -, -, -, -, -, -, -, -, -, e0, e1, -⟩ := mlp5_idx t
  refine ⟨t, flush5_6 t, ?_⟩
  rw [mlp5_mem_blk6]
  intro a
  match a with
  | ⟨0, _⟩ => show win5_6.index t (0 : Fin 2) * 4000 ≤ (i 0).val ∧ (i 0).val < win5_6.index t (0 : Fin 2) * 4000 + 4000; rw [e0, ht]; omega
  | ⟨1, _⟩ => show win5_6.index t (1 : Fin 2) * 32 ≤ (i 1).val ∧ (i 1).val < win5_6.index t (1 : Fin 2) * 32 + 32; rw [e1]; omega

/-- The first output array after the region: the perceptron of the sum of the two input arrays. -/
theorem final5_z (c : Dev nD) :
    (dat5 (F := Ideal) V c).arrAt 6 cfg5.N = mlp (add2 (V c main_v49) (V c main_v55)) (V c main_v57) (rowOf (V c main_v64)) (V c main_v61) (rowOf (V c main_v65)) :=
  (dat5 (F := Ideal) V c).arrAt_eq_of_cover 6 (mlp5_G V c) (fun t _ => mlp5_flushed6_eq V c t) mlp5_covered6

/-- What point `t` writes back to the second output array is block `t` of the block sums of `mlp5_G`: the column sums of the
    point's 4000 rows. -/
theorem mlp5_flushed7_eq (c : Dev nD) (t : Fin cfg5.N) :
    (dat5 (F := Ideal) V c).flushed 7 t = ((cfg5.win 7).blk t).view.read (Elt Ideal) (blockSums (B := 50) (T := 4000) (mlp5_G V c)) := by
  obtain ⟨-, -, -, -, -, -, -, -, -, -, -, -, -, -, e0, e1, e2⟩ := mlp5_idx t
  have hN : cfg5.N = 50 := N_5
  have ht : t.val < 50 := by have := t.isLt; omega
  show (cfg5.win 7).cut (grid5.coords t) ((dat5 (F := Ideal) V c).after 7 t) = _
  rw [after5_7]
  unfold out5_7
  rw [View.canon_unit_zero mlp5_hz3]
  simp only [View.ld_unit_zero (S := S4000x32) mlp5_hz2, View.ld_unit_zero (S := S32x75) mlp5_hz2, View.ld_unit_zero (S := S1x75) mlp5_hz2,
    View.ld_unit_zero (S := S75x32) mlp5_hz2, View.ld_unit_zero (S := S1x32) mlp5_hz2]
  funext j
  obtain ⟨u, v, q, rfl⟩ : ∃ (u : Fin 1) (v : Fin 1) (q : Fin 32), j = ix3 u v q := ⟨j 0, j 1, j 2, eq_ix3 j⟩
  obtain rfl : u = 0 := Subsingleton.elim _ _
  obtain rfl : v = 0 := Subsingleton.elim _ _
  rw [View.read_apply]
  refine (mlp5_pay2_apply (iblk5 V c 0 t) (iblk5 V c 1 t) (iblk5 V c 2 t) (iblk5 V c 3 t) (iblk5 V c 4 t) (iblk5 V c 5 t) q).trans ?_
  rw [mlp5_pay1_eq (iblk5 V c 0 t) (iblk5 V c 1 t) (iblk5 V c 2 t) (iblk5 V c 3 t) (iblk5 V c 4 t) (iblk5 V c 5 t)]
  refine (Finset.sum_congr rfl fun r _ =>
    mlp5_blk_apply V c t r q ⟨t.val * 4000 + r.val, by have := r.isLt; omega⟩ rfl).trans ?_
  have hemb : ((cfg5.win 7).blk t).view.emb (ix3 (0 : Fin 1) (0 : Fin 1) q) = ix3 (⟨t.val, ht⟩ : Fin 50) (0 : Fin 1) q := by
    funext a
    apply Fin.ext
    match a with
    | ⟨0, _⟩ => show win5_7.index t (0 : Fin 3) * 1 + 1 * (0 : Fin 1).val = t.val; rw [e0]; simp
    | ⟨1, _⟩ => show win5_7.index t (1 : Fin 3) * 1 + 1 * (0 : Fin 1).val = 0; rw [e1]; simp
    | ⟨2, _⟩ => show win5_7.index t (2 : Fin 3) * 32 + 1 * q.val = q.val; rw [e2]; omega
  rw [hemb]
  rfl

/-- An index of the second output array is in point `t`'s block iff each coordinate is in the block's range on its axis. -/
theorem mlp5_mem_blk7 (t : Fin cfg5.N) (i : S50x1x32.Idx) :
    i ∈ ((cfg5.win 7).blk t).view.set ↔ ∀ a : Fin 3, win5_7.index t a * S1x1x32.size a ≤ (i a).val ∧ (i a).val < win5_7.index t a * S1x1x32.size a + S1x1x32.size a := by
  show i ∈ ((View.whole main_v66_1).slice (win5_7.rect t)).set ↔ _
  rw [View.set_slice_whole, Rect.mem_set_unit]
  exact Iff.rfl

/-- Entry `(b, 0, q)` of the second output array is written back by point `b`. -/
theorem mlp5_covered7 (i : S50x1x32.Idx) :
    ∃ t : Fin cfg5.N, (cfg5.win 7).flush t = true ∧ i ∈ ((cfg5.win 7).blk t).view.set := by
  have hi0 : (i 0).val < 50 := (i 0).isLt
  have hi1 : (i 1).val < 1 := (i 1).isLt
  have hi2 : (i 2).val < 32 := (i 2).isLt
  have hN : cfg5.N = 50 := N_5
  obtain ⟨t, ht⟩ : ∃ t : Fin cfg5.N, t.val = (i 0).val := ⟨⟨(i 0).val, by rw [hN]; omega⟩, rfl⟩
  obtain ⟨-, -, -, -, -, -, -, -, -, -, -, -, -, -, e0, e1, e2⟩ := mlp5_idx t
  refine ⟨t, flush5_7 t, ?_⟩
  rw [mlp5_mem_blk7]
  intro a
  match a with
  | ⟨0, _⟩ => show win5_7.index t (0 : Fin 3) * 1 ≤ (i 0).val ∧ (i 0).val < win5_7.index t (0 : Fin 3) * 1 + 1; rw [e0, ht]; omega
  | ⟨1, _⟩ => show win5_7.index t (1 : Fin 3) * 1 ≤ (i 1).val ∧ (i 1).val < win5_7.index t (1 : Fin 3) * 1 + 1; rw [e1]; omega
  | ⟨2, _⟩ => show win5_7.index t (2 : Fin 3) * 32 ≤ (i 2).val ∧ (i 2).val < win5_7.index t (2 : Fin 3) * 32 + 32; rw [e2]; omega

/-- The second output array after the region: per block of 4000 rows, the column sums of the first. -/
theorem final5_s (c : Dev nD) :
    (dat5 (F := Ideal) V c).arrAt 7 cfg5.N = blockSums (B := 50) (T := 4000) (mlp (add2 (V c main_v49) (V c main_v55)) (V c main_v57) (rowOf (V c main_v64)) (V c main_v61) (rowOf (V c main_v65))) :=
  (dat5 (F := Ideal) V c).arrAt_eq_of_cover 7 (blockSums (B := 50) (T := 4000) (mlp5_G V c)) (fun t _ => mlp5_flushed7_eq V c t) mlp5_covered7

end Cert.KernelIdeal.Val

end
-- ==== Proof.KBnVar3.lean ====
/-
  The partial sums of centred squares that one launch of the variance kernel leaves in its output array.

  The grid has 25 points. Point `t` reads rows `8000·t, …, 8000·t + 7999` of a `[200000, 32]` array and the whole of a
  `[1, 32]` row vector, subtracts the row vector from every row of the block, squares, sums over the block's 8000 rows,
  and writes the 32 sums to entry `(t, 0, ·)` of a `[25, 1, 32]` array. Every index `(b, 0, j)` of that array lies in the
  block of exactly the point `b`, so after the launch the array holds, at `(b, 0, j)`, the sum over the rows of block `b`
  of the squared differences in column `j`.
-/
import proofs.«412989_j17643725652192_3_alg».proof.Proof.Gen.KernelIdeal.Frame
import proofs.«412989_j17643725652192_3_alg».proof.Proof.Spec
import Idealize.ShloMosaic.PureOps.Ideal.Laws
import Idealize.ShloMosaic.Lib.Pipeline.Value
import Idealize.ShloMosaic.Lib.ValueLayout

open scoped BigOperators

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Net Idealize.ShloMosaic Idealize.ShloMosaic.ValueIdx

variable (V : (c : Dev nD) → (b : Ref sig .tc) → Buf (Elt Ideal) ((c : Thread nD τ).loc b))
/-- The block's payload at column `j`: the sum over the block's 8000 rows of the squared difference between the
    entry and the row vector's entry of that column. -/
theorem pay3_apply (x0 : Vec Ideal S8000x32 .f32) (x1 : Vec Ideal S1x32 .f32) (u u' : Fin 1) (j : Fin 32) :
    k3_pay1 (F := Ideal) x0 x1 (ix3 u u' j)
      = ∑ r : Fin 8000, (x0 (ix2 r j) - x1 (ix2 (0 : Fin 1) j)) * (x0 (ix2 r j) - x1 (ix2 (0 : Fin 1) j)) := by
  unfold k3_pay1
  dsimp only
  refine (shapeCast_ab_1ab_apply _ _ u u' j).trans ?_
  refine (shapeCast_a_1a_apply _ _ u' j).trans ?_
  refine (Ideal.multiReduction_add_single _ 0x00000000#32 reduces_S8000x32_S32 _ _ (ix1 j)).trans ?_
  refine Finset.sum_congr rfl fun (r : Fin 8000) _ => ?_
  have hl : reduces_S8000x32_S32.lift (ix1 j) r = ix2 r j :=
    funext fun a => by match a with | ⟨0, _⟩ => exact Fin.ext rfl | ⟨1, _⟩ => exact Fin.ext rfl
  refine (congrArg _ hl).trans ?_
  rw [mulf_apply, subf_apply, shapeCast_self, shapeCast_self, broadcastTo_1b_ab_apply]

/-- The printed index maps over the 25 grid points: point `t` reads row block `t` of the array, the whole row vector,
    and writes block `(t, 0, 0)`. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 3) = t.val ∧ win3_2.index t (1 : Fin 3) = 0 ∧ win3_2.index t (2 : Fin 3) = 0 :=
  (by decide +kernel : ∀ t : Fin grid3.N, _)

theorem zero2_r3 : (![0, 0] : Fin 2 → Nat) = fun _ => 0 :=
  funext fun a => by match a with | ⟨0, _⟩ => rfl | ⟨1, _⟩ => rfl
theorem zero3_r3 : (![0, 0, 0] : Fin 3 → Nat) = fun _ => 0 :=
  funext fun a => by match a with | ⟨0, _⟩ => rfl | ⟨1, _⟩ => rfl | ⟨2, _⟩ => rfl

/-- Row `r` of the array's block at point `t` is row `8000·t + r` of the array. -/
theorem iblk3_0_apply (c : Dev nD) (t : Fin cfg3.N) (r : Fin 8000) (j : Fin 32) (k : Fin 200000)
    (hk : k.val = t.val * 8000 + r.val) :
    (iblk3 (F := Ideal) V c 0 t : Vec Ideal S8000x32 .f32) (ix2 r j) = (V c main_v24_0 : A2 200000 32) (ix2 k j) := by
  obtain ⟨e0, e1, -⟩ := idx_facts3 t
  unfold iblk3
  rw [View.read_apply]
  show (V c main_v24_0 : A2 200000 32) _ = (V c main_v24_0 : A2 200000 32) _
  refine congrArg (V c main_v24_0 : A2 200000 32) (funext fun a => Fin.ext ?_)
  match a with
  | ⟨0, _⟩ => show win3_0.index t (0 : Fin 2) * 8000 + 1 * r.val = k.val; rw [e0, hk]; omega
  | ⟨1, _⟩ => show win3_0.index t (1 : Fin 2) * 32 + 1 * j.val = j.val; rw [e1]; omega

/-- The row vector's block at every point is the row vector. -/
theorem iblk3_1_apply (c : Dev nD) (t : Fin cfg3.N) (j : Fin 32) :
    (iblk3 (F := Ideal) V c 1 t : Vec Ideal S1x32 .f32) (ix2 (0 : Fin 1) j) = (V c main_v29 : A2 1 32) (ix2 (0 : Fin 1) j) := by
  obtain ⟨-, -, e2, e3, -⟩ := idx_facts3 t
  unfold iblk3
  rw [View.read_apply]
  show (V c main_v29 : A2 1 32) _ = (V c main_v29 : A2 1 32) _
  refine congrArg (V c main_v29 : A2 1 32) (funext fun a => Fin.ext ?_)
  match a with
  | ⟨0, _⟩ => show win3_1.index t (0 : Fin 2) * 1 + 1 * 0 = 0; rw [e2]
  | ⟨1, _⟩ => show win3_1.index t (1 : Fin 2) * 32 + 1 * j.val = j.val; rw [e3]; omega

/-- What point `t` writes back is block `t` of the block sums of the centred squares. -/
theorem flushed3 (c : Dev nD) (t : Fin cfg3.N) :
    (dat3 (F := Ideal) V c).flushed 2 t
      = ((cfg3.win 2).blk t).view.read (Elt Ideal) (blockSums (B := 25) (T := 8000) (sqDev (V c main_v24_0) (rowOf (V c main_v29)))) := by
  show (cfg3.win 2).cut (grid3.coords t) ((dat3 V c).after 2 t) = _
  rw [after3_2]
  unfold out3_2
  rw [View.canon_unit_zero zero3_r3]
  simp only [View.ld_unit_zero (S := S8000x32) zero2_r3, View.ld_unit_zero (S := S1x32) zero2_r3]
  obtain ⟨e0, e1, e2, e3, e4, e5, e6⟩ := idx_facts3 t
  have ht : t.val < 25 := lt_of_lt_of_eq t.isLt (N_3 : cfg3.N = 25)
  refine funext fun (y : S1x1x32.Idx) => ?_
  obtain ⟨u, u', j, rfl⟩ : ∃ (u u' : Fin 1) (j : Fin 32), y = ix3 u u' j := ⟨y 0, y 1, y 2, eq_ix3 y⟩
  refine (pay3_apply (iblk3 V c 0 t) (iblk3 V c 1 t) u u' j).trans ?_
  -- the block's entry `(0, 0, j)` sits at `(t, 0, j)` of the array
  have hemb : ((cfg3.win 2).blk t).view.emb (ix3 u u' j) = (ix3 (⟨t.val, ht⟩ : Fin 25) (0 : Fin 1) j : (⟨3, ![25, 1, 32]⟩ : Shape).Idx) := by
    funext a; apply Fin.ext
    have hu : u.val = 0 := by omega
    have hu' : u'.val = 0 := by omega
    match a with
    | ⟨0, _⟩ => show win3_2.index t (0 : Fin 3) * 1 + 1 * u.val = t.val; rw [e4, hu]; omega
    | ⟨1, _⟩ => show win3_2.index t (1 : Fin 3) * 1 + 1 * u'.val = 0; rw [e5, hu']
    | ⟨2, _⟩ => show win3_2.index t (2 : Fin 3) * 32 + 1 * j.val = j.val; rw [e6]; omega
  rw [View.read_apply]
  show _ = ((blockSums (B := 25) (T := 8000) (sqDev (V c main_v24_0) (rowOf (V c main_v29)))) : A3 25 1 32) (((cfg3.win 2).blk t).view.emb (ix3 u u' j))
  rw [hemb]
  show _ = ∑ r : Fin 8000, sqDev (V c main_v24_0 : A2 200000 32) (rowOf (V c main_v29)) (ix2 ⟨t.val * 8000 + r.val, _⟩ j)
  refine Finset.sum_congr rfl fun r _ => ?_
  rw [iblk3_0_apply V c t r j ⟨t.val * 8000 + r.val, by omega⟩ rfl, iblk3_1_apply V c t j]
  rfl

/-- Every index `(b, 0, j)` of the output array lies in the block of point `b`. -/
theorem cover3 (i : (⟨3, ![25, 1, 32]⟩ : Shape).Idx) :
    ∃ t : Fin cfg3.N, (cfg3.win 2).flush t = true ∧ i ∈ ((cfg3.win 2).blk t).view.set := by
  have h0 : (i 0).val < 25 := (i 0).isLt
  have h1 : (i 1).val < 1 := (i 1).isLt
  have h2 : (i 2).val < 32 := (i 2).isLt
  let t : Fin cfg3.N := ⟨(i 0).val, lt_of_lt_of_eq h0 (N_3 : cfg3.N = 25).symm⟩
  obtain ⟨-, -, -, -, e4, e5, e6⟩ := idx_facts3 t
  refine ⟨t, flush3_2 t, ?_⟩
  show i ∈ ((View.whole main_v30).slice (win3_2.rect t)).set
  rw [View.set_slice_whole, Rect.mem_set_unit]
  intro a
  match a with
  | ⟨0, _⟩ => show win3_2.index t (0 : Fin 3) * 1 ≤ (i 0).val ∧ (i 0).val < win3_2.index t (0 : Fin 3) * 1 + 1; rw [e4]; show (i 0).val * 1 ≤ (i 0).val ∧ (i 0).val < (i 0).val * 1 + 1; omega
  | ⟨1, _⟩ => show win3_2.index t (1 : Fin 3) * 1 ≤ (i 1).val ∧ (i 1).val < win3_2.index t (1 : Fin 3) * 1 + 1; rw [e5]; omega
  | ⟨2, _⟩ => show win3_2.index t (2 : Fin 3) * 32 ≤ (i 2).val ∧ (i 2).val < win3_2.index t (2 : Fin 3) * 32 + 32; rw [e6]; omega

/-- The output array after the region: the sums, over each block of 8000 consecutive rows, of the squared differences
    between the entries of the array and the row vector. -/
theorem final3 (c : Dev nD) :
    (dat3 (F := Ideal) V c).arrAt 2 cfg3.N
      = blockSums (B := 25) (T := 8000) (sqDev (V c main_v24_0) (rowOf (V c main_v29))) :=
  (dat3 V c).arrAt_eq_of_cover 2 (blockSums (B := 25) (T := 8000) (sqDev (V c main_v24_0) (rowOf (V c main_v29)))) (fun t _ => flushed3 V c t) cover3

end Cert.KernelIdeal.Val

end
-- ==== Proof.KBnVar6.lean ====
/-
  The partial sums of centred squares that one launch of the variance kernel leaves in its output array.

  The grid has 25 points. Point `t` reads rows `8000·t, …, 8000·t + 7999` of a `[200000, 32]` array and the whole of a
  `[1, 32]` row vector, subtracts the row vector from every row of the block, squares, sums over the block's 8000 rows,
  and writes the 32 sums to entry `(t, 0, ·)` of a `[25, 1, 32]` array. Every index `(b, 0, j)` of that array lies in the
  block of exactly the point `b`, so after the launch the array holds, at `(b, 0, j)`, the sum over the rows of block `b`
  of the squared differences in column `j`.
-/
import proofs.«412989_j17643725652192_3_alg».proof.Proof.Gen.KernelIdeal.Frame
import proofs.«412989_j17643725652192_3_alg».proof.Proof.Spec
import Idealize.ShloMosaic.PureOps.Ideal.Laws
import Idealize.ShloMosaic.Lib.Pipeline.Value
import Idealize.ShloMosaic.Lib.ValueLayout

open scoped BigOperators

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Net Idealize.ShloMosaic Idealize.ShloMosaic.ValueIdx

variable (V : (c : Dev nD) → (b : Ref sig .tc) → Buf (Elt Ideal) ((c : Thread nD τ).loc b))
/-- The block's payload at column `j`: the sum over the block's 8000 rows of the squared difference between the
    entry and the row vector's entry of that column. -/
theorem pay6_apply (x0 : Vec Ideal S8000x32 .f32) (x1 : Vec Ideal S1x32 .f32) (u u' : Fin 1) (j : Fin 32) :
    k6_pay1 (F := Ideal) x0 x1 (ix3 u u' j)
      = ∑ r : Fin 8000, (x0 (ix2 r j) - x1 (ix2 (0 : Fin 1) j)) * (x0 (ix2 r j) - x1 (ix2 (0 : Fin 1) j)) := by
  unfold k6_pay1
  dsimp only
  refine (shapeCast_ab_1ab_apply _ _ u u' j).trans ?_
  refine (shapeCast_a_1a_apply _ _ u' j).trans ?_
  refine (Ideal.multiReduction_add_single _ 0x00000000#32 reduces_S8000x32_S32 _ _ (ix1 j)).trans ?_
  refine Finset.sum_congr rfl fun (r : Fin 8000) _ => ?_
  have hl : reduces_S8000x32_S32.lift (ix1 j) r = ix2 r j :=
    funext fun a => by match a with | ⟨0, _⟩ => exact Fin.ext rfl | ⟨1, _⟩ => exact Fin.ext rfl
  refine (congrArg _ hl).trans ?_
  rw [mulf_apply, subf_apply, shapeCast_self, shapeCast_self, broadcastTo_1b_ab_apply]

/-- The printed index maps over the 25 grid points: point `t` reads row block `t` of the array, the whole row vector,
    and writes block `(t, 0, 0)`. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 3) = t.val ∧ win6_2.index t (1 : Fin 3) = 0 ∧ win6_2.index t (2 : Fin 3) = 0 :=
  (by decide +kernel : ∀ t : Fin grid6.N, _)

theorem zero2_r6 : (![0, 0] : Fin 2 → Nat) = fun _ => 0 :=
  funext fun a => by match a with | ⟨0, _⟩ => rfl | ⟨1, _⟩ => rfl
theorem zero3_r6 : (![0, 0, 0] : Fin 3 → Nat) = fun _ => 0 :=
  funext fun a => by match a with | ⟨0, _⟩ => rfl | ⟨1, _⟩ => rfl | ⟨2, _⟩ => rfl

/-- Row `r` of the array's block at point `t` is row `8000·t + r` of the array. -/
theorem iblk6_0_apply (c : Dev nD) (t : Fin cfg6.N) (r : Fin 8000) (j : Fin 32) (k : Fin 200000)
    (hk : k.val = t.val * 8000 + r.val) :
    (iblk6 (F := Ideal) V c 0 t : Vec Ideal S8000x32 .f32) (ix2 r j) = (V c main_v66_0 : A2 200000 32) (ix2 k j) := by
  obtain ⟨e0, e1, -⟩ := idx_facts6 t
  unfold iblk6
  rw [View.read_apply]
  show (V c main_v66_0 : A2 200000 32) _ = (V c main_v66_0 : A2 200000 32) _
  refine congrArg (V c main_v66_0 : A2 200000 32) (funext fun a => Fin.ext ?_)
  match a with
  | ⟨0, _⟩ => show win6_0.index t (0 : Fin 2) * 8000 + 1 * r.val = k.val; rw [e0, hk]; omega
  | ⟨1, _⟩ => show win6_0.index t (1 : Fin 2) * 32 + 1 * j.val = j.val; rw [e1]; omega

/-- The row vector's block at every point is the row vector. -/
theorem iblk6_1_apply (c : Dev nD) (t : Fin cfg6.N) (j : Fin 32) :
    (iblk6 (F := Ideal) V c 1 t : Vec Ideal S1x32 .f32) (ix2 (0 : Fin 1) j) = (V c main_v71 : A2 1 32) (ix2 (0 : Fin 1) j) := by
  obtain ⟨-, -, e2, e3, -⟩ := idx_facts6 t
  unfold iblk6
  rw [View.read_apply]
  show (V c main_v71 : A2 1 32) _ = (V c main_v71 : A2 1 32) _
  refine congrArg (V c main_v71 : A2 1 32) (funext fun a => Fin.ext ?_)
  match a with
  | ⟨0, _⟩ => show win6_1.index t (0 : Fin 2) * 1 + 1 * 0 = 0; rw [e2]
  | ⟨1, _⟩ => show win6_1.index t (1 : Fin 2) * 32 + 1 * j.val = j.val; rw [e3]; omega

/-- What point `t` writes back is block `t` of the block sums of the centred squares. -/
theorem flushed6 (c : Dev nD) (t : Fin cfg6.N) :
    (dat6 (F := Ideal) V c).flushed 2 t
      = ((cfg6.win 2).blk t).view.read (Elt Ideal) (blockSums (B := 25) (T := 8000) (sqDev (V c main_v66_0) (rowOf (V c main_v71)))) := by
  show (cfg6.win 2).cut (grid6.coords t) ((dat6 V c).after 2 t) = _
  rw [after6_2]
  unfold out6_2
  rw [View.canon_unit_zero zero3_r6]
  simp only [View.ld_unit_zero (S := S8000x32) zero2_r6, View.ld_unit_zero (S := S1x32) zero2_r6]
  obtain ⟨e0, e1, e2, e3, e4, e5, e6⟩ := idx_facts6 t
  have ht : t.val < 25 := lt_of_lt_of_eq t.isLt (N_6 : cfg6.N = 25)
  refine funext fun (y : S1x1x32.Idx) => ?_
  obtain ⟨u, u', j, rfl⟩ : ∃ (u u' : Fin 1) (j : Fin 32), y = ix3 u u' j := ⟨y 0, y 1, y 2, eq_ix3 y⟩
  refine (pay6_apply (iblk6 V c 0 t) (iblk6 V c 1 t) u u' j).trans ?_
  -- the block's entry `(0, 0, j)` sits at `(t, 0, j)` of the array
  have hemb : ((cfg6.win 2).blk t).view.emb (ix3 u u' j) = (ix3 (⟨t.val, ht⟩ : Fin 25) (0 : Fin 1) j : (⟨3, ![25, 1, 32]⟩ : Shape).Idx) := by
    funext a; apply Fin.ext
    have hu : u.val = 0 := by omega
    have hu' : u'.val = 0 := by omega
    match a with
    | ⟨0, _⟩ => show win6_2.index t (0 : Fin 3) * 1 + 1 * u.val = t.val; rw [e4, hu]; omega
    | ⟨1, _⟩ => show win6_2.index t (1 : Fin 3) * 1 + 1 * u'.val = 0; rw [e5, hu']
    | ⟨2, _⟩ => show win6_2.index t (2 : Fin 3) * 32 + 1 * j.val = j.val; rw [e6]; omega
  rw [View.read_apply]
  show _ = ((blockSums (B := 25) (T := 8000) (sqDev (V c main_v66_0) (rowOf (V c main_v71)))) : A3 25 1 32) (((cfg6.win 2).blk t).view.emb (ix3 u u' j))
  rw [hemb]
  show _ = ∑ r : Fin 8000, sqDev (V c main_v66_0 : A2 200000 32) (rowOf (V c main_v71)) (ix2 ⟨t.val * 8000 + r.val, _⟩ j)
  refine Finset.sum_congr rfl fun r _ => ?_
  rw [iblk6_0_apply V c t r j ⟨t.val * 8000 + r.val, by omega⟩ rfl, iblk6_1_apply V c t j]
  rfl

/-- Every index `(b, 0, j)` of the output array lies in the block of point `b`. -/
theorem cover6 (i : (⟨3, ![25, 1, 32]⟩ : Shape).Idx) :
    ∃ t : Fin cfg6.N, (cfg6.win 2).flush t = true ∧ i ∈ ((cfg6.win 2).blk t).view.set := by
  have h0 : (i 0).val < 25 := (i 0).isLt
  have h1 : (i 1).val < 1 := (i 1).isLt
  have h2 : (i 2).val < 32 := (i 2).isLt
  let t : Fin cfg6.N := ⟨(i 0).val, lt_of_lt_of_eq h0 (N_6 : cfg6.N = 25).symm⟩
  obtain ⟨-, -, -, -, e4, e5, e6⟩ := idx_facts6 t
  refine ⟨t, flush6_2 t, ?_⟩
  show i ∈ ((View.whole main_v72).slice (win6_2.rect t)).set
  rw [View.set_slice_whole, Rect.mem_set_unit]
  intro a
  match a with
  | ⟨0, _⟩ => show win6_2.index t (0 : Fin 3) * 1 ≤ (i 0).val ∧ (i 0).val < win6_2.index t (0 : Fin 3) * 1 + 1; rw [e4]; show (i 0).val * 1 ≤ (i 0).val ∧ (i 0).val < (i 0).val * 1 + 1; omega
  | ⟨1, _⟩ => show win6_2.index t (1 : Fin 3) * 1 ≤ (i 1).val ∧ (i 1).val < win6_2.index t (1 : Fin 3) * 1 + 1; rw [e5]; omega
  | ⟨2, _⟩ => show win6_2.index t (2 : Fin 3) * 32 ≤ (i 2).val ∧ (i 2).val < win6_2.index t (2 : Fin 3) * 32 + 32; rw [e6]; omega

/-- The output array after the region: the sums, over each block of 8000 consecutive rows, of the squared differences
    between the entries of the array and the row vector. -/
theorem final6 (c : Dev nD) :
    (dat6 (F := Ideal) V c).arrAt 2 cfg6.N
      = blockSums (B := 25) (T := 8000) (sqDev (V c main_v66_0) (rowOf (V c main_v71))) :=
  (dat6 V c).arrAt_eq_of_cover 2 (blockSums (B := 25) (T := 8000) (sqDev (V c main_v66_0) (rowOf (V c main_v71)))) (fun t _ => flushed6 V c t) cover6

end Cert.KernelIdeal.Val

end
-- ==== Proof.KBnApply4.lean ====
/-
  Region 4 applies the folded batch normalisation z·s + t followed by max · 0.

  Over a grid of 25 points, point t reads rows 8000·t … 8000·t + 7999 of z (a [200000, 32] array) and the one row of the
  scale s and of the shift t (each a [1, 32] array, the same block at every point), and writes the same rows of the
  output. Entry (p, q) of the block it writes is max (z(p,q)·s(0,q) + t(0,q)) 0: the two rows are broadcast down the
  8000 rows of the block, the zero of the maximum is a scalar literal broadcast to the block. A block's coordinate on an
  axis is (block index)·(block extent) + (coordinate inside the block); the 25 blocks of 8000 rows tile the 200000 rows
  (row r lies in the block of point r / 8000), so the output array ends holding max (z·s + t) 0 at every entry.
-/
import proofs.«412989_j17643725652192_3_alg».proof.Proof.Gen.KernelIdeal.Frame
import proofs.«412989_j17643725652192_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.Net Idealize.ShloMosaic Idealize.ShloMosaic.TcCoe Idealize.ShloMosaic.ValueIdx
open Idealize.ShloMosaic.Pipeline (Dat)

theorem hz4 : (![0, 0] : Fin 2 → Nat) = fun _ => 0 := funext fun a => by fin_cases a <;> rfl

/-- A [1, 32] row broadcast down 8000 rows reads, at (p, q), the row's entry (0, q). -/
theorem bcast_row4 (h : S1x32.Broadcasts S8000x32) (y : FVec Ideal S1x32 .f32) (p : Fin 8000) (q : Fin 32) :
    broadcastTo S8000x32 y h (ix2 p q) = y (ix2 (0 : Fin 1) q) := by
  refine broadcastTo_apply y h (ix2 p q) (ix2 (0 : Fin 1) q) ?_
  intro a
  match a with
  | ⟨0, _⟩ => rfl
  | ⟨1, _⟩ => rfl

/-- The body's payload at (p, q) of a block: max (z(p,q)·s(0,q) + t(0,q)) 0, the two rows broadcast down the block. -/
theorem pay4_apply (x0 : Vec Ideal S8000x32 .f32) (x1 x2 : Vec Ideal S1x32 .f32) (p : Fin 8000) (q : Fin 32) :
    k4_pay1 (F := Ideal) x0 x1 x2 (ix2 p q) = max (x0 (ix2 p q) * x1 (ix2 (0 : Fin 1) q) + x2 (ix2 (0 : Fin 1) q)) 0 := by
  unfold k4_pay1
  rw [maximumf_apply, addf_apply, mulf_apply, bcast_row4, bcast_row4, shapeCast_self, shapeCast_self, shapeCast_self,
    broadcast_apply]
  show max _ (Ideal.ofBits .f32 0x00000000#32) = _
  rw [Ideal.ofBits_zero_f32]

/-- The printed index maps over the 25 points: the two [8000, 32] windows sit at block (t, 0), the two rows at (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b))

/-- The arrays the region finds, at their literal types: z, the scale row, the shift row. -/
abbrev zArr4 (c : Dev nD) : A2 200000 32 := V c main_v24_0
abbrev scaleArr4 (c : Dev nD) : A2 1 32 := V c main_v47
abbrev shiftArr4 (c : Dev nD) : A2 1 32 := V c main_v48

/-- The folded form at an entry, from the entries it reads: z at the entry, the two rows at the entry's column. -/
theorem fold_point4 (Z : A2 200000 32) (Sc Sh : A2 1 32) (i0 i3 : (⟨2, ![200000, 32]⟩ : Shape).Idx)
    (i1 i2 : (⟨2, ![1, 32]⟩ : Shape).Idx) (h0 : i0 = i3) (h1 : i1 = ix2 (0 : Fin 1) (i3 1))
    (h2 : i2 = ix2 (0 : Fin 1) (i3 1)) :
    max (Z i0 * Sc i1 + Sh i2) 0 = bnFold Z (rowOf Sc) (rowOf Sh) i3 := by
  subst h0 h1 h2; rfl

/-- What point t writes back is block t of the folded batch normalisation of the arrays the region finds: rows
    8000·t … 8000·t + 7999 of z against the one row of the scale and of the shift. -/
theorem flushed4_eq (c : Dev nD) (t : Fin cfg4.N) :
    (dat4 (F := Ideal) V c).flushed 3 t = ((cfg4.win 3).blk t).view.read (Elt Ideal)
      (bnFold (V c main_v24_0) (rowOf (V c main_v47)) (rowOf (V c main_v48))) := by
  show (cfg4.win 3).cut (grid4.coords t) ((dat4 (F := Ideal) V c).after 3 t) = _
  rw [after4_3]
  unfold out4_3
  rw [View.canon_unit_zero hz4]
  simp only [View.ld_unit_zero (S := S8000x32) hz4, View.ld_unit_zero (S := S1x32) hz4]
  obtain ⟨e00, e01, e10, e11, e20, e21, e30, e31⟩ := idx_facts4 t
  funext j
  obtain ⟨p, q, rfl⟩ : ∃ (p : Fin 8000) (q : Fin 32), j = ix2 p q := ⟨j 0, j 1, eq_ix2 j⟩
  refine (pay4_apply (iblk4 V c 0 t) (iblk4 V c 1 t) (iblk4 V c 2 t) p q).trans ?_
  show max (zArr4 V c (((cfg4.win 0).blk t).view.emb (ix2 p q))
        * scaleArr4 V c (((cfg4.win 1).blk t).view.emb (ix2 (0 : Fin 1) q))
        + shiftArr4 V c (((cfg4.win 2).blk t).view.emb (ix2 (0 : Fin 1) q))) 0
      = bnFold (zArr4 V c) (rowOf (scaleArr4 V c)) (rowOf (shiftArr4 V c)) (((cfg4.win 3).blk t).view.emb (ix2 p q))
  have hp : p.val < 8000 := p.isLt
  have hq : q.val < 32 := q.isLt
  -- the z block and the output block are the same rows of their arrays
  have h0 : ((cfg4.win 0).blk t).view.emb (ix2 p q) = ((cfg4.win 3).blk t).view.emb (ix2 p q) := by
    funext a; apply Fin.ext
    match a with
    | ⟨0, _⟩ => show win4_0.index t (0 : Fin 2) * 8000 + 1 * p.val = win4_3.index t (0 : Fin 2) * 8000 + 1 * p.val; omega
    | ⟨1, _⟩ => show win4_0.index t (1 : Fin 2) * 32 + 1 * q.val = win4_3.index t (1 : Fin 2) * 32 + 1 * q.val; omega
  -- the scale's and the shift's one block is the whole row: column q of it is the output entry's column
  have h1 : ((cfg4.win 1).blk t).view.emb (ix2 (0 : Fin 1) q)
      = ix2 (0 : Fin 1) ((((cfg4.win 3).blk t).view.emb (ix2 p q)) 1) := by
    funext a; apply Fin.ext
    match a with
    | ⟨0, _⟩ => show win4_1.index t (0 : Fin 2) * 1 + 1 * 0 = 0; omega
    | ⟨1, _⟩ => show win4_1.index t (1 : Fin 2) * 32 + 1 * q.val = win4_3.index t (1 : Fin 2) * 32 + 1 * q.val; omega
  have h2 : ((cfg4.win 2).blk t).view.emb (ix2 (0 : Fin 1) q)
      = ix2 (0 : Fin 1) ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 32 + 1 * q.val = win4_3.index t (1 : Fin 2) * 32 + 1 * q.val; omega
  exact fold_point4 _ _ _ _ _ _ _ h0 h1 h2

/-- An index of the array is in point t's block iff each coordinate is in the block's range on its axis. -/
theorem mem_blk4 (t : Fin cfg4.N) (i : S200000x32.Idx) :
    i ∈ ((cfg4.win 3).blk t).view.set ↔ ∀ a : Fin 2, win4_3.index t a * S8000x32.size a ≤ (i a).val
      ∧ (i a).val < win4_3.index t a * S8000x32.size a + S8000x32.size a := by
  show i ∈ ((View.whole main_v49).slice (win4_3.rect t)).set ↔ _
  rw [View.set_slice_whole, Rect.mem_set_unit]
  exact Iff.rfl

/-- The 25 blocks of 8000 rows tile the 200000 rows: row r is in the block of point r / 8000. -/
theorem cover4 (i : S200000x32.Idx) :
    ∃ t : Fin cfg4.N, (cfg4.win 3).flush t = true ∧ i ∈ ((cfg4.win 3).blk t).view.set := by
  have hi0 : (i 0).val < 200000 := (i 0).isLt
  have hi1 : (i 1).val < 32 := (i 1).isLt
  have hN : cfg4.N = 25 := N_4
  refine ⟨⟨(i 0).val / 8000, by rw [hN]; omega⟩, flush4_3 _, ?_⟩
  rw [mem_blk4]
  obtain ⟨-, -, -, -, -, -, e30, e31⟩ := idx_facts4 ⟨(i 0).val / 8000, by rw [hN]; omega⟩
  intro a
  match a with
  | ⟨0, _⟩ =>
    show win4_3.index _ (0 : Fin 2) * 8000 ≤ (i 0).val ∧ (i 0).val < win4_3.index _ (0 : Fin 2) * 8000 + 8000
    rw [e30]; show (i 0).val / 8000 * 8000 ≤ (i 0).val ∧ (i 0).val < (i 0).val / 8000 * 8000 + 8000; omega
  | ⟨1, _⟩ =>
    show win4_3.index _ (1 : Fin 2) * 32 ≤ (i 1).val ∧ (i 1).val < win4_3.index _ (1 : Fin 2) * 32 + 32
    rw [e31]; omega

/-- The output array after region 4: the folded batch normalisation of z by the scale row and the shift row. -/
theorem final4 (c : Dev nD) :
    (dat4 (F := Ideal) V c).arrAt 3 cfg4.N = bnFold (V c main_v24_0) (rowOf (V c main_v47)) (rowOf (V c main_v48)) :=
  (dat4 (F := Ideal) V c).arrAt_eq_of_cover 3 (bnFold (V c main_v24_0) (rowOf (V c main_v47)) (rowOf (V c main_v48)))
    (fun t _ => flushed4_eq V c t) cover4

end

end Cert.KernelIdeal.Val

end
-- ==== Proof.KBnApply7.lean ====
/-
  Region 7 applies the folded batch normalisation z·s + t followed by max · 0.

  Over a grid of 25 points, point t reads rows 8000·t … 8000·t + 7999 of z (a [200000, 32] array) and the one row of the
  scale s and of the shift t (each a [1, 32] array, the same block at every point), and writes the same rows of the
  output. Entry (p, q) of the block it writes is max (z(p,q)·s(0,q) + t(0,q)) 0: the two rows are broadcast down the
  8000 rows of the block, the zero of the maximum is a scalar literal broadcast to the block. A block's coordinate on an
  axis is (block index)·(block extent) + (coordinate inside the block); the 25 blocks of 8000 rows tile the 200000 rows
  (row r lies in the block of point r / 8000), so the output array ends holding max (z·s + t) 0 at every entry.
-/
import proofs.«412989_j17643725652192_3_alg».proof.Proof.Gen.KernelIdeal.Frame
import proofs.«412989_j17643725652192_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.Net Idealize.ShloMosaic Idealize.ShloMosaic.TcCoe Idealize.ShloMosaic.ValueIdx
open Idealize.ShloMosaic.Pipeline (Dat)

theorem hz7 : (![0, 0] : Fin 2 → Nat) = fun _ => 0 := funext fun a => by fin_cases a <;> rfl

/-- A [1, 32] row broadcast down 8000 rows reads, at (p, q), the row's entry (0, q). -/
theorem bcast_row7 (h : S1x32.Broadcasts S8000x32) (y : FVec Ideal S1x32 .f32) (p : Fin 8000) (q : Fin 32) :
    broadcastTo S8000x32 y h (ix2 p q) = y (ix2 (0 : Fin 1) q) := by
  refine broadcastTo_apply y h (ix2 p q) (ix2 (0 : Fin 1) q) ?_
  intro a
  match a with
  | ⟨0, _⟩ => rfl
  | ⟨1, _⟩ => rfl

/-- The body's payload at (p, q) of a block: max (z(p,q)·s(0,q) + t(0,q)) 0, the two rows broadcast down the block. -/
theorem pay7_apply (x0 : Vec Ideal S8000x32 .f32) (x1 x2 : Vec Ideal S1x32 .f32) (p : Fin 8000) (q : Fin 32) :
    k7_pay1 (F := Ideal) x0 x1 x2 (ix2 p q) = max (x0 (ix2 p q) * x1 (ix2 (0 : Fin 1) q) + x2 (ix2 (0 : Fin 1) q)) 0 := by
  unfold k7_pay1
  rw [maximumf_apply, addf_apply, mulf_apply, bcast_row7, bcast_row7, shapeCast_self, shapeCast_self, shapeCast_self,
    broadcast_apply]
  show max _ (Ideal.ofBits .f32 0x00000000#32) = _
  rw [Ideal.ofBits_zero_f32]

/-- The printed index maps over the 25 points: the two [8000, 32] windows sit at block (t, 0), the two rows at (0, 0). -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

section
variable (V : (c : Dev nD) → (b : Ref sig .tc) → Buf (Elt Ideal) ((c : Thread nD τ).loc b))

/-- The arrays the region finds, at their literal types: z, the scale row, the shift row. -/
abbrev zArr7 (c : Dev nD) : A2 200000 32 := V c main_v66_0
abbrev scaleArr7 (c : Dev nD) : A2 1 32 := V c main_v89
abbrev shiftArr7 (c : Dev nD) : A2 1 32 := V c main_v90

/-- The folded form at an entry, from the entries it reads: z at the entry, the two rows at the entry's column. -/
theorem fold_point7 (Z : A2 200000 32) (Sc Sh : A2 1 32) (i0 i3 : (⟨2, ![200000, 32]⟩ : Shape).Idx)
    (i1 i2 : (⟨2, ![1, 32]⟩ : Shape).Idx) (h0 : i0 = i3) (h1 : i1 = ix2 (0 : Fin 1) (i3 1))
    (h2 : i2 = ix2 (0 : Fin 1) (i3 1)) :
    max (Z i0 * Sc i1 + Sh i2) 0 = bnFold Z (rowOf Sc) (rowOf Sh) i3 := by
  subst h0 h1 h2; rfl

/-- What point t writes back is block t of the folded batch normalisation of the arrays the region finds: rows
    8000·t … 8000·t + 7999 of z against the one row of the scale and of the shift. -/
theorem flushed7_eq (c : Dev nD) (t : Fin cfg7.N) :
    (dat7 (F := Ideal) V c).flushed 3 t = ((cfg7.win 3).blk t).view.read (Elt Ideal)
      (bnFold (V c main_v66_0) (rowOf (V c main_v89)) (rowOf (V c main_v90))) := by
  show (cfg7.win 3).cut (grid7.coords t) ((dat7 (F := Ideal) V c).after 3 t) = _
  rw [after7_3]
  unfold out7_3
  rw [View.canon_unit_zero hz7]
  simp only [View.ld_unit_zero (S := S8000x32) hz7, View.ld_unit_zero (S := S1x32) hz7]
  obtain ⟨e00, e01, e10, e11, e20, e21, e30, e31⟩ := idx_facts7 t
  funext j
  obtain ⟨p, q, rfl⟩ : ∃ (p : Fin 8000) (q : Fin 32), j = ix2 p q := ⟨j 0, j 1, eq_ix2 j⟩
  refine (pay7_apply (iblk7 V c 0 t) (iblk7 V c 1 t) (iblk7 V c 2 t) p q).trans ?_
  show max (zArr7 V c (((cfg7.win 0).blk t).view.emb (ix2 p q))
        * scaleArr7 V c (((cfg7.win 1).blk t).view.emb (ix2 (0 : Fin 1) q))
        + shiftArr7 V c (((cfg7.win 2).blk t).view.emb (ix2 (0 : Fin 1) q))) 0
      = bnFold (zArr7 V c) (rowOf (scaleArr7 V c)) (rowOf (shiftArr7 V c)) (((cfg7.win 3).blk t).view.emb (ix2 p q))
  have hp : p.val < 8000 := p.isLt
  have hq : q.val < 32 := q.isLt
  -- the z block and the output block are the same rows of their arrays
  have h0 : ((cfg7.win 0).blk t).view.emb (ix2 p q) = ((cfg7.win 3).blk t).view.emb (ix2 p q) := by
    funext a; apply Fin.ext
    match a with
    | ⟨0, _⟩ => show win7_0.index t (0 : Fin 2) * 8000 + 1 * p.val = win7_3.index t (0 : Fin 2) * 8000 + 1 * p.val; omega
    | ⟨1, _⟩ => show win7_0.index t (1 : Fin 2) * 32 + 1 * q.val = win7_3.index t (1 : Fin 2) * 32 + 1 * q.val; omega
  -- the scale's and the shift's one block is the whole row: column q of it is the output entry's column
  have h1 : ((cfg7.win 1).blk t).view.emb (ix2 (0 : Fin 1) q)
      = ix2 (0 : Fin 1) ((((cfg7.win 3).blk t).view.emb (ix2 p q)) 1) := by
    funext a; apply Fin.ext
    match a with
    | ⟨0, _⟩ => show win7_1.index t (0 : Fin 2) * 1 + 1 * 0 = 0; omega
    | ⟨1, _⟩ => show win7_1.index t (1 : Fin 2) * 32 + 1 * q.val = win7_3.index t (1 : Fin 2) * 32 + 1 * q.val; omega
  have h2 : ((cfg7.win 2).blk t).view.emb (ix2 (0 : Fin 1) q)
      = ix2 (0 : Fin 1) ((((cfg7.win 3).blk t).view.emb (ix2 p q)) 1) := by
    funext a; apply Fin.ext
    match a with
    | ⟨0, _⟩ => show win7_2.index t (0 : Fin 2) * 1 + 1 * 0 = 0; omega
    | ⟨1, _⟩ => show win7_2.index t (1 : Fin 2) * 32 + 1 * q.val = win7_3.index t (1 : Fin 2) * 32 + 1 * q.val; omega
  exact fold_point7 _ _ _ _ _ _ _ h0 h1 h2

/-- An index of the array is in point t's block iff each coordinate is in the block's range on its axis. -/
theorem mem_blk7 (t : Fin cfg7.N) (i : S200000x32.Idx) :
    i ∈ ((cfg7.win 3).blk t).view.set ↔ ∀ a : Fin 2, win7_3.index t a * S8000x32.size a ≤ (i a).val
      ∧ (i a).val < win7_3.index t a * S8000x32.size a + S8000x32.size a := by
  show i ∈ ((View.whole main_v91).slice (win7_3.rect t)).set ↔ _
  rw [View.set_slice_whole, Rect.mem_set_unit]
  exact Iff.rfl

/-- The 25 blocks of 8000 rows tile the 200000 rows: row r is in the block of point r / 8000. -/
theorem cover7 (i : S200000x32.Idx) :
    ∃ t : Fin cfg7.N, (cfg7.win 3).flush t = true ∧ i ∈ ((cfg7.win 3).blk t).view.set := by
  have hi0 : (i 0).val < 200000 := (i 0).isLt
  have hi1 : (i 1).val < 32 := (i 1).isLt
  have hN : cfg7.N = 25 := N_7
  refine ⟨⟨(i 0).val / 8000, by rw [hN]; omega⟩, flush7_3 _, ?_⟩
  rw [mem_blk7]
  obtain ⟨-, -, -, -, -, -, e30, e31⟩ := idx_facts7 ⟨(i 0).val / 8000, by rw [hN]; omega⟩
  intro a
  match a with
  | ⟨0, _⟩ =>
    show win7_3.index _ (0 : Fin 2) * 8000 ≤ (i 0).val ∧ (i 0).val < win7_3.index _ (0 : Fin 2) * 8000 + 8000
    rw [e30]; show (i 0).val / 8000 * 8000 ≤ (i 0).val ∧ (i 0).val < (i 0).val / 8000 * 8000 + 8000; omega
  | ⟨1, _⟩ =>
    show win7_3.index _ (1 : Fin 2) * 32 ≤ (i 1).val ∧ (i 1).val < win7_3.index _ (1 : Fin 2) * 32 + 32
    rw [e31]; omega

/-- The output array after region 7: the folded batch normalisation of z by the scale row and the shift row. -/
theorem final7 (c : Dev nD) :
    (dat7 (F := Ideal) V c).arrAt 3 cfg7.N = bnFold (V c main_v66_0) (rowOf (V c main_v89)) (rowOf (V c main_v90)) :=
  (dat7 (F := Ideal) V c).arrAt_eq_of_cover 3 (bnFold (V c main_v66_0) (rowOf (V c main_v89)) (rowOf (V c main_v90)))
    (fun t _ => flushed7_eq V c t) cover7

end

end Cert.KernelIdeal.Val

end
-- ==== Proof.KHead8.lean ====
/-
  The readout head of the kernel, index by index, and its result array.

  The head's region has five points; point `t` reads rows `2000·t … 2000·t + 1999` of the pooled array, the
  two weights and the two bias rows whole, and writes rows `2000·t … 2000·t + 1999` of the result. Its body is
  two dense layers on the block: a product with the first weight (contracting the 32 features), the first bias
  row laid along every row, `max · 0`, a product with the second weight (contracting the 16 hidden units) and
  the second bias row laid along every row; the narrowings before each product are the identity on extended
  reals and each product accumulates into the zero splat. Entry `(p, q)` of the block depends on row `p` of
  the input block alone, which is row `2000·t + p` of the pooled array, so every block is the restriction of
  the specification's two-layer perceptron of the whole array; the five blocks tile the result.
-/
import proofs.«412989_j17643725652192_3_alg».proof.Proof.Gen.KernelIdeal.Frame
import proofs.«412989_j17643725652192_3_alg».proof.Proof.Spec
import Idealize.ShloMosaic.Lib.Pipeline.Value
import Idealize.ShloMosaic.PureOps.Ideal.Laws

set_option maxRecDepth 16384

open scoped BigOperators

noncomputable section

namespace Cert.KernelIdeal.Val

open Cert.KernelIdeal Cert.KernelIdeal.Gen Cert.Net Idealize.ShloMosaic Idealize.ShloMosaic.TcCoe Idealize.ShloMosaic.ValueIdx

namespace Head8

/-- The two-layer perceptron at row `r`, column `q`: the inner sums run over the input features, the outer
    sum over the hidden units. -/
theorem mlp_at {N D H M : Nat} (u : A2 N D) (w1 : A2 D H) (b1 : A1 H) (w2 : A2 H M) (b2 : A1 M) (r : Fin N) (q : Fin M) :
    mlp u w1 b1 w2 b2 (ix2 r q)
      = (∑ k : Fin H, max ((∑ d : Fin D, u (ix2 r d) * w1 (ix2 d k)) + b1 (ix1 k)) 0 * w2 (ix2 k q)) + b2 (ix1 q) := rfl

/-! ## The first product of the body: 2000 rows of 32 features against the 32 × 16 weight -/

theorem lhs_e1_0 (j : S2000x16.Idx) (k : dot_S2000x32_S32x16_S2000x16_1_0_0_1_n_n.contr.Idx) :
    (dot_S2000x32_S32x16_S2000x16_1_0_0_1_n_n.lhsIdx j k 0).val = (j 0).val := rfl
theorem lhs_e1_1 (j : S2000x16.Idx) (k : dot_S2000x32_S32x16_S2000x16_1_0_0_1_n_n.contr.Idx) :
    (dot_S2000x32_S32x16_S2000x16_1_0_0_1_n_n.lhsIdx j k 1).val = (k ⟨0, Nat.one_pos⟩).val :=
  dot_S2000x32_S32x16_S2000x16_1_0_0_1_n_n.lhsIdx_val_of_single rfl j k
theorem rhs_e1_0 (j : S2000x16.Idx) (k : dot_S2000x32_S32x16_S2000x16_1_0_0_1_n_n.contr.Idx) :
    (dot_S2000x32_S32x16_S2000x16_1_0_0_1_n_n.rhsIdx j k 0).val = (k ⟨0, Nat.one_pos⟩).val :=
  dot_S2000x32_S32x16_S2000x16_1_0_0_1_n_n.rhsIdx_val_of_single rfl j k
theorem rhs_e1_1 (j : S2000x16.Idx) (k : dot_S2000x32_S32x16_S2000x16_1_0_0_1_n_n.contr.Idx) :
    (dot_S2000x32_S32x16_S2000x16_1_0_0_1_n_n.rhsIdx j k 1).val = (j 1).val := rfl

/-- The first product into the zero splat, at `(p, q)`, is the sum over the 32 features. -/
theorem mm1_at (x : FVec Ideal S2000x32 .bf16) (w : FVec Ideal S32x16 .bf16) (p : Fin 2000) (q : Fin 16) :
    matmul dot_S2000x32_S32x16_S2000x16_1_0_0_1_n_n none x w (constant (F := Ideal) S2000x16 .f32 0x00000000#32) (ix2 p q)
      = ∑ d : Fin 32, x (ix2 p d) * w (ix2 d q) := by
  show FloatOps.matmul dot_S2000x32_S32x16_S2000x16_1_0_0_1_n_n none x w (constant (F := Ideal) S2000x16 .f32 0x00000000#32) (ix2 p q) = _
  rw [Ideal.matmul_constant_zero_apply, ← Equiv.sum_comp (contrEquiv1 dot_S2000x32_S32x16_S2000x16_1_0_0_1_n_n 32 rfl rfl).symm]
  refine Finset.sum_congr rfl fun d _ => ?_
  have hd := contrEquiv1_symm_val dot_S2000x32_S32x16_S2000x16_1_0_0_1_n_n 32 rfl rfl d
  congr 1
  · refine congrArg x (funext fun a => Fin.ext ?_)
    match a with
    | ⟨0, _⟩ => exact lhs_e1_0 _ _
    | ⟨1, _⟩ => exact (lhs_e1_1 _ _).trans hd
  · refine congrArg w (funext fun a => Fin.ext ?_)
    match a with
    | ⟨0, _⟩ => exact (rhs_e1_0 _ _).trans hd
    | ⟨1, _⟩ => exact rhs_e1_1 _ _

/-! ## The second product of the body: 2000 rows of 16 hidden units against the 16 × 2 weight -/

theorem lhs_e2_0 (j : S2000x2.Idx) (k : dot_S2000x16_S16x2_S2000x2_1_0_0_1_n_n.contr.Idx) :
    (dot_S2000x16_S16x2_S2000x2_1_0_0_1_n_n.lhsIdx j k 0).val = (j 0).val := rfl
theorem lhs_e2_1 (j : S2000x2.Idx) (k : dot_S2000x16_S16x2_S2000x2_1_0_0_1_n_n.contr.Idx) :
    (dot_S2000x16_S16x2_S2000x2_1_0_0_1_n_n.lhsIdx j k 1).val = (k ⟨0, Nat.one_pos⟩).val :=
  dot_S2000x16_S16x2_S2000x2_1_0_0_1_n_n.lhsIdx_val_of_single rfl j k
theorem rhs_e2_0 (j : S2000x2.Idx) (k : dot_S2000x16_S16x2_S2000x2_1_0_0_1_n_n.contr.Idx) :
    (dot_S2000x16_S16x2_S2000x2_1_0_0_1_n_n.rhsIdx j k 0).val = (k ⟨0, Nat.one_pos⟩).val :=
  dot_S2000x16_S16x2_S2000x2_1_0_0_1_n_n.rhsIdx_val_of_single rfl j k
theorem rhs_e2_1 (j : S2000x2.Idx) (k : dot_S2000x16_S16x2_S2000x2_1_0_0_1_n_n.contr.Idx) :
    (dot_S2000x16_S16x2_S2000x2_1_0_0_1_n_n.rhsIdx j k 1).val = (j 1).val := rfl

/-- The second product into the zero splat, at `(p, q)`, is the sum over the 16 hidden units. -/
theorem mm2_at (x : FVec Ideal S2000x16 .bf16) (w : FVec Ideal S16x2 .bf16) (p : Fin 2000) (q : Fin 2) :
    matmul dot_S2000x16_S16x2_S2000x2_1_0_0_1_n_n none x w (constant (F := Ideal) S2000x2 .f32 0x00000000#32) (ix2 p q)
      = ∑ k : Fin 16, x (ix2 p k) * w (ix2 k q) := by
  show FloatOps.matmul dot_S2000x16_S16x2_S2000x2_1_0_0_1_n_n none x w (constant (F := Ideal) S2000x2 .f32 0x00000000#32) (ix2 p q) = _
  rw [Ideal.matmul_constant_zero_apply, ← Equiv.sum_comp (contrEquiv1 dot_S2000x16_S16x2_S2000x2_1_0_0_1_n_n 16 rfl rfl).symm]
  refine Finset.sum_congr rfl fun k _ => ?_
  have hk := contrEquiv1_symm_val dot_S2000x16_S16x2_S2000x2_1_0_0_1_n_n 16 rfl rfl k
  congr 1
  · refine congrArg x (funext fun a => Fin.ext ?_)
    match a with
    | ⟨0, _⟩ => exact lhs_e2_0 _ _
    | ⟨1, _⟩ => exact (lhs_e2_1 _ _).trans hk
  · refine congrArg w (funext fun a => Fin.ext ?_)
    match a with
    | ⟨0, _⟩ => exact (rhs_e2_0 _ _).trans hk
    | ⟨1, _⟩ => exact rhs_e2_1 _ _

/-! ## A bias row laid along every row of the block -/

/-- A one-row matrix laid along `m` rows, read at `(p, q)`, is the row at `(0, q)`. -/
theorem rowBlock_at {m n : Nat} (hc : (⟨2, ![1, n]⟩ : Shape).ShapeCasts ⟨2, ![1, n]⟩)
    (hb : (⟨2, ![1, n]⟩ : Shape).Broadcasts ⟨2, ![m, n]⟩) (y : (⟨2, ![1, n]⟩ : Shape).Idx → EReal) (p : Fin m) (q : Fin n) :
    broadcastTo ⟨2, ![m, n]⟩ (shapeCast ⟨2, ![1, n]⟩ y hc) hb (ix2 p q) = y (ix2 (0 : Fin 1) q) := by
  rw [shapeCast_self]
  refine broadcastTo_apply y hb (ix2 p q) (ix2 (0 : Fin 1) q) ?_
  intro a
  match a with
  | ⟨0, _⟩ =>
    show (0 : ℕ) = if (1 : ℕ) = 1 then 0 else _
    simp
  | ⟨1, _⟩ =>
    show q.val = if n = 1 then 0 else q.val
    split_ifs with hn
    · have := q.isLt; omega
    · rfl

/-! ## The body's payload -/

/-- The payload at `(p, q)`: the two-layer perceptron of row `p` of the input block. -/
theorem pay8_at (x0 : Vec Ideal S2000x32 .f32) (x1 : Vec Ideal S32x16 .f32) (x2 : Vec Ideal S1x16 .f32)
    (x3 : Vec Ideal S16x2 .f32) (x4 : Vec Ideal S1x2 .f32) (p : Fin 2000) (q : Fin 2) :
    k8_pay1 (F := Ideal) x0 x1 x2 x3 x4 (ix2 p q)
      = (∑ k : Fin 16, max ((∑ d : Fin 32, x0 (ix2 p d) * x1 (ix2 d k)) + x2 (ix2 (0 : Fin 1) k)) 0 * x3 (ix2 k q))
        + x4 (ix2 (0 : Fin 1) q) := by
  unfold k8_pay1
  rw [addf_apply, mm2_at, rowBlock_at]
  congr 1
  refine Finset.sum_congr rfl fun k _ => ?_
  rw [truncf_apply, truncf_apply, maximumf_apply, addf_apply, mm1_at, rowBlock_at, broadcast_apply]
  simp only [truncf_apply, shapeCast_self]
  congr 2
  show Ideal.ofBits .f32 0x00000000#32 = 0
  exact Ideal.ofBits_zero_f32

/-- The payload at any index of the block is the two-layer perceptron, at an index with the same column, of any
    array whose row there is the input block's row, with weights and bias rows equal to the blocks read whole. -/
theorem pay8_eq_mlp (x0 : Vec Ideal S2000x32 .f32) (x1 : Vec Ideal S32x16 .f32) (x2 : Vec Ideal S1x16 .f32)
    (x3 : Vec Ideal S16x2 .f32) (x4 : Vec Ideal S1x2 .f32)
    (g : A2 10000 32) (w1 : A2 32 16) (r1 : A2 1 16) (w2 : A2 16 2) (r2 : A2 1 2)
    (y : S2000x2.Idx) (i : S10000x2.Idx)
    (hrow : ∀ d : Fin 32, x0 (ix2 (y 0) d) = g (ix2 (i 0) d))
    (h1 : ∀ j, x1 j = w1 j) (h2 : ∀ j, x2 j = r1 j) (h3 : ∀ j, x3 j = w2 j) (h4 : ∀ j, x4 j = r2 j)
    (hcol : (y 1).val = (i 1).val) :
    k8_pay1 (F := Ideal) x0 x1 x2 x3 x4 y = mlp g w1 (rowOf r1) w2 (rowOf r2) i := by
  obtain ⟨p, q, rfl⟩ : ∃ (p : Fin 2000) (q : Fin 2), y = ix2 p q := ⟨y 0, y 1, eq_ix2 y⟩
  obtain ⟨r, q', rfl⟩ : ∃ (r : Fin 10000) (q' : Fin 2), i = ix2 r q' := ⟨i 0, i 1, eq_ix2 i⟩
  obtain rfl : q = q' := Fin.ext hcol
  have hrow' : ∀ d : Fin 32, x0 (ix2 p d) = g (ix2 r d) := hrow
  rw [pay8_at, mlp_at, h4]
  refine congrArg₂ (· + ·) (Finset.sum_congr rfl fun k _ => ?_) rfl
  rw [h3, h2]
  refine congrArg₂ (· * ·) (congrArg₂ max (congrArg₂ (· + ·) (Finset.sum_congr rfl fun d _ => ?_) rfl) rfl) rfl
  rw [hrow', h1]

/-! ## From blocks to the array -/

theorem hz : (![0, 0] : Fin 2 → Nat) = fun _ => 0 := funext fun a => by fin_cases a <;> rfl

/-- The index maps over the five points: the pooled rows and the result rows move with the point, everything else
    stays at block `(0, 0)`. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- What point `t` writes back is block `t` of the two-layer perceptron of the arrays as the region finds them. -/
theorem flushed8 (V : (c : Dev nD) → (b : Ref sig .tc) → Buf (Elt Ideal) ((c : Thread nD τ).loc b)) (c : Dev nD) (t : Fin cfg8.N) :
    (dat8 (F := Ideal) V c).flushed 5 t
      = ((cfg8.win 5).blk t).view.read (Elt Ideal)
          (mlp (V c main_v103) (V c main_arg14) (rowOf (V c main_v104)) (V c main_arg16) (rowOf (V c main_v105))) := by
  show (cfg8.win 5).cut (grid8.coords t) ((dat8 (F := Ideal) V c).after 5 t) = _
  rw [after8_5]
  unfold out8_5
  rw [View.canon_unit_zero hz]
  simp only [View.ld_unit_zero (S := S2000x32) hz, View.ld_unit_zero (S := S32x16) hz, View.ld_unit_zero (S := S1x16) hz,
    View.ld_unit_zero (S := S16x2) hz, View.ld_unit_zero (S := S1x2) hz]
  obtain ⟨e00, e01, e10, e11, e20, e21, e30, e31, e40, e41, e50, e51⟩ := idx8 t
  funext j
  show k8_pay1 (F := Ideal) (iblk8 V c 0 t) (iblk8 V c 1 t) (iblk8 V c 2 t) (iblk8 V c 3 t) (iblk8 V c 4 t) j
      = mlp (V c main_v103) (V c main_arg14) (rowOf (V c main_v104)) (V c main_arg16) (rowOf (V c main_v105))
          (((cfg8.win 5).blk t).view.emb j)
  refine pay8_eq_mlp _ _ _ _ _ _ _ _ _ _ j _ (fun d => ?_) (fun y => ?_) (fun y => ?_) (fun y => ?_) (fun y => ?_) ?_
  · -- row `j 0` of the input block is row `2000·t + j 0` of the pooled array, the output block's row
    show V c main_v103 (((cfg8.win 0).blk t).view.emb (ix2 (j 0) d)) = V c main_v103 (ix2 ((((cfg8.win 5).blk t).view.emb j) 0) d)
    refine congrArg _ (funext fun a => Fin.ext ?_)
    match a with
    | ⟨0, _⟩ =>
      show win8_0.index t (0 : Fin 2) * 2000 + 1 * (j 0).val = win8_5.index t (0 : Fin 2) * 2000 + 1 * (j 0).val
      rw [e00, e50]
    | ⟨1, _⟩ =>
      show win8_0.index t (1 : Fin 2) * 32 + 1 * d.val = d.val
      rw [e01]; omega
  · show V c main_arg14 (((cfg8.win 1).blk t).view.emb y) = V c main_arg14 y
    refine congrArg _ (funext fun a => Fin.ext ?_)
    match a with
    | ⟨0, _⟩ => show win8_1.index t (0 : Fin 2) * 32 + 1 * (y 0).val = (y 0).val; rw [e10]; omega
    | ⟨1, _⟩ => show win8_1.index t (1 : Fin 2) * 16 + 1 * (y 1).val = (y 1).val; rw [e11]; omega
  · show V c main_v104 (((cfg8.win 2).blk t).view.emb y) = V c main_v104 y
    refine congrArg _ (funext fun a => Fin.ext ?_)
    match a with
    | ⟨0, _⟩ => show win8_2.index t (0 : Fin 2) * 1 + 1 * (y 0).val = (y 0).val; rw [e20]; omega
    | ⟨1, _⟩ => show win8_2.index t (1 : Fin 2) * 16 + 1 * (y 1).val = (y 1).val; rw [e21]; omega
  · show V c main_arg16 (((cfg8.win 3).blk t).view.emb y) = V c main_arg16 y
    refine congrArg _ (funext fun a => Fin.ext ?_)
    match a with
    | ⟨0, _⟩ => show win8_3.index t (0 : Fin 2) * 16 + 1 * (y 0).val = (y 0).val; rw [e30]; omega
    | ⟨1, _⟩ => show win8_3.index t (1 : Fin 2) * 2 + 1 * (y 1).val = (y 1).val; rw [e31]; omega
  · show V c main_v105 (((cfg8.win 4).blk t).view.emb y) = V c main_v105 y
    refine congrArg _ (funext fun a => Fin.ext ?_)
    match a with
    | ⟨0, _⟩ => show win8_4.index t (0 : Fin 2) * 1 + 1 * (y 0).val = (y 0).val; rw [e40]; omega
    | ⟨1, _⟩ => show win8_4.index t (1 : Fin 2) * 2 + 1 * (y 1).val = (y 1).val; rw [e41]; omega
  · -- the column is the block's own
    show (j 1).val = win8_5.index t (1 : Fin 2) * 2 + 1 * (j 1).val
    rw [e51]; omega

/-- An index of the result array is in point `t`'s block iff each coordinate is in the block's range on its axis. -/
theorem mem_blk8 (t : Fin cfg8.N) (i : S10000x2.Idx) :
    i ∈ ((cfg8.win 5).blk t).view.set ↔ ∀ a : Fin 2, win8_5.index t a * S2000x2.size a ≤ (i a).val ∧ (i a).val < win8_5.index t a * S2000x2.size a + S2000x2.size a := by
  show i ∈ ((View.whole main_v106).slice (win8_5.rect t)).set ↔ _
  rw [View.set_slice_whole, Rect.mem_set_unit]
  exact Iff.rfl

/-- Row `r` of the result is in the block of point `r / 2000`: the five blocks tile the array. -/
theorem cover8 (i : S10000x2.Idx) : ∃ t : Fin cfg8.N, (cfg8.win 5).flush t = true ∧ i ∈ ((cfg8.win 5).blk t).view.set := by
  have hi0 : (i 0).val < 10000 := (i 0).isLt
  have hi1 : (i 1).val < 2 := (i 1).isLt
  have hN : cfg8.N = 5 := N_8
  have ht : (i 0).val / 2000 < cfg8.N := by rw [hN]; omega
  obtain ⟨-, -, -, -, -, -, -, -, -, -, e50, e51⟩ := idx8 ⟨(i 0).val / 2000, ht⟩
  refine ⟨⟨(i 0).val / 2000, ht⟩, flush8_5 _, ?_⟩
  rw [mem_blk8]
  intro a
  match a with
  | ⟨0, _⟩ =>
    show win8_5.index ⟨(i 0).val / 2000, ht⟩ (0 : Fin 2) * 2000 ≤ (i 0).val ∧ (i 0).val < win8_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win8_5.index ⟨(i 0).val / 2000, ht⟩ (1 : Fin 2) * 2 ≤ (i 1).val ∧ (i 1).val < win8_5.index ⟨(i 0).val / 2000, ht⟩ (1 : Fin 2) * 2 + 2
    rw [e51]; omega

end Head8

open Head8 in
/-- The result array after the region: the two-layer perceptron of the pooled array, the weights and the bias rows
    as the region finds them. -/
theorem final8 (V : (c : Dev nD) → (b : Ref sig .tc) → Buf (Elt Ideal) ((c : Thread nD τ).loc b)) (c : Dev nD) :
    (dat8 (F := Ideal) V c).arrAt 5 cfg8.N
      = mlp (V c main_v103) (V c main_arg14) (rowOf (V c main_v104)) (V c main_arg16) (rowOf (V c main_v105)) :=
  (dat8 (F := Ideal) V c).arrAt_eq_of_cover 5 _ (fun t _ => flushed8 V c t) cover8

end Cert.KernelIdeal.Val

end
-- ==== Proof.KSlices.lean ====
/-
  The per-layer parameters and the bias rows as the kernel's host operations lay them out.

  A bias vector `[M]` is reshaped to the one row of a `[1, M]` array; read back as a vector it is the bias,
  because entry `(0, q)` of the row has row-major position `q`.

  A stacked weight `[2, a, b]` is cut along its leading axis at offset `l` to a `[1, a, b]` array and the unit
  axis is dropped: entry `(p, q)` of the result is entry `(l, p, q)` of the stack, because the row-major position
  of `(0, p, q)` in `[1, a, b]` is that of `(p, q)` in `[a, b]`. A stacked vector `[2, a]` is cut to `[1, a]`,
  flattened to `[a]` and laid out again as one row `[1, a]`: read back as a vector it is row `l` of the stack.
-/
import proofs.«412989_j17643725652192_3_alg».proof.Proof.Gen.KernelIdeal.Launch
import proofs.«412989_j17643725652192_3_alg».proof.Proof.Spec
import Idealize.ShloMosaic.Lib.StableHlo.Run
import Idealize.ShloMosaic.Lib.ValueLayout
import Idealize.ShloMosaic.Lib.Pipeline.Value

noncomputable section

namespace Cert.KernelIdeal.Val

open Cert.KernelIdeal Cert.KernelIdeal.Gen Cert.Net Idealize.ShloMosaic Idealize.ShloMosaic.ValueIdx

/-! ## The layout facts over variables -/

/-- A vector laid out as the one row of a `1 × M` array and read back as a vector is the vector: entry
    `(0, q)` of the row sits at row-major position `0·M + q = q`. -/
theorem rowOf_cast {M : Nat} (x : A1 M) (h : (⟨1, ![M]⟩ : Shape).ShapeCasts ⟨2, ![1, M]⟩) :
    rowOf (shapeCast ⟨2, ![1, M]⟩ x h) = x := by
  funext j
  exact (shapeCast_a_1a_apply x h 0 (j 0)).trans (congrArg x (eq_ix1 j).symm)

/-- Layer `o` of a stacked weight: the stack cut at offset `o` on its leading axis, the unit axis dropped.
    Entry `(p, q)` of the result sits at row-major position `p·b + q`, which is that of `(0, p, q)` in the
    cut, and the cut at `(0, p, q)` is the stack at `(o + 0, 0 + p, 0 + q)`. -/
theorem layer3_slice {L a b : Nat} (o : Nat) (ho : o < L) (w : A3 L a b)
    (hs : (⟨3, ![L, a, b]⟩ : Shape).Slices ![o, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![o, 0, 0] w hs) hc = layer3 w ⟨o, ho⟩ := by
  funext i
  obtain ⟨p, q, rfl⟩ : ∃ p q, i = ix2 p q := ⟨i 0, i 1, eq_ix2 i⟩
  refine (shapeCast_1ab_ab_apply _ hc p q).trans ?_
  refine extractStridedSlice_apply _ w hs _ (ix3 ⟨o, ho⟩ p q) fun ax => ?_
  match ax with
  | ⟨0, _⟩ => exact (Nat.add_zero o).symm
  | ⟨1, _⟩ => exact (Nat.zero_add _).symm
  | ⟨2, _⟩ => exact (Nat.zero_add _).symm

/-- Layer `o` of a stacked vector: the stack cut at offset `o` on its leading axis, the unit axis dropped.
    Entry `q` of the result is the cut at `(0, q)`, which is the stack at `(o + 0, q)`. -/
theorem layer2_slice {L a : Nat} (o : Nat) (ho : o < L) (w : A2 L a)
    (hs : (⟨2, ![L, a]⟩ : Shape).Slices ![o, 0] ⟨2, ![1, a]⟩)
    (hc : (⟨2, ![1, a]⟩ : Shape).ShapeCasts ⟨1, ![a]⟩) :
    shapeCast ⟨1, ![a]⟩ (extractStridedSlice ⟨2, ![1, a]⟩ ![o, 0] w hs) hc = layer2 w ⟨o, ho⟩ := by
  funext j
  obtain ⟨q, rfl⟩ : ∃ q, j = ix1 q := ⟨j 0, eq_ix1 j⟩
  exact (shapeCast_1a_a_apply _ hc q).trans (slice2_axis0_apply o w hs 0 q ⟨o, ho⟩ (Nat.add_zero o).symm)

/-- The same vector laid out again as one row and read back. -/
theorem rowOf_layer2_slice {L a : Nat} (o : Nat) (ho : o < L) (w : A2 L a)
    (hs : (⟨2, ![L, a]⟩ : Shape).Slices ![o, 0] ⟨2, ![1, a]⟩)
    (hc : (⟨2, ![1, a]⟩ : Shape).ShapeCasts ⟨1, ![a]⟩) (hr : (⟨1, ![a]⟩ : Shape).ShapeCasts ⟨2, ![1, a]⟩) :
    rowOf (shapeCast ⟨2, ![1, a]⟩ (shapeCast ⟨1, ![a]⟩ (extractStridedSlice ⟨2, ![1, a]⟩ ![o, 0] w hs) hc) hr)
      = layer2 w ⟨o, ho⟩ :=
  (rowOf_cast _ hr).trans (layer2_slice o ho w hs hc)

/-! ## The host operations' results -/

/-- The node embedding's bias as a row. -/
theorem hostOps0_b (W : Valuation τ sig (Elt Ideal)) :
    rowOf (StableHlo.after (hostOps0 (F := Ideal)) W (Proc.devRef .tc main_v4)) = W (Proc.devRef .tc main_arg5) := by
  after_results
  exact rowOf_cast _ _

/-- The edge embedding's bias as a row. -/
theorem hostOps1_b (W : Valuation τ sig (Elt Ideal)) :
    rowOf (StableHlo.after (hostOps1 (F := Ideal)) W (Proc.devRef .tc main_v6)) = W (Proc.devRef .tc main_arg7) := by
  after_results
  exact rowOf_cast _ _

/-- Layer 0's perceptron parameters: both weights, and both biases as rows. -/
theorem hostOps2_3_params (W : Valuation τ sig (Elt Ideal)) :
    StableHlo.after (hostOps2_3 (F := Ideal)) W (Proc.devRef .tc main_v15) = layer3 (W (Proc.devRef .tc main_arg8)) 0
      ∧ rowOf (StableHlo.after (hostOps2_3 (F := Ideal)) W (Proc.devRef .tc main_v22)) = layer2 (W (Proc.devRef .tc main_arg9)) 0
      ∧ StableHlo.after (hostOps2_3 (F := Ideal)) W (Proc.devRef .tc main_v19) = layer3 (W (Proc.devRef .tc main_arg10)) 0
      ∧ rowOf (StableHlo.after (hostOps2_3 (F := Ideal)) W (Proc.devRef .tc main_v23)) = layer2 (W (Proc.devRef .tc main_arg11)) 0 := by
  refine ⟨?_, ?_, ?_, ?_⟩
  · after_results
    exact layer3_slice 0 (by decide) _ _ _
  · after_results
    exact rowOf_layer2_slice 0 (by decide) _ _ _ _
  · after_results
    exact layer3_slice 0 (by decide) _ _ _
  · after_results
    exact rowOf_layer2_slice 0 (by decide) _ _ _ _

/-- Layer 1's perceptron parameters: both weights, and both biases as rows. -/
theorem hostOps5_3_params (W : Valuation τ sig (Elt Ideal)) :
    StableHlo.after (hostOps5_3 (F := Ideal)) W (Proc.devRef .tc main_v57) = layer3 (W (Proc.devRef .tc main_arg8)) 1
      ∧ rowOf (StableHlo.after (hostOps5_3 (F := Ideal)) W (Proc.devRef .tc main_v64)) = layer2 (W (Proc.devRef .tc main_arg9)) 1
      ∧ StableHlo.after (hostOps5_3 (F := Ideal)) W (Proc.devRef .tc main_v61) = layer3 (W (Proc.devRef .tc main_arg10)) 1
      ∧ rowOf (StableHlo.after (hostOps5_3 (F := Ideal)) W (Proc.devRef .tc main_v65)) = layer2 (W (Proc.devRef .tc main_arg11)) 1 := by
  refine ⟨?_, ?_, ?_, ?_⟩
  · after_results
    exact layer3_slice 1 (by decide) _ _ _
  · after_results
    exact rowOf_layer2_slice 1 (by decide) _ _ _ _
  · after_results
    exact layer3_slice 1 (by decide) _ _ _
  · after_results
    exact rowOf_layer2_slice 1 (by decide) _ _ _ _

end Cert.KernelIdeal.Val

end
-- ==== Proof.StageStat.lean ====
/-
  Regrouping a column sum by blocks of consecutive rows.

  The rows `0, …, B·T − 1` are split into `B` blocks of `T` consecutive rows: row `b·T + r` is row `r` of
  block `b`. The pair `(b, r)` ranges over `Fin B × Fin T`, and `(b, r) ↦ b·T + r` is a bijection onto
  `Fin (B·T)`. Addition of extended reals is a commutative monoid, so a sum may be reindexed along a bijection
  and a sum over a product is the iterated sum; no finiteness of the entries is used.
-/
import proofs.«412989_j17643725652192_3_alg».proof.Proof.Spec
import Mathlib.Logic.Equiv.Fin.Basic
import Mathlib.Algebra.BigOperators.Group.Finset.Basic
import Mathlib.Algebra.BigOperators.Group.Finset.Sigma

open scoped BigOperators

noncomputable section

namespace Cert.Net

open Idealize.ShloMosaic Idealize.ShloMosaic.ValueIdx

/-- The sum over the blocks of the block sums of column `j` is the sum of column `j`. -/
theorem colSum_blockSums {B T M : Nat} (z : A2 (B * T) M) (j : Fin M) :
    (∑ b : Fin B, blockSums z (ix3 b 0 j)) = colSum z (ix1 j) := by
  -- the column sum over `Fin (B·T)`, reindexed along `(b, r) ↦ b·T + r`, is the iterated sum
  show (∑ b : Fin B, blockSums z (ix3 b 0 j)) = ∑ i : Fin (B * T), z (ix2 i j)
  rw [← Equiv.sum_comp (finProdFinEquiv (m := B) (n := T)) (fun i => z (ix2 i j)), Fintype.sum_prod_type]
  refine Finset.sum_congr rfl fun b _ => ?_
  show (∑ r : Fin T, z (ix2 _ j)) = ∑ r : Fin T, z (ix2 (finProdFinEquiv (b, r)) j)
  refine Finset.sum_congr rfl fun r _ => ?_
  -- both row indices have the value `b·T + r`
  have hrow : (finProdFinEquiv (b, r) : Fin (B * T)).val = b.val * T + r.val := by
    show r.val + T * b.val = b.val * T + r.val
    rw [Nat.mul_comm, Nat.add_comm]
  congr 2
  exact Fin.ext hrow.symm

end Cert.Net

end
-- ==== Proof.KStatHost.lean ====
/-
  The host stretches between the launches of the batch-normalisation kernels, read column by column.

  A mean stretch sums a `[50, 1, 32]` array of block sums over its blocks (read as `[50, 32]`, summed over axis 0 from
  zero) and divides by the number of rows: when the array holds the sums of the columns of `z` over 50 blocks of 4000
  consecutive rows, the block sums add up to the column sums, so the quotient is the column mean; the stretch keeps it as
  a vector and as a `[1, 32]` row.

  A scale-and-shift stretch does the same with a `[25, 1, 32]` array of block sums of the squares centred at `mu`, which
  gives the column variance about `mu`; it then clamps the variance below at zero, adds the small constant, takes the
  inverse square root, multiplies by the layer's row of the first stacked parameter (the scale), and subtracts `mu` times
  the scale from the layer's row of the second stacked parameter (the shift); both are kept as `[1, 32]` rows.
-/
import proofs.«412989_j17643725652192_3_alg».proof.Proof.Gen.KernelIdeal.Launch
import proofs.«412989_j17643725652192_3_alg».proof.Proof.Spec
import proofs.«412989_j17643725652192_3_alg».proof.Proof.StageStat
import Idealize.ShloMosaic.Lib.StableHlo.Run
import Idealize.ShloMosaic.PureOps.Ideal.Laws
import Idealize.ShloMosaic.Lib.IdealHost
import Idealize.ShloMosaic.Lib.ValueLayout

set_option maxRecDepth 1548

open scoped BigOperators

noncomputable section

namespace Cert.KernelIdeal.Val

open Cert.KernelIdeal Cert.KernelIdeal.Gen Cert.Net Idealize.ShloMosaic Idealize.ShloMosaic.ValueIdx

/-- A `[B, 1, M]` array read as `[B, M]`: entry `(b, j)` is entry `(b, 0, j)` (both sit at row-major position `b·M + j`). -/
theorem cast_drop_mid {B M : Nat} (x : (⟨3, ![B, 1, M]⟩ : Shape).Idx → EReal)
    (h : (⟨3, ![B, 1, M]⟩ : Shape).ShapeCasts ⟨2, ![B, M]⟩) (b : Fin B) (j : Fin M) :
    shapeCast ⟨2, ![B, M]⟩ x h (ix2 b j) = x (ix3 b (0 : Fin 1) j) :=
  shapeCast_apply x h _ _ (by
    rw [Shape.rowMajor_val_three, Shape.rowMajor_val_two]
    show (b.val * 1 + 0) * M + j.val = b.val * M + j.val
    rw [Nat.mul_one, Nat.add_zero])

/-- The host sum over the 50 blocks, from the initial value zero, of a `[50, 1, 32]` array read as `[50, 32]`: at column `j`
    the sum over the blocks `b` of the entry `(b, 0, j)`. -/
theorem sum_blocks50 (x : A3 50 1 32) (j : Fin 32) :
    Host.reduceAdd (F := Ideal) (shapeCast S50x32 x shapeCasts_S50x1x32_S50x32 : FVec Ideal S50x32 .f32)
        (constant (F := Ideal) S_ .f32 0x00000000#32) reducesTo_S50x32_S32_d0 h_S_ (ix1 j)
      = ∑ b : Fin 50, x (ix3 b 0 j) := by
  have h : S50x32.Reduces [0] S32 := by decide
  refine (hostReduceAdd_apply _ _ _ _ _).trans ?_
  refine (Ideal.hostReduceAdd_single reducesTo_S50x32_S32_d0 h _ _ _).trans ?_
  rw [constant_apply, Ideal.ofBits_zero_f32, zero_add]
  refine Finset.sum_congr rfl fun (b : Fin 50) _ => ?_
  have hl : h.lift (ix1 j) b = ix2 b j :=
    funext fun a => by match a with | ⟨0, _⟩ => exact Fin.ext rfl | ⟨1, _⟩ => exact Fin.ext rfl
  refine (congrArg _ hl).trans ?_
  exact cast_drop_mid x _ b j

/-- The host sum over the 25 blocks, from the initial value zero, of a `[25, 1, 32]` array read as `[25, 32]`: at column `j`
    the sum over the blocks `b` of the entry `(b, 0, j)`. -/
theorem sum_blocks25 (x : A3 25 1 32) (j : Fin 32) :
    Host.reduceAdd (F := Ideal) (shapeCast S25x32 x shapeCasts_S25x1x32_S25x32 : FVec Ideal S25x32 .f32)
        (constant (F := Ideal) S_ .f32 0x00000000#32) reducesTo_S25x32_S32_d0 h_S_ (ix1 j)
      = ∑ b : Fin 25, x (ix3 b 0 j) := by
  have h : S25x32.Reduces [0] S32 := by decide
  refine (hostReduceAdd_apply _ _ _ _ _).trans ?_
  refine (Ideal.hostReduceAdd_single reducesTo_S25x32_S32_d0 h _ _ _).trans ?_
  rw [constant_apply, Ideal.ofBits_zero_f32, zero_add]
  refine Finset.sum_congr rfl fun (b : Fin 25) _ => ?_
  have hl : h.lift (ix1 j) b = ix2 b j :=
    funext fun a => by match a with | ⟨0, _⟩ => exact Fin.ext rfl | ⟨1, _⟩ => exact Fin.ext rfl
  refine (congrArg _ hl).trans ?_
  exact cast_drop_mid x _ b j

/-- The column mean from the sums of 50 blocks of 4000 rows. -/
theorem mean_of_blocks (z : A2 200000 32) (j : Fin 32) :
    Host.divf (F := Ideal)
        (Host.reduceAdd (F := Ideal) (shapeCast S50x32 (blockSums (B := 50) (T := 4000) z) shapeCasts_S50x1x32_S50x32 : FVec Ideal S50x32 .f32)
          (constant (F := Ideal) S_ .f32 0x00000000#32) reducesTo_S50x32_S32_d0 h_S_)
        (broadcastInDim S32 ![] bcast_S_S32 (constant (F := Ideal) S_ .f32 0x48435000#32)) (ix1 j)
      = colMean z (ix1 j) := by
  rw [hostDivf_apply, sum_blocks50, colSum_blockSums, broadcastInDim_scalar_apply, constant_apply]
  rfl

/-- The column variance about `mu` from the sums of 25 blocks of 8000 rows of the centred squares. -/
theorem var_of_blocks (z : A2 200000 32) (mu : A1 32) (j : Fin 32) :
    Host.divf (F := Ideal)
        (Host.reduceAdd (F := Ideal) (shapeCast S25x32 (blockSums (B := 25) (T := 8000) (sqDev z mu)) shapeCasts_S25x1x32_S25x32 : FVec Ideal S25x32 .f32)
          (constant (F := Ideal) S_ .f32 0x00000000#32) reducesTo_S25x32_S32_d0 h_S_)
        (broadcastInDim S32 ![] bcast_S_S32 (constant (F := Ideal) S_ .f32 0x48435000#32)) (ix1 j)
      = colVar z mu (ix1 j) := by
  rw [hostDivf_apply, sum_blocks25, colSum_blockSums, broadcastInDim_scalar_apply, constant_apply]
  rfl

/-- Row `l` of a stacked `[2, 32]` parameter, cut out and read as a vector. -/
theorem layer_row0 (w : A2 2 32) (j : Fin 32) :
    shapeCast S32 (extractStridedSlice S1x32 ![0, 0] w slices_S2x32_S1x32_0_0) shapeCasts_S1x32_S32 (ix1 j) = layer2 w 0 (ix1 j) := by
  refine (shapeCast_1a_a_apply _ _ j).trans ?_
  exact slice2_axis0_apply 0 w _ (0 : Fin 1) j (0 : Fin 2) rfl
theorem layer_row1 (w : A2 2 32) (j : Fin 32) :
    shapeCast S32 (extractStridedSlice S1x32 ![1, 0] w slices_S2x32_S1x32_1_0) shapeCasts_S1x32_S32 (ix1 j) = layer2 w 1 (ix1 j) := by
  refine (shapeCast_1a_a_apply _ _ j).trans ?_
  exact slice2_axis0_apply 1 w _ (0 : Fin 1) j (1 : Fin 2) rfl

/-- The folded scale at column `j`: the parameter times the inverse square root of the variance, clamped below at zero,
    plus the small constant. -/
theorem scale_apply (v g : FVec Ideal S32 .f32) (j : Fin 32) :
    mulf g (Host.rsqrt (addf (maximumf v (broadcastInDim S32 ![] bcast_S_S32 (constant (F := Ideal) S_ .f32 0x00000000#32)))
        (broadcastInDim S32 ![] bcast_S_S32 (constant (F := Ideal) S_ .f32 0x3727C5AC#32)))) (ix1 j)
      = g (ix1 j) * Ideal.rsqrt (max (v (ix1 j)) 0 + bnEps) := by
  rw [mulf_apply]
  show g (ix1 j) * Ideal.rsqrt (addf (maximumf v _) _ (ix1 j)) = _
  rw [addf_apply, maximumf_apply, broadcastInDim_scalar_apply, broadcastInDim_scalar_apply, constant_apply, constant_apply,
    Ideal.ofBits_zero_f32]
  rfl

/-- The one row of a vector read as a `[1, 32]` array is the vector. -/
theorem rowOf_cast_stat (v : FVec Ideal S32 .f32) (j : Fin 32) :
    rowOf (fun i => shapeCast S1x32 v shapeCasts_S32_S1x32 i) (ix1 j) = v (ix1 j) :=
  shapeCast_a_1a_apply v shapeCasts_S32_S1x32 (0 : Fin 1) j

/-- Stretch 3: the column means of `z` from its sums over 50 blocks of 4000 rows, as a vector and as a `[1, 32]` row. -/
theorem hostOps3_mu (W : Valuation τ sig (Elt Ideal)) (z : A2 200000 32)
    (hs : W (Proc.devRef .tc main_v24_1) = blockSums (B := 50) (T := 4000) z) :
    StableHlo.after (hostOps3 (F := Ideal)) W (Proc.devRef .tc main_v28) = colMean z
      ∧ rowOf (StableHlo.after hostOps3 W (Proc.devRef .tc main_v29)) = colMean z := by
  refine ⟨?_, ?_⟩
  · after_results
    funext j
    obtain ⟨j0, rfl⟩ : ∃ j0 : Fin 32, j = ix1 j0 := ⟨j 0, eq_ix1 j⟩
    rw [hs]
    exact mean_of_blocks z j0
  · after_results
    funext j
    obtain ⟨j0, rfl⟩ : ∃ j0 : Fin 32, j = ix1 j0 := ⟨j 0, eq_ix1 j⟩
    rw [hs]
    refine (rowOf_cast_stat _ j0).trans ?_
    exact mean_of_blocks z j0

set_option maxHeartbeats 1600000 in
/-- Stretch 4: the folded scale and shift of layer 0 from the sums, over 25 blocks of 8000 rows, of the squares centred
    at `mu`: the variance is the sum of the block sums over the number of rows. -/
theorem hostOps4_ss (W : Valuation τ sig (Elt Ideal)) (z : A2 200000 32) (mu : A1 32)
    (hp : W (Proc.devRef .tc main_v30) = blockSums (B := 25) (T := 8000) (sqDev z mu))
    (hmu : W (Proc.devRef .tc main_v28) = mu) :
    rowOf (StableHlo.after (hostOps4 (F := Ideal)) W (Proc.devRef .tc main_v47))
        = bnScale (colVar z mu) (layer2 (W (Proc.devRef .tc main_arg12)) 0)
      ∧ rowOf (StableHlo.after hostOps4 W (Proc.devRef .tc main_v48))
        = bnShift mu (bnScale (colVar z mu) (layer2 (W (Proc.devRef .tc main_arg12)) 0))
            (layer2 (W (Proc.devRef .tc main_arg13)) 0) := by
  refine ⟨?_, ?_⟩
  · after_results
    funext j
    obtain ⟨j0, rfl⟩ : ∃ j0 : Fin 32, j = ix1 j0 := ⟨j 0, eq_ix1 j⟩
    rw [hp]
    refine (rowOf_cast_stat _ j0).trans ?_
    refine (scale_apply _ _ j0).trans ?_
    exact congrArg₂ (fun a b => a * Ideal.rsqrt (max b 0 + bnEps))
      (layer_row0 (W (Proc.devRef .tc main_arg12)) j0) (var_of_blocks z mu j0)
  · open StableHlo in after_results_simp
    funext j
    obtain ⟨j0, rfl⟩ : ∃ j0 : Fin 32, j = ix1 j0 := ⟨j 0, eq_ix1 j⟩
    rw [hp, hmu]
    refine (rowOf_cast_stat _ j0).trans ?_
    refine (subf_apply _ _ _).trans ?_
    refine congrArg₂ (fun a b => a - b) (layer_row0 (W (Proc.devRef .tc main_arg13)) j0) ?_
    refine (mulf_apply _ _ _).trans ?_
    refine congrArg (fun b => mu (ix1 j0) * b) ?_
    refine (scale_apply _ _ j0).trans ?_
    exact congrArg₂ (fun a b => a * Ideal.rsqrt (max b 0 + bnEps))
      (layer_row0 (W (Proc.devRef .tc main_arg12)) j0) (var_of_blocks z mu j0)

/-- Stretch 6: the column means of `z` from its sums over 50 blocks of 4000 rows, as a vector and as a `[1, 32]` row. -/
theorem hostOps6_mu (W : Valuation τ sig (Elt Ideal)) (z : A2 200000 32)
    (hs : W (Proc.devRef .tc main_v66_1) = blockSums (B := 50) (T := 4000) z) :
    StableHlo.after (hostOps6 (F := Ideal)) W (Proc.devRef .tc main_v70) = colMean z
      ∧ rowOf (StableHlo.after hostOps6 W (Proc.devRef .tc main_v71)) = colMean z := by
  refine ⟨?_, ?_⟩
  · after_results
    funext j
    obtain ⟨j0, rfl⟩ : ∃ j0 : Fin 32, j = ix1 j0 := ⟨j 0, eq_ix1 j⟩
    rw [hs]
    exact mean_of_blocks z j0
  · after_results
    funext j
    obtain ⟨j0, rfl⟩ : ∃ j0 : Fin 32, j = ix1 j0 := ⟨j 0, eq_ix1 j⟩
    rw [hs]
    refine (rowOf_cast_stat _ j0).trans ?_
    exact mean_of_blocks z j0

set_option maxHeartbeats 1600000 in
/-- Stretch 7: the folded scale and shift of layer 1 from the sums, over 25 blocks of 8000 rows, of the squares centred
    at `mu`: the variance is the sum of the block sums over the number of rows. -/
theorem hostOps7_ss (W : Valuation τ sig (Elt Ideal)) (z : A2 200000 32) (mu : A1 32)
    (hp : W (Proc.devRef .tc main_v72) = blockSums (B := 25) (T := 8000) (sqDev z mu))
    (hmu : W (Proc.devRef .tc main_v70) = mu) :
    rowOf (StableHlo.after (hostOps7 (F := Ideal)) W (Proc.devRef .tc main_v89))
        = bnScale (colVar z mu) (layer2 (W (Proc.devRef .tc main_arg12)) 1)
      ∧ rowOf (StableHlo.after hostOps7 W (Proc.devRef .tc main_v90))
        = bnShift mu (bnScale (colVar z mu) (layer2 (W (Proc.devRef .tc main_arg12)) 1))
            (layer2 (W (Proc.devRef .tc main_arg13)) 1) := by
  refine ⟨?_, ?_⟩
  · after_results
    funext j
    obtain ⟨j0, rfl⟩ : ∃ j0 : Fin 32, j = ix1 j0 := ⟨j 0, eq_ix1 j⟩
    rw [hp]
    refine (rowOf_cast_stat _ j0).trans ?_
    refine (scale_apply _ _ j0).trans ?_
    exact congrArg₂ (fun a b => a * Ideal.rsqrt (max b 0 + bnEps))
      (layer_row1 (W (Proc.devRef .tc main_arg12)) j0) (var_of_blocks z mu j0)
  · open StableHlo in after_results_simp
    funext j
    obtain ⟨j0, rfl⟩ : ∃ j0 : Fin 32, j = ix1 j0 := ⟨j 0, eq_ix1 j⟩
    rw [hp, hmu]
    refine (rowOf_cast_stat _ j0).trans ?_
    refine (subf_apply _ _ _).trans ?_
    refine congrArg₂ (fun a b => a - b) (layer_row1 (W (Proc.devRef .tc main_arg13)) j0) ?_
    refine (mulf_apply _ _ _).trans ?_
    refine congrArg (fun b => mu (ix1 j0) * b) ?_
    refine (scale_apply _ _ j0).trans ?_
    exact congrArg₂ (fun a b => a * Ideal.rsqrt (max b 0 + bnEps))
      (layer_row1 (W (Proc.devRef .tc main_arg12)) j0) (var_of_blocks z mu j0)

end Cert.KernelIdeal.Val

end
-- ==== Proof.LibRealClosure.lean ====
/-
  Real-valuedness of extended-real arrays: closure of "is a real number" (neither +∞ nor −∞) under the
  operations a network's programs apply, stated both for the plain extended-real operation and for the
  operation as a program spells it at the ideal float values; with it the values of a few bit patterns,
  the power v ^ (-1/2) at v ≥ 1, the exponential, column maxima and minima, and the min–max normalisation.
-/
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

/-- An extended real that is a real number. -/
@[reducible] def IsReal (x : EReal) : Prop := ∃ r : ℝ, x = (r : EReal)

/-! ## Basic facts -/

theorem isReal_coe (r : ℝ) : IsReal (r : EReal) := ⟨r, rfl⟩
theorem isReal_zero : IsReal 0 := ⟨0, rfl⟩
theorem isReal_one : IsReal 1 := ⟨1, rfl⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (hb : x ≠ ⊥) (ht : x ≠ ⊤) : IsReal x :=
  ⟨x.toReal, (EReal.coe_toReal ht hb).symm⟩
theorem isReal_iff {x : EReal} : IsReal x ↔ x ≠ ⊥ ∧ x ≠ ⊤ :=
  ⟨fun h => ⟨h.ne_bot, h.ne_top⟩, fun h => isReal_of_ne h.1 h.2⟩
theorem IsReal.coe_toReal {x : EReal} (h : IsReal x) : (x.toReal : EReal) = x :=
  EReal.coe_toReal h.ne_top h.ne_bot
/-- A real-valued family is the coercion of a family of reals. -/
theorem exists_real_fun {ι : Sort*} {f : ι → EReal} (h : ∀ i, IsReal (f i)) : ∃ g : ι → ℝ, f = fun i => (g i : EReal) :=
  ⟨fun i => (f i).toReal, funext fun i => (h i).coe_toReal.symm⟩

/-! ## The plain operations of the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {p : Prop} [Decidable p] {x y : EReal} (hx : IsReal x) (hy : IsReal y) :
    IsReal (if p then x else y) := by
  split_ifs <;> assumption
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem isReal_sum_univ {ι : Type*} [Fintype ι] (f : ι → EReal) (h : ∀ i, IsReal (f i)) :
    IsReal (∑ i, f i) := isReal_sum _ f fun i _ => h i
/-- A sum of reals is the real sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]
/-- A sum over a set with an element, of positive reals, is positive. -/
theorem sum_pos_of_isReal {ι : Type*} (s : Finset ι) (f : ι → EReal) (h : ∀ i ∈ s, IsReal (f i))
    (hp : ∀ i ∈ s, 0 < f i) (hne : s.Nonempty) : 0 < ∑ i ∈ s, f i := by
  have e : ∑ i ∈ s, f i = ((∑ i ∈ s, (f i).toReal : ℝ) : EReal) := by
    rw [coe_finset_sum]
    exact Finset.sum_congr rfl fun i hi => (h i hi).coe_toReal.symm
  rw [e]
  exact EReal.coe_pos.2 (Finset.sum_pos (fun i hi => EReal.toReal_pos (hp i hi) (h i hi).ne_top) hne)

/-! ## The same operations as a program spells them at the ideal values -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_negf (hx : IsReal x) : IsReal (FloatOps.negf x) := hx.neg
theorem isReal_hostNegf (hx : IsReal x) : IsReal (FloatOps.hostNegf x) := hx.neg
theorem isReal_maximumf (hx : IsReal x) (hy : IsReal y) : IsReal (FloatOps.maximumf x y) := hx.max hy
theorem isReal_minimumf (hx : IsReal x) (hy : IsReal y) : IsReal (FloatOps.minimumf x y) := hx.min hy
theorem isReal_select {x y : EReal} (c : BitVec 1) (hx : IsReal x) (hy : IsReal y) : IsReal (Scalar.select c x y) := by
  unfold Scalar.select; split_ifs <;> assumption
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩
theorem isReal_extf (ψ : FTy) (h : φ.bits < ψ.bits) (hx : IsReal x) : IsReal (FloatOps.extf ψ h x) := hx
theorem isReal_truncf (ψ : FTy) (h : ψ.bits < φ.bits) (hx : IsReal x) : IsReal (FloatOps.truncf ψ h x) := hx

end Fields

/-! ## Division -/

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩
theorem isReal_divf {φ : FTy} {x y : Ideal φ} (hx : IsReal x) (hy : IsReal y) (h0 : y ≠ 0) :
    IsReal (FloatOps.divf x y) := isReal_div hx hy h0
theorem isReal_hostDivf {φ : FTy} {x y : Ideal φ} (hx : IsReal x) (hy : IsReal y) (h0 : y ≠ 0) :
    IsReal (FloatOps.hostDivf x y) := isReal_div hx hy h0

/-- The value of the min–max normalisation in the reals: for `mn < mx` the quotient `(x - mn) / (mx - mn)`. -/
theorem div_sub_sub_coe (x mn mx : ℝ) (hlt : mn < mx) :
    Ideal.div ((x : EReal) - mn) ((mx : EReal) - mn) = (((x - mn) / (mx - mn) : ℝ) : EReal) := by
  rw [← EReal.coe_sub, ← EReal.coe_sub]
  exact div_coe_coe _ (sub_ne_zero.2 hlt.ne')
/-- The min–max normalisation: for reals with `mn < mx` the quotient `(x - mn) / (mx - mn)` is real. -/
theorem isReal_div_sub_sub {x mn mx : EReal} (hx : IsReal x) (hmn : IsReal mn) (hmx : IsReal mx) (hlt : mn < mx) :
    IsReal (Ideal.div (x - mn) (mx - mn)) := by
  obtain ⟨a, rfl⟩ := hx; obtain ⟨b, rfl⟩ := hmn; obtain ⟨c, rfl⟩ := hmx
  exact ⟨_, div_sub_sub_coe a b c (EReal.coe_lt_coe_iff.1 hlt)⟩

/-! ## Comparisons -/

theorem cmp_ogt_eq_one_iff {a b : EReal} : Ideal.cmp .ogt a b = 1#1 ↔ b < a := by
  show BitVec.ofBool (decide (b < a)) = 1#1 ↔ b < a
  by_cases h : b < a <;> simp [h]
theorem lt_of_cmp_ogt {a b : EReal} (h : Ideal.cmp .ogt a b = 1#1) : b < a := cmp_ogt_eq_one_iff.1 h
theorem lt_of_cmpf_ogt {φ : FTy} {a b : Ideal φ} (h : FloatOps.cmpf .ogt a b = 1#1) : b < a := cmp_ogt_eq_one_iff.1 h
theorem le_of_cmpf_ogt_ne {φ : FTy} {a b : Ideal φ} (h : FloatOps.cmpf .ogt a b ≠ 1#1) : a ≤ b :=
  not_lt.1 fun hlt => h (cmp_ogt_eq_one_iff.2 hlt)

/-! ## Bit patterns -/

theorem ofBits_one_f32 : Ideal.ofBits .f32 0x3F800000#32 = ((1 : ℝ) : EReal) := by
  simp [Ideal.ofBits, Ideal.ieee, -EReal.coe_mul, -EReal.coe_one]; norm_num
theorem ofBits_neg_half_f32 : Ideal.ofBits .f32 0xBF000000#32 = ((-1 / 2 : ℝ) : EReal) := by
  simp [Ideal.ofBits, Ideal.ieee, -EReal.coe_mul, -EReal.coe_neg]; norm_num
theorem ofBits_zero_f32 : Ideal.ofBits .f32 0x00000000#32 = 0 := Ideal.ofBits_zero_f32
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
/-- The pattern `0x3C23D70A` (the f32 nearest one hundredth) is a positive real. -/
theorem ofBits_hundredth_f32_pos : ∃ r : ℝ, 0 < r ∧ Ideal.ofBits .f32 0x3C23D70A#32 = (r : EReal) := by
  have h : Ideal.ofBits .f32 0x3C23D70A#32 = (((10737418 : ℝ) * (2 : ℝ) ^ (-30 : ℤ) : ℝ) : EReal) := by
    simp [Ideal.ofBits, Ideal.ieee, -EReal.coe_mul] <;> norm_num
  exact ⟨_, by positivity, h⟩
theorem isReal_ofBits_one_f32 : IsReal (Ideal.ofBits .f32 0x3F800000#32) := ⟨_, ofBits_one_f32⟩
theorem isReal_ofBits_neg_half_f32 : IsReal (Ideal.ofBits .f32 0xBF000000#32) := ⟨_, ofBits_neg_half_f32⟩
theorem isReal_ofBits_zero_f32 : IsReal (Ideal.ofBits .f32 0x00000000#32) := ⟨0, ofBits_zero_f32⟩
theorem isReal_ofBits_hundredth_f32 : IsReal (Ideal.ofBits .f32 0x3C23D70A#32) :=
  let ⟨r, _, h⟩ := ofBits_hundredth_f32_pos; ⟨r, h⟩

/-! ## The power `v ^ (-1/2)` at `v ≥ 1` -/

/-- For a real `v ≥ 1` the power `v ^ (-1/2)` is a positive real. -/
theorem pow_neg_half_coe {v : ℝ} (hv : 1 ≤ v) :
    ∃ r : ℝ, 0 < r ∧ Ideal.pow (v : EReal) ((-1 / 2 : ℝ) : EReal) = (r : EReal) :=
  ⟨Real.rpow v (-1 / 2), Real.rpow_pos_of_pos (lt_of_lt_of_le one_pos hv) _, Ideal.pow_coe_coe v (-1 / 2)⟩
/-- The same for an extended real known to be real and at least one, the exponent the pattern of `-0.5`. -/
theorem pow_neg_half_of_one_le {v : EReal} (hv : IsReal v) (h1 : 1 ≤ v) :
    ∃ r : ℝ, 0 < r ∧ Ideal.pow v (Ideal.ofBits .f32 0xBF000000#32) = (r : EReal) := by
  obtain ⟨r, rfl⟩ := hv
  rw [ofBits_neg_half_f32]
  exact pow_neg_half_coe (EReal.coe_le_coe_iff.1 (by rwa [EReal.coe_one]))
/-- As a program spells it: the host power of `max deg 1` to the pattern of `-0.5`, `deg` real. -/
theorem hostPowf_max_one_neg_half {deg : Ideal .f32} (hd : IsReal deg) :
    ∃ r : ℝ, 0 < r ∧ FloatOps.hostPowf (FloatOps.maximumf deg (Ideal.ofBits .f32 0x3F800000#32))
      (Ideal.ofBits .f32 0xBF000000#32) = (r : EReal) := by
  show ∃ r : ℝ, 0 < r ∧ Ideal.pow (max deg (Ideal.ofBits .f32 0x3F800000#32)) (Ideal.ofBits .f32 0xBF000000#32) = (r : EReal)
  have h1 : (1 : EReal) ≤ Ideal.ofBits .f32 0x3F800000#32 := by rw [ofBits_one_f32, EReal.coe_one]
  exact pow_neg_half_of_one_le (hd.max isReal_ofBits_one_f32) (le_max_of_le_right h1)

/-! ## The exponential -/

theorem exp_pos_of_isReal {x : EReal} (hx : IsReal x) : ∃ r : ℝ, 0 < r ∧ Ideal.exp x = (r : EReal) := by
  obtain ⟨a, rfl⟩ := hx; exact ⟨Real.exp a, Real.exp_pos a, Ideal.exp_coe a⟩
theorem isReal_exp {x : EReal} (hx : IsReal x) : IsReal (Ideal.exp x) :=
  let ⟨r, _, h⟩ := exp_pos_of_isReal hx; ⟨r, h⟩
theorem exp_pos {x : EReal} (hx : IsReal x) : 0 < Ideal.exp x := by
  obtain ⟨r, hr, h⟩ := exp_pos_of_isReal hx; rw [h]; exact EReal.coe_pos.2 hr
theorem isReal_hostExp {φ : FTy} {x : Ideal φ} (hx : IsReal x) : IsReal (FloatOps.hostUnary .exp x) := isReal_exp hx
theorem hostExp_pos {φ : FTy} {x : Ideal φ} (hx : IsReal x) : 0 < FloatOps.hostUnary .exp x := exp_pos hx
theorem isReal_expf {φ : FTy} {x : Ideal φ} (hx : IsReal x) : IsReal (FloatOps.exp x) := isReal_exp hx
theorem expf_pos {φ : FTy} {x : Ideal φ} (hx : IsReal x) : 0 < FloatOps.exp x := exp_pos hx

/-! ## Column reductions by maximum and minimum -/

section Columns
variable {R C : Nat}

/-- Over axis 0 of an `R × C` array the indices that drop to column `j` are those whose column is `j`. -/
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

/-- Entry `(r, j)` drops to column `j`. -/
theorem ix2_mem_fiber (h : (⟨2, ![R, C]⟩ : Shape).ReducesTo [0] (⟨1, ![C]⟩ : Shape)) (r : Fin R)
    (j : (⟨1, ![C]⟩ : Shape).Idx) :
    (ix2 r (j 0 : Fin C) : (⟨2, ![R, C]⟩ : Shape).Idx) ∈ Finset.univ.filter fun i : (⟨2, ![R, C]⟩ : Shape).Idx => h.drop i = j :=
  by rw [Finset.mem_filter]; exact ⟨Finset.mem_univ _, (drop_eq_iff_col h _ j).2 rfl⟩

/-- The column maximum from `-∞` of a real-valued array with at least one row is real and is at least every entry of the
    column. -/
theorem hostReduce_max_col (hR : 0 < R) (x : FVec Ideal ⟨2, ![R, C]⟩ .f32) (hx : ∀ i, IsReal (x i)) {u : Shape}
    (init : u.Idx → Ideal .f32) (hu : 0 < u.numel) (hinit : init (Shape.Idx.first hu) = ⊥)
    (h : (⟨2, ![R, C]⟩ : Shape).ReducesTo [0] (⟨1, ![C]⟩ : Shape)) (j : (⟨1, ![C]⟩ : Shape).Idx) :
    IsReal (Host.reduce (FloatOps.maximumf (F := Ideal) (φ := .f32)) x init h hu j)
      ∧ ∀ r : Fin R, x (ix2 r (j 0 : Fin C)) ≤ Host.reduce (FloatOps.maximumf (F := Ideal) (φ := .f32)) x init h hu j := by
  have key : Host.reduce (FloatOps.maximumf (F := Ideal) (φ := .f32)) x init h hu j
      = (Finset.univ.filter fun i : (⟨2, ![R, C]⟩ : Shape).Idx => h.drop i = j).fold max ⊥ x := by
    rw [Host.reduce_eq_fold, hinit]; rfl
  rw [key]
  have h0 := ix2_mem_fiber h ⟨0, hR⟩ j
  refine ⟨isReal_of_ne ?_ ?_, fun r => (Finset.le_fold_max _).2 (Or.inr ⟨_, ix2_mem_fiber h r j, le_rfl⟩)⟩
  · exact ((Finset.lt_fold_max _).2 (Or.inr ⟨_, h0, bot_lt_iff_ne_bot.2 (hx _).ne_bot⟩)).ne'
  · exact ((Finset.fold_max_lt _).2 ⟨bot_lt_top, fun i _ => lt_top_iff_ne_top.2 (hx i).ne_top⟩).ne

/-- The column minimum from `+∞` of a real-valued array with at least one row is real and is at most every entry of the
    column. -/
theorem hostReduce_min_col (hR : 0 < R) (x : FVec Ideal ⟨2, ![R, C]⟩ .f32) (hx : ∀ i, IsReal (x i)) {u : Shape}
    (init : u.Idx → Ideal .f32) (hu : 0 < u.numel) (hinit : init (Shape.Idx.first hu) = ⊤)
    (h : (⟨2, ![R, C]⟩ : Shape).ReducesTo [0] (⟨1, ![C]⟩ : Shape)) (j : (⟨1, ![C]⟩ : Shape).Idx) :
    IsReal (Host.reduce (FloatOps.minimumf (F := Ideal) (φ := .f32)) x init h hu j)
      ∧ ∀ r : Fin R, Host.reduce (FloatOps.minimumf (F := Ideal) (φ := .f32)) x init h hu j ≤ x (ix2 r (j 0 : Fin C)) := by
  have key : Host.reduce (FloatOps.minimumf (F := Ideal) (φ := .f32)) x init h hu j
      = (Finset.univ.filter fun i : (⟨2, ![R, C]⟩ : Shape).Idx => h.drop i = j).fold min ⊤ x := by
    rw [Host.reduce_eq_fold, hinit]; rfl
  rw [key]
  have h0 := ix2_mem_fiber h ⟨0, hR⟩ j
  refine ⟨isReal_of_ne ?_ ?_, fun r => (Finset.fold_min_le _).2 (Or.inr ⟨_, ix2_mem_fiber h r j, le_rfl⟩)⟩
  · exact ((Finset.lt_fold_min _).2 ⟨bot_lt_top, fun i _ => bot_lt_iff_ne_bot.2 (hx i).ne_bot⟩).ne'
  · exact ((Finset.fold_min_lt _).2 (Or.inr ⟨_, h0, lt_top_iff_ne_top.2 (hx _).ne_top⟩)).ne

/-- The same with the initial value the constant a program prints, the pattern of `-∞`. -/
theorem hostReduce_max_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.maximumf (F := Ideal) (φ := .f32)) x (constant (F := Ideal) u .f32 0xFF800000#32) h hu j)
      ∧ ∀ r : Fin R, x (ix2 r (j 0 : Fin C)) ≤ Host.reduce (FloatOps.maximumf (F := Ideal) (φ := .f32)) x (constant (F := Ideal) u .f32 0xFF800000#32) h hu j :=
  hostReduce_max_col hR x hx _ hu ofBits_neg_inf_f32 h j

/-- The same with the initial value the constant a program prints, the pattern of `+∞`. -/
theorem hostReduce_min_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.minimumf (F := Ideal) (φ := .f32)) x (constant (F := Ideal) u .f32 0x7F800000#32) h hu j)
      ∧ ∀ r : Fin R, Host.reduce (FloatOps.minimumf (F := Ideal) (φ := .f32)) x (constant (F := Ideal) u .f32 0x7F800000#32) h hu j ≤ x (ix2 r (j 0 : Fin C)) :=
  hostReduce_min_col hR x hx _ hu ofBits_pos_inf_f32 h j

/-- The column minimum is at most the column maximum. -/
theorem hostReduce_min_le_max_col (hR : 0 < R) (x : FVec Ideal ⟨2, ![R, C]⟩ .f32) (hx : ∀ i, IsReal (x i)) {u u' : Shape}
    (init : u.Idx → Ideal .f32) (hu : 0 < u.numel) (hinit : init (Shape.Idx.first hu) = ⊤)
    (init' : u'.Idx → Ideal .f32) (hu' : 0 < u'.numel) (hinit' : init' (Shape.Idx.first hu') = ⊥)
    (h h' : (⟨2, ![R, C]⟩ : Shape).ReducesTo [0] (⟨1, ![C]⟩ : Shape)) (j : (⟨1, ![C]⟩ : Shape).Idx) :
    Host.reduce (FloatOps.minimumf (F := Ideal) (φ := .f32)) x init h hu j
      ≤ Host.reduce (FloatOps.maximumf (F := Ideal) (φ := .f32)) x init' h' hu' j :=
  ((hostReduce_min_col hR x hx init hu hinit h j).2 ⟨0, hR⟩).trans
    ((hostReduce_max_col hR x hx init' hu' hinit' h' j).2 ⟨0, hR⟩)

/-- The column sum from a real initial value of a real-valued array is real; from zero, of positive entries over at least
    one row, it is positive. -/
theorem hostReduceAdd_col_pos (hR : 0 < R) (x : (⟨2, ![R, C]⟩ : Shape).Idx → EReal) (hx : ∀ i, IsReal (x i))
    (hp : ∀ i, 0 < x i) (h : (⟨2, ![R, C]⟩ : Shape).ReducesTo [0] (⟨1, ![C]⟩ : Shape)) (j : (⟨1, ![C]⟩ : Shape).Idx) :
    0 < Ideal.hostReduceAdd h x 0 j := by
  show 0 < (0 : EReal) + ∑ i ∈ Finset.univ.filter (fun i => h.drop i = j), x i
  rw [zero_add]
  exact sum_pos_of_isReal _ x (fun i _ => hx i) (fun i _ => hp i) ⟨_, ix2_mem_fiber h ⟨0, hR⟩ j⟩

/-- The same for the host sum as a program spells it, its initial value zero. -/
theorem reduceAdd_col_pos (hR : 0 < R) {φ : FTy} (x : FVec Ideal ⟨2, ![R, C]⟩ φ) (hx : ∀ i, IsReal (x i))
    (hp : ∀ i, 0 < x i) {u : Shape} (init : u.Idx → Ideal φ) (hu : 0 < u.numel) (hinit : init (Shape.Idx.first hu) = 0)
    (h : (⟨2, ![R, C]⟩ : Shape).ReducesTo [0] (⟨1, ![C]⟩ : Shape)) (j : (⟨1, ![C]⟩ : Shape).Idx) :
    0 < Host.reduceAdd x init h hu j := by
  show 0 < Ideal.hostReduceAdd h x (init (Shape.Idx.first hu)) j
  rw [hinit]
  exact hostReduceAdd_col_pos hR x hx hp h j

end Columns

/-! ## Contractions, scatters and sums -/

section Contract
variable {sl sr so : Shape}

theorem isReal_matmul (d : DotDims sl sr so) (lhs : sl.Idx → EReal) (rhs : sr.Idx → EReal) (acc : so.Idx → EReal)
    (hl : ∀ i, IsReal (lhs i)) (hr : ∀ i, IsReal (rhs i)) (ha : ∀ j, IsReal (acc j)) (j : so.Idx) :
    IsReal (Ideal.matmul d lhs rhs acc j) :=
  (ha j).add (isReal_sum_univ _ fun k => (hl _).mul (hr _))

theorem isReal_matmulf {φ₁ φ₂ : FTy} (d : DotDims sl sr so) (prec : Option ContractPrecision) (lhs : FVec Ideal sl φ₁)
    (rhs : FVec Ideal sr φ₂) (acc : FVec Ideal so .f32) (hl : ∀ i, IsReal (lhs i)) (hr : ∀ i, IsReal (rhs i))
    (ha : ∀ j, IsReal (acc j)) (j : so.Idx) : IsReal (FloatOps.matmul d prec lhs rhs acc j) :=
  isReal_matmul d lhs rhs acc hl hr ha j

theorem isReal_dotGeneral {φ₁ φ₂ : FTy} (d : DotDims sl sr so) (prec : Option ContractPrecision) (sched : HostSchedule)
    (lhs : FVec Ideal sl φ₁) (rhs : FVec Ideal sr φ₂) (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

theorem isReal_hostDotGeneral {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) :=
  isReal_dotGeneral d prec .single lhs rhs hl hr j

end Contract

/-- A gather reads the operand: real when the operand is. -/
theorem isReal_gather {s si t : Shape} {w : Nat} (d : GatherDims s si t) (x : s.Idx → EReal) (idx : IVec si w)
    (hx : ∀ i, IsReal (x i)) (j : t.Idx) : IsReal (Host.gather d x idx j) :=
  hx _

theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

theorem isReal_reduceAdd {s t u : Shape} {φ : FTy} {axes : List (Fin s.rank)} (x : FVec Ideal s φ)
    (init : u.Idx → Ideal φ) (h : s.ReducesTo axes t) (hu : 0 < u.numel) (hx : ∀ i, IsReal (x i))
    (hi : IsReal (init (Shape.Idx.first hu))) (j : t.Idx) : IsReal (Host.reduceAdd x init h hu j) :=
  isReal_hostReduceAdd h x _ hx hi j

end RealClosure
-- ==== Proof.StageAgg.lean ====
/-
  The message aggregation of one layer: per edge, the source node's row plus the edge's row, clamped below at zero,
  summed into the destination node's row.

  The reference wraps a negative source index by the number of nodes (200000) and gathers the node rows at the wrapped
  indices; a gather clamps its start index into the table. The kernel wraps the same way, gathers the same rows, and
  then SELECTS, per edge, between the gathered row and a fill word: the row where the wrapped index lies in
  [0, 199999], the fill word elsewhere. Its mask is the conjunction, over the one column of the index column, of the
  two bounds checks, broadcast along the feature axis.

  When every source index lies in [0, 200000) no index is negative, the wrap is the identity, both bounds checks hold
  at every edge, the conjunction over a column of extent one of words that are all 1 is 1, and the select returns the
  gathered row everywhere. The kernel's take is then the reference's gather, term for term: the two programs' gather
  and scatter records and their index columns are the same terms. The rest of the stretch (adding the edge rows, the
  maximum with zero, the scatter-add into the zero array by the destination column) is the same on both sides.

  Sums and maxima of real numbers are real: with real node and edge rows the aggregate is real.
-/
import proofs.«412989_j17643725652192_3_alg».proof.Proof.Gen.KernelIdeal.Launch
import proofs.«412989_j17643725652192_3_alg».proof.ReferenceIdeal
import proofs.«412989_j17643725652192_3_alg».proof.Proof.Gen.ReferenceIdeal
import proofs.«412989_j17643725652192_3_alg».proof.Proof.Spec
import proofs.«412989_j17643725652192_3_alg».proof.Proof.LibRealClosure
import Idealize.ShloMosaic.Lib.StableHlo.Run
import Idealize.ShloMosaic.Lib.Pipeline.Frame
import Idealize.ShloMosaic.Lib.StableHlo.Predicate

set_option maxRecDepth 16384

noncomputable section

namespace Cert.Proof.Agg

open Idealize.ShloMosaic Idealize.ShloMosaic.ValueIdx RealClosure

/-! ## The reference's terms -/

section Reference

open Cert.ReferenceIdeal Cert.ReferenceIdeal.Facts₀

/-- Row 0 of the edge-index table, as a vector: the source node of every edge. -/
def srcR (ei : IVec Cert.ReferenceIdeal.S2x2000000 32) : IVec Cert.ReferenceIdeal.S2000000 32 :=
  shapeCast S2000000 (extractStridedSlice S1x2000000 ![0, 0] ei slices_S2x2000000_S1x2000000_0_0) shapeCasts_S1x2000000_S2000000

/-- Row 1 of the edge-index table, as a vector: the destination node of every edge. -/
def dstR (ei : IVec Cert.ReferenceIdeal.S2x2000000 32) : IVec Cert.ReferenceIdeal.S2000000 32 :=
  shapeCast S2000000 (extractStridedSlice S1x2000000 ![1, 0] ei slices_S2x2000000_S1x2000000_1_0) shapeCasts_S1x2000000_S2000000

/-- The source indices with the negative ones wrapped by the number of nodes, as a column of start indices. -/
def wrapR (src : IVec Cert.ReferenceIdeal.S2000000 32) : IVec Cert.ReferenceIdeal.S2000000x1 32 :=
  broadcastInDim S2000000x1 ![0] bcast_S2000000_S2000000x1_0
    (select (cmpi .slt src (broadcastInDim S2000000 ![] bcast_S_S2000000 (constantI S_ 32 0#32)))
      (addi src (broadcastInDim S2000000 ![] bcast_S_S2000000 (constantI S_ 32 200000#32))) src)

/-- One aggregation: per edge the source node's row plus the edge's row, clamped below at zero, summed into the
    destination node's row. -/
def aggR (h : FVec Ideal Cert.ReferenceIdeal.S200000x32 .f32) (e : FVec Ideal Cert.ReferenceIdeal.S2000000x32 .f32)
    (src dst : IVec Cert.ReferenceIdeal.S2000000 32) : FVec Ideal Cert.ReferenceIdeal.S200000x32 .f32 :=
  Host.scatterAdd scatter_S200000x32_S2000000x1_S2000000x32_1_0_0_1
    (broadcastInDim S200000x32 ![] bcast_S_S200000x32 (constant (F := Ideal) S_ .f32 0x00000000#32))
    (broadcastInDim S2000000x1 ![0] bcast_S2000000_S2000000x1_0 dst)
    (maximumf
      (addf (Host.gather gather_S200000x32_S2000000x1_S2000000x32_1_0_n_n_0_1_132 h (wrapR src)) e)
      (broadcastInDim S2000000x32 ![] bcast_S_S2000000x32 (constant (F := Ideal) S_ .f32 0x00000000#32)))

theorem src_of_arg (ei : IVec Cert.ReferenceIdeal.S2x2000000 32)
    (hr : ∀ k : Fin 2000000, 0 ≤ (ei (ix2 0 k)).toInt ∧ (ei (ix2 0 k)).toInt < 200000) :
    ∀ k : Fin 2000000, 0 ≤ (srcR ei (ix1 k)).toInt ∧ (srcR ei (ix1 k)).toInt < 200000 := by
  intro k
  -- the reshape drops the unit row axis, and the slice at offset (0, 0) reads row 0
  have e : srcR ei (ix1 k) = ei (ix2 0 k) := by
    unfold srcR shapeCast
    rw [Shape.reshapeEquiv_cons_one]
    unfold extractStridedSlice
    congr 1
    funext a
    match a with
    | ⟨0, _⟩ => rfl
    | ⟨1, _⟩ => exact Fin.ext (Nat.zero_add _)
  rw [e]
  exact hr k

theorem aggR_real {h : FVec Ideal Cert.ReferenceIdeal.S200000x32 .f32} {e : FVec Ideal Cert.ReferenceIdeal.S2000000x32 .f32}
    {src dst : IVec Cert.ReferenceIdeal.S2000000 32}
    (hh : ∀ i, IsReal (h i)) (he : ∀ i, IsReal (e i)) : ∀ i, IsReal (aggR h e src dst i) := by
  intro i
  unfold aggR
  -- a scatter-add into the zero array of updates max (h[src] + e, 0): sums and maxima of reals
  refine isReal_scatterAdd _ _ _ _ (fun i => isReal_ofBits_zero_f32) (fun j => ?_) i
  exact isReal_maximumf (isReal_addf (isReal_gather _ _ _ hh _) (he j)) isReal_ofBits_zero_f32

end Reference

section Kernel

open Cert.KernelIdeal Cert.KernelIdeal.Gen

/-! ## The kernel's take and aggregation as pure terms -/

/-- The kernel's column of start indices: the source indices, the negative ones wrapped by the number of nodes. -/
def idxK (src : IVec Cert.KernelIdeal.S2000000 32) : IVec Cert.KernelIdeal.S2000000x1 32 :=
  broadcastInDim S2000000x1 ![0] bcast_S2000000_S2000000x1_0
    (select (cmpi .slt src (broadcastInDim S2000000 ![] bcast_S_S2000000 (constantI S_ 32 0#32)))
      (addi src (broadcastInDim S2000000 ![] bcast_S_S2000000 (constantI S_ 32 200000#32))) src)

/-- The kernel's in-range mask: per edge, the conjunction over the one index column of 0 ≤ index ≤ 199999. -/
def maskK (src : IVec Cert.KernelIdeal.S2000000 32) : IVec Cert.KernelIdeal.S2000000 1 :=
  Host.reduce IntOp.andi
    (andi (cmpi .sge (idxK src) (broadcastInDim S2000000x1 ![] bcast_S_S2000000x1 (constantI S_ 32 0#32)))
      (cmpi .sle (idxK src) (broadcastInDim S2000000x1 ![0, 1] bcast_S1x1_S2000000x1_0_1
        (broadcastInDim S1x1 ![1] bcast_S1_S1x1_1 (constantI S1 32 199999#32)))))
    (constantI S_ 1 1#1) reducesTo_S2000000x1_S2000000_d1 h_S_

/-- The kernel's take: the gathered rows where the mask is set, the fill word elsewhere. -/
def takeK (h : FVec Ideal Cert.KernelIdeal.S200000x32 .f32) (src : IVec Cert.KernelIdeal.S2000000 32) :
    FVec Ideal Cert.KernelIdeal.S2000000x32 .f32 :=
  select (broadcastInDim S2000000x32 ![0] bcast_S2000000_S2000000x32_0 (maskK src))
    (Host.gather gather_S200000x32_S2000000x1_S2000000x32_1_0_n_n_0_1_132 h (idxK src))
    (broadcastInDim S2000000x32 ![] bcast_S_S2000000x32 (constant (F := Ideal) S_ .f32 0x7FC00000#32))

/-- The kernel's aggregation as one term of its four inputs. -/
def aggK (h : FVec Ideal Cert.KernelIdeal.S200000x32 .f32) (e : FVec Ideal Cert.KernelIdeal.S2000000x32 .f32)
    (src dst : IVec Cert.KernelIdeal.S2000000 32) : FVec Ideal Cert.KernelIdeal.S200000x32 .f32 :=
  Host.scatterAdd scatter_S200000x32_S2000000x1_S2000000x32_1_0_0_1
    (broadcastInDim S200000x32 ![] bcast_S_S200000x32 (constant (F := Ideal) S_ .f32 0x00000000#32))
    (broadcastInDim S2000000x1 ![0] bcast_S2000000_S2000000x1_0 dst)
    (maximumf (addf (takeK h src) e)
      (broadcastInDim S2000000x32 ![] bcast_S_S2000000x32 (constant (F := Ideal) S_ .f32 0x00000000#32)))

/-! ## The mask is all ones on in-range indices -/

/-- A fold of the one-bit conjunction from 1 over words that are all 1 is 1. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons_of_mem hi))]
    rfl

/-- A word that reads, signed, in [0, 200000) is not below zero … -/
theorem slt_zero_word (w : BitVec 32) (h0 : 0 ≤ w.toInt) : IntOp.cmpi .slt w 0#32 = 0#1 := by
  have h : w.slt 0#32 = false := by
    rw [BitVec.slt]
    exact decide_eq_false (by simpa using h0)
  simp only [IntOp.cmpi, h]
  rfl

/-- … and passes both bounds checks 0 ≤ w and w ≤ 199999. -/
theorem inrange_word (w : BitVec 32) (h0 : 0 ≤ w.toInt) (h1 : w.toInt < 200000) :
    IntOp.andi (IntOp.cmpi .sge w 0#32) (IntOp.cmpi .sle w 199999#32) = 1#1 := by
  have a : (0#32 : BitVec 32).sle w = true := by
    rw [BitVec.sle]
    exact decide_eq_true (by simpa using h0)
  have b : w.sle 199999#32 = true := by
    rw [BitVec.sle]
    have e : (199999#32 : BitVec 32).toInt = 199999 := by decide
    exact decide_eq_true (by rw [e]; omega)
  simp only [IntOp.cmpi, a, b]
  rfl

/-- With every source index in [0, 200000) the wrap leaves it: no index is negative. -/
theorem wrap_apply (src : IVec Cert.KernelIdeal.S2000000 32)
    (hsrc : ∀ k' : Cert.KernelIdeal.S2000000.Idx, 0 ≤ (src k').toInt ∧ (src k').toInt < 200000)
    (k' : Cert.KernelIdeal.S2000000.Idx) :
    select (cmpi .slt src (broadcastInDim S2000000 ![] bcast_S_S2000000 (constantI S_ 32 0#32)))
      (addi src (broadcastInDim S2000000 ![] bcast_S_S2000000 (constantI S_ 32 200000#32))) src k' = src k' := by
  show Scalar.select (IntOp.cmpi .slt (src k') 0#32) _ _ = _
  rw [slt_zero_word _ (hsrc k').1, select_zero]

/-- Every entry of the kernel's index column is a source index, so it is in range. -/
theorem idxK_range (src : IVec Cert.KernelIdeal.S2000000 32)
    (hsrc : ∀ k' : Cert.KernelIdeal.S2000000.Idx, 0 ≤ (src k').toInt ∧ (src k').toInt < 200000)
    (i : Cert.KernelIdeal.S2000000x1.Idx) : 0 ≤ (idxK src i).toInt ∧ (idxK src i).toInt < 200000 := by
  obtain ⟨k', e⟩ : ∃ k', idxK src i = src k' := ⟨_, wrap_apply src hsrc _⟩
  rw [e]
  exact hsrc k'

/-- The kernel's mask is all ones when every source index is in range. -/
theorem maskK_one (src : IVec Cert.KernelIdeal.S2000000 32)
    (hsrc : ∀ k' : Cert.KernelIdeal.S2000000.Idx, 0 ≤ (src k').toInt ∧ (src k').toInt < 200000)
    (j : Cert.KernelIdeal.S2000000.Idx) : maskK src j = 1#1 := by
  unfold maskK
  rw [Host.reduce_eq_fold]
  refine fold_andi_one _ _ (fun i _ => ?_)
  show IntOp.andi (IntOp.cmpi .sge (idxK src i) 0#32) (IntOp.cmpi .sle (idxK src i) 199999#32) = 1#1
  exact inrange_word _ (idxK_range src hsrc i).1 (idxK_range src hsrc i).2

/-- So the kernel's take is the plain gather, which is the reference's. -/
theorem takeK_eq (h : FVec Ideal Cert.KernelIdeal.S200000x32 .f32) (src : IVec Cert.KernelIdeal.S2000000 32)
    (hsrc : ∀ k' : Cert.KernelIdeal.S2000000.Idx, 0 ≤ (src k').toInt ∧ (src k').toInt < 200000) :
    takeK h src = Host.gather Cert.ReferenceIdeal.gather_S200000x32_S2000000x1_S2000000x32_1_0_n_n_0_1_132 h (wrapR src) := by
  -- the two programs' gather records and index columns are the same terms
  have e1 : (gather_S200000x32_S2000000x1_S2000000x32_1_0_n_n_0_1_132 : GatherDims S200000x32 S2000000x1 S2000000x32)
      = Cert.ReferenceIdeal.gather_S200000x32_S2000000x1_S2000000x32_1_0_n_n_0_1_132 := rfl
  have e2 : idxK src = wrapR src := rfl
  funext i
  unfold takeK
  rw [select_apply]
  have hm : broadcastInDim S2000000x32 ![0] bcast_S2000000_S2000000x32_0 (maskK src) i = 1#1 := maskK_one src hsrc _
  rw [hm, select_one, e1, e2]

/-- The kernel's aggregation is the reference's. -/
theorem aggK_eq (h : FVec Ideal Cert.KernelIdeal.S200000x32 .f32) (e : FVec Ideal Cert.KernelIdeal.S2000000x32 .f32)
    (src dst : IVec Cert.KernelIdeal.S2000000 32)
    (hsrc : ∀ k : Fin 2000000, 0 ≤ (src (ix1 k)).toInt ∧ (src (ix1 k)).toInt < 200000) :
    aggK h e src dst = aggR h e src dst := by
  have hsrc' : ∀ k' : Cert.KernelIdeal.S2000000.Idx, 0 ≤ (src k').toInt ∧ (src k').toInt < 200000 := fun k' => by
    rw [eq_ix1 k']; exact hsrc _
  unfold aggK
  rw [takeK_eq h src hsrc']
  rfl

/-! ## The edge-index rows -/

/-- The kernel's source vector is the reference's: row 0 of the edge-index table. -/
theorem hostOps0_src (W : Valuation Cert.KernelIdeal.τ Cert.KernelIdeal.sig (Elt Ideal)) :
    StableHlo.after (hostOps0 (F := Ideal)) W (Proc.devRef .tc main_v1) = srcR (W (Proc.devRef .tc main_arg1)) := by
  after_results
  rfl

/-- The kernel's destination vector is the reference's: row 1 of the edge-index table. -/
theorem hostOps0_dst (W : Valuation Cert.KernelIdeal.τ Cert.KernelIdeal.sig (Elt Ideal)) :
    StableHlo.after (hostOps0 (F := Ideal)) W (Proc.devRef .tc main_v3) = dstR (W (Proc.devRef .tc main_arg1)) := by
  after_results
  rfl

/-! ## The kernel's stretches, read at their result buffers

The gather, the scatter-add and the reduction stay folded from here on: each reading compares their arguments only. -/

attribute [local irreducible] Host.reduce Host.gather Host.scatterAdd

/-! ### Layer 1: the take's operations, split after the mask -/

/-- The take's operations up to and including the in-range mask. -/
abbrev takeP1 : List (HloOp τ sig (Elt Ideal)) :=
  [
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S2000000, .i32⟩) (broadcastInDim S2000000 ![] bcast_S_S2000000),
    StableHlo.TRef.binary (.of main_v1 : StableHlo.TRef sig ⟨S2000000, .i32⟩) (.of main_call0_v0 : StableHlo.TRef sig ⟨S2000000, .i32⟩) (.of main_call0_v1 : StableHlo.TRef sig ⟨S2000000, .i1⟩) (cmpi .slt),
    StableHlo.TRef.nullary (.of main_call0_c_0 : StableHlo.TRef sig ⟨S_, .i32⟩) (constantI S_ 32 200000#32),
    StableHlo.TRef.unary (.of main_call0_c_0 : StableHlo.TRef sig ⟨S_, .i32⟩) (.of main_call0_v2 : StableHlo.TRef sig ⟨S2000000, .i32⟩) (broadcastInDim S2000000 ![] bcast_S_S2000000),
    StableHlo.TRef.binary (.of main_v1 : StableHlo.TRef sig ⟨S2000000, .i32⟩) (.of main_call0_v2 : StableHlo.TRef sig ⟨S2000000, .i32⟩) (.of main_call0_v3 : StableHlo.TRef sig ⟨S2000000, .i32⟩) addi,
    StableHlo.TRef.ternary (.of main_call0_v1 : StableHlo.TRef sig ⟨S2000000, .i1⟩) (.of main_call0_v3 : StableHlo.TRef sig ⟨S2000000, .i32⟩) (.of main_v1 : StableHlo.TRef sig ⟨S2000000, .i32⟩) (.of main_call0_v4 : StableHlo.TRef sig ⟨S2000000, .i32⟩) select,
    StableHlo.TRef.unary main_call0_call0.v0 (.of main_call0_v5 : StableHlo.TRef sig ⟨S2000000x1, .i32⟩) (broadcastInDim S2000000x1 ![0] bcast_S2000000_S2000000x1_0),
    StableHlo.TRef.nullary (.of main_call0_c_1 : StableHlo.TRef sig ⟨S1, .i32⟩) (constantI S1 32 199999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S2000000x1, .i32⟩) (broadcastInDim S2000000x1 ![] bcast_S_S2000000x1),
    StableHlo.TRef.binary (.of main_call0_v5 : StableHlo.TRef sig ⟨S2000000x1, .i32⟩) (.of main_call0_v6 : StableHlo.TRef sig ⟨S2000000x1, .i32⟩) (.of main_call0_v7 : StableHlo.TRef sig ⟨S2000000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S2000000x1, .i32⟩) (broadcastInDim S2000000x1 ![0, 1] bcast_S1x1_S2000000x1_0_1),
    StableHlo.TRef.binary (.of main_call0_v5 : StableHlo.TRef sig ⟨S2000000x1, .i32⟩) (.of main_call0_v9 : StableHlo.TRef sig ⟨S2000000x1, .i32⟩) (.of main_call0_v10 : StableHlo.TRef sig ⟨S2000000x1, .i1⟩) (cmpi .sle),
    StableHlo.TRef.binary (.of main_call0_v7 : StableHlo.TRef sig ⟨S2000000x1, .i1⟩) (.of main_call0_v10 : StableHlo.TRef sig ⟨S2000000x1, .i1⟩) (.of main_call0_v11 : StableHlo.TRef sig ⟨S2000000x1, .i1⟩) andi,
    StableHlo.TRef.nullary (.of main_call0_c_3 : StableHlo.TRef sig ⟨S_, .i1⟩) (constantI S_ 1 1#1),
    StableHlo.TRef.binary (.of main_call0_v11 : StableHlo.TRef sig ⟨S2000000x1, .i1⟩) (.of main_call0_c_3 : StableHlo.TRef sig ⟨S_, .i1⟩) (.of main_call0_v12 : StableHlo.TRef sig ⟨S2000000, .i1⟩) (fun x v => Host.reduce IntOp.andi x v reducesTo_S2000000x1_S2000000_d1 h_S_) ]

/-- The take's remaining operations: the gather, the mask broadcast along the feature axis, the fill word, the select. -/
abbrev takeQ1 : List (HloOp τ sig (Elt Ideal)) :=
  [
    StableHlo.TRef.binary (.of main_v5 : StableHlo.TRef sig ⟨S200000x32, .f32⟩) (.of main_call0_v5 : StableHlo.TRef sig ⟨S2000000x1, .i32⟩) (.of main_call0_v13 : StableHlo.TRef sig ⟨S2000000x32, .f32⟩) (fun x i => Host.gather gather_S200000x32_S2000000x1_S2000000x32_1_0_n_n_0_1_132 x i),
    StableHlo.TRef.unary (.of main_call0_v12 : StableHlo.TRef sig ⟨S2000000, .i1⟩) (.of main_call0_v14 : StableHlo.TRef sig ⟨S2000000x32, .i1⟩) (broadcastInDim S2000000x32 ![0] bcast_S2000000_S2000000x32_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S2000000x32, .f32⟩) (broadcastInDim S2000000x32 ![] bcast_S_S2000000x32),
    StableHlo.TRef.ternary (.of main_call0_v14 : StableHlo.TRef sig ⟨S2000000x32, .i1⟩) (.of main_call0_v13 : StableHlo.TRef sig ⟨S2000000x32, .f32⟩) (.of main_call0_v15 : StableHlo.TRef sig ⟨S2000000x32, .f32⟩) (.of main_v8 : StableHlo.TRef sig ⟨S2000000x32, .f32⟩) select ]

theorem hostOps2_split : (hostOps2 (F := Ideal)) = takeP1 ++ takeQ1 := rfl

theorem takeP1_mask (V : Valuation Cert.KernelIdeal.τ Cert.KernelIdeal.sig (Elt Ideal)) : StableHlo.after takeP1 V (Proc.devRef .tc main_call0_v12) = maskK (V (Proc.devRef .tc main_v1)) := by
  after_results_simp
  rfl
theorem takeP1_idx (V : Valuation Cert.KernelIdeal.τ Cert.KernelIdeal.sig (Elt Ideal)) : StableHlo.after takeP1 V (Proc.devRef .tc main_call0_v5) = idxK (V (Proc.devRef .tc main_v1)) := by
  after_results_simp
  rfl
theorem takeP1_h (V : Valuation Cert.KernelIdeal.τ Cert.KernelIdeal.sig (Elt Ideal)) : StableHlo.after takeP1 V (Proc.devRef .tc main_v5) = V (Proc.devRef .tc main_v5) := by
  after_results_simp
theorem takeQ1_out (V : Valuation Cert.KernelIdeal.τ Cert.KernelIdeal.sig (Elt Ideal)) : StableHlo.after takeQ1 V (Proc.devRef .tc main_v8)
    = select (broadcastInDim S2000000x32 ![0] bcast_S2000000_S2000000x32_0 (V (Proc.devRef .tc main_call0_v12)))
        (Host.gather gather_S200000x32_S2000000x1_S2000000x32_1_0_n_n_0_1_132 (V (Proc.devRef .tc main_v5)) (V (Proc.devRef .tc main_call0_v5)))
        (broadcastInDim S2000000x32 ![] bcast_S_S2000000x32 (constant (F := Ideal) S_ .f32 0x7FC00000#32)) := by
  after_results_simp
  rfl

/-- The take stretch leaves the kernel's take of the node rows at the source indices. -/
theorem hostOps2_take (V : Valuation Cert.KernelIdeal.τ Cert.KernelIdeal.sig (Elt Ideal)) : StableHlo.after (hostOps2 (F := Ideal)) V (Proc.devRef .tc main_v8)
    = takeK (V (Proc.devRef .tc main_v5)) (V (Proc.devRef .tc main_v1)) := by
  rw [hostOps2_split, StableHlo.after_append, takeQ1_out, takeP1_mask, takeP1_idx, takeP1_h]
  rfl
theorem hostOps2_e (V : Valuation Cert.KernelIdeal.τ Cert.KernelIdeal.sig (Elt Ideal)) : StableHlo.after (hostOps2 (F := Ideal)) V (Proc.devRef .tc main_v7) = V (Proc.devRef .tc main_v7) := by
  after_results_simp
theorem hostOps2_dst (V : Valuation Cert.KernelIdeal.τ Cert.KernelIdeal.sig (Elt Ideal)) : StableHlo.after (hostOps2 (F := Ideal)) V (Proc.devRef .tc main_v3) = V (Proc.devRef .tc main_v3) := by
  after_results_simp
theorem hostOps2_1_add (V : Valuation Cert.KernelIdeal.τ Cert.KernelIdeal.sig (Elt Ideal)) : StableHlo.after (hostOps2_1 (F := Ideal)) V (Proc.devRef .tc main_v9)
    = addf (F := Ideal) (s := S2000000x32) (φ := .f32) (V (Proc.devRef .tc main_v8)) (V (Proc.devRef .tc main_v7)) := by
  after_results_simp
theorem hostOps2_1_dst (V : Valuation Cert.KernelIdeal.τ Cert.KernelIdeal.sig (Elt Ideal)) : StableHlo.after (hostOps2_1 (F := Ideal)) V (Proc.devRef .tc main_v3) = V (Proc.devRef .tc main_v3) := by
  after_results_simp
theorem hostOps2_2_relu (V : Valuation Cert.KernelIdeal.τ Cert.KernelIdeal.sig (Elt Ideal)) : StableHlo.after (hostOps2_2 (F := Ideal)) V (Proc.devRef .tc main_v10)
    = maximumf (V (Proc.devRef .tc main_v9)) (broadcastInDim S2000000x32 ![] bcast_S_S2000000x32 (constant (F := Ideal) S_ .f32 0x00000000#32)) := by
  after_results_simp
  rfl
theorem hostOps2_2_dst (V : Valuation Cert.KernelIdeal.τ Cert.KernelIdeal.sig (Elt Ideal)) : StableHlo.after (hostOps2_2 (F := Ideal)) V (Proc.devRef .tc main_v3) = V (Proc.devRef .tc main_v3) := by
  after_results_simp
theorem hostOps2_3_scatter (V : Valuation Cert.KernelIdeal.τ Cert.KernelIdeal.sig (Elt Ideal)) : StableHlo.after (hostOps2_3 (F := Ideal)) V (Proc.devRef .tc main_v13)
    = Host.scatterAdd scatter_S200000x32_S2000000x1_S2000000x32_1_0_0_1
        (broadcastInDim S200000x32 ![] bcast_S_S200000x32 (constant (F := Ideal) S_ .f32 0x00000000#32))
        (broadcastInDim S2000000x1 ![0] bcast_S2000000_S2000000x1_0 (V (Proc.devRef .tc main_v3)))
        (V (Proc.devRef .tc main_v10)) := by
  after_results_simp

/-- The four stretches of layer 1 compose to the kernel's aggregation term. -/
theorem hostOps2_aggK (W : Valuation Cert.KernelIdeal.τ Cert.KernelIdeal.sig (Elt Ideal)) :
    StableHlo.after (hostOps2_3 (F := Ideal)) (StableHlo.after hostOps2_2 (StableHlo.after hostOps2_1 (StableHlo.after hostOps2 W))) (Proc.devRef .tc main_v13)
      = aggK (W (Proc.devRef .tc main_v5)) (W (Proc.devRef .tc main_v7)) (W (Proc.devRef .tc main_v1)) (W (Proc.devRef .tc main_v3)) := by
  rw [hostOps2_3_scatter, hostOps2_2_relu, hostOps2_2_dst, hostOps2_1_add, hostOps2_1_dst, hostOps2_take, hostOps2_e, hostOps2_dst]
  rfl

/-! ### Layer 2: the take's operations, split after the mask -/

/-- The take's operations up to and including the in-range mask. -/
abbrev takeP2 : List (HloOp τ sig (Elt Ideal)) :=
  [
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S2000000, .i32⟩) (broadcastInDim S2000000 ![] bcast_S_S2000000),
    StableHlo.TRef.binary (.of main_v1 : StableHlo.TRef sig ⟨S2000000, .i32⟩) (.of main_call2_v0 : StableHlo.TRef sig ⟨S2000000, .i32⟩) (.of main_call2_v1 : StableHlo.TRef sig ⟨S2000000, .i1⟩) (cmpi .slt),
    StableHlo.TRef.nullary (.of main_call2_c_0 : StableHlo.TRef sig ⟨S_, .i32⟩) (constantI S_ 32 200000#32),
    StableHlo.TRef.unary (.of main_call2_c_0 : StableHlo.TRef sig ⟨S_, .i32⟩) (.of main_call2_v2 : StableHlo.TRef sig ⟨S2000000, .i32⟩) (broadcastInDim S2000000 ![] bcast_S_S2000000),
    StableHlo.TRef.binary (.of main_v1 : StableHlo.TRef sig ⟨S2000000, .i32⟩) (.of main_call2_v2 : StableHlo.TRef sig ⟨S2000000, .i32⟩) (.of main_call2_v3 : StableHlo.TRef sig ⟨S2000000, .i32⟩) addi,
    StableHlo.TRef.ternary (.of main_call2_v1 : StableHlo.TRef sig ⟨S2000000, .i1⟩) (.of main_call2_v3 : StableHlo.TRef sig ⟨S2000000, .i32⟩) (.of main_v1 : StableHlo.TRef sig ⟨S2000000, .i32⟩) (.of main_call2_v4 : StableHlo.TRef sig ⟨S2000000, .i32⟩) select,
    StableHlo.TRef.unary main_call2_call0.v0 (.of main_call2_v5 : StableHlo.TRef sig ⟨S2000000x1, .i32⟩) (broadcastInDim S2000000x1 ![0] bcast_S2000000_S2000000x1_0),
    StableHlo.TRef.nullary (.of main_call2_c_1 : StableHlo.TRef sig ⟨S1, .i32⟩) (constantI S1 32 199999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S2000000x1, .i32⟩) (broadcastInDim S2000000x1 ![] bcast_S_S2000000x1),
    StableHlo.TRef.binary (.of main_call2_v5 : StableHlo.TRef sig ⟨S2000000x1, .i32⟩) (.of main_call2_v6 : StableHlo.TRef sig ⟨S2000000x1, .i32⟩) (.of main_call2_v7 : StableHlo.TRef sig ⟨S2000000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S2000000x1, .i32⟩) (broadcastInDim S2000000x1 ![0, 1] bcast_S1x1_S2000000x1_0_1),
    StableHlo.TRef.binary (.of main_call2_v5 : StableHlo.TRef sig ⟨S2000000x1, .i32⟩) (.of main_call2_v9 : StableHlo.TRef sig ⟨S2000000x1, .i32⟩) (.of main_call2_v10 : StableHlo.TRef sig ⟨S2000000x1, .i1⟩) (cmpi .sle),
    StableHlo.TRef.binary (.of main_call2_v7 : StableHlo.TRef sig ⟨S2000000x1, .i1⟩) (.of main_call2_v10 : StableHlo.TRef sig ⟨S2000000x1, .i1⟩) (.of main_call2_v11 : StableHlo.TRef sig ⟨S2000000x1, .i1⟩) andi,
    StableHlo.TRef.nullary (.of main_call2_c_3 : StableHlo.TRef sig ⟨S_, .i1⟩) (constantI S_ 1 1#1),
    StableHlo.TRef.binary (.of main_call2_v11 : StableHlo.TRef sig ⟨S2000000x1, .i1⟩) (.of main_call2_c_3 : StableHlo.TRef sig ⟨S_, .i1⟩) (.of main_call2_v12 : StableHlo.TRef sig ⟨S2000000, .i1⟩) (fun x v => Host.reduce IntOp.andi x v reducesTo_S2000000x1_S2000000_d1 h_S_) ]

/-- The take's remaining operations: the gather, the mask broadcast along the feature axis, the fill word, the select. -/
abbrev takeQ2 : List (HloOp τ sig (Elt Ideal)) :=
  [
    StableHlo.TRef.binary (.of main_v49 : StableHlo.TRef sig ⟨S200000x32, .f32⟩) (.of main_call2_v5 : StableHlo.TRef sig ⟨S2000000x1, .i32⟩) (.of main_call2_v13 : StableHlo.TRef sig ⟨S2000000x32, .f32⟩) (fun x i => Host.gather gather_S200000x32_S2000000x1_S2000000x32_1_0_n_n_0_1_132 x i),
    StableHlo.TRef.unary (.of main_call2_v12 : StableHlo.TRef sig ⟨S2000000, .i1⟩) (.of main_call2_v14 : StableHlo.TRef sig ⟨S2000000x32, .i1⟩) (broadcastInDim S2000000x32 ![0] bcast_S2000000_S2000000x32_0),
    StableHlo.TRef.nullary (.of main_call2_cst : StableHlo.TRef sig ⟨S_, .f32⟩) (constant (F := Ideal) S_ .f32 0x7FC00000#32),
    StableHlo.TRef.unary (.of main_call2_cst : StableHlo.TRef sig ⟨S_, .f32⟩) (.of main_call2_v15 : StableHlo.TRef sig ⟨S2000000x32, .f32⟩) (broadcastInDim S2000000x32 ![] bcast_S_S2000000x32),
    StableHlo.TRef.ternary (.of main_call2_v14 : StableHlo.TRef sig ⟨S2000000x32, .i1⟩) (.of main_call2_v13 : StableHlo.TRef sig ⟨S2000000x32, .f32⟩) (.of main_call2_v15 : StableHlo.TRef sig ⟨S2000000x32, .f32⟩) (.of main_v50 : StableHlo.TRef sig ⟨S2000000x32, .f32⟩) select ]

theorem hostOps5_split : (hostOps5 (F := Ideal)) = takeP2 ++ takeQ2 := rfl

theorem takeP2_mask (V : Valuation Cert.KernelIdeal.τ Cert.KernelIdeal.sig (Elt Ideal)) : StableHlo.after takeP2 V (Proc.devRef .tc main_call2_v12) = maskK (V (Proc.devRef .tc main_v1)) := by
  after_results_simp
  rfl
theorem takeP2_idx (V : Valuation Cert.KernelIdeal.τ Cert.KernelIdeal.sig (Elt Ideal)) : StableHlo.after takeP2 V (Proc.devRef .tc main_call2_v5) = idxK (V (Proc.devRef .tc main_v1)) := by
  after_results_simp
  rfl
theorem takeP2_h (V : Valuation Cert.KernelIdeal.τ Cert.KernelIdeal.sig (Elt Ideal)) : StableHlo.after takeP2 V (Proc.devRef .tc main_v49) = V (Proc.devRef .tc main_v49) := by
  after_results_simp
theorem takeQ2_out (V : Valuation Cert.KernelIdeal.τ Cert.KernelIdeal.sig (Elt Ideal)) : StableHlo.after takeQ2 V (Proc.devRef .tc main_v50)
    = select (broadcastInDim S2000000x32 ![0] bcast_S2000000_S2000000x32_0 (V (Proc.devRef .tc main_call2_v12)))
        (Host.gather gather_S200000x32_S2000000x1_S2000000x32_1_0_n_n_0_1_132 (V (Proc.devRef .tc main_v49)) (V (Proc.devRef .tc main_call2_v5)))
        (broadcastInDim S2000000x32 ![] bcast_S_S2000000x32 (constant (F := Ideal) S_ .f32 0x7FC00000#32)) := by
  after_results_simp
  rfl

/-- The take stretch leaves the kernel's take of the node rows at the source indices. -/
theorem hostOps5_take (V : Valuation Cert.KernelIdeal.τ Cert.KernelIdeal.sig (Elt Ideal)) : StableHlo.after (hostOps5 (F := Ideal)) V (Proc.devRef .tc main_v50)
    = takeK (V (Proc.devRef .tc main_v49)) (V (Proc.devRef .tc main_v1)) := by
  rw [hostOps5_split, StableHlo.after_append, takeQ2_out, takeP2_mask, takeP2_idx, takeP2_h]
  rfl
theorem hostOps5_e (V : Valuation Cert.KernelIdeal.τ Cert.KernelIdeal.sig (Elt Ideal)) : StableHlo.after (hostOps5 (F := Ideal)) V (Proc.devRef .tc main_v7) = V (Proc.devRef .tc main_v7) := by
  after_results_simp
theorem hostOps5_dst (V : Valuation Cert.KernelIdeal.τ Cert.KernelIdeal.sig (Elt Ideal)) : StableHlo.after (hostOps5 (F := Ideal)) V (Proc.devRef .tc main_v3) = V (Proc.devRef .tc main_v3) := by
  after_results_simp
theorem hostOps5_1_add (V : Valuation Cert.KernelIdeal.τ Cert.KernelIdeal.sig (Elt Ideal)) : StableHlo.after (hostOps5_1 (F := Ideal)) V (Proc.devRef .tc main_v51)
    = addf (F := Ideal) (s := S2000000x32) (φ := .f32) (V (Proc.devRef .tc main_v50)) (V (Proc.devRef .tc main_v7)) := by
  after_results_simp
theorem hostOps5_1_dst (V : Valuation Cert.KernelIdeal.τ Cert.KernelIdeal.sig (Elt Ideal)) : StableHlo.after (hostOps5_1 (F := Ideal)) V (Proc.devRef .tc main_v3) = V (Proc.devRef .tc main_v3) := by
  after_results_simp
theorem hostOps5_2_relu (V : Valuation Cert.KernelIdeal.τ Cert.KernelIdeal.sig (Elt Ideal)) : StableHlo.after (hostOps5_2 (F := Ideal)) V (Proc.devRef .tc main_v52)
    = maximumf (V (Proc.devRef .tc main_v51)) (broadcastInDim S2000000x32 ![] bcast_S_S2000000x32 (constant (F := Ideal) S_ .f32 0x00000000#32)) := by
  after_results_simp
  rfl
theorem hostOps5_2_dst (V : Valuation Cert.KernelIdeal.τ Cert.KernelIdeal.sig (Elt Ideal)) : StableHlo.after (hostOps5_2 (F := Ideal)) V (Proc.devRef .tc main_v3) = V (Proc.devRef .tc main_v3) := by
  after_results_simp
theorem hostOps5_3_scatter (V : Valuation Cert.KernelIdeal.τ Cert.KernelIdeal.sig (Elt Ideal)) : StableHlo.after (hostOps5_3 (F := Ideal)) V (Proc.devRef .tc main_v55)
    = Host.scatterAdd scatter_S200000x32_S2000000x1_S2000000x32_1_0_0_1
        (broadcastInDim S200000x32 ![] bcast_S_S200000x32 (constant (F := Ideal) S_ .f32 0x00000000#32))
        (broadcastInDim S2000000x1 ![0] bcast_S2000000_S2000000x1_0 (V (Proc.devRef .tc main_v3)))
        (V (Proc.devRef .tc main_v52)) := by
  after_results_simp

/-- The four stretches of layer 2 compose to the kernel's aggregation term. -/
theorem hostOps5_aggK (W : Valuation Cert.KernelIdeal.τ Cert.KernelIdeal.sig (Elt Ideal)) :
    StableHlo.after (hostOps5_3 (F := Ideal)) (StableHlo.after hostOps5_2 (StableHlo.after hostOps5_1 (StableHlo.after hostOps5 W))) (Proc.devRef .tc main_v55)
      = aggK (W (Proc.devRef .tc main_v49)) (W (Proc.devRef .tc main_v7)) (W (Proc.devRef .tc main_v1)) (W (Proc.devRef .tc main_v3)) := by
  rw [hostOps5_3_scatter, hostOps5_2_relu, hostOps5_2_dst, hostOps5_1_add, hostOps5_1_dst, hostOps5_take, hostOps5_e, hostOps5_dst]
  rfl

/-! ## The kernel's aggregate is the reference's -/

/-- Layer 1: with every source index in [0, 200000) the kernel's aggregate is the reference's. -/
theorem hostOps2_agg (W : Valuation Cert.KernelIdeal.τ Cert.KernelIdeal.sig (Elt Ideal))
    (hsrc : ∀ k : Fin 2000000, 0 ≤ (W (Proc.devRef .tc main_v1) (ix1 k)).toInt ∧ (W (Proc.devRef .tc main_v1) (ix1 k)).toInt < 200000) :
    StableHlo.after (hostOps2_3 (F := Ideal)) (StableHlo.after hostOps2_2 (StableHlo.after hostOps2_1 (StableHlo.after hostOps2 W))) (Proc.devRef .tc main_v13)
      = aggR (W (Proc.devRef .tc main_v5)) (W (Proc.devRef .tc main_v7)) (W (Proc.devRef .tc main_v1)) (W (Proc.devRef .tc main_v3)) :=
  (hostOps2_aggK W).trans (aggK_eq _ _ _ _ hsrc)

/-- Layer 2: the same through the second layer's stretches, reading the first layer's output rows. -/
theorem hostOps5_agg (W : Valuation Cert.KernelIdeal.τ Cert.KernelIdeal.sig (Elt Ideal))
    (hsrc : ∀ k : Fin 2000000, 0 ≤ (W (Proc.devRef .tc main_v1) (ix1 k)).toInt ∧ (W (Proc.devRef .tc main_v1) (ix1 k)).toInt < 200000) :
    StableHlo.after (hostOps5_3 (F := Ideal)) (StableHlo.after hostOps5_2 (StableHlo.after hostOps5_1 (StableHlo.after hostOps5 W))) (Proc.devRef .tc main_v55)
      = aggR (W (Proc.devRef .tc main_v49)) (W (Proc.devRef .tc main_v7)) (W (Proc.devRef .tc main_v1)) (W (Proc.devRef .tc main_v3)) :=
  (hostOps5_aggK W).trans (aggK_eq _ _ _ _ hsrc)

end Kernel

end Cert.Proof.Agg

end
-- ==== Proof.StagePool.lean ====
/-
  Mean pooling by graph, on the kernel's side and on the reference's.

  Both programs pool the node features by graph with the same host operations: the number of nodes of each
  graph is the scatter-add of ones by the batch vector into zeros; the per-graph feature sums are the
  scatter-add of the node rows by the batch vector into zeros; the pooled row of a graph is its sum divided,
  entry by entry, by the number of its nodes or by one when it has none. The two programs spell the scatter
  records and the shapes in their own vocabularies, with the same fields, so the two terms are one term. The
  kernel also views each bias vector of the head as a one-row matrix; the one row of that matrix is the vector.
-/
import proofs.«412989_j17643725652192_3_alg».proof.Proof.Gen.KernelIdeal.Launch
import proofs.«412989_j17643725652192_3_alg».proof.ReferenceIdeal
import proofs.«412989_j17643725652192_3_alg».proof.Proof.Spec
import Idealize.ShloMosaic.Lib.StableHlo.Run
import Idealize.ShloMosaic.Lib.Pipeline.Value

set_option maxRecDepth 16384

open scoped BigOperators

noncomputable section

namespace Cert.Proof.Pool

open Cert.Net Idealize.ShloMosaic Idealize.ShloMosaic.ValueIdx

section Pooling

variable [Cert.ReferenceIdeal.Facts₀]

/-- The reference's pooling of node rows `h` by the batch vector: per-graph sums over per-graph counts, a count
    of zero replaced by one. -/
def poolR (h : FVec Ideal Cert.ReferenceIdeal.S200000x32 .f32) (batch : IVec Cert.ReferenceIdeal.S200000 32) : FVec Ideal Cert.ReferenceIdeal.S10000x32 .f32 :=
  Host.divf (F := Ideal)
    (Host.scatterAdd Cert.ReferenceIdeal.scatter_S10000x32_S200000x1_S200000x32_1_0_0_1
      (broadcastInDim Cert.ReferenceIdeal.S10000x32 ![] Cert.ReferenceIdeal.Facts₀.bcast_S_S10000x32 (constant (F := Ideal) Cert.ReferenceIdeal.S_ .f32 0x00000000#32))
      (broadcastInDim Cert.ReferenceIdeal.S200000x1 ![0] Cert.ReferenceIdeal.Facts₀.bcast_S200000_S200000x1_0 batch)
      h)
    (broadcastInDim Cert.ReferenceIdeal.S10000x32 ![0, 1] Cert.ReferenceIdeal.Facts₀.bcast_S10000x1_S10000x32_0_1
      (broadcastInDim Cert.ReferenceIdeal.S10000x1 ![0] Cert.ReferenceIdeal.Facts₀.bcast_S10000_S10000x1_0
        (maximumf
          (Host.scatterAdd Cert.ReferenceIdeal.scatter_S10000_S200000x1_S200000_n_0_0_1
            (broadcastInDim Cert.ReferenceIdeal.S10000 ![] Cert.ReferenceIdeal.Facts₀.bcast_S_S10000 (constant (F := Ideal) Cert.ReferenceIdeal.S_ .f32 0x00000000#32))
            (broadcastInDim Cert.ReferenceIdeal.S200000x1 ![0] Cert.ReferenceIdeal.Facts₀.bcast_S200000_S200000x1_0 batch)
            (broadcastInDim Cert.ReferenceIdeal.S200000 ![] Cert.ReferenceIdeal.Facts₀.bcast_S_S200000 (constant (F := Ideal) Cert.ReferenceIdeal.S_ .f32 0x3F800000#32)))
          (broadcastInDim Cert.ReferenceIdeal.S10000 ![] Cert.ReferenceIdeal.Facts₀.bcast_S_S10000 (constant (F := Ideal) Cert.ReferenceIdeal.S_ .f32 0x3F800000#32)))))

/-- The two programs' scatter records for the counts have the same fields. -/
theorem scatterCounts_eq :
    Cert.KernelIdeal.scatter_S10000_S200000x1_S200000_n_0_0_1 = Cert.ReferenceIdeal.scatter_S10000_S200000x1_S200000_n_0_0_1 := rfl
/-- The two programs' scatter records for the sums have the same fields. -/
theorem scatterSums_eq :
    Cert.KernelIdeal.scatter_S10000x32_S200000x1_S200000x32_1_0_0_1 = Cert.ReferenceIdeal.scatter_S10000x32_S200000x1_S200000x32_1_0_0_1 := rfl

/-- The kernel's pooled array, after its host operations before the head, is the reference's pooling of the node
    rows and the batch vector it holds. -/
theorem hostOps8_g (W : Valuation Cert.KernelIdeal.τ Cert.KernelIdeal.sig (Elt Ideal)) :
    StableHlo.after (Cert.KernelIdeal.Gen.hostOps8 (F := Ideal)) W (Proc.devRef .tc Cert.KernelIdeal.main_v103)
      = poolR (W (Proc.devRef .tc Cert.KernelIdeal.main_v91)) (W (Proc.devRef .tc Cert.KernelIdeal.main_arg3)) := by
  after_results
  unfold poolR
  rw [scatterCounts_eq, scatterSums_eq]

end Pooling

/-- The one row of a vector viewed as a one-row matrix is the vector. -/
theorem rowOf_reshape {n : Nat} (h : (⟨1, ![n]⟩ : Shape).ShapeCasts ⟨2, ![1, n]⟩) (x : (⟨1, ![n]⟩ : Shape).Idx → EReal) :
    rowOf (shapeCast ⟨2, ![1, n]⟩ x h) = x := by
  funext j
  obtain ⟨q, rfl⟩ : ∃ q : Fin n, j = ix1 q := ⟨j 0, eq_ix1 j⟩
  show shapeCast ⟨2, ![1, n]⟩ x h (ix2 (0 : Fin 1) q) = x (ix1 q)
  exact shapeCast_apply x h (ix2 (0 : Fin 1) q) (ix1 q) (by
    rw [Shape.rowMajor_val_two, Shape.rowMajor_val_one]; show q.val = 0 * n + q.val; omega)

/-- The first bias row the head reads is the first bias vector. -/
theorem hostOps8_b1 (W : Valuation Cert.KernelIdeal.τ Cert.KernelIdeal.sig (Elt Ideal)) :
    rowOf (StableHlo.after (Cert.KernelIdeal.Gen.hostOps8 (F := Ideal)) W (Proc.devRef .tc Cert.KernelIdeal.main_v104))
      = W (Proc.devRef .tc Cert.KernelIdeal.main_arg15) := by
  have e : (StableHlo.after (Cert.KernelIdeal.Gen.hostOps8 (F := Ideal)) W (Proc.devRef .tc Cert.KernelIdeal.main_v104) : Cert.KernelIdeal.S1x16.Idx → EReal)
      = shapeCast Cert.KernelIdeal.S1x16 (W (Proc.devRef .tc Cert.KernelIdeal.main_arg15)) Cert.KernelIdeal.Gen.shapeCasts_S16_S1x16 := by
    after_results
    rfl
  rw [e]
  exact rowOf_reshape _ _

/-- The second bias row the head reads is the second bias vector. -/
theorem hostOps8_b2 (W : Valuation Cert.KernelIdeal.τ Cert.KernelIdeal.sig (Elt Ideal)) :
    rowOf (StableHlo.after (Cert.KernelIdeal.Gen.hostOps8 (F := Ideal)) W (Proc.devRef .tc Cert.KernelIdeal.main_v105))
      = W (Proc.devRef .tc Cert.KernelIdeal.main_arg17) := by
  have e : (StableHlo.after (Cert.KernelIdeal.Gen.hostOps8 (F := Ideal)) W (Proc.devRef .tc Cert.KernelIdeal.main_v105) : Cert.KernelIdeal.S1x2.Idx → EReal)
      = shapeCast Cert.KernelIdeal.S1x2 (W (Proc.devRef .tc Cert.KernelIdeal.main_arg17)) Cert.KernelIdeal.Gen.shapeCasts_S2_S1x2 := by
    after_results
    rfl
  rw [e]
  exact rowOf_reshape _ _

end Cert.Proof.Pool

end
-- ==== Proof.SpecReal.lean ====
/-
  Every stage function maps real-valued arrays to real-valued arrays (no entry is +∞ or −∞).

  The two literals are real: the row count is 200000 and the stabiliser ε is a positive real. A biased variance
  about any real centre is nonnegative, being a finite sum of real squares over a positive real. Hence σ² + ε is a
  positive real and (σ² + ε)^(-1/2) is the real (√(σ² + ε))⁻¹. With every quantity real, the folded form
  z·(γ·r) + (β − μ·(γ·r)) equals the textbook form ((z − μ)·r)·γ + β by the ring laws of ℝ; among extended reals
  distributivity fails at the infinities, which is why realness is a hypothesis.
-/
import proofs.«412989_j17643725652192_3_alg».proof.Proof.Spec
import proofs.«412989_j17643725652192_3_alg».proof.Proof.LibRealClosure
import Mathlib.Tactic.Ring
import Mathlib.Tactic.Positivity
import Mathlib.Tactic.NormNum
import Mathlib.Data.EReal.Operations

open scoped BigOperators

namespace Cert.Net

open Idealize.ShloMosaic Idealize.ShloMosaic.ValueIdx RealClosure

/-! ## The two literals -/

/-- The pattern 0x48435000 is (2^23 + 4411392)·2^(-6) = 200000. -/
theorem nRows_eq : nRows = ((200000 : ℝ) : EReal) := by
  simp [nRows, Ideal.ofBits, Ideal.ieee, -EReal.coe_mul]; norm_num

theorem nRows_real : IsReal nRows := ⟨_, nRows_eq⟩

theorem nRows_ne_zero : nRows ≠ 0 := by
  rw [nRows_eq]; exact EReal.coe_ne_zero.2 (by norm_num)

/-- The pattern 0x3727C5AC is (2^23 + 2606508)·2^(-40), a positive real. -/
theorem bnEps_pos : ∃ r : ℝ, 0 < r ∧ bnEps = (r : EReal) := by
  have h : bnEps = (((10995116 : ℝ) * (2 : ℝ) ^ (-40 : ℤ) : ℝ) : EReal) := by
    simp [bnEps, Ideal.ofBits, Ideal.ieee, -EReal.coe_mul] <;> norm_num
  exact ⟨_, by positivity, h⟩

theorem bnEps_real : IsReal bnEps := let ⟨r, _, h⟩ := bnEps_pos; ⟨r, h⟩

/-! ## Affine maps, max · 0, sums -/

section Stages
variable {N D H M L B T a c : Nat}

theorem lin_real {x : A2 N D} {w : A2 D M} {b : A1 M} (hx : ∀ i, IsReal (x i)) (hw : ∀ i, IsReal (w i))
    (hb : ∀ i, IsReal (b i)) : ∀ i, IsReal (lin x w b i) :=
  fun _ => (isReal_sum_univ _ fun _ => (hx _).mul (hw _)).add (hb _)

theorem relu_real {x : A2 N M} (hx : ∀ i, IsReal (x i)) : ∀ i, IsReal (relu x i) :=
  fun i => (hx i).max isReal_zero

theorem add2_real {x y : A2 N M} (hx : ∀ i, IsReal (x i)) (hy : ∀ i, IsReal (y i)) : ∀ i, IsReal (add2 x y i) :=
  fun i => (hx i).add (hy i)

theorem mlp_real {u : A2 N D} {w1 : A2 D H} {b1 : A1 H} {w2 : A2 H M} {b2 : A1 M} (hu : ∀ i, IsReal (u i))
    (hw1 : ∀ i, IsReal (w1 i)) (hb1 : ∀ i, IsReal (b1 i)) (hw2 : ∀ i, IsReal (w2 i)) (hb2 : ∀ i, IsReal (b2 i)) :
    ∀ i, IsReal (mlp u w1 b1 w2 b2 i) :=
  lin_real (relu_real (lin_real hu hw1 hb1)) hw2 hb2

theorem layer3_real {w : A3 L a c} (hw : ∀ i, IsReal (w i)) (l : Fin L) : ∀ i, IsReal (layer3 w l i) :=
  fun _ => hw _

theorem layer2_real {w : A2 L a} (hw : ∀ i, IsReal (w i)) (l : Fin L) : ∀ j, IsReal (layer2 w l j) :=
  fun _ => hw _

theorem rowOf_real {r : A2 1 M} (hr : ∀ i, IsReal (r i)) : ∀ j, IsReal (rowOf r j) :=
  fun _ => hr _

theorem colSum_real {z : A2 N M} (hz : ∀ i, IsReal (z i)) : ∀ j, IsReal (colSum z j) :=
  fun _ => isReal_sum_univ _ fun _ => hz _

theorem blockSums_real {z : A2 (B * T) M} (hz : ∀ i, IsReal (z i)) : ∀ i, IsReal (blockSums z i) :=
  fun _ => isReal_sum_univ _ fun _ => hz _

/-! ## The batch statistics -/

theorem colMean_real {z : A2 N M} (hz : ∀ i, IsReal (z i)) : ∀ j, IsReal (colMean z j) :=
  fun j => isReal_div (colSum_real hz j) nRows_real nRows_ne_zero

theorem sqDev_real {z : A2 N M} {mu : A1 M} (hz : ∀ i, IsReal (z i)) (hmu : ∀ j, IsReal (mu j)) :
    ∀ i, IsReal (sqDev z mu i) :=
  fun i => ((hz i).sub (hmu _)).mul ((hz i).sub (hmu _))

theorem colVar_real {z : A2 N M} {mu : A1 M} (hz : ∀ i, IsReal (z i)) (hmu : ∀ j, IsReal (mu j)) :
    ∀ j, IsReal (colVar z mu j) :=
  fun j => isReal_div (colSum_real (sqDev_real hz hmu) j) nRows_real nRows_ne_zero

/-- The square of a real is nonnegative. -/
theorem mul_self_nonneg_of_isReal {x : EReal} (hx : IsReal x) : 0 ≤ x * x := by
  obtain ⟨r, rfl⟩ := hx
  rw [← EReal.coe_mul]; exact EReal.coe_nonneg.2 (mul_self_nonneg r)

theorem sqDev_nonneg {z : A2 N M} {mu : A1 M} (hz : ∀ i, IsReal (z i)) (hmu : ∀ j, IsReal (mu j)) :
    ∀ i, 0 ≤ sqDev z mu i :=
  fun i => mul_self_nonneg_of_isReal ((hz i).sub (hmu _))

/-- A finite sum of real squares, over the positive real 200000, is nonnegative. -/
theorem colVar_nonneg {z : A2 N M} {mu : A1 M} (hz : ∀ i, IsReal (z i)) (hmu : ∀ j, IsReal (mu j)) :
    ∀ j, 0 ≤ colVar z mu j := by
  intro j
  have h0 : 0 ≤ colSum (sqDev z mu) j := Finset.sum_nonneg fun i _ => sqDev_nonneg hz hmu _
  obtain ⟨s, hs⟩ := colSum_real (sqDev_real hz hmu) j
  show 0 ≤ Ideal.div (colSum (sqDev z mu) j) nRows
  rw [hs] at h0
  rw [hs, nRows_eq, div_coe_coe s (by norm_num)]
  exact EReal.coe_nonneg.2 (div_nonneg (EReal.coe_nonneg.1 h0) (by norm_num))

/-! ## The application -/

/-- For a real v ≥ 0 the sum v + ε is a positive real, where the reciprocal root is the real (√(v + ε))⁻¹. -/
theorem rsqrt_real {v : EReal} (hv : IsReal v) (h0 : 0 ≤ v) : IsReal (Ideal.rsqrt (v + bnEps)) := by
  obtain ⟨r, rfl⟩ := hv
  obtain ⟨e, he, hE⟩ := bnEps_pos
  have hr : 0 ≤ r := EReal.coe_nonneg.1 h0
  have hpos : 0 < r + e := by linarith
  rw [hE, ← EReal.coe_add, Ideal.rsqrt_coe, if_neg (not_lt.2 hpos.le), if_neg hpos.ne']
  exact ⟨_, rfl⟩

theorem bnRef_real {z : A2 N M} {mu var g b : A1 M} (hz : ∀ i, IsReal (z i)) (hmu : ∀ j, IsReal (mu j))
    (hvar : ∀ j, IsReal (var j)) (hg : ∀ j, IsReal (g j)) (hb : ∀ j, IsReal (b j)) (hv0 : ∀ j, 0 ≤ var j) :
    ∀ i, IsReal (bnRef z mu var g b i) :=
  fun i => (((((hz i).sub (hmu _)).mul (rsqrt_real (hvar _) (hv0 _))).mul (hg _)).add (hb _)).max isReal_zero

theorem bnScale_real {var g : A1 M} (hvar : ∀ j, IsReal (var j)) (hg : ∀ j, IsReal (g j)) (hv0 : ∀ j, 0 ≤ var j) :
    ∀ j, IsReal (bnScale var g j) := by
  intro j
  show IsReal (g j * Ideal.rsqrt (max (var j) 0 + bnEps))
  rw [max_eq_left (hv0 j)]
  exact (hg j).mul (rsqrt_real (hvar j) (hv0 j))

theorem bnShift_real {mu scale b : A1 M} (hmu : ∀ j, IsReal (mu j)) (hs : ∀ j, IsReal (scale j))
    (hb : ∀ j, IsReal (b j)) : ∀ j, IsReal (bnShift mu scale b j) :=
  fun j => (hb j).sub ((hmu j).mul (hs j))

theorem bnFold_real {z : A2 N M} {scale shift : A1 M} (hz : ∀ i, IsReal (z i)) (hs : ∀ j, IsReal (scale j))
    (ht : ∀ j, IsReal (shift j)) : ∀ i, IsReal (bnFold z scale shift i) :=
  fun i => (((hz i).mul (hs _)).add (ht _)).max isReal_zero

/-- Among reals: z·(γ·r) + (β − μ·(γ·r)) = ((z − μ)·r)·γ + β. -/
theorem fold_eq_coe (x m r c d : ℝ) :
    (x : EReal) * ((c : EReal) * (r : EReal)) + ((d : EReal) - (m : EReal) * ((c : EReal) * (r : EReal)))
      = (((x : EReal) - (m : EReal)) * (r : EReal)) * (c : EReal) + (d : EReal) := by
  rw [← EReal.coe_mul c r, ← EReal.coe_mul x, ← EReal.coe_mul m, ← EReal.coe_sub d, ← EReal.coe_add,
    ← EReal.coe_sub x m, ← EReal.coe_mul, ← EReal.coe_mul, ← EReal.coe_add]
  congr 1; ring

/-- The folded form equals the textbook form on real inputs with nonnegative variances: max σ² 0 = σ², then the ring
    laws of ℝ. -/
theorem bnFold_eq_bnRef {N M : Nat} (z : A2 N M) (mu var g b : A1 M) (hz : ∀ i, IsReal (z i))
    (hmu : ∀ j, IsReal (mu j)) (hvar : ∀ j, IsReal (var j)) (hg : ∀ j, IsReal (g j)) (hb : ∀ j, IsReal (b j))
    (hv0 : ∀ j, 0 ≤ var j) :
    bnFold z (bnScale var g) (bnShift mu (bnScale var g) b) = bnRef z mu var g b := by
  funext i
  show max (z i * (g (ix1 (i 1)) * Ideal.rsqrt (max (var (ix1 (i 1))) 0 + bnEps))
      + (b (ix1 (i 1)) - mu (ix1 (i 1)) * (g (ix1 (i 1)) * Ideal.rsqrt (max (var (ix1 (i 1))) 0 + bnEps)))) 0
    = max (((z i - mu (ix1 (i 1))) * Ideal.rsqrt (var (ix1 (i 1)) + bnEps)) * g (ix1 (i 1)) + b (ix1 (i 1))) 0
  rw [max_eq_left (hv0 _)]
  obtain ⟨x, hx⟩ := hz i
  obtain ⟨m, hm⟩ := hmu (ix1 (i 1))
  obtain ⟨r, hr⟩ := rsqrt_real (hvar (ix1 (i 1))) (hv0 _)
  obtain ⟨c, hc⟩ := hg (ix1 (i 1))
  obtain ⟨d, hd⟩ := hb (ix1 (i 1))
  rw [hx, hm, hr, hc, hd, fold_eq_coe]

end Stages

end Cert.Net
-- ==== Proof.Net.lean ====
/-
  The whole network as one function of its eighteen argument arrays, twice: with each layer's batch
  normalisation in the folded form `z·s + t` (scale and shift computed from the batch statistics first) and in the
  textbook form `((z − μ)·(σ² + ε)^(-1/2))·γ + β`. On real-valued inputs every intermediate array is real-valued
  (sums, products, maxima, gathers and scatter-sums of reals; a variance is a nonnegative real, so σ² + ε > 0),
  and there the two forms are one function by distributivity; layer by layer this gives the equality of the two
  networks. The gather/scatter aggregation and the mean pooling are carried as the programs' own operations.
-/
import proofs.«412989_j17643725652192_3_alg».proof.Proof.Spec
import proofs.«412989_j17643725652192_3_alg».proof.Proof.SpecReal
import proofs.«412989_j17643725652192_3_alg».proof.Proof.LibRealClosure
import proofs.«412989_j17643725652192_3_alg».proof.Proof.StageAgg
import proofs.«412989_j17643725652192_3_alg».proof.Proof.StagePool

noncomputable section

namespace Cert.Net

open Idealize.ShloMosaic Idealize.ShloMosaic.ValueIdx RealClosure Cert.Proof.Agg Cert.Proof.Pool

/-- A layer before its normalisation: the perceptron of the node features plus the messages aggregated into them. -/
def nZ (h : A2 200000 32) (e : A2 2000000 32) (src dst : IVec Cert.ReferenceIdeal.S2000000 32)
    (w1 : A3 2 32 75) (b1 : A2 2 75) (w2 : A3 2 75 32) (b2 : A2 2 32) (l : Fin 2) : A2 200000 32 :=
  mlp (add2 h (aggR h e src dst)) (layer3 w1 l) (layer2 b1 l) (layer3 w2 l) (layer2 b2 l)

/-- Normalisation by the batch's own statistics, in the folded form `z·s + t` … -/
def bnK (z : A2 200000 32) (g β : A1 32) : A2 200000 32 :=
  bnFold z (bnScale (colVar z (colMean z)) g) (bnShift (colMean z) (bnScale (colVar z (colMean z)) g) β)
/-- … and in the textbook form `((z − μ)·(σ² + ε)^(-1/2))·γ + β`. -/
def bnR (z : A2 200000 32) (g β : A1 32) : A2 200000 32 := bnRef z (colMean z) (colVar z (colMean z)) g β

/-- Where every entry is a real number the two forms agree: the variance is nonnegative, so its clamp at zero is
    vacuous, and the affine identity is distributivity over the reals. -/
theorem bnK_eq_bnR {z : A2 200000 32} {g β : A1 32} (hz : ∀ i, IsReal (z i)) (hg : ∀ j, IsReal (g j)) (hβ : ∀ j, IsReal (β j)) :
    bnK z g β = bnR z g β :=
  bnFold_eq_bnRef z (colMean z) (colVar z (colMean z)) g β hz (colMean_real hz) (colVar_real hz (colMean_real hz)) hg hβ
    (colVar_nonneg hz (colMean_real hz))

theorem bnR_real {z : A2 200000 32} {g β : A1 32} (hz : ∀ i, IsReal (z i)) (hg : ∀ j, IsReal (g j)) (hβ : ∀ j, IsReal (β j)) :
    ∀ i, IsReal (bnR z g β i) :=
  bnRef_real hz (colMean_real hz) (colVar_real hz (colMean_real hz)) hg hβ (colVar_nonneg hz (colMean_real hz))

section Layer
variable (h : A2 200000 32) (e : A2 2000000 32) (src dst : IVec Cert.ReferenceIdeal.S2000000 32)
  (w1 : A3 2 32 75) (b1 : A2 2 75) (w2 : A3 2 75 32) (b2 : A2 2 32) (g β : A2 2 32) (l : Fin 2)

/-- One whole layer, in either form of the normalisation. -/
def layerK : A2 200000 32 := bnK (nZ h e src dst w1 b1 w2 b2 l) (layer2 g l) (layer2 β l)
def layerR : A2 200000 32 := bnR (nZ h e src dst w1 b1 w2 b2 l) (layer2 g l) (layer2 β l)

variable {h e src dst w1 b1 w2 b2 g β l}
variable (hh : ∀ i, IsReal (h i)) (he : ∀ i, IsReal (e i)) (hw1 : ∀ i, IsReal (w1 i)) (hb1 : ∀ i, IsReal (b1 i))
  (hw2 : ∀ i, IsReal (w2 i)) (hb2 : ∀ i, IsReal (b2 i)) (hg : ∀ i, IsReal (g i)) (hβ : ∀ i, IsReal (β i))
include hh he hw1 hb1 hw2 hb2
theorem nZ_real : ∀ i, IsReal (nZ h e src dst w1 b1 w2 b2 l i) :=
  mlp_real (add2_real hh (aggR_real hh he)) (layer3_real hw1 l) (layer2_real hb1 l) (layer3_real hw2 l) (layer2_real hb2 l)
include hg hβ
theorem layerK_eq_layerR : layerK h e src dst w1 b1 w2 b2 g β l = layerR h e src dst w1 b1 w2 b2 g β l :=
  bnK_eq_bnR (nZ_real hh he hw1 hb1 hw2 hb2) (layer2_real hg l) (layer2_real hβ l)
theorem layerR_real : ∀ i, IsReal (layerR h e src dst w1 b1 w2 b2 g β l i) :=
  bnR_real (nZ_real hh he hw1 hb1 hw2 hb2) (layer2_real hg l) (layer2_real hβ l)
end Layer

section Net
variable (x : A2 200000 14) (ei : IVec Cert.ReferenceIdeal.S2x2000000 32) (ea : A2 2000000 3) (bt : IVec Cert.ReferenceIdeal.S200000 32)
  (nw : A2 14 32) (nb : A1 32) (ew : A2 3 32) (eb : A1 32) (w1 : A3 2 32 75) (b1 : A2 2 75) (w2 : A3 2 75 32) (b2 : A2 2 32)
  (g β : A2 2 32) (l1w : A2 32 16) (l1b : A1 16) (l2w : A2 16 2) (l2b : A1 2)

/-- The whole network with the folded normalisation (what the kernel program computes) … -/
def netK : A2 10000 2 :=
  mlp (poolR (layerK (layerK (lin x nw nb) (lin ea ew eb) (srcR ei) (dstR ei) w1 b1 w2 b2 g β 0)
      (lin ea ew eb) (srcR ei) (dstR ei) w1 b1 w2 b2 g β 1) bt) l1w l1b l2w l2b
/-- … and with the textbook normalisation (what the reference computes). -/
def netR : A2 10000 2 :=
  mlp (poolR (layerR (layerR (lin x nw nb) (lin ea ew eb) (srcR ei) (dstR ei) w1 b1 w2 b2 g β 0)
      (lin ea ew eb) (srcR ei) (dstR ei) w1 b1 w2 b2 g β 1) bt) l1w l1b l2w l2b

/-- On real inputs the two networks are one function: layer by layer the normalisations agree, and each layer's
    output is again real. -/
theorem netK_eq_netR (hx : ∀ i, IsReal (x i)) (hea : ∀ i, IsReal (ea i)) (hnw : ∀ i, IsReal (nw i)) (hnb : ∀ i, IsReal (nb i))
    (hew : ∀ i, IsReal (ew i)) (heb : ∀ i, IsReal (eb i)) (hw1 : ∀ i, IsReal (w1 i)) (hb1 : ∀ i, IsReal (b1 i))
    (hw2 : ∀ i, IsReal (w2 i)) (hb2 : ∀ i, IsReal (b2 i)) (hg : ∀ i, IsReal (g i)) (hβ : ∀ i, IsReal (β i)) :
    netK x ei ea bt nw nb ew eb w1 b1 w2 b2 g β l1w l1b l2w l2b = netR x ei ea bt nw nb ew eb w1 b1 w2 b2 g β l1w l1b l2w l2b := by
  have hh0 : ∀ i, IsReal (lin x nw nb i) := lin_real hx hnw hnb
  have he : ∀ i, IsReal (lin ea ew eb i) := lin_real hea hew heb
  unfold netK netR
  rw [layerK_eq_layerR (l := 0) hh0 he hw1 hb1 hw2 hb2 hg hβ,
    layerK_eq_layerR (l := 1) (layerR_real (l := 0) hh0 he hw1 hb1 hw2 hb2 hg hβ) he hw1 hb1 hw2 hb2 hg hβ]
end Net

end Cert.Net

end
-- ==== Proof.KChain.lean ====
/-
  The kernel program's result, read boundary by boundary. Between the launch and the return the program's buffers
  pass 24 boundaries (a stretch of host operations or a pipelined region each). A region leaves in its output array
  the stage's index-level function of its input arrays (the blocks its grid points write back tile the array); a host
  stretch leaves the composed value of its operations; a buffer nothing writes in between keeps its contents. Chaining
  these from the launch memory gives the result buffer as the network with the folded normalisation. The one hypothesis
  is that the gather's source indices lie inside the node array: then the out-of-range mask of the gather is all ones.
-/
import proofs.«412989_j17643725652192_3_alg».proof.Proof.Gen.KernelIdeal.Frame
import proofs.«412989_j17643725652192_3_alg».proof.Proof.Gen.ReferenceIdeal
import proofs.«412989_j17643725652192_3_alg».proof.Proof.Spec
import proofs.«412989_j17643725652192_3_alg».proof.Proof.KPass
import proofs.«412989_j17643725652192_3_alg».proof.Proof.KEmbed0
import proofs.«412989_j17643725652192_3_alg».proof.Proof.KEmbed1
import proofs.«412989_j17643725652192_3_alg».proof.Proof.KMlp2
import proofs.«412989_j17643725652192_3_alg».proof.Proof.KMlp5
import proofs.«412989_j17643725652192_3_alg».proof.Proof.KBnVar3
import proofs.«412989_j17643725652192_3_alg».proof.Proof.KBnVar6
import proofs.«412989_j17643725652192_3_alg».proof.Proof.KBnApply4
import proofs.«412989_j17643725652192_3_alg».proof.Proof.KBnApply7
import proofs.«412989_j17643725652192_3_alg».proof.Proof.KHead8
import proofs.«412989_j17643725652192_3_alg».proof.Proof.KSlices
import proofs.«412989_j17643725652192_3_alg».proof.Proof.KStatHost
import proofs.«412989_j17643725652192_3_alg».proof.Proof.StageAgg
import proofs.«412989_j17643725652192_3_alg».proof.Proof.StagePool
import proofs.«412989_j17643725652192_3_alg».proof.Proof.Net
import Idealize.ShloMosaic.Lib.StableHlo.Run

set_option maxRecDepth 16384

noncomputable section

namespace Cert.KernelIdeal.Val

open Cert.KernelIdeal Cert.KernelIdeal.Gen Cert.Net Idealize.ShloMosaic Idealize.ShloMosaic.TcCoe Idealize.ShloMosaic.ValueIdx
open Cert.Proof.Agg Cert.Proof.Pool

/-! ## The network's values, as functions of the launch memory -/
section Values
variable (m : (ℓ : Loc nD τ sig) → Buf (Elt Ideal) ℓ) (c : Dev nD)
/-- The gather's source indices and the scatter's destination indices (rows 0 and 1 of `edge_index`). -/
def kSrc : IVec S2000000 32 := srcR (m ((c : Thread nD τ).loc main_arg1))
def kDst : IVec S2000000 32 := dstR (m ((c : Thread nD τ).loc main_arg1))
/-- The embedded nodes and edges. -/
def kH0 : A2 200000 32 := lin (m ((c : Thread nD τ).loc main_arg0)) (m ((c : Thread nD τ).loc main_arg4)) (m ((c : Thread nD τ).loc main_arg5))
def kE : A2 2000000 32 := lin (m ((c : Thread nD τ).loc main_arg2)) (m ((c : Thread nD τ).loc main_arg6)) (m ((c : Thread nD τ).loc main_arg7))
/-- One layer before normalisation: the perceptron of `h` plus the aggregated messages. -/
def kZ (h : A2 200000 32) (l : Fin 2) : A2 200000 32 :=
  nZ h (kE m c) (kSrc m c) (kDst m c) (m ((c : Thread nD τ).loc main_arg8)) (m ((c : Thread nD τ).loc main_arg9)) (m ((c : Thread nD τ).loc main_arg10)) (m ((c : Thread nD τ).loc main_arg11)) l
/-- The folded scale and shift of a layer's normalisation, from the batch statistics of `z`. -/
def kS (z : A2 200000 32) (l : Fin 2) : A1 32 := bnScale (colVar z (colMean z)) (layer2 (m ((c : Thread nD τ).loc main_arg12)) l)
def kT (z : A2 200000 32) (l : Fin 2) : A1 32 := bnShift (colMean z) (kS m c z l) (layer2 (m ((c : Thread nD τ).loc main_arg13)) l)
/-- One whole layer, normalisation in its folded form. -/
def kLayer (h : A2 200000 32) (l : Fin 2) : A2 200000 32 := bnFold (kZ m c h l) (kS m c (kZ m c h l) l) (kT m c (kZ m c h l) l)
def kH1 : A2 200000 32 := kLayer m c (kH0 m c) 0
def kH2 : A2 200000 32 := kLayer m c (kH1 m c) 1
/-- The pooled graph features and the head's output. -/
def kG : A2 10000 32 := poolR (kH2 m c) (m ((c : Thread nD τ).loc main_arg3))
def kOut : A2 10000 2 := mlp (kG m c) (m ((c : Thread nD τ).loc main_arg14)) (m ((c : Thread nD τ).loc main_arg15)) (m ((c : Thread nD τ).loc main_arg16)) (m ((c : Thread nD τ).loc main_arg17))
end Values

/-- The result is the network with the folded normalisation, of the eighteen argument arrays. -/
theorem kOut_eq (m : (ℓ : Loc nD τ sig) → Buf (Elt Ideal) ℓ) (c : Dev nD) :
    kOut m c = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := rfl

/-! ## The contents at each boundary, read through the regions and the host stretches -/
section Chain
variable (m : (ℓ : Loc nD τ sig) → Buf (Elt Ideal) ℓ) (ρ : Dev nD → PrngReg) (c : Dev nD)

theorem T_src : W1 m ρ c (Proc.devRef .tc main_v1) = kSrc m c := hostOps0_src (W0 m ρ c)
theorem T_dst : W1 m ρ c (Proc.devRef .tc main_v3) = kDst m c := hostOps0_dst (W0 m ρ c)
theorem T_h0 : W2 m ρ c (Proc.devRef .tc main_v5) = kH0 m c := by
  refine (W2_arr m ρ c 3).trans ?_
  rw [final0 (V1 m ρ) c]
  show lin (W1 m ρ c (Proc.devRef .tc main_arg0)) (W1 m ρ c (Proc.devRef .tc main_arg4)) (rowOf (StableHlo.after (hostOps0 (F := Ideal)) (W0 m ρ c) (Proc.devRef .tc main_v4))) = _
  rw [W1_main_arg0, W1_main_arg4, hostOps0_b]
  rfl
theorem T_e : W4 m ρ c (Proc.devRef .tc main_v7) = kE m c := by
  refine (W4_arr m ρ c 3).trans ?_
  rw [final1 (V3 m ρ) c]
  show lin (W3 m ρ c (Proc.devRef .tc main_arg2)) (W3 m ρ c (Proc.devRef .tc main_arg6)) (rowOf (StableHlo.after (hostOps1 (F := Ideal)) (W2 m ρ c) (Proc.devRef .tc main_v6))) = _
  rw [W3_main_arg2, W3_main_arg6, hostOps1_b, W2_main_arg7]
  rfl
variable (hsrc : ∀ k : Fin 2000000, 0 ≤ (kSrc m c (ix1 k)).toInt ∧ (kSrc m c (ix1 k)).toInt < 200000)
include hsrc

/-! ### Layer 0 -/
theorem T_agg0 : W8 m ρ c (Proc.devRef .tc main_v13) = aggR (kH0 m c) (kE m c) (kSrc m c) (kDst m c) := by
  have h := hostOps2_agg (W4 m ρ c) (by rw [W4_v1, T_src]; exact hsrc)
  rw [W4_v5, T_h0, T_e, W4_v1, W4_v3, T_src, T_dst] at h
  exact h
theorem T_par0 : W8 m ρ c (Proc.devRef .tc main_v15) = layer3 (m ((c : Thread nD τ).loc main_arg8)) 0
    ∧ rowOf (W8 m ρ c (Proc.devRef .tc main_v22)) = layer2 (m ((c : Thread nD τ).loc main_arg9)) 0
    ∧ W8 m ρ c (Proc.devRef .tc main_v19) = layer3 (m ((c : Thread nD τ).loc main_arg10)) 0
    ∧ rowOf (W8 m ρ c (Proc.devRef .tc main_v23)) = layer2 (m ((c : Thread nD τ).loc main_arg11)) 0 := by
  have h := hostOps2_3_params (W7 m ρ c)
  rw [W7_main_arg8, W7_main_arg9, W7_main_arg10, W7_main_arg11] at h
  exact h
theorem T_z0 : W9 m ρ c (Proc.devRef .tc main_v24_0) = kZ m c (kH0 m c) 0 := by
  refine (W9_arr m ρ c 6).trans ?_
  rw [final2_z (V8 m ρ) c]
  show mlp (add2 (W8 m ρ c (Proc.devRef .tc main_v5)) (W8 m ρ c (Proc.devRef .tc main_v13))) (W8 m ρ c (Proc.devRef .tc main_v15)) (rowOf (W8 m ρ c (Proc.devRef .tc main_v22))) (W8 m ρ c (Proc.devRef .tc main_v19)) (rowOf (W8 m ρ c (Proc.devRef .tc main_v23))) = _
  rw [W8_v5, T_h0, T_agg0 m ρ c hsrc, (T_par0 m ρ c hsrc).1, (T_par0 m ρ c hsrc).2.1, (T_par0 m ρ c hsrc).2.2.1, (T_par0 m ρ c hsrc).2.2.2]
  rfl
theorem T_zs0 : W9 m ρ c (Proc.devRef .tc main_v24_1) = blockSums (B := 50) (T := 4000) (kZ m c (kH0 m c) 0) := by
  refine (W9_arr m ρ c 7).trans ?_
  rw [final2_s (V8 m ρ) c]
  show blockSums (B := 50) (T := 4000) (mlp (add2 (W8 m ρ c (Proc.devRef .tc main_v5)) (W8 m ρ c (Proc.devRef .tc main_v13))) (W8 m ρ c (Proc.devRef .tc main_v15)) (rowOf (W8 m ρ c (Proc.devRef .tc main_v22))) (W8 m ρ c (Proc.devRef .tc main_v19)) (rowOf (W8 m ρ c (Proc.devRef .tc main_v23)))) = _
  rw [W8_v5, T_h0, T_agg0 m ρ c hsrc, (T_par0 m ρ c hsrc).1, (T_par0 m ρ c hsrc).2.1, (T_par0 m ρ c hsrc).2.2.1, (T_par0 m ρ c hsrc).2.2.2]
  rfl
theorem T_mu0 : W10 m ρ c (Proc.devRef .tc main_v28) = colMean (kZ m c (kH0 m c) 0)
    ∧ rowOf (W10 m ρ c (Proc.devRef .tc main_v29)) = colMean (kZ m c (kH0 m c) 0) :=
  hostOps3_mu (W9 m ρ c) (kZ m c (kH0 m c) 0) (T_zs0 m ρ c hsrc)
theorem T_q0 : W11 m ρ c (Proc.devRef .tc main_v30) = blockSums (B := 25) (T := 8000) (sqDev (kZ m c (kH0 m c) 0) (colMean (kZ m c (kH0 m c) 0))) := by
  refine (W11_arr m ρ c 2).trans ?_
  rw [final3 (V10 m ρ) c]
  show blockSums (B := 25) (T := 8000) (sqDev (W10 m ρ c (Proc.devRef .tc main_v24_0)) (rowOf (W10 m ρ c (Proc.devRef .tc main_v29)))) = _
  rw [W10_v24_0, T_z0 m ρ c hsrc, (T_mu0 m ρ c hsrc).2]
theorem T_st0 : rowOf (W12 m ρ c (Proc.devRef .tc main_v47)) = kS m c (kZ m c (kH0 m c) 0) 0
    ∧ rowOf (W12 m ρ c (Proc.devRef .tc main_v48)) = kT m c (kZ m c (kH0 m c) 0) 0 := by
  have h := hostOps4_ss (W11 m ρ c) (kZ m c (kH0 m c) 0) (colMean (kZ m c (kH0 m c) 0)) (T_q0 m ρ c hsrc)
    (by rw [W11_v28]; exact (T_mu0 m ρ c hsrc).1)
  rw [W11_main_arg12, W11_main_arg13] at h
  exact h
theorem T_h1 : W13 m ρ c (Proc.devRef .tc main_v49) = kLayer m c (kH0 m c) 0 := by
  refine (W13_arr m ρ c 3).trans ?_
  rw [final4 (V12 m ρ) c]
  show bnFold (W12 m ρ c (Proc.devRef .tc main_v24_0)) (rowOf (W12 m ρ c (Proc.devRef .tc main_v47))) (rowOf (W12 m ρ c (Proc.devRef .tc main_v48))) = _
  rw [W12_v24_0, T_z0 m ρ c hsrc, (T_st0 m ρ c hsrc).1, (T_st0 m ρ c hsrc).2]
  rfl

/-! ### Layer 1 -/
theorem T_agg1 : W17 m ρ c (Proc.devRef .tc main_v55) = aggR (kH1 m c) (kE m c) (kSrc m c) (kDst m c) := by
  have h := hostOps5_agg (W13 m ρ c) (by rw [W13_v1, T_src]; exact hsrc)
  rw [T_h1 m ρ c hsrc, W13_v7, T_e, W13_v1, W13_v3, T_src, T_dst] at h
  exact h
theorem T_par1 : W17 m ρ c (Proc.devRef .tc main_v57) = layer3 (m ((c : Thread nD τ).loc main_arg8)) 1
    ∧ rowOf (W17 m ρ c (Proc.devRef .tc main_v64)) = layer2 (m ((c : Thread nD τ).loc main_arg9)) 1
    ∧ W17 m ρ c (Proc.devRef .tc main_v61) = layer3 (m ((c : Thread nD τ).loc main_arg10)) 1
    ∧ rowOf (W17 m ρ c (Proc.devRef .tc main_v65)) = layer2 (m ((c : Thread nD τ).loc main_arg11)) 1 := by
  have h := hostOps5_3_params (W16 m ρ c)
  rw [W16_main_arg8, W16_main_arg9, W16_main_arg10, W16_main_arg11] at h
  exact h
theorem T_z1 : W18 m ρ c (Proc.devRef .tc main_v66_0) = kZ m c (kH1 m c) 1 := by
  refine (W18_arr m ρ c 6).trans ?_
  rw [final5_z (V17 m ρ) c]
  show mlp (add2 (W17 m ρ c (Proc.devRef .tc main_v49)) (W17 m ρ c (Proc.devRef .tc main_v55))) (W17 m ρ c (Proc.devRef .tc main_v57)) (rowOf (W17 m ρ c (Proc.devRef .tc main_v64))) (W17 m ρ c (Proc.devRef .tc main_v61)) (rowOf (W17 m ρ c (Proc.devRef .tc main_v65))) = _
  rw [W17_v49, T_h1 m ρ c hsrc, T_agg1 m ρ c hsrc, (T_par1 m ρ c hsrc).1, (T_par1 m ρ c hsrc).2.1, (T_par1 m ρ c hsrc).2.2.1, (T_par1 m ρ c hsrc).2.2.2]
  rfl
theorem T_zs1 : W18 m ρ c (Proc.devRef .tc main_v66_1) = blockSums (B := 50) (T := 4000) (kZ m c (kH1 m c) 1) := by
  refine (W18_arr m ρ c 7).trans ?_
  rw [final5_s (V17 m ρ) c]
  show blockSums (B := 50) (T := 4000) (mlp (add2 (W17 m ρ c (Proc.devRef .tc main_v49)) (W17 m ρ c (Proc.devRef .tc main_v55))) (W17 m ρ c (Proc.devRef .tc main_v57)) (rowOf (W17 m ρ c (Proc.devRef .tc main_v64))) (W17 m ρ c (Proc.devRef .tc main_v61)) (rowOf (W17 m ρ c (Proc.devRef .tc main_v65)))) = _
  rw [W17_v49, T_h1 m ρ c hsrc, T_agg1 m ρ c hsrc, (T_par1 m ρ c hsrc).1, (T_par1 m ρ c hsrc).2.1, (T_par1 m ρ c hsrc).2.2.1, (T_par1 m ρ c hsrc).2.2.2]
  rfl
theorem T_mu1 : W19 m ρ c (Proc.devRef .tc main_v70) = colMean (kZ m c (kH1 m c) 1)
    ∧ rowOf (W19 m ρ c (Proc.devRef .tc main_v71)) = colMean (kZ m c (kH1 m c) 1) :=
  hostOps6_mu (W18 m ρ c) (kZ m c (kH1 m c) 1) (T_zs1 m ρ c hsrc)
theorem T_q1 : W20 m ρ c (Proc.devRef .tc main_v72) = blockSums (B := 25) (T := 8000) (sqDev (kZ m c (kH1 m c) 1) (colMean (kZ m c (kH1 m c) 1))) := by
  refine (W20_arr m ρ c 2).trans ?_
  rw [final6 (V19 m ρ) c]
  show blockSums (B := 25) (T := 8000) (sqDev (W19 m ρ c (Proc.devRef .tc main_v66_0)) (rowOf (W19 m ρ c (Proc.devRef .tc main_v71)))) = _
  rw [W19_v66_0, T_z1 m ρ c hsrc, (T_mu1 m ρ c hsrc).2]
theorem T_st1 : rowOf (W21 m ρ c (Proc.devRef .tc main_v89)) = kS m c (kZ m c (kH1 m c) 1) 1
    ∧ rowOf (W21 m ρ c (Proc.devRef .tc main_v90)) = kT m c (kZ m c (kH1 m c) 1) 1 := by
  have h := hostOps7_ss (W20 m ρ c) (kZ m c (kH1 m c) 1) (colMean (kZ m c (kH1 m c) 1)) (T_q1 m ρ c hsrc)
    (by rw [W20_v70]; exact (T_mu1 m ρ c hsrc).1)
  rw [W20_main_arg12, W20_main_arg13] at h
  exact h
theorem T_h2 : W22 m ρ c (Proc.devRef .tc main_v91) = kLayer m c (kH1 m c) 1 := by
  refine (W22_arr m ρ c 3).trans ?_
  rw [final7 (V21 m ρ) c]
  show bnFold (W21 m ρ c (Proc.devRef .tc main_v66_0)) (rowOf (W21 m ρ c (Proc.devRef .tc main_v89))) (rowOf (W21 m ρ c (Proc.devRef .tc main_v90))) = _
  rw [W21_v66_0, T_z1 m ρ c hsrc, (T_st1 m ρ c hsrc).1, (T_st1 m ρ c hsrc).2]
  rfl

/-! ### Pooling and the head -/
theorem T_out : W24 m ρ c (Proc.devRef .tc main_v106) = kOut m c := by
  refine (W24_arr m ρ c 5).trans ?_
  rw [final8 (V23 m ρ) c]
  show mlp (StableHlo.after (hostOps8 (F := Ideal)) (W22 m ρ c) (Proc.devRef .tc main_v103)) (W23 m ρ c (Proc.devRef .tc main_arg14))
      (rowOf (StableHlo.after (hostOps8 (F := Ideal)) (W22 m ρ c) (Proc.devRef .tc main_v104))) (W23 m ρ c (Proc.devRef .tc main_arg16))
      (rowOf (StableHlo.after (hostOps8 (F := Ideal)) (W22 m ρ c) (Proc.devRef .tc main_v105))) = _
  rw [hostOps8_g, hostOps8_b1, hostOps8_b2, W23_main_arg14, W23_main_arg16, W22_main_arg3, W22_main_arg15, W22_main_arg17, T_h2 m ρ c hsrc]
  rfl
end Chain

end Cert.KernelIdeal.Val

end
-- ==== Proof.RRunOps.lean ====
import proofs.«412989_j17643725652192_3_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-! ## The reference's 215 operations

@main's statements in order, each module-local function's operations listed at its call over that call's buffer record
(its formal arguments the call's operands): the straight line the program runs. -/

/-- Statements %0 – %11: the edge list's two rows (sources, destinations), the node embedding `x · W + b` and the edge
    embedding `e · W + b`. (12 operations.) -/
abbrev ops0 : List (HloOp τ sig (Elt F)) :=
  [ unary main_arg1 main_v0 ((extractStridedSlice S1x2000000 ![0, 0] · slices_S2x2000000_S1x2000000_0_0) : (⟨S2x2000000, .i32⟩ : BufTy).Contents (Elt F) → (⟨S1x2000000, .i32⟩ : BufTy).Contents (Elt F)),
    reshape main_v0 main_v1 rfl shapeCasts_S1x2000000_S2000000,
    unary main_arg1 main_v2 ((extractStridedSlice S1x2000000 ![1, 0] · slices_S2x2000000_S1x2000000_1_0) : (⟨S2x2000000, .i32⟩ : BufTy).Contents (Elt F) → (⟨S1x2000000, .i32⟩ : BufTy).Contents (Elt F)),
    reshape main_v2 main_v3 rfl shapeCasts_S1x2000000_S2000000,
    binary main_arg0 main_arg4 main_v4 ((fun l r => Host.dotGeneral dot_S200000x14_S14x32_S200000x32_1_0_0_1_n_n none l r) : (⟨S200000x14, .f32⟩ : BufTy).Contents (Elt F) → (⟨S14x32, .f32⟩ : BufTy).Contents (Elt F) → (⟨S200000x32, .f32⟩ : BufTy).Contents (Elt F)),
    unary main_arg5 main_v5 (broadcastInDim S1x32 ![1] bcast_S32_S1x32_1 : (⟨S32, .f32⟩ : BufTy).Contents (Elt F) → (⟨S1x32, .f32⟩ : BufTy).Contents (Elt F)),
    unary main_v5 main_v6 (broadcastInDim S200000x32 ![0, 1] bcast_S1x32_S200000x32_0_1 : (⟨S1x32, .f32⟩ : BufTy).Contents (Elt F) → (⟨S200000x32, .f32⟩ : BufTy).Contents (Elt F)),
    binary main_v4 main_v6 main_v7 (addf : (⟨S200000x32, .f32⟩ : BufTy).Contents (Elt F) → (⟨S200000x32, .f32⟩ : BufTy).Contents (Elt F) → (⟨S200000x32, .f32⟩ : BufTy).Contents (Elt F)),
    binary main_arg2 main_arg6 main_v8 ((fun l r => Host.dotGeneral dot_S2000000x3_S3x32_S2000000x32_1_0_0_1_n_n none l r) : (⟨S2000000x3, .f32⟩ : BufTy).Contents (Elt F) → (⟨S3x32, .f32⟩ : BufTy).Contents (Elt F) → (⟨S2000000x32, .f32⟩ : BufTy).Contents (Elt F)),
    unary main_arg7 main_v9 (broadcastInDim S1x32 ![1] bcast_S32_S1x32_1 : (⟨S32, .f32⟩ : BufTy).Contents (Elt F) → (⟨S1x32, .f32⟩ : BufTy).Contents (Elt F)),
    unary main_v9 main_v10 (broadcastInDim S2000000x32 ![0, 1] bcast_S1x32_S2000000x32_0_1 : (⟨S1x32, .f32⟩ : BufTy).Contents (Elt F) → (⟨S2000000x32, .f32⟩ : BufTy).Contents (Elt F)),
    binary main_v8 main_v10 main_v11 (addf : (⟨S2000000x32, .f32⟩ : BufTy).Contents (Elt F) → (⟨S2000000x32, .f32⟩ : BufTy).Contents (Elt F) → (⟨S2000000x32, .f32⟩ : BufTy).Contents (Elt F)) ]

/-- Statements %c – %23, layer 1's aggregation: a negative source index wrapped by the node count, the gather of the
    node rows at the sources, the edge embedding added, `max · 0`, and the sum of the messages into their destination rows. (17 operations.) -/
abbrev ops1 : List (HloOp τ sig (Elt F)) :=
  [ nullary main_c (constantI S_ 32 0#32),
    unary main_c main_v12 (broadcastInDim S2000000 ![] bcast_S_S2000000 : (⟨S_, .i32⟩ : BufTy).Contents (Elt F) → (⟨S2000000, .i32⟩ : BufTy).Contents (Elt F)),
    binary main_v1 main_v12 main_v13 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 200000#32),
    unary main_c_0 main_v14 (broadcastInDim S2000000 ![] bcast_S_S2000000 : (⟨S_, .i32⟩ : BufTy).Contents (Elt F) → (⟨S2000000, .i32⟩ : BufTy).Contents (Elt F)),
    binary main_v1 main_v14 main_v15 (addi : (⟨S2000000, .i32⟩ : BufTy).Contents (Elt F) → (⟨S2000000, .i32⟩ : BufTy).Contents (Elt F) → (⟨S2000000, .i32⟩ : BufTy).Contents (Elt F)),
    ternary main_v13 main_v15 main_v1 main_v16 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v16 main_v17 (broadcastInDim S2000000x1 ![0] bcast_S2000000_S2000000x1_0 : (⟨S2000000, .i32⟩ : BufTy).Contents (Elt F) → (⟨S2000000x1, .i32⟩ : BufTy).Contents (Elt F)),
    binary main_v7 main_v17 main_v18 ((fun x i => Host.gather gather_S200000x32_S2000000x1_S2000000x32_1_0_n_n_0_1_132 x i) : (⟨S200000x32, .f32⟩ : BufTy).Contents (Elt F) → (⟨S2000000x1, .i32⟩ : BufTy).Contents (Elt F) → (⟨S2000000x32, .f32⟩ : BufTy).Contents (Elt F)),
    binary main_v18 main_v11 main_v19 (addf : (⟨S2000000x32, .f32⟩ : BufTy).Contents (Elt F) → (⟨S2000000x32, .f32⟩ : BufTy).Contents (Elt F) → (⟨S2000000x32, .f32⟩ : BufTy).Contents (Elt F)),
    TRef.nullary main_call0.cst (constant S_ .f32 0x00000000#32),
    TRef.unary main_call0.cst main_call0.v0 (broadcastInDim S2000000x32 ![] bcast_S_S2000000x32),
    TRef.binary (.of main_v19 : TRef sig ⟨S2000000x32, .f32⟩) main_call0.v0 main_call0.v1 maximumf,
    nullary main_cst (constant S_ .f32 0x00000000#32),
    unary main_cst main_v21 (broadcastInDim S200000x32 ![] bcast_S_S200000x32 : (⟨S_, .f32⟩ : BufTy).Contents (Elt F) → (⟨S200000x32, .f32⟩ : BufTy).Contents (Elt F)),
    unary main_v3 main_v22 (broadcastInDim S2000000x1 ![0] bcast_S2000000_S2000000x1_0 : (⟨S2000000, .i32⟩ : BufTy).Contents (Elt F) → (⟨S2000000x1, .i32⟩ : BufTy).Contents (Elt F)),
    ternary main_v21 main_v22 main_v20 main_v23 ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)) ]

/-- Statements %24 – %41, layer 1's perceptron: the node's own row added, `· W₁ + b₁`, `max · 0`, `· W₂ + b₂`
    (the weights are slice 0 of the stacked tables). (20 operations.) -/
abbrev ops2 : List (HloOp τ sig (Elt F)) :=
  [ binary main_v7 main_v23 main_v24 (addf : (⟨S200000x32, .f32⟩ : BufTy).Contents (Elt F) → (⟨S200000x32, .f32⟩ : BufTy).Contents (Elt F) → (⟨S200000x32, .f32⟩ : BufTy).Contents (Elt F)),
    unary main_arg8 main_v25 ((extractStridedSlice S1x32x75 ![0, 0, 0] · slices_S2x32x75_S1x32x75_0_0_0) : (⟨S2x32x75, .f32⟩ : BufTy).Contents (Elt F) → (⟨S1x32x75, .f32⟩ : BufTy).Contents (Elt F)),
    reshape main_v25 main_v26 rfl shapeCasts_S1x32x75_S32x75,
    binary main_v24 main_v26 main_v27 ((fun l r => Host.dotGeneral dot_S200000x32_S32x75_S200000x75_1_0_0_1_n_n none l r) : (⟨S200000x32, .f32⟩ : BufTy).Contents (Elt F) → (⟨S32x75, .f32⟩ : BufTy).Contents (Elt F) → (⟨S200000x75, .f32⟩ : BufTy).Contents (Elt F)),
    unary main_arg9 main_v28 ((extractStridedSlice S1x75 ![0, 0] · slices_S2x75_S1x75_0_0) : (⟨S2x75, .f32⟩ : BufTy).Contents (Elt F) → (⟨S1x75, .f32⟩ : BufTy).Contents (Elt F)),
    reshape main_v28 main_v29 rfl shapeCasts_S1x75_S75,
    unary main_v29 main_v30 (broadcastInDim S1x75 ![1] bcast_S75_S1x75_1 : (⟨S75, .f32⟩ : BufTy).Contents (Elt F) → (⟨S1x75, .f32⟩ : BufTy).Contents (Elt F)),
    unary main_v30 main_v31 (broadcastInDim S200000x75 ![0, 1] bcast_S1x75_S200000x75_0_1 : (⟨S1x75, .f32⟩ : BufTy).Contents (Elt F) → (⟨S200000x75, .f32⟩ : BufTy).Contents (Elt F)),
    binary main_v27 main_v31 main_v32 (addf : (⟨S200000x75, .f32⟩ : BufTy).Contents (Elt F) → (⟨S200000x75, .f32⟩ : BufTy).Contents (Elt F) → (⟨S200000x75, .f32⟩ : BufTy).Contents (Elt F)),
    TRef.nullary main_call1.cst (constant S_ .f32 0x00000000#32),
    TRef.unary main_call1.cst main_call1.v0 (broadcastInDim S200000x75 ![] bcast_S_S200000x75),
    TRef.binary (.of main_v32 : TRef sig ⟨S200000x75, .f32⟩) main_call1.v0 main_call1.v1 maximumf,
    unary main_arg10 main_v34 ((extractStridedSlice S1x75x32 ![0, 0, 0] · slices_S2x75x32_S1x75x32_0_0_0) : (⟨S2x75x32, .f32⟩ : BufTy).Contents (Elt F) → (⟨S1x75x32, .f32⟩ : BufTy).Contents (Elt F)),
    reshape main_v34 main_v35 rfl shapeCasts_S1x75x32_S75x32,
    binary main_v33 main_v35 main_v36 ((fun l r => Host.dotGeneral dot_S200000x75_S75x32_S200000x32_1_0_0_1_n_n none l r) : (⟨S200000x75, .f32⟩ : BufTy).Contents (Elt F) → (⟨S75x32, .f32⟩ : BufTy).Contents (Elt F) → (⟨S200000x32, .f32⟩ : BufTy).Contents (Elt F)),
    unary main_arg11 main_v37 ((extractStridedSlice S1x32 ![0, 0] · slices_S2x32_S1x32_0_0) : (⟨S2x32, .f32⟩ : BufTy).Contents (Elt F) → (⟨S1x32, .f32⟩ : BufTy).Contents (Elt F)),
    reshape main_v37 main_v38 rfl shapeCasts_S1x32_S32,
    unary main_v38 main_v39 (broadcastInDim S1x32 ![1] bcast_S32_S1x32_1 : (⟨S32, .f32⟩ : BufTy).Contents (Elt F) → (⟨S1x32, .f32⟩ : BufTy).Contents (Elt F)),
    unary main_v39 main_v40 (broadcastInDim S200000x32 ![0, 1] bcast_S1x32_S200000x32_0_1 : (⟨S1x32, .f32⟩ : BufTy).Contents (Elt F) → (⟨S200000x32, .f32⟩ : BufTy).Contents (Elt F)),
    binary main_v36 main_v40 main_v41 (addf : (⟨S200000x32, .f32⟩ : BufTy).Contents (Elt F) → (⟨S200000x32, .f32⟩ : BufTy).Contents (Elt F) → (⟨S200000x32, .f32⟩ : BufTy).Contents (Elt F)) ]

/-- Statements %cst_1 – %45, layer 1's batch statistics: the column sums over the 200000 rows divided by 200000, and the
    variance: the mean again as a 1×32 row, the squared deviations' column sums divided by `200000 - 0`, kept where
    that divisor is positive. (28 operations.) -/
abbrev ops3 : List (HloOp τ sig (Elt F)) :=
  [ nullary main_cst_1 (constant S_ .f32 0x00000000#32),
    binary main_v41 main_cst_1 main_v42 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    nullary main_cst_2 (constant S_ .f32 0x48435000#32),
    unary main_cst_2 main_v43 (broadcastInDim S32 ![] bcast_S_S32 : (⟨S_, .f32⟩ : BufTy).Contents (Elt F) → (⟨S32, .f32⟩ : BufTy).Contents (Elt F)),
    binary main_v42 main_v43 main_v44 (Host.divf : (⟨S32, .f32⟩ : BufTy).Contents (Elt F) → (⟨S32, .f32⟩ : BufTy).Contents (Elt F) → (⟨S32, .f32⟩ : BufTy).Contents (Elt F)),
    nullary main_c_3 (constantI S_ 32 0#32),
    TRef.nullary main_call2.cst (constant S_ .f32 0x00000000#32),
    TRef.binary (.of main_v41 : TRef sig ⟨S200000x32, .f32⟩) main_call2.cst main_call2.v0 (fun x v => Host.reduceAdd x v reducesTo_S200000x32_S32_d0 h_S_),
    TRef.unary main_call2.v0 main_call2.v1 (broadcastInDim S1x32 ![1] bcast_S32_S1x32_1),
    TRef.nullary main_call2.cst_0 (constant S_ .f32 0x48435000#32),
    TRef.unary main_call2.cst_0 main_call2.v2 (broadcastInDim S1x32 ![] bcast_S_S1x32),
    TRef.binary main_call2.v1 main_call2.v2 main_call2.v3 Host.divf,
    TRef.unary main_call2.v3 main_call2.v4 (broadcastInDim S200000x32 ![0, 1] bcast_S1x32_S200000x32_0_1),
    TRef.binary (.of main_v41 : TRef sig ⟨S200000x32, .f32⟩) main_call2.v4 main_call2.v5 subf,
    TRef.binary main_call2.v5 main_call2.v5 main_call2.v6 mulf,
    TRef.unary (.of main_c_3 : TRef sig ⟨S_, .i32⟩) main_call2.v7 (sitofp .f32),
    TRef.nullary main_call2.cst_1 (constant S_ .f32 0x48435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S200000x32_S32_d0 h_S_),
    TRef.unary main_call2.v8 main_call2.v10 (broadcastInDim S32 ![] bcast_S_S32),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S32 ![] bcast_S_S32),
    TRef.ternary main_call2.v12 main_call2.v11 main_call2.call0.v1 main_call2.call0.v2 (fun p a b => select (broadcastInDim S32 ![] bcast_S_S32 p) a b) ]

/-- Statements %46 – %65, layer 1's normalisation: the deviation from the mean times `rsqrt (variance + ε)`, times the
    scale row, plus the shift row, then `max · 0`. (23 operations.) -/
abbrev ops4 : List (HloOp τ sig (Elt F)) :=
  [ unary main_v44 main_v46 (broadcastInDim S1x32 ![1] bcast_S32_S1x32_1 : (⟨S32, .f32⟩ : BufTy).Contents (Elt F) → (⟨S1x32, .f32⟩ : BufTy).Contents (Elt F)),
    unary main_v46 main_v47 (broadcastInDim S200000x32 ![0, 1] bcast_S1x32_S200000x32_0_1 : (⟨S1x32, .f32⟩ : BufTy).Contents (Elt F) → (⟨S200000x32, .f32⟩ : BufTy).Contents (Elt F)),
    binary main_v41 main_v47 main_v48 (subf : (⟨S200000x32, .f32⟩ : BufTy).Contents (Elt F) → (⟨S200000x32, .f32⟩ : BufTy).Contents (Elt F) → (⟨S200000x32, .f32⟩ : BufTy).Contents (Elt F)),
    nullary main_cst_4 (constant S_ .f32 0x3727C5AC#32),
    unary main_cst_4 main_v49 (broadcastInDim S32 ![] bcast_S_S32 : (⟨S_, .f32⟩ : BufTy).Contents (Elt F) → (⟨S32, .f32⟩ : BufTy).Contents (Elt F)),
    binary main_v45 main_v49 main_v50 (addf : (⟨S32, .f32⟩ : BufTy).Contents (Elt F) → (⟨S32, .f32⟩ : BufTy).Contents (Elt F) → (⟨S32, .f32⟩ : BufTy).Contents (Elt F)),
    unary main_v50 main_v51 (Host.rsqrt : (⟨S32, .f32⟩ : BufTy).Contents (Elt F) → (⟨S32, .f32⟩ : BufTy).Contents (Elt F)),
    unary main_v51 main_v52 (broadcastInDim S1x32 ![1] bcast_S32_S1x32_1 : (⟨S32, .f32⟩ : BufTy).Contents (Elt F) → (⟨S1x32, .f32⟩ : BufTy).Contents (Elt F)),
    unary main_v52 main_v53 (broadcastInDim S200000x32 ![0, 1] bcast_S1x32_S200000x32_0_1 : (⟨S1x32, .f32⟩ : BufTy).Contents (Elt F) → (⟨S200000x32, .f32⟩ : BufTy).Contents (Elt F)),
    binary main_v48 main_v53 main_v54 (mulf : (⟨S200000x32, .f32⟩ : BufTy).Contents (Elt F) → (⟨S200000x32, .f32⟩ : BufTy).Contents (Elt F) → (⟨S200000x32, .f32⟩ : BufTy).Contents (Elt F)),
    unary main_arg12 main_v55 ((extractStridedSlice S1x32 ![0, 0] · slices_S2x32_S1x32_0_0) : (⟨S2x32, .f32⟩ : BufTy).Contents (Elt F) → (⟨S1x32, .f32⟩ : BufTy).Contents (Elt F)),
    reshape main_v55 main_v56 rfl shapeCasts_S1x32_S32,
    unary main_v56 main_v57 (broadcastInDim S1x32 ![1] bcast_S32_S1x32_1 : (⟨S32, .f32⟩ : BufTy).Contents (Elt F) → (⟨S1x32, .f32⟩ : BufTy).Contents (Elt F)),
    unary main_v57 main_v58 (broadcastInDim S200000x32 ![0, 1] bcast_S1x32_S200000x32_0_1 : (⟨S1x32, .f32⟩ : BufTy).Contents (Elt F) → (⟨S200000x32, .f32⟩ : BufTy).Contents (Elt F)),
    binary main_v54 main_v58 main_v59 (mulf : (⟨S200000x32, .f32⟩ : BufTy).Contents (Elt F) → (⟨S200000x32, .f32⟩ : BufTy).Contents (Elt F) → (⟨S200000x32, .f32⟩ : BufTy).Contents (Elt F)),
    unary main_arg13 main_v60 ((extractStridedSlice S1x32 ![0, 0] · slices_S2x32_S1x32_0_0) : (⟨S2x32, .f32⟩ : BufTy).Contents (Elt F) → (⟨S1x32, .f32⟩ : BufTy).Contents (Elt F)),
    reshape main_v60 main_v61 rfl shapeCasts_S1x32_S32,
    unary main_v61 main_v62 (broadcastInDim S1x32 ![1] bcast_S32_S1x32_1 : (⟨S32, .f32⟩ : BufTy).Contents (Elt F) → (⟨S1x32, .f32⟩ : BufTy).Contents (Elt F)),
    unary main_v62 main_v63 (broadcastInDim S200000x32 ![0, 1] bcast_S1x32_S200000x32_0_1 : (⟨S1x32, .f32⟩ : BufTy).Contents (Elt F) → (⟨S200000x32, .f32⟩ : BufTy).Contents (Elt F)),
    binary main_v59 main_v63 main_v64 (addf : (⟨S200000x32, .f32⟩ : BufTy).Contents (Elt F) → (⟨S200000x32, .f32⟩ : BufTy).Contents (Elt F) → (⟨S200000x32, .f32⟩ : BufTy).Contents (Elt F)),
    TRef.nullary main_call3.cst (constant S_ .f32 0x00000000#32),
    TRef.unary main_call3.cst main_call3.v0 (broadcastInDim S200000x32 ![] bcast_S_S200000x32),
    TRef.binary (.of main_v64 : TRef sig ⟨S200000x32, .f32⟩) main_call3.v0 main_call3.v1 maximumf ]

/-- Statements %c_5 – %77, layer 2's aggregation: as layer 1's, over layer 1's output rows and the same edge embedding. (17 operations.) -/
abbrev ops5 : List (HloOp τ sig (Elt F)) :=
  [ nullary main_c_5 (constantI S_ 32 0#32),
    unary main_c_5 main_v66 (broadcastInDim S2000000 ![] bcast_S_S2000000 : (⟨S_, .i32⟩ : BufTy).Contents (Elt F) → (⟨S2000000, .i32⟩ : BufTy).Contents (Elt F)),
    binary main_v1 main_v66 main_v67 (cmpi .slt : (⟨S2000000, .i32⟩ : BufTy).Contents (Elt F) → (⟨S2000000, .i32⟩ : BufTy).Contents (Elt F) → (⟨S2000000, .i1⟩ : BufTy).Contents (Elt F)),
    nullary main_c_6 (constantI S_ 32 200000#32),
    unary main_c_6 main_v68 (broadcastInDim S2000000 ![] bcast_S_S2000000 : (⟨S_, .i32⟩ : BufTy).Contents (Elt F) → (⟨S2000000, .i32⟩ : BufTy).Contents (Elt F)),
    binary main_v1 main_v68 main_v69 (addi : (⟨S2000000, .i32⟩ : BufTy).Contents (Elt F) → (⟨S2000000, .i32⟩ : BufTy).Contents (Elt F) → (⟨S2000000, .i32⟩ : BufTy).Contents (Elt F)),
    ternary main_v67 main_v69 main_v1 main_v70 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v70 main_v71 (broadcastInDim S2000000x1 ![0] bcast_S2000000_S2000000x1_0 : (⟨S2000000, .i32⟩ : BufTy).Contents (Elt F) → (⟨S2000000x1, .i32⟩ : BufTy).Contents (Elt F)),
    binary main_v65 main_v71 main_v72 ((fun x i => Host.gather gather_S200000x32_S2000000x1_S2000000x32_1_0_n_n_0_1_132 x i) : (⟨S200000x32, .f32⟩ : BufTy).Contents (Elt F) → (⟨S2000000x1, .i32⟩ : BufTy).Contents (Elt F) → (⟨S2000000x32, .f32⟩ : BufTy).Contents (Elt F)),
    binary main_v72 main_v11 main_v73 (addf : (⟨S2000000x32, .f32⟩ : BufTy).Contents (Elt F) → (⟨S2000000x32, .f32⟩ : BufTy).Contents (Elt F) → (⟨S2000000x32, .f32⟩ : BufTy).Contents (Elt F)),
    TRef.nullary main_call4.cst (constant S_ .f32 0x00000000#32),
    TRef.unary main_call4.cst main_call4.v0 (broadcastInDim S2000000x32 ![] bcast_S_S2000000x32),
    TRef.binary (.of main_v73 : TRef sig ⟨S2000000x32, .f32⟩) main_call4.v0 main_call4.v1 maximumf,
    nullary main_cst_7 (constant S_ .f32 0x00000000#32),
    unary main_cst_7 main_v75 (broadcastInDim S200000x32 ![] bcast_S_S200000x32 : (⟨S_, .f32⟩ : BufTy).Contents (Elt F) → (⟨S200000x32, .f32⟩ : BufTy).Contents (Elt F)),
    unary main_v3 main_v76 (broadcastInDim S2000000x1 ![0] bcast_S2000000_S2000000x1_0 : (⟨S2000000, .i32⟩ : BufTy).Contents (Elt F) → (⟨S2000000x1, .i32⟩ : BufTy).Contents (Elt F)),
    ternary main_v75 main_v76 main_v74 main_v77 ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)) ]

/-- Statements %78 – %95, layer 2's perceptron (the weights are slice 1 of the stacked tables). (20 operations.) -/
abbrev ops6 : List (HloOp τ sig (Elt F)) :=
  [ binary main_v65 main_v77 main_v78 (addf : (⟨S200000x32, .f32⟩ : BufTy).Contents (Elt F) → (⟨S200000x32, .f32⟩ : BufTy).Contents (Elt F) → (⟨S200000x32, .f32⟩ : BufTy).Contents (Elt F)),
    unary main_arg8 main_v79 ((extractStridedSlice S1x32x75 ![1, 0, 0] · slices_S2x32x75_S1x32x75_1_0_0) : (⟨S2x32x75, .f32⟩ : BufTy).Contents (Elt F) → (⟨S1x32x75, .f32⟩ : BufTy).Contents (Elt F)),
    reshape main_v79 main_v80 rfl shapeCasts_S1x32x75_S32x75,
    binary main_v78 main_v80 main_v81 ((fun l r => Host.dotGeneral dot_S200000x32_S32x75_S200000x75_1_0_0_1_n_n none l r) : (⟨S200000x32, .f32⟩ : BufTy).Contents (Elt F) → (⟨S32x75, .f32⟩ : BufTy).Contents (Elt F) → (⟨S200000x75, .f32⟩ : BufTy).Contents (Elt F)),
    unary main_arg9 main_v82 ((extractStridedSlice S1x75 ![1, 0] · slices_S2x75_S1x75_1_0) : (⟨S2x75, .f32⟩ : BufTy).Contents (Elt F) → (⟨S1x75, .f32⟩ : BufTy).Contents (Elt F)),
    reshape main_v82 main_v83 rfl shapeCasts_S1x75_S75,
    unary main_v83 main_v84 (broadcastInDim S1x75 ![1] bcast_S75_S1x75_1 : (⟨S75, .f32⟩ : BufTy).Contents (Elt F) → (⟨S1x75, .f32⟩ : BufTy).Contents (Elt F)),
    unary main_v84 main_v85 (broadcastInDim S200000x75 ![0, 1] bcast_S1x75_S200000x75_0_1 : (⟨S1x75, .f32⟩ : BufTy).Contents (Elt F) → (⟨S200000x75, .f32⟩ : BufTy).Contents (Elt F)),
    binary main_v81 main_v85 main_v86 (addf : (⟨S200000x75, .f32⟩ : BufTy).Contents (Elt F) → (⟨S200000x75, .f32⟩ : BufTy).Contents (Elt F) → (⟨S200000x75, .f32⟩ : BufTy).Contents (Elt F)),
    TRef.nullary main_call5.cst (constant S_ .f32 0x00000000#32),
    TRef.unary main_call5.cst main_call5.v0 (broadcastInDim S200000x75 ![] bcast_S_S200000x75),
    TRef.binary (.of main_v86 : TRef sig ⟨S200000x75, .f32⟩) main_call5.v0 main_call5.v1 maximumf,
    unary main_arg10 main_v88 ((extractStridedSlice S1x75x32 ![1, 0, 0] · slices_S2x75x32_S1x75x32_1_0_0) : (⟨S2x75x32, .f32⟩ : BufTy).Contents (Elt F) → (⟨S1x75x32, .f32⟩ : BufTy).Contents (Elt F)),
    reshape main_v88 main_v89 rfl shapeCasts_S1x75x32_S75x32,
    binary main_v87 main_v89 main_v90 ((fun l r => Host.dotGeneral dot_S200000x75_S75x32_S200000x32_1_0_0_1_n_n none l r) : (⟨S200000x75, .f32⟩ : BufTy).Contents (Elt F) → (⟨S75x32, .f32⟩ : BufTy).Contents (Elt F) → (⟨S200000x32, .f32⟩ : BufTy).Contents (Elt F)),
    unary main_arg11 main_v91 ((extractStridedSlice S1x32 ![1, 0] · slices_S2x32_S1x32_1_0) : (⟨S2x32, .f32⟩ : BufTy).Contents (Elt F) → (⟨S1x32, .f32⟩ : BufTy).Contents (Elt F)),
    reshape main_v91 main_v92 rfl shapeCasts_S1x32_S32,
    unary main_v92 main_v93 (broadcastInDim S1x32 ![1] bcast_S32_S1x32_1 : (⟨S32, .f32⟩ : BufTy).Contents (Elt F) → (⟨S1x32, .f32⟩ : BufTy).Contents (Elt F)),
    unary main_v93 main_v94 (broadcastInDim S200000x32 ![0, 1] bcast_S1x32_S200000x32_0_1 : (⟨S1x32, .f32⟩ : BufTy).Contents (Elt F) → (⟨S200000x32, .f32⟩ : BufTy).Contents (Elt F)),
    binary main_v90 main_v94 main_v95 (addf : (⟨S200000x32, .f32⟩ : BufTy).Contents (Elt F) → (⟨S200000x32, .f32⟩ : BufTy).Contents (Elt F) → (⟨S200000x32, .f32⟩ : BufTy).Contents (Elt F)) ]

/-- Statements %cst_8 – %99, layer 2's batch statistics: mean and variance as in layer 1. (28 operations.) -/
abbrev ops7 : List (HloOp τ sig (Elt F)) :=
  [ nullary main_cst_8 (constant S_ .f32 0x00000000#32),
    binary main_v95 main_cst_8 main_v96 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    nullary main_cst_9 (constant S_ .f32 0x48435000#32),
    unary main_cst_9 main_v97 (broadcastInDim S32 ![] bcast_S_S32 : (⟨S_, .f32⟩ : BufTy).Contents (Elt F) → (⟨S32, .f32⟩ : BufTy).Contents (Elt F)),
    binary main_v96 main_v97 main_v98 (Host.divf : (⟨S32, .f32⟩ : BufTy).Contents (Elt F) → (⟨S32, .f32⟩ : BufTy).Contents (Elt F) → (⟨S32, .f32⟩ : BufTy).Contents (Elt F)),
    nullary main_c_10 (constantI S_ 32 0#32),
    TRef.nullary main_call6.cst (constant S_ .f32 0x00000000#32),
    TRef.binary (.of main_v95 : TRef sig ⟨S200000x32, .f32⟩) main_call6.cst main_call6.v0 (fun x v => Host.reduceAdd x v reducesTo_S200000x32_S32_d0 h_S_),
    TRef.unary main_call6.v0 main_call6.v1 (broadcastInDim S1x32 ![1] bcast_S32_S1x32_1),
    TRef.nullary main_call6.cst_0 (constant S_ .f32 0x48435000#32),
    TRef.unary main_call6.cst_0 main_call6.v2 (broadcastInDim S1x32 ![] bcast_S_S1x32),
    TRef.binary main_call6.v1 main_call6.v2 main_call6.v3 Host.divf,
    TRef.unary main_call6.v3 main_call6.v4 (broadcastInDim S200000x32 ![0, 1] bcast_S1x32_S200000x32_0_1),
    TRef.binary (.of main_v95 : TRef sig ⟨S200000x32, .f32⟩) main_call6.v4 main_call6.v5 subf,
    TRef.binary main_call6.v5 main_call6.v5 main_call6.v6 mulf,
    TRef.unary (.of main_c_10 : TRef sig ⟨S_, .i32⟩) main_call6.v7 (sitofp .f32),
    TRef.nullary main_call6.cst_1 (constant S_ .f32 0x48435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S200000x32_S32_d0 h_S_),
    TRef.unary main_call6.v8 main_call6.v10 (broadcastInDim S32 ![] bcast_S_S32),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S32 ![] bcast_S_S32),
    TRef.ternary main_call6.v12 main_call6.v11 main_call6.call0.v1 main_call6.call0.v2 (fun p a b => select (broadcastInDim S32 ![] bcast_S_S32 p) a b) ]

/-- Statements %100 – %119, layer 2's normalisation and `max · 0`. (23 operations.) -/
abbrev ops8 : List (HloOp τ sig (Elt F)) :=
  [ unary main_v98 main_v100 (broadcastInDim S1x32 ![1] bcast_S32_S1x32_1 : (⟨S32, .f32⟩ : BufTy).Contents (Elt F) → (⟨S1x32, .f32⟩ : BufTy).Contents (Elt F)),
    unary main_v100 main_v101 (broadcastInDim S200000x32 ![0, 1] bcast_S1x32_S200000x32_0_1 : (⟨S1x32, .f32⟩ : BufTy).Contents (Elt F) → (⟨S200000x32, .f32⟩ : BufTy).Contents (Elt F)),
    binary main_v95 main_v101 main_v102 (subf : (⟨S200000x32, .f32⟩ : BufTy).Contents (Elt F) → (⟨S200000x32, .f32⟩ : BufTy).Contents (Elt F) → (⟨S200000x32, .f32⟩ : BufTy).Contents (Elt F)),
    nullary main_cst_11 (constant S_ .f32 0x3727C5AC#32),
    unary main_cst_11 main_v103 (broadcastInDim S32 ![] bcast_S_S32 : (⟨S_, .f32⟩ : BufTy).Contents (Elt F) → (⟨S32, .f32⟩ : BufTy).Contents (Elt F)),
    binary main_v99 main_v103 main_v104 (addf : (⟨S32, .f32⟩ : BufTy).Contents (Elt F) → (⟨S32, .f32⟩ : BufTy).Contents (Elt F) → (⟨S32, .f32⟩ : BufTy).Contents (Elt F)),
    unary main_v104 main_v105 (Host.rsqrt : (⟨S32, .f32⟩ : BufTy).Contents (Elt F) → (⟨S32, .f32⟩ : BufTy).Contents (Elt F)),
    unary main_v105 main_v106 (broadcastInDim S1x32 ![1] bcast_S32_S1x32_1 : (⟨S32, .f32⟩ : BufTy).Contents (Elt F) → (⟨S1x32, .f32⟩ : BufTy).Contents (Elt F)),
    unary main_v106 main_v107 (broadcastInDim S200000x32 ![0, 1] bcast_S1x32_S200000x32_0_1 : (⟨S1x32, .f32⟩ : BufTy).Contents (Elt F) → (⟨S200000x32, .f32⟩ : BufTy).Contents (Elt F)),
    binary main_v102 main_v107 main_v108 (mulf : (⟨S200000x32, .f32⟩ : BufTy).Contents (Elt F) → (⟨S200000x32, .f32⟩ : BufTy).Contents (Elt F) → (⟨S200000x32, .f32⟩ : BufTy).Contents (Elt F)),
    unary main_arg12 main_v109 ((extractStridedSlice S1x32 ![1, 0] · slices_S2x32_S1x32_1_0) : (⟨S2x32, .f32⟩ : BufTy).Contents (Elt F) → (⟨S1x32, .f32⟩ : BufTy).Contents (Elt F)),
    reshape main_v109 main_v110 rfl shapeCasts_S1x32_S32,
    unary main_v110 main_v111 (broadcastInDim S1x32 ![1] bcast_S32_S1x32_1 : (⟨S32, .f32⟩ : BufTy).Contents (Elt F) → (⟨S1x32, .f32⟩ : BufTy).Contents (Elt F)),
    unary main_v111 main_v112 (broadcastInDim S200000x32 ![0, 1] bcast_S1x32_S200000x32_0_1 : (⟨S1x32, .f32⟩ : BufTy).Contents (Elt F) → (⟨S200000x32, .f32⟩ : BufTy).Contents (Elt F)),
    binary main_v108 main_v112 main_v113 (mulf : (⟨S200000x32, .f32⟩ : BufTy).Contents (Elt F) → (⟨S200000x32, .f32⟩ : BufTy).Contents (Elt F) → (⟨S200000x32, .f32⟩ : BufTy).Contents (Elt F)),
    unary main_arg13 main_v114 ((extractStridedSlice S1x32 ![1, 0] · slices_S2x32_S1x32_1_0) : (⟨S2x32, .f32⟩ : BufTy).Contents (Elt F) → (⟨S1x32, .f32⟩ : BufTy).Contents (Elt F)),
    reshape main_v114 main_v115 rfl shapeCasts_S1x32_S32,
    unary main_v115 main_v116 (broadcastInDim S1x32 ![1] bcast_S32_S1x32_1 : (⟨S32, .f32⟩ : BufTy).Contents (Elt F) → (⟨S1x32, .f32⟩ : BufTy).Contents (Elt F)),
    unary main_v116 main_v117 (broadcastInDim S200000x32 ![0, 1] bcast_S1x32_S200000x32_0_1 : (⟨S1x32, .f32⟩ : BufTy).Contents (Elt F) → (⟨S200000x32, .f32⟩ : BufTy).Contents (Elt F)),
    binary main_v113 main_v117 main_v118 (addf : (⟨S200000x32, .f32⟩ : BufTy).Contents (Elt F) → (⟨S200000x32, .f32⟩ : BufTy).Contents (Elt F) → (⟨S200000x32, .f32⟩ : BufTy).Contents (Elt F)),
    TRef.nullary main_call7.cst (constant S_ .f32 0x00000000#32),
    TRef.unary main_call7.cst main_call7.v0 (broadcastInDim S200000x32 ![] bcast_S_S200000x32),
    TRef.binary (.of main_v118 : TRef sig ⟨S200000x32, .f32⟩) main_call7.v0 main_call7.v1 maximumf ]

/-- Statements %cst_12 – %131, the pooling: the nodes counted per graph (ones summed by graph index), the node rows summed
    per graph, divided by the count clamped below at 1. (16 operations.) -/
abbrev ops9 : List (HloOp τ sig (Elt F)) :=
  [ nullary main_cst_12 (constant S_ .f32 0x3F800000#32),
    unary main_cst_12 main_v120 (broadcastInDim S200000 ![] bcast_S_S200000 : (⟨S_, .f32⟩ : BufTy).Contents (Elt F) → (⟨S200000, .f32⟩ : BufTy).Contents (Elt F)),
    nullary main_cst_13 (constant S_ .f32 0x00000000#32),
    unary main_cst_13 main_v121 (broadcastInDim S10000 ![] bcast_S_S10000 : (⟨S_, .f32⟩ : BufTy).Contents (Elt F) → (⟨S10000, .f32⟩ : BufTy).Contents (Elt F)),
    unary main_arg3 main_v122 (broadcastInDim S200000x1 ![0] bcast_S200000_S200000x1_0 : (⟨S200000, .i32⟩ : BufTy).Contents (Elt F) → (⟨S200000x1, .i32⟩ : BufTy).Contents (Elt F)),
    ternary main_v121 main_v122 main_v120 main_v123 ((fun x i u => Host.scatterAdd scatter_S10000_S200000x1_S200000_n_0_0_1 x i u) : (⟨S10000, .f32⟩ : BufTy).Contents (Elt F) → (⟨S200000x1, .i32⟩ : BufTy).Contents (Elt F) → (⟨S200000, .f32⟩ : BufTy).Contents (Elt F) → (⟨S10000, .f32⟩ : BufTy).Contents (Elt F)),
    nullary main_cst_14 (constant S_ .f32 0x00000000#32),
    unary main_cst_14 main_v124 (broadcastInDim S10000x32 ![] bcast_S_S10000x32 : (⟨S_, .f32⟩ : BufTy).Contents (Elt F) → (⟨S10000x32, .f32⟩ : BufTy).Contents (Elt F)),
    unary main_arg3 main_v125 (broadcastInDim S200000x1 ![0] bcast_S200000_S200000x1_0 : (⟨S200000, .i32⟩ : BufTy).Contents (Elt F) → (⟨S200000x1, .i32⟩ : BufTy).Contents (Elt F)),
    ternary main_v124 main_v125 main_v119 main_v126 ((fun x i u => Host.scatterAdd scatter_S10000x32_S200000x1_S200000x32_1_0_0_1 x i u) : (⟨S10000x32, .f32⟩ : BufTy).Contents (Elt F) → (⟨S200000x1, .i32⟩ : BufTy).Contents (Elt F) → (⟨S200000x32, .f32⟩ : BufTy).Contents (Elt F) → (⟨S10000x32, .f32⟩ : BufTy).Contents (Elt F)),
    nullary main_cst_15 (constant S_ .f32 0x3F800000#32),
    unary main_cst_15 main_v127 (broadcastInDim S10000 ![] bcast_S_S10000 : (⟨S_, .f32⟩ : BufTy).Contents (Elt F) → (⟨S10000, .f32⟩ : BufTy).Contents (Elt F)),
    binary main_v123 main_v127 main_v128 (maximumf : (⟨S10000, .f32⟩ : BufTy).Contents (Elt F) → (⟨S10000, .f32⟩ : BufTy).Contents (Elt F) → (⟨S10000, .f32⟩ : BufTy).Contents (Elt F)),
    unary main_v128 main_v129 (broadcastInDim S10000x1 ![0] bcast_S10000_S10000x1_0 : (⟨S10000, .f32⟩ : BufTy).Contents (Elt F) → (⟨S10000x1, .f32⟩ : BufTy).Contents (Elt F)),
    unary main_v129 main_v130 (broadcastInDim S10000x32 ![0, 1] bcast_S10000x1_S10000x32_0_1 : (⟨S10000x1, .f32⟩ : BufTy).Contents (Elt F) → (⟨S10000x32, .f32⟩ : BufTy).Contents (Elt F)),
    binary main_v126 main_v130 main_v131 (Host.divf : (⟨S10000x32, .f32⟩ : BufTy).Contents (Elt F) → (⟨S10000x32, .f32⟩ : BufTy).Contents (Elt F) → (⟨S10000x32, .f32⟩ : BufTy).Contents (Elt F)) ]

/-- Statements %132 – %140, the head: `· W + b`, `max · 0`, `· W + b`. (11 operations.) -/
abbrev ops10 : List (HloOp τ sig (Elt F)) :=
  [ binary main_v131 main_arg14 main_v132 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    unary main_arg15 main_v133 (broadcastInDim S1x16 ![1] bcast_S16_S1x16_1 : (⟨S16, .f32⟩ : BufTy).Contents (Elt F) → (⟨S1x16, .f32⟩ : BufTy).Contents (Elt F)),
    unary main_v133 main_v134 (broadcastInDim S10000x16 ![0, 1] bcast_S1x16_S10000x16_0_1 : (⟨S1x16, .f32⟩ : BufTy).Contents (Elt F) → (⟨S10000x16, .f32⟩ : BufTy).Contents (Elt F)),
    binary main_v132 main_v134 main_v135 (addf : (⟨S10000x16, .f32⟩ : BufTy).Contents (Elt F) → (⟨S10000x16, .f32⟩ : BufTy).Contents (Elt F) → (⟨S10000x16, .f32⟩ : BufTy).Contents (Elt F)),
    TRef.nullary main_call8.cst (constant S_ .f32 0x00000000#32),
    TRef.unary main_call8.cst main_call8.v0 (broadcastInDim S10000x16 ![] bcast_S_S10000x16),
    TRef.binary (.of main_v135 : TRef sig ⟨S10000x16, .f32⟩) main_call8.v0 main_call8.v1 maximumf,
    binary main_v136 main_arg16 main_v137 ((fun l r => Host.dotGeneral dot_S10000x16_S16x2_S10000x2_1_0_0_1_n_n none l r) : (⟨S10000x16, .f32⟩ : BufTy).Contents (Elt F) → (⟨S16x2, .f32⟩ : BufTy).Contents (Elt F) → (⟨S10000x2, .f32⟩ : BufTy).Contents (Elt F)),
    unary main_arg17 main_v138 (broadcastInDim S1x2 ![1] bcast_S2_S1x2_1 : (⟨S2, .f32⟩ : BufTy).Contents (Elt F) → (⟨S1x2, .f32⟩ : BufTy).Contents (Elt F)),
    unary main_v138 main_v139 (broadcastInDim S10000x2 ![0, 1] bcast_S1x2_S10000x2_0_1 : (⟨S1x2, .f32⟩ : BufTy).Contents (Elt F) → (⟨S10000x2, .f32⟩ : BufTy).Contents (Elt F)),
    binary main_v137 main_v139 main_v140 (addf : (⟨S10000x2, .f32⟩ : BufTy).Contents (Elt F) → (⟨S10000x2, .f32⟩ : BufTy).Contents (Elt F) → (⟨S10000x2, .f32⟩ : BufTy).Contents (Elt F)) ]

/-- The whole line. -/
abbrev ops : List (HloOp τ sig (Elt F)) :=
  ops0 ++ ops1 ++ ops2 ++ ops3 ++ ops4 ++ ops5 ++ ops6 ++ ops7 ++ ops8 ++ ops9 ++ ops10

/-! ## Every operation touches TensorCore buffers only

Per chunk, the builders' inclusion lemmas in the operations' order (one conjunct per operation). -/

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., unary_bufs_sub .., unary_bufs_sub .., binary_bufs_sub ..⟩
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩
theorem ops2_sub : (ops2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem ops3_sub : (ops3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops4_sub : (ops4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩
theorem ops6_sub : (ops6 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem ops7_sub : (ops7 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops8_sub : (ops8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem ops9_sub : (ops9 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem ops10_sub : (ops10 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

end Cert.ReferenceIdeal.Val

end
-- ==== Proof.RRun.lean ====
import proofs.«412989_j17643725652192_3_alg».proof.Proof.RRunOps
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-! ## The program is the line

The reference's @main against its operation list `ops = ops0 ++ … ++ ops10`: the program equals the list run in order, every
operation stays on TensorCore buffers, and so every execution ends with each buffer at the fold `after ops` of the
operations' results over the launch contents. -/

-- one rewrite under the chain per statement: the traversal goes one binder deeper per `hlo` step
set_option maxRecDepth 8192 in
set_option maxHeartbeats 4000000 in
/-- @main is that straight line: the three windows unfolded, the functions' definitions unfolded at their calls and the
    records at their fields, both sides are one chain of `hlo` steps once sequencing is reassociated (`bind_assoc`,
    `pure_bind`) and the chunks' concatenation is read as one list (`List.cons_append`, `List.nil_append`). -/
theorem main_eq (c : Dev nD) : main (F := F) c = seq ops := by
  simp only [main, main_part0, main_part1, main_part2, fn_relu.body, fn_relu_0.body, fn_relu_1.body, fn_relu_2.body,
    fn_var.body, fn_where.body, ops, ops0, ops1, ops2, ops3, ops4, ops5, ops6, ops7, ops8, ops9, ops10,
    List.cons_append, List.nil_append, seq, bind_assoc, pure_bind]

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation of the line touches TensorCore buffers only: an operation of the line is an operation of one
    chunk (`List.mem_append`), and each chunk has the fact operation by operation. -/
theorem ops_sub : (ops : List (HloOp τ sig (Elt F))).Forall fun op => op.bufs ⊆ tcRefs τ sig :=
  List.forall_iff_forall_mem.mpr fun op h => by
    simp only [ops, List.mem_append] at h
    rcases h with (((((((((h | h) | h) | h) | h) | h) | h) | h) | h) | h) | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h,
      List.forall_iff_forall_mem.mp ops6_sub op h, List.forall_iff_forall_mem.mp ops7_sub op h,
      List.forall_iff_forall_mem.mp ops8_sub op h, List.forall_iff_forall_mem.mp ops9_sub op h,
      List.forall_iff_forall_mem.mp ops10_sub op h]

-- that no operation leaves a result undetermined is read off the literal list, one case per operation
set_option maxRecDepth 8192 in
/-- At the compiled mesh, for any float values, from any memory with zero counters: every weakly fair execution of @main on
    the TensorCore terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Val

end
-- ==== Proof.StageLinR.lean ====
/-
  The reference's two linear embeddings, read entry by entry.

  Each is a product `x·w` (one contracted axis: the sum over its positions of a row entry times a column entry)
  to which the bias is added after being laid out as a `1 × 32` row and repeated down the rows. Entry `(p, q)` is
  therefore `∑ₖ x(p,k)·w(k,q) + b(q)`, which is the affine map of the specification.
-/
import proofs.«412989_j17643725652192_3_alg».proof.ReferenceIdeal
import proofs.«412989_j17643725652192_3_alg».proof.Proof.Spec
import Idealize.ShloMosaic.Lib.ValueIdx
import Idealize.ShloMosaic.Lib.Pipeline.Value
import Idealize.ShloMosaic.PureOps.Ideal.Laws

open scoped BigOperators

noncomputable section

namespace Cert.ReferenceIdeal.Val

open Cert.ReferenceIdeal Cert.Net Idealize.ShloMosaic Idealize.ShloMosaic.ValueIdx

-- the program's shape facts (its dimension numbers are well formed, its broadcasts admissible) are assumed as the
-- printed program assumes them
variable [Facts₀]
open Facts₀

/-! ## The node embedding: `200000 × 14` by `14 × 32`, plus the bias of the column -/

/-- The left operand of the product is read at the result's row … -/
theorem lhs_node_0 (j : S200000x32.Idx) (k : dot_S200000x14_S14x32_S200000x32_1_0_0_1_n_n.contr.Idx) :
    (dot_S200000x14_S14x32_S200000x32_1_0_0_1_n_n.lhsIdx j k 0 : ℕ) = j 0 := by
  simp [DotDims.lhsIdx, dot_S200000x14_S14x32_S200000x32_1_0_0_1_n_n]; rfl
/-- … and at the contracted position; -/
theorem lhs_node_1 (j : S200000x32.Idx) (k : dot_S200000x14_S14x32_S200000x32_1_0_0_1_n_n.contr.Idx) :
    (dot_S200000x14_S14x32_S200000x32_1_0_0_1_n_n.lhsIdx j k 1 : ℕ) = k ⟨0, Nat.one_pos⟩ := by
  simp [DotDims.lhsIdx, dot_S200000x14_S14x32_S200000x32_1_0_0_1_n_n]; rfl
/-- the right operand at the contracted position … -/
theorem rhs_node_0 (j : S200000x32.Idx) (k : dot_S200000x14_S14x32_S200000x32_1_0_0_1_n_n.contr.Idx) :
    (dot_S200000x14_S14x32_S200000x32_1_0_0_1_n_n.rhsIdx j k 0 : ℕ) = k ⟨0, Nat.one_pos⟩ := by
  simp [DotDims.rhsIdx, dot_S200000x14_S14x32_S200000x32_1_0_0_1_n_n]; rfl
/-- … and at the result's column. -/
theorem rhs_node_1 (j : S200000x32.Idx) (k : dot_S200000x14_S14x32_S200000x32_1_0_0_1_n_n.contr.Idx) :
    (dot_S200000x14_S14x32_S200000x32_1_0_0_1_n_n.rhsIdx j k 1 : ℕ) = j 1 := by
  simp [DotDims.rhsIdx, dot_S200000x14_S14x32_S200000x32_1_0_0_1_n_n]; rfl

/-- The product at row `p` and column `q` is the sum over the 14 contracted positions. -/
theorem dot_node (x : FVec Ideal S200000x14 .f32) (w : FVec Ideal S14x32 .f32) (p : Fin 200000) (q : Fin 32) :
    Host.dotGeneral dot_S200000x14_S14x32_S200000x32_1_0_0_1_n_n none x w (ix2 p q) = ∑ k : Fin 14, x (ix2 p k) * w (ix2 k q) := by
  refine (Ideal.dotGeneral_apply dot_S200000x14_S14x32_S200000x32_1_0_0_1_n_n none .single x w (ix2 p q)).trans ?_
  rw [← Equiv.sum_comp (contrEquiv1 dot_S200000x14_S14x32_S200000x32_1_0_0_1_n_n 14 rfl rfl).symm]
  refine Finset.sum_congr rfl fun k _ => ?_
  have hk := contrEquiv1_symm_val dot_S200000x14_S14x32_S200000x32_1_0_0_1_n_n 14 rfl rfl k
  have hl : dot_S200000x14_S14x32_S200000x32_1_0_0_1_n_n.lhsIdx (ix2 p q) ((contrEquiv1 dot_S200000x14_S14x32_S200000x32_1_0_0_1_n_n 14 rfl rfl).symm k) = ix2 p k := by
    funext a; apply Fin.ext
    match a with
    | ⟨0, _⟩ => exact lhs_node_0 _ _
    | ⟨1, _⟩ => exact (lhs_node_1 _ _).trans hk
  have hr : dot_S200000x14_S14x32_S200000x32_1_0_0_1_n_n.rhsIdx (ix2 p q) ((contrEquiv1 dot_S200000x14_S14x32_S200000x32_1_0_0_1_n_n 14 rfl rfl).symm k) = ix2 k q := by
    funext a; apply Fin.ext
    match a with
    | ⟨0, _⟩ => exact (rhs_node_0 _ _).trans hk
    | ⟨1, _⟩ => exact rhs_node_1 _ _
  rw [hl, hr]

/-- The bias, laid out as a row and repeated down the 200000 rows, read at row `p` and column `q`. -/
theorem bias_node (b : FVec Ideal S32 .f32) (p : Fin 200000) (q : Fin 32) :
    broadcastInDim S200000x32 ![0, 1] bcast_S1x32_S200000x32_0_1 (broadcastInDim S1x32 ![1] bcast_S32_S1x32_1 b) (ix2 p q) = b (ix1 q) := by
  refine (broadcastInDim_apply ![0, 1] bcast_S1x32_S200000x32_0_1 (broadcastInDim S1x32 ![1] bcast_S32_S1x32_1 b) (ix2 p q) (ix2 0 q) fun a => ?_).trans ?_
  · match a with
    | ⟨0, _⟩ => rfl
    | ⟨1, _⟩ => rfl
  · refine broadcastInDim_apply ![1] bcast_S32_S1x32_1 b (ix2 0 q) (ix1 q) fun a => ?_
    match a with
    | ⟨0, _⟩ => rfl

/-- The reference's four statements of the node embedding are the affine map. -/
theorem ref_lin_node (x : FVec Ideal S200000x14 .f32) (w : FVec Ideal S14x32 .f32) (b : FVec Ideal S32 .f32) :
    addf (Host.dotGeneral dot_S200000x14_S14x32_S200000x32_1_0_0_1_n_n none x w) (broadcastInDim S200000x32 ![0, 1] bcast_S1x32_S200000x32_0_1 (broadcastInDim S1x32 ![1] bcast_S32_S1x32_1 b)) = lin x w b := by
  funext i
  obtain ⟨p, q, rfl⟩ : ∃ (p : Fin 200000) (q : Fin 32), i = ix2 p q := ⟨i 0, i 1, eq_ix2 i⟩
  rw [addf_apply, dot_node, bias_node]
  rfl

/-! ## The edge embedding: `2000000 × 3` by `3 × 32`, plus the bias of the column -/

/-- The left operand of the product is read at the result's row … -/
theorem lhs_edge_0 (j : S2000000x32.Idx) (k : dot_S2000000x3_S3x32_S2000000x32_1_0_0_1_n_n.contr.Idx) :
    (dot_S2000000x3_S3x32_S2000000x32_1_0_0_1_n_n.lhsIdx j k 0 : ℕ) = j 0 := by
  simp [DotDims.lhsIdx, dot_S2000000x3_S3x32_S2000000x32_1_0_0_1_n_n]; rfl
/-- … and at the contracted position; -/
theorem lhs_edge_1 (j : S2000000x32.Idx) (k : dot_S2000000x3_S3x32_S2000000x32_1_0_0_1_n_n.contr.Idx) :
    (dot_S2000000x3_S3x32_S2000000x32_1_0_0_1_n_n.lhsIdx j k 1 : ℕ) = k ⟨0, Nat.one_pos⟩ := by
  simp [DotDims.lhsIdx, dot_S2000000x3_S3x32_S2000000x32_1_0_0_1_n_n]; rfl
/-- the right operand at the contracted position … -/
theorem rhs_edge_0 (j : S2000000x32.Idx) (k : dot_S2000000x3_S3x32_S2000000x32_1_0_0_1_n_n.contr.Idx) :
    (dot_S2000000x3_S3x32_S2000000x32_1_0_0_1_n_n.rhsIdx j k 0 : ℕ) = k ⟨0, Nat.one_pos⟩ := by
  simp [DotDims.rhsIdx, dot_S2000000x3_S3x32_S2000000x32_1_0_0_1_n_n]; rfl
/-- … and at the result's column. -/
theorem rhs_edge_1 (j : S2000000x32.Idx) (k : dot_S2000000x3_S3x32_S2000000x32_1_0_0_1_n_n.contr.Idx) :
    (dot_S2000000x3_S3x32_S2000000x32_1_0_0_1_n_n.rhsIdx j k 1 : ℕ) = j 1 := by
  simp [DotDims.rhsIdx, dot_S2000000x3_S3x32_S2000000x32_1_0_0_1_n_n]; rfl

/-- The product at row `p` and column `q` is the sum over the 3 contracted positions. -/
theorem dot_edge (x : FVec Ideal S2000000x3 .f32) (w : FVec Ideal S3x32 .f32) (p : Fin 2000000) (q : Fin 32) :
    Host.dotGeneral dot_S2000000x3_S3x32_S2000000x32_1_0_0_1_n_n none x w (ix2 p q) = ∑ k : Fin 3, x (ix2 p k) * w (ix2 k q) := by
  refine (Ideal.dotGeneral_apply dot_S2000000x3_S3x32_S2000000x32_1_0_0_1_n_n none .single x w (ix2 p q)).trans ?_
  rw [← Equiv.sum_comp (contrEquiv1 dot_S2000000x3_S3x32_S2000000x32_1_0_0_1_n_n 3 rfl rfl).symm]
  refine Finset.sum_congr rfl fun k _ => ?_
  have hk := contrEquiv1_symm_val dot_S2000000x3_S3x32_S2000000x32_1_0_0_1_n_n 3 rfl rfl k
  have hl : dot_S2000000x3_S3x32_S2000000x32_1_0_0_1_n_n.lhsIdx (ix2 p q) ((contrEquiv1 dot_S2000000x3_S3x32_S2000000x32_1_0_0_1_n_n 3 rfl rfl).symm k) = ix2 p k := by
    funext a; apply Fin.ext
    match a with
    | ⟨0, _⟩ => exact lhs_edge_0 _ _
    | ⟨1, _⟩ => exact (lhs_edge_1 _ _).trans hk
  have hr : dot_S2000000x3_S3x32_S2000000x32_1_0_0_1_n_n.rhsIdx (ix2 p q) ((contrEquiv1 dot_S2000000x3_S3x32_S2000000x32_1_0_0_1_n_n 3 rfl rfl).symm k) = ix2 k q := by
    funext a; apply Fin.ext
    match a with
    | ⟨0, _⟩ => exact (rhs_edge_0 _ _).trans hk
    | ⟨1, _⟩ => exact rhs_edge_1 _ _
  rw [hl, hr]

/-- The bias, laid out as a row and repeated down the 2000000 rows, read at row `p` and column `q`. -/
theorem bias_edge (b : FVec Ideal S32 .f32) (p : Fin 2000000) (q : Fin 32) :
    broadcastInDim S2000000x32 ![0, 1] bcast_S1x32_S2000000x32_0_1 (broadcastInDim S1x32 ![1] bcast_S32_S1x32_1 b) (ix2 p q) = b (ix1 q) := by
  refine (broadcastInDim_apply ![0, 1] bcast_S1x32_S2000000x32_0_1 (broadcastInDim S1x32 ![1] bcast_S32_S1x32_1 b) (ix2 p q) (ix2 0 q) fun a => ?_).trans ?_
  · match a with
    | ⟨0, _⟩ => rfl
    | ⟨1, _⟩ => rfl
  · refine broadcastInDim_apply ![1] bcast_S32_S1x32_1 b (ix2 0 q) (ix1 q) fun a => ?_
    match a with
    | ⟨0, _⟩ => rfl

/-- The reference's four statements of the edge embedding are the affine map. -/
theorem ref_lin_edge (x : FVec Ideal S2000000x3 .f32) (w : FVec Ideal S3x32 .f32) (b : FVec Ideal S32 .f32) :
    addf (Host.dotGeneral dot_S2000000x3_S3x32_S2000000x32_1_0_0_1_n_n none x w) (broadcastInDim S2000000x32 ![0, 1] bcast_S1x32_S2000000x32_0_1 (broadcastInDim S1x32 ![1] bcast_S32_S1x32_1 b)) = lin x w b := by
  funext i
  obtain ⟨p, q, rfl⟩ : ∃ (p : Fin 2000000) (q : Fin 32), i = ix2 p q := ⟨i 0, i 1, eq_ix2 i⟩
  rw [addf_apply, dot_edge, bias_edge]
  rfl

end Cert.ReferenceIdeal.Val

end
-- ==== Proof.StageMlpR.lean ====
/-
  The reference's per-layer perceptron. The node features and the aggregated messages are added entry by entry; the
  sum goes through an affine map to 75 columns, `max · 0`, and an affine map back to 32 columns. A host product of a
  matrix by a matrix, read at entry (p, q), is the finite sum over the contracted axis of row p against column q. A
  bias vector is first laid as a one-row matrix and that row copied down every row, so at entry (p, q) it is the
  vector's entry q. The zero the maximum is taken against is a scalar copied to every entry.
-/
import proofs.«412989_j17643725652192_3_alg».proof.ReferenceIdeal
import proofs.«412989_j17643725652192_3_alg».proof.Proof.Gen.ReferenceIdeal
import proofs.«412989_j17643725652192_3_alg».proof.Proof.Spec
import Idealize.ShloMosaic.PureOps.Ideal.Laws
import Idealize.ShloMosaic.Lib.Pipeline.Value
import Idealize.ShloMosaic.Lib.KernelVsHost
import Idealize.ShloMosaic.Lib.StackMember
import Idealize.ShloMosaic.Lib.IdealHost

set_option maxRecDepth 16384

open scoped BigOperators

noncomputable section

namespace Cert.ReferenceIdeal.Val

open Cert.ReferenceIdeal Cert.ReferenceIdeal.Facts₀ Cert.Net Idealize.ShloMosaic Idealize.ShloMosaic.ValueIdx

/-- Both products contract the left operand's columns with the right operand's rows: the plain matrix product. -/
theorem mlp_dotA_eq : dot_S200000x32_S32x75_S200000x75_1_0_0_1_n_n = DotDims.plain 200000 32 75 := rfl
theorem mlp_dotB_eq : dot_S200000x75_S75x32_S200000x32_1_0_0_1_n_n = DotDims.plain 200000 75 32 := rfl

/-- A vector laid as one row and the row copied down `m` rows: entry (p, q) is the vector's entry q. -/
theorem mlp_rowBias_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → EReal)
    (p : Fin m) (q : Fin n) :
    broadcastInDim ⟨2, ![m, n]⟩ ![0, 1] h2 (broadcastInDim ⟨2, ![1, n]⟩ ![1] h1 b) (ix2 p q) = b (ix1 q) := by
  rw [broadcastInDim_oneRow_apply]
  refine broadcastInDim_apply ![1] h1 b (ix2 (0 : Fin 1) q) (ix1 q) ?_
  intro a
  match a with
  | ⟨0, _⟩ =>
    show q.val = if n = 1 then 0 else q.val
    split_ifs with hn
    · have := q.isLt; omega
    · rfl

/-- The reference's statements for the perceptron, composed, are the perceptron of the entrywise sum. -/
theorem ref_mlp (h agg : FVec Ideal S200000x32 .f32) (w1 : FVec Ideal S32x75 .f32) (b1 : FVec Ideal S75 .f32) (w2 : FVec Ideal S75x32 .f32) (b2 : FVec Ideal S32 .f32) :
    addf (Host.dotGeneral dot_S200000x75_S75x32_S200000x32_1_0_0_1_n_n none (maximumf (addf (Host.dotGeneral dot_S200000x32_S32x75_S200000x75_1_0_0_1_n_n none (addf h agg) w1) (broadcastInDim S200000x75 ![0, 1] bcast_S1x75_S200000x75_0_1 (broadcastInDim S1x75 ![1] bcast_S75_S1x75_1 b1))) (broadcastInDim S200000x75 ![] bcast_S_S200000x75 (constant (F := Ideal) S_ .f32 0x00000000#32))) w2) (broadcastInDim S200000x32 ![0, 1] bcast_S1x32_S200000x32_0_1 (broadcastInDim S1x32 ![1] bcast_S32_S1x32_1 b2)) = mlp (add2 h agg) w1 b1 w2 b2 := by
  funext j
  obtain ⟨p, q, rfl⟩ : ∃ (p : Fin 200000) (q : Fin 32), j = ix2 p q := ⟨j 0, j 1, eq_ix2 j⟩
  refine (addf_apply _ _ _).trans ?_
  rw [mlp_dotB_eq, StackMember.dotGeneral_plain_apply, mlp_rowBias_apply]
  show _ = (∑ k : Fin 75, max ((∑ l : Fin 32, (h (ix2 p l) + agg (ix2 p l)) * w1 (ix2 l k)) + b1 (ix1 k)) 0 * w2 (ix2 k q)) + b2 (ix1 q)
  refine congrArg (· + b2 (ix1 q)) (Finset.sum_congr rfl fun k _ => ?_)
  refine congrArg (· * w2 (ix2 k q)) ?_
  refine (maximumf_apply _ _ _).trans ?_
  rw [addf_apply, mlp_dotA_eq, StackMember.dotGeneral_plain_apply, mlp_rowBias_apply, broadcastInDim_scalar_apply,
    constant_apply, Ideal.ofBits_zero_f32]
  rfl

end Cert.ReferenceIdeal.Val

end
-- ==== Proof.StageStatR.lean ====
/-
  The batch statistics of the reference program, read column by column.

  The column mean is the sum of the column (a sum over the row axis from the initial value zero) over the
  number of rows, the literal 200000. The variance routine recomputes that mean as a `[1, 32]` row, broadcasts it
  down the rows, centres and squares the entries, sums each column, and divides by `200000 − 0`, the integer
  zero read as a real; it then selects that quotient against a fill word under the comparison `200000 − 0 > 0`.
  Over the extended reals the comparison holds, so the result is the column sum of the centred squares over the
  number of rows.
-/
import proofs.«412989_j17643725652192_3_alg».proof.ReferenceIdeal
import proofs.«412989_j17643725652192_3_alg».proof.Proof.Spec
import Idealize.ShloMosaic.PureOps.Ideal.Laws
import Idealize.ShloMosaic.Lib.IdealHost
import Idealize.ShloMosaic.Lib.Pipeline.Value

open scoped BigOperators

noncomputable section

namespace Cert.ReferenceIdeal.Val

open Cert.ReferenceIdeal Cert.Net Idealize.ShloMosaic Idealize.ShloMosaic.ValueIdx

variable [Facts₀]
open Facts₀

/-- The word `0x48435000` is the real number 200000: sign 0, exponent 144 − 127 = 17, significand 1 + 4411392 / 2²³. -/
theorem nRows_eq : nRows = ((200000 : ℝ) : EReal) := by
  unfold nRows
  simp [Ideal.ofBits, Ideal.ieee, -EReal.coe_mul]; norm_num

/-- The number of rows is positive. -/
theorem nRows_pos : (0 : EReal) < nRows := by
  rw [nRows_eq]; exact EReal.coe_pos.2 (by norm_num)

/-- The sum over axis 0 from the initial value zero, at column `j`, is the column sum. -/
theorem reduce_col (x : FVec Ideal S200000x32 .f32) (j : S32.Idx) :
    Host.reduceAdd (F := Ideal) x (constant (F := Ideal) S_ .f32 0x00000000#32) reducesTo_S200000x32_S32_d0 h_S_ j = colSum x j := by
  have h : S200000x32.Reduces [0] S32 := by decide
  refine (hostReduceAdd_apply x _ _ _ j).trans ?_
  refine (Ideal.hostReduceAdd_single reducesTo_S200000x32_S32_d0 h x _ j).trans ?_
  rw [constant_apply, Ideal.ofBits_zero_f32, zero_add]
  -- the source index over column `j` with row coordinate `k` is `(k, j)`
  refine Finset.sum_congr rfl fun k _ => congrArg x ?_
  funext c
  match c with
  | ⟨0, _⟩ => exact Fin.ext rfl
  | ⟨1, _⟩ => exact Fin.ext rfl

/-- The column means: the column sums over the number of rows. -/
theorem ref_mean (z : FVec Ideal S200000x32 .f32) :
    Host.divf (Host.reduceAdd z (constant (F := Ideal) S_ .f32 0x00000000#32) reducesTo_S200000x32_S32_d0 h_S_) (broadcastInDim S32 ![] bcast_S_S32 (constant (F := Ideal) S_ .f32 0x48435000#32)) = colMean z := by
  funext j
  rw [hostDivf_apply, reduce_col, broadcastInDim_scalar_apply, constant_apply]
  rfl

/-- The divisor `200000 − 0`, the integer zero read as a real, is the number of rows. -/
theorem den_eq : (subf (constant (F := Ideal) S_ .f32 0x48435000#32) (sitofp .f32 (constantI S_ 32 0#32))) ix0 = nRows := by
  have h0 : (((0#32 : BitVec 32).toInt : ℝ) : EReal) = 0 := by simp
  rw [subf_apply, constant_apply, sitofp_apply]
  show Ideal.ofBits .f32 0x48435000#32 - (((0#32 : BitVec 32).toInt : ℝ) : EReal) = nRows
  rw [h0, sub_zero]
  rfl

/-- The comparison `200000 − 0 > 0` holds, so its bit is one at every column. -/
theorem cond_eq (j : S32.Idx) : broadcastInDim S32 ![] bcast_S_S32 (cmpf .ogt (subf (constant (F := Ideal) S_ .f32 0x48435000#32) (sitofp .f32 (constantI S_ 32 0#32))) (constant (F := Ideal) S_ .f32 0x00000000#32)) j = 1#1 := by
  rw [broadcastInDim_scalar_apply, cmpf_apply, den_eq, constant_apply, Ideal.ofBits_zero_f32]
  show BitVec.ofBool (decide ((0 : EReal) < nRows)) = 1#1
  rw [decide_eq_true nRows_pos]
  rfl

/-- The centred entry at row `r`, column `c`: the entry minus the mean of column `c` (the mean row `[1, 32]`
    broadcast down the rows). -/
theorem diff_apply (z : FVec Ideal S200000x32 .f32) (r : Fin 200000) (c : Fin 32) :
    (subf z (broadcastInDim S200000x32 ![0, 1] bcast_S1x32_S200000x32_0_1 (Host.divf (broadcastInDim S1x32 ![1] bcast_S32_S1x32_1 (Host.reduceAdd z (constant (F := Ideal) S_ .f32 0x00000000#32) reducesTo_S200000x32_S32_d0 h_S_)) (broadcastInDim S1x32 ![] bcast_S_S1x32 (constant (F := Ideal) S_ .f32 0x48435000#32))))) (ix2 r c) = z (ix2 r c) - colMean z (ix1 c) := by
  refine (subf_apply z _ (ix2 r c)).trans (congrArg (fun t => z (ix2 r c) - t) ?_)
  refine (broadcastInDim_apply (![0, 1]) bcast_S1x32_S200000x32_0_1 _ (ix2 r c) (ix2 (0 : Fin 1) c)
        (fun a => by match a with | ⟨0, _⟩ => rfl | ⟨1, _⟩ => rfl)).trans ?_
  refine (hostDivf_apply _ _ (ix2 (0 : Fin 1) c)).trans ?_
  rw [broadcastInDim_apply (![1]) bcast_S32_S1x32_1 _ (ix2 (0 : Fin 1) c) (ix1 c)
        (fun a => by match a with | ⟨0, _⟩ => rfl),
      reduce_col, broadcastInDim_scalar_apply, constant_apply]
  rfl

/-- The squared centred entries are the centred squares about the column means. -/
theorem sq_eq (z : FVec Ideal S200000x32 .f32) :
    mulf (subf z (broadcastInDim S200000x32 ![0, 1] bcast_S1x32_S200000x32_0_1 (Host.divf (broadcastInDim S1x32 ![1] bcast_S32_S1x32_1 (Host.reduceAdd z (constant (F := Ideal) S_ .f32 0x00000000#32) reducesTo_S200000x32_S32_d0 h_S_)) (broadcastInDim S1x32 ![] bcast_S_S1x32 (constant (F := Ideal) S_ .f32 0x48435000#32))))) (subf z (broadcastInDim S200000x32 ![0, 1] bcast_S1x32_S200000x32_0_1 (Host.divf (broadcastInDim S1x32 ![1] bcast_S32_S1x32_1 (Host.reduceAdd z (constant (F := Ideal) S_ .f32 0x00000000#32) reducesTo_S200000x32_S32_d0 h_S_)) (broadcastInDim S1x32 ![] bcast_S_S1x32 (constant (F := Ideal) S_ .f32 0x48435000#32))))) = sqDev z (colMean z) := by
  funext i
  obtain ⟨r, c, rfl⟩ : ∃ (r : Fin 200000) (c : Fin 32), i = ix2 r c := ⟨i 0, i 1, eq_ix2 i⟩
  rw [mulf_apply, diff_apply]
  rfl

/-- The biased column variances about the column means: the compare bit is one, so the select takes the quotient
    of the column sums of the centred squares by the number of rows. -/
theorem ref_var (z : FVec Ideal S200000x32 .f32) :
    select (broadcastInDim S32 ![] bcast_S_S32 (cmpf .ogt (subf (constant (F := Ideal) S_ .f32 0x48435000#32) (sitofp .f32 (constantI S_ 32 0#32))) (constant (F := Ideal) S_ .f32 0x00000000#32))) (Host.divf (Host.reduceAdd (mulf (subf z (broadcastInDim S200000x32 ![0, 1] bcast_S1x32_S200000x32_0_1 (Host.divf (broadcastInDim S1x32 ![1] bcast_S32_S1x32_1 (Host.reduceAdd z (constant (F := Ideal) S_ .f32 0x00000000#32) reducesTo_S200000x32_S32_d0 h_S_)) (broadcastInDim S1x32 ![] bcast_S_S1x32 (constant (F := Ideal) S_ .f32 0x48435000#32))))) (subf z (broadcastInDim S200000x32 ![0, 1] bcast_S1x32_S200000x32_0_1 (Host.divf (broadcastInDim S1x32 ![1] bcast_S32_S1x32_1 (Host.reduceAdd z (constant (F := Ideal) S_ .f32 0x00000000#32) reducesTo_S200000x32_S32_d0 h_S_)) (broadcastInDim S1x32 ![] bcast_S_S1x32 (constant (F := Ideal) S_ .f32 0x48435000#32)))))) (constant (F := Ideal) S_ .f32 0x00000000#32) reducesTo_S200000x32_S32_d0 h_S_) (broadcastInDim S32 ![] bcast_S_S32 (subf (constant (F := Ideal) S_ .f32 0x48435000#32) (sitofp .f32 (constantI S_ 32 0#32))))) (broadcastInDim S32 ![] bcast_S_S32 (id (constant (F := Ideal) S_ .f32 0x7FC00000#32))) = colVar z (colMean z) := by
  funext j
  rw [select_apply, cond_eq, select_one, hostDivf_apply, reduce_col, sq_eq, broadcastInDim_scalar_apply, den_eq]
  rfl

end Cert.ReferenceIdeal.Val

end
-- ==== Proof.StageBnR.lean ====
/-
  The reference's batch normalisation, applied: the textbook form, entry by entry.

  Over a [200000, 32] array z and [32] vectors μ, σ², γ, β the reference broadcasts each vector first to a [1, 32] row
  and then down the 200000 rows, so entry (r, t) of a broadcast vector is the vector's entry t. With that the term
  max(((z − μ)·rsqrt(σ² + ε))·γ + β, 0) reads, at (r, t),
  max(((z(r,t) − μ(t))·(σ²(t) + ε)^(-1/2))·γ(t) + β(t), 0), where ε is the scalar literal broadcast to [32] and the
  zero of the maximum is the scalar literal 0 broadcast to [200000, 32].
-/
import proofs.«412989_j17643725652192_3_alg».proof.ReferenceIdeal
import proofs.«412989_j17643725652192_3_alg».proof.Proof.Spec
import Idealize.ShloMosaic.Lib.ValueIdx
import Idealize.ShloMosaic.Lib.IdealHost
import Idealize.ShloMosaic.Lib.KernelVsHost
import Idealize.ShloMosaic.PureOps.Ideal.Laws

noncomputable section

namespace Cert.ReferenceIdeal.Val

open Cert.ReferenceIdeal Cert.Net Idealize.ShloMosaic Idealize.ShloMosaic.ValueIdx

variable [Facts₀]
open Facts₀

/-- A [32] vector broadcast to a [1, 32] row reads, at (0, t), the vector's entry t. -/
theorem bcast_vec_row (x : FVec Ideal S32 .f32) (t : Fin 32) :
    broadcastInDim S1x32 ![1] bcast_S32_S1x32_1 x (ix2 (0 : Fin 1) t) = x (ix1 t) := by
  refine broadcastInDim_apply ![1] bcast_S32_S1x32_1 x (ix2 (0 : Fin 1) t) (ix1 t) ?_
  intro a
  obtain rfl : a = 0 := Subsingleton.elim _ _
  show t.val = if (32 : ℕ) = 1 then 0 else t.val
  rw [if_neg (by decide)]

/-- A [32] vector broadcast to a row and then down the 200000 rows reads, at (r, t), the vector's entry t. -/
theorem bcast_vec_rows (x : FVec Ideal S32 .f32) (r : Fin 200000) (t : Fin 32) :
    broadcastInDim S200000x32 ![0, 1] bcast_S1x32_S200000x32_0_1 (broadcastInDim S1x32 ![1] bcast_S32_S1x32_1 x)
      (ix2 r t) = x (ix1 t) := by
  rw [broadcastInDim_oneRow_apply, bcast_vec_row]

/-- Statements %46-%48, %49-%54, %57-%59, %62-%65 of the reference, as one term over z, μ, σ², γ, β: the textbook batch
    normalisation followed by max · 0. -/
theorem ref_bn (z : FVec Ideal S200000x32 .f32) (mu var g b : FVec Ideal S32 .f32) :
    maximumf (addf (mulf (mulf (subf z (broadcastInDim S200000x32 ![0, 1] bcast_S1x32_S200000x32_0_1 (broadcastInDim S1x32 ![1] bcast_S32_S1x32_1 mu))) (broadcastInDim S200000x32 ![0, 1] bcast_S1x32_S200000x32_0_1 (broadcastInDim S1x32 ![1] bcast_S32_S1x32_1 (Host.rsqrt (addf var (broadcastInDim S32 ![] bcast_S_S32 (constant (F := Ideal) S_ .f32 0x3727C5AC#32))))))) (broadcastInDim S200000x32 ![0, 1] bcast_S1x32_S200000x32_0_1 (broadcastInDim S1x32 ![1] bcast_S32_S1x32_1 g))) (broadcastInDim S200000x32 ![0, 1] bcast_S1x32_S200000x32_0_1 (broadcastInDim S1x32 ![1] bcast_S32_S1x32_1 b))) (broadcastInDim S200000x32 ![] bcast_S_S200000x32 (constant (F := Ideal) S_ .f32 0x00000000#32)) = bnRef z mu var g b := by
  funext i
  obtain ⟨r, t, rfl⟩ : ∃ (r : Fin 200000) (t : Fin 32), i = ix2 r t := ⟨i 0, i 1, eq_ix2 i⟩
  rw [maximumf_apply, addf_apply, mulf_apply, mulf_apply, subf_apply, bcast_vec_rows, bcast_vec_rows, bcast_vec_rows,
    bcast_vec_rows, broadcastInDim_scalar_apply, constant_apply, Ideal.ofBits_zero_f32]
  -- the reciprocal root of σ² + ε at entry t, ε the scalar literal read anywhere
  have hr : Host.rsqrt (addf var (broadcastInDim S32 ![] bcast_S_S32 (constant (F := Ideal) S_ .f32 0x3727C5AC#32))) (ix1 t)
      = Ideal.rsqrt (var (ix1 t) + bnEps) := by
    show Ideal.rsqrt (var (ix1 t) + broadcastInDim S32 ![] bcast_S_S32 (constant (F := Ideal) S_ .f32 0x3727C5AC#32) (ix1 t))
      = Ideal.rsqrt (var (ix1 t) + bnEps)
    rw [broadcastInDim_scalar_apply, constant_apply]; rfl
  rw [hr]
  rfl

end Cert.ReferenceIdeal.Val

end
-- ==== Proof.StageSliceR.lean ====
/-
  Layer `l` of a stacked parameter, as the reference reads it.

  A stacked weight `[2, a, b]` is cut along its leading axis at offset `l` to a `[1, a, b]` array and the unit axis
  is dropped: entry `(p, q)` of the result is entry `(l, p, q)` of the stack, because the row-major position of
  `(0, p, q)` in `[1, a, b]` is that of `(p, q)` in `[a, b]`. A stacked vector `[2, a]` is cut to `[1, a]` and
  flattened to `[a]`: entry `q` of the result is entry `(l, q)` of the stack.

  Each statement below has on its left the array that the cut followed by the change of shape produces, written
  over a variable `w` for the stack and for any proofs of the two shape relations; the change of element type
  inside it is along an equation between two equal types and moves nothing.
-/
import proofs.«412989_j17643725652192_3_alg».proof.ReferenceIdeal
import proofs.«412989_j17643725652192_3_alg».proof.Proof.Spec
import Idealize.ShloMosaic.Lib.ValueLayout
import Idealize.ShloMosaic.Lib.Pipeline.Value

noncomputable section

namespace Cert.ReferenceIdeal.Val

open Cert.ReferenceIdeal Cert.Net Idealize.ShloMosaic Idealize.ShloMosaic.ValueIdx

/-! ## The two cuts over variables -/

/-- Layer `o` of a stacked weight: the stack cut at offset `o` on its leading axis, the unit axis dropped.
    Entry `(p, q)` of the result sits at row-major position `p·b + q`, which is that of `(0, p, q)` in the
    cut, and the cut at `(0, p, q)` is the stack at `(o + 0, 0 + p, 0 + q)`. -/
theorem layer3_cut {L a b : Nat} (o : Nat) (ho : o < L) (w : A3 L a b)
    (hs : (⟨3, ![L, a, b]⟩ : Shape).Slices ![o, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![o, 0, 0] w hs) hc = layer3 w ⟨o, ho⟩ := by
  funext i
  obtain ⟨p, q, rfl⟩ : ∃ p q, i = ix2 p q := ⟨i 0, i 1, eq_ix2 i⟩
  refine (shapeCast_1ab_ab_apply _ hc p q).trans ?_
  refine extractStridedSlice_apply _ w hs _ (ix3 ⟨o, ho⟩ p q) fun ax => ?_
  match ax with
  | ⟨0, _⟩ => exact (Nat.add_zero o).symm
  | ⟨1, _⟩ => exact (Nat.zero_add _).symm
  | ⟨2, _⟩ => exact (Nat.zero_add _).symm

/-- Layer `o` of a stacked vector: the stack cut at offset `o` on its leading axis, the unit axis dropped.
    Entry `q` of the result is the cut at `(0, q)`, which is the stack at `(o + 0, q)`. -/
theorem layer2_cut {L a : Nat} (o : Nat) (ho : o < L) (w : A2 L a)
    (hs : (⟨2, ![L, a]⟩ : Shape).Slices ![o, 0] ⟨2, ![1, a]⟩)
    (hc : (⟨2, ![1, a]⟩ : Shape).ShapeCasts ⟨1, ![a]⟩) :
    shapeCast ⟨1, ![a]⟩ (extractStridedSlice ⟨2, ![1, a]⟩ ![o, 0] w hs) hc = layer2 w ⟨o, ho⟩ := by
  funext j
  obtain ⟨q, rfl⟩ : ∃ q, j = ix1 q := ⟨j 0, eq_ix1 j⟩
  exact (shapeCast_1a_a_apply _ hc q).trans (slice2_axis0_apply o w hs 0 q ⟨o, ho⟩ (Nat.add_zero o).symm)

/-! ## The reference's twelve cuts -/

/-- Layer 0's first weight: the stack cut at offset 0, the unit axis dropped. -/
theorem ref_w1_0 (w : FVec Ideal S2x32x75 .f32) (hs : S2x32x75.Slices ![0, 0, 0] S1x32x75) (hc : S1x32x75.ShapeCasts S32x75) :
    ((fun i => (rfl : main_v25.ty.elt = main_v26.ty.elt) ▸
        shapeCast main_v26.ty.shape (extractStridedSlice S1x32x75 ![0, 0, 0] w hs) hc i) : main_v26.ty.Contents (Elt Ideal))
      = layer3 w 0 :=
  layer3_cut 0 (by decide) w hs hc

/-- Layer 0's first bias: the stack cut at offset 0, the unit axis dropped. -/
theorem ref_b1_0 (w : FVec Ideal S2x75 .f32) (hs : S2x75.Slices ![0, 0] S1x75) (hc : S1x75.ShapeCasts S75) :
    ((fun i => (rfl : main_v28.ty.elt = main_v29.ty.elt) ▸
        shapeCast main_v29.ty.shape (extractStridedSlice S1x75 ![0, 0] w hs) hc i) : main_v29.ty.Contents (Elt Ideal))
      = layer2 w 0 :=
  layer2_cut 0 (by decide) w hs hc

/-- Layer 0's second weight: the stack cut at offset 0, the unit axis dropped. -/
theorem ref_w2_0 (w : FVec Ideal S2x75x32 .f32) (hs : S2x75x32.Slices ![0, 0, 0] S1x75x32) (hc : S1x75x32.ShapeCasts S75x32) :
    ((fun i => (rfl : main_v34.ty.elt = main_v35.ty.elt) ▸
        shapeCast main_v35.ty.shape (extractStridedSlice S1x75x32 ![0, 0, 0] w hs) hc i) : main_v35.ty.Contents (Elt Ideal))
      = layer3 w 0 :=
  layer3_cut 0 (by decide) w hs hc

/-- Layer 0's second bias: the stack cut at offset 0, the unit axis dropped. -/
theorem ref_b2_0 (w : FVec Ideal S2x32 .f32) (hs : S2x32.Slices ![0, 0] S1x32) (hc : S1x32.ShapeCasts S32) :
    ((fun i => (rfl : main_v37.ty.elt = main_v38.ty.elt) ▸
        shapeCast main_v38.ty.shape (extractStridedSlice S1x32 ![0, 0] w hs) hc i) : main_v38.ty.Contents (Elt Ideal))
      = layer2 w 0 :=
  layer2_cut 0 (by decide) w hs hc

/-- Layer 0's normalisation scale: the stack cut at offset 0, the unit axis dropped. -/
theorem ref_g_0 (w : FVec Ideal S2x32 .f32) (hs : S2x32.Slices ![0, 0] S1x32) (hc : S1x32.ShapeCasts S32) :
    ((fun i => (rfl : main_v55.ty.elt = main_v56.ty.elt) ▸
        shapeCast main_v56.ty.shape (extractStridedSlice S1x32 ![0, 0] w hs) hc i) : main_v56.ty.Contents (Elt Ideal))
      = layer2 w 0 :=
  layer2_cut 0 (by decide) w hs hc

/-- Layer 0's normalisation shift: the stack cut at offset 0, the unit axis dropped. -/
theorem ref_beta_0 (w : FVec Ideal S2x32 .f32) (hs : S2x32.Slices ![0, 0] S1x32) (hc : S1x32.ShapeCasts S32) :
    ((fun i => (rfl : main_v60.ty.elt = main_v61.ty.elt) ▸
        shapeCast main_v61.ty.shape (extractStridedSlice S1x32 ![0, 0] w hs) hc i) : main_v61.ty.Contents (Elt Ideal))
      = layer2 w 0 :=
  layer2_cut 0 (by decide) w hs hc

/-- Layer 1's first weight: the stack cut at offset 1, the unit axis dropped. -/
theorem ref_w1_1 (w : FVec Ideal S2x32x75 .f32) (hs : S2x32x75.Slices ![1, 0, 0] S1x32x75) (hc : S1x32x75.ShapeCasts S32x75) :
    ((fun i => (rfl : main_v79.ty.elt = main_v80.ty.elt) ▸
        shapeCast main_v80.ty.shape (extractStridedSlice S1x32x75 ![1, 0, 0] w hs) hc i) : main_v80.ty.Contents (Elt Ideal))
      = layer3 w 1 :=
  layer3_cut 1 (by decide) w hs hc

/-- Layer 1's first bias: the stack cut at offset 1, the unit axis dropped. -/
theorem ref_b1_1 (w : FVec Ideal S2x75 .f32) (hs : S2x75.Slices ![1, 0] S1x75) (hc : S1x75.ShapeCasts S75) :
    ((fun i => (rfl : main_v82.ty.elt = main_v83.ty.elt) ▸
        shapeCast main_v83.ty.shape (extractStridedSlice S1x75 ![1, 0] w hs) hc i) : main_v83.ty.Contents (Elt Ideal))
      = layer2 w 1 :=
  layer2_cut 1 (by decide) w hs hc

/-- Layer 1's second weight: the stack cut at offset 1, the unit axis dropped. -/
theorem ref_w2_1 (w : FVec Ideal S2x75x32 .f32) (hs : S2x75x32.Slices ![1, 0, 0] S1x75x32) (hc : S1x75x32.ShapeCasts S75x32) :
    ((fun i => (rfl : main_v88.ty.elt = main_v89.ty.elt) ▸
        shapeCast main_v89.ty.shape (extractStridedSlice S1x75x32 ![1, 0, 0] w hs) hc i) : main_v89.ty.Contents (Elt Ideal))
      = layer3 w 1 :=
  layer3_cut 1 (by decide) w hs hc

/-- Layer 1's second bias: the stack cut at offset 1, the unit axis dropped. -/
theorem ref_b2_1 (w : FVec Ideal S2x32 .f32) (hs : S2x32.Slices ![1, 0] S1x32) (hc : S1x32.ShapeCasts S32) :
    ((fun i => (rfl : main_v91.ty.elt = main_v92.ty.elt) ▸
        shapeCast main_v92.ty.shape (extractStridedSlice S1x32 ![1, 0] w hs) hc i) : main_v92.ty.Contents (Elt Ideal))
      = layer2 w 1 :=
  layer2_cut 1 (by decide) w hs hc

/-- Layer 1's normalisation scale: the stack cut at offset 1, the unit axis dropped. -/
theorem ref_g_1 (w : FVec Ideal S2x32 .f32) (hs : S2x32.Slices ![1, 0] S1x32) (hc : S1x32.ShapeCasts S32) :
    ((fun i => (rfl : main_v109.ty.elt = main_v110.ty.elt) ▸
        shapeCast main_v110.ty.shape (extractStridedSlice S1x32 ![1, 0] w hs) hc i) : main_v110.ty.Contents (Elt Ideal))
      = layer2 w 1 :=
  layer2_cut 1 (by decide) w hs hc

/-- Layer 1's normalisation shift: the stack cut at offset 1, the unit axis dropped. -/
theorem ref_beta_1 (w : FVec Ideal S2x32 .f32) (hs : S2x32.Slices ![1, 0] S1x32) (hc : S1x32.ShapeCasts S32) :
    ((fun i => (rfl : main_v114.ty.elt = main_v115.ty.elt) ▸
        shapeCast main_v115.ty.shape (extractStridedSlice S1x32 ![1, 0] w hs) hc i) : main_v115.ty.Contents (Elt Ideal))
      = layer2 w 1 :=
  layer2_cut 1 (by decide) w hs hc

end Cert.ReferenceIdeal.Val

end
-- ==== Proof.StageHeadR.lean ====
/-
  The readout head of the reference, index by index.

  The reference computes the head as two dense layers: a product of the pooled rows with the first weight
  (contracting the 32 features), the first bias laid along every row, `max · 0`, a product with the second
  weight (contracting the 16 hidden units) and the second bias laid along every row. Read at row `r` and
  column `q` each product is the finite sum over its contracted axis, each bias row is the bias at its
  column, and the zero splat is the extended real `0`; the result is the two-layer perceptron of the
  specification at `(r, q)`.
-/
import proofs.«412989_j17643725652192_3_alg».proof.ReferenceIdeal
import proofs.«412989_j17643725652192_3_alg».proof.Proof.Spec
import Idealize.ShloMosaic.Lib.KernelVsHost

set_option maxRecDepth 16384

open scoped BigOperators

noncomputable section

namespace Cert.ReferenceIdeal.Val

open Cert.ReferenceIdeal Cert.Net Idealize.ShloMosaic Idealize.ShloMosaic.ValueIdx

namespace HeadR

/-- The two-layer perceptron at row `r`, column `q`: the inner sums run over the input features, the outer
    sum over the hidden units. -/
theorem mlp_at {N D H M : Nat} (u : A2 N D) (w1 : A2 D H) (b1 : A1 H) (w2 : A2 H M) (b2 : A1 M) (r : Fin N) (q : Fin M) :
    mlp u w1 b1 w2 b2 (ix2 r q)
      = (∑ k : Fin H, max ((∑ d : Fin D, u (ix2 r d) * w1 (ix2 d k)) + b1 (ix1 k)) 0 * w2 (ix2 k q)) + b2 (ix1 q) := rfl

/-! ## A bias laid along every row -/

/-- A vector of `n` entries made a one-row matrix and laid along `m` rows, read at `(r, q)`, is its entry `q`. -/
theorem biasRows_at {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → EReal) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply h2 _ r q]
  refine broadcastInDim_apply ![1] h1 b (ix2 (0 : Fin 1) q) (ix1 q) ?_
  intro a
  match a with
  | ⟨0, _⟩ =>
    show q.val = if n = 1 then 0 else q.val
    split_ifs with hn
    · have := q.isLt; omega
    · rfl

section Products

variable [Facts₀]
open Facts₀

/-! ## The first product: rows of 32 features against the 32 × 16 weight -/

/-- The left operand's row is the result's row. -/
theorem lhs_d1_0 (j : S10000x16.Idx) (k : dot_S10000x32_S32x16_S10000x16_1_0_0_1_n_n.contr.Idx) :
    (dot_S10000x32_S32x16_S10000x16_1_0_0_1_n_n.lhsIdx j k 0).val = (j 0).val := rfl
/-- The left operand's column is the contraction position. -/
theorem lhs_d1_1 (j : S10000x16.Idx) (k : dot_S10000x32_S32x16_S10000x16_1_0_0_1_n_n.contr.Idx) :
    (dot_S10000x32_S32x16_S10000x16_1_0_0_1_n_n.lhsIdx j k 1).val = (k ⟨0, Nat.one_pos⟩).val :=
  dot_S10000x32_S32x16_S10000x16_1_0_0_1_n_n.lhsIdx_val_of_single rfl j k
/-- The right operand's row is the contraction position. -/
theorem rhs_d1_0 (j : S10000x16.Idx) (k : dot_S10000x32_S32x16_S10000x16_1_0_0_1_n_n.contr.Idx) :
    (dot_S10000x32_S32x16_S10000x16_1_0_0_1_n_n.rhsIdx j k 0).val = (k ⟨0, Nat.one_pos⟩).val :=
  dot_S10000x32_S32x16_S10000x16_1_0_0_1_n_n.rhsIdx_val_of_single rfl j k
/-- The right operand's column is the result's column. -/
theorem rhs_d1_1 (j : S10000x16.Idx) (k : dot_S10000x32_S32x16_S10000x16_1_0_0_1_n_n.contr.Idx) :
    (dot_S10000x32_S32x16_S10000x16_1_0_0_1_n_n.rhsIdx j k 1).val = (j 1).val := rfl

/-- The first product at `(r, q)` is the sum over the 32 features. -/
theorem dot1_at (x : FVec Ideal S10000x32 .f32) (w : FVec Ideal S32x16 .f32) (r : Fin 10000) (q : Fin 16) :
    Host.dotGeneral dot_S10000x32_S32x16_S10000x16_1_0_0_1_n_n none x w (ix2 r q) = ∑ d : Fin 32, x (ix2 r d) * w (ix2 d q) := by
  show FloatOps.dotGeneral dot_S10000x32_S32x16_S10000x16_1_0_0_1_n_n none _ x w (ix2 r q) = _
  rw [Ideal.dotGeneral_apply, ← Equiv.sum_comp (contrEquiv1 dot_S10000x32_S32x16_S10000x16_1_0_0_1_n_n 32 rfl rfl).symm]
  refine Finset.sum_congr rfl fun d _ => ?_
  have hd := contrEquiv1_symm_val dot_S10000x32_S32x16_S10000x16_1_0_0_1_n_n 32 rfl rfl d
  congr 1
  · refine congrArg x (funext fun a => Fin.ext ?_)
    match a with
    | ⟨0, _⟩ => exact lhs_d1_0 _ _
    | ⟨1, _⟩ => exact (lhs_d1_1 _ _).trans hd
  · refine congrArg w (funext fun a => Fin.ext ?_)
    match a with
    | ⟨0, _⟩ => exact (rhs_d1_0 _ _).trans hd
    | ⟨1, _⟩ => exact rhs_d1_1 _ _

/-! ## The second product: rows of 16 hidden units against the 16 × 2 weight -/

theorem lhs_d2_0 (j : S10000x2.Idx) (k : dot_S10000x16_S16x2_S10000x2_1_0_0_1_n_n.contr.Idx) :
    (dot_S10000x16_S16x2_S10000x2_1_0_0_1_n_n.lhsIdx j k 0).val = (j 0).val := rfl
theorem lhs_d2_1 (j : S10000x2.Idx) (k : dot_S10000x16_S16x2_S10000x2_1_0_0_1_n_n.contr.Idx) :
    (dot_S10000x16_S16x2_S10000x2_1_0_0_1_n_n.lhsIdx j k 1).val = (k ⟨0, Nat.one_pos⟩).val :=
  dot_S10000x16_S16x2_S10000x2_1_0_0_1_n_n.lhsIdx_val_of_single rfl j k
theorem rhs_d2_0 (j : S10000x2.Idx) (k : dot_S10000x16_S16x2_S10000x2_1_0_0_1_n_n.contr.Idx) :
    (dot_S10000x16_S16x2_S10000x2_1_0_0_1_n_n.rhsIdx j k 0).val = (k ⟨0, Nat.one_pos⟩).val :=
  dot_S10000x16_S16x2_S10000x2_1_0_0_1_n_n.rhsIdx_val_of_single rfl j k
theorem rhs_d2_1 (j : S10000x2.Idx) (k : dot_S10000x16_S16x2_S10000x2_1_0_0_1_n_n.contr.Idx) :
    (dot_S10000x16_S16x2_S10000x2_1_0_0_1_n_n.rhsIdx j k 1).val = (j 1).val := rfl

/-- The second product at `(r, q)` is the sum over the 16 hidden units. -/
theorem dot2_at (x : FVec Ideal S10000x16 .f32) (w : FVec Ideal S16x2 .f32) (r : Fin 10000) (q : Fin 2) :
    Host.dotGeneral dot_S10000x16_S16x2_S10000x2_1_0_0_1_n_n none x w (ix2 r q) = ∑ k : Fin 16, x (ix2 r k) * w (ix2 k q) := by
  show FloatOps.dotGeneral dot_S10000x16_S16x2_S10000x2_1_0_0_1_n_n none _ x w (ix2 r q) = _
  rw [Ideal.dotGeneral_apply, ← Equiv.sum_comp (contrEquiv1 dot_S10000x16_S16x2_S10000x2_1_0_0_1_n_n 16 rfl rfl).symm]
  refine Finset.sum_congr rfl fun k _ => ?_
  have hk := contrEquiv1_symm_val dot_S10000x16_S16x2_S10000x2_1_0_0_1_n_n 16 rfl rfl k
  congr 1
  · refine congrArg x (funext fun a => Fin.ext ?_)
    match a with
    | ⟨0, _⟩ => exact lhs_d2_0 _ _
    | ⟨1, _⟩ => exact (lhs_d2_1 _ _).trans hk
  · refine congrArg w (funext fun a => Fin.ext ?_)
    match a with
    | ⟨0, _⟩ => exact (rhs_d2_0 _ _).trans hk
    | ⟨1, _⟩ => exact rhs_d2_1 _ _

end Products

end HeadR

/-! ## The head -/

section Head

variable [Facts₀]
open Facts₀ HeadR

/-- The reference's head is the two-layer perceptron of the pooled rows. -/
theorem ref_head (g : FVec Ideal S10000x32 .f32) (w1 : FVec Ideal S32x16 .f32) (b1 : FVec Ideal S16 .f32) (w2 : FVec Ideal S16x2 .f32) (b2 : FVec Ideal S2 .f32) :
    addf (Host.dotGeneral dot_S10000x16_S16x2_S10000x2_1_0_0_1_n_n none (maximumf (addf (Host.dotGeneral dot_S10000x32_S32x16_S10000x16_1_0_0_1_n_n none g w1) (broadcastInDim S10000x16 ![0, 1] bcast_S1x16_S10000x16_0_1 (broadcastInDim S1x16 ![1] bcast_S16_S1x16_1 b1))) (broadcastInDim S10000x16 ![] bcast_S_S10000x16 (constant (F := Ideal) S_ .f32 0x00000000#32))) w2) (broadcastInDim S10000x2 ![0, 1] bcast_S1x2_S10000x2_0_1 (broadcastInDim S1x2 ![1] bcast_S2_S1x2_1 b2)) = mlp g w1 b1 w2 b2 := by
  funext i
  obtain ⟨r, q, rfl⟩ : ∃ (r : Fin 10000) (q : Fin 2), i = ix2 r q := ⟨i 0, i 1, eq_ix2 i⟩
  rw [mlp_at, addf_apply, dot2_at, biasRows_at]
  congr 1
  refine Finset.sum_congr rfl fun k _ => ?_
  rw [maximumf_apply, addf_apply, dot1_at, biasRows_at]
  congr 2
  show Ideal.ofBits .f32 0x00000000#32 = 0
  exact Ideal.ofBits_zero_f32

end Head

end Cert.ReferenceIdeal.Val

end
-- ==== Proof.RChain.lean ====
/-
  The reference program's result, read stage by stage. Its 215 operations run in eleven chunks; each chunk, from any
  buffer contents, leaves its stage's value as the index-level function of the chunk's inputs (an affine map, the
  aggregation, the perceptron, the column mean and variance, the normalisation, the pooling, the head), and every
  buffer a chunk does not write keeps its contents. Chaining the chunks from the launch contents gives the result
  buffer as the network with the textbook normalisation, and each argument buffer unchanged.
-/
import proofs.«412989_j17643725652192_3_alg».proof.Proof.RRun
import Idealize.ShloMosaic.Lib.StableHlo.Run
import Idealize.ShloMosaic.Lib.Pipeline.Frame
import Idealize.ShloMosaic.PureOps.Ideal
import proofs.«412989_j17643725652192_3_alg».proof.Proof.Spec
import proofs.«412989_j17643725652192_3_alg».proof.Proof.StageLinR
import proofs.«412989_j17643725652192_3_alg».proof.Proof.StageMlpR
import proofs.«412989_j17643725652192_3_alg».proof.Proof.StageStatR
import proofs.«412989_j17643725652192_3_alg».proof.Proof.StageBnR
import proofs.«412989_j17643725652192_3_alg».proof.Proof.StageSliceR
import proofs.«412989_j17643725652192_3_alg».proof.Proof.StageHeadR
import proofs.«412989_j17643725652192_3_alg».proof.Proof.StageAgg
import proofs.«412989_j17643725652192_3_alg».proof.Proof.StagePool
import proofs.«412989_j17643725652192_3_alg».proof.Proof.Net

set_option maxRecDepth 8192

noncomputable section

namespace Cert.ReferenceIdeal.Val

open Cert.ReferenceIdeal Cert.ReferenceIdeal.Gen Idealize.ShloMosaic Idealize.ShloMosaic.TcCoe Idealize.SL.Sem Idealize.ShloMosaic.StableHlo Cert.Net
open Cert.Proof.Agg Cert.Proof.Pool

/-! ## Each chunk of the reference's operations as one stage -/
section Chunks
variable (W : Valuation τ sig (Elt Ideal))
theorem r0_src : after (ops0 (F := Ideal)) W (main_v1 : DevRef τ sig) = srcR (W (main_arg1 : DevRef τ sig)) := by
  after_results_simp
  rfl
theorem r0_dst : after (ops0 (F := Ideal)) W (main_v3 : DevRef τ sig) = dstR (W (main_arg1 : DevRef τ sig)) := by
  after_results_simp
  rfl
theorem r0_h0 : after (ops0 (F := Ideal)) W (main_v7 : DevRef τ sig) = lin (W (main_arg0 : DevRef τ sig)) (W (main_arg4 : DevRef τ sig)) (W (main_arg5 : DevRef τ sig)) := by
  after_results_simp
  exact ref_lin_node _ _ _
theorem r0_e : after (ops0 (F := Ideal)) W (main_v11 : DevRef τ sig) = lin (W (main_arg2 : DevRef τ sig)) (W (main_arg6 : DevRef τ sig)) (W (main_arg7 : DevRef τ sig)) := by
  after_results_simp
  exact ref_lin_edge _ _ _

/-! ### Layer 0: one chunk per stage, over any contents `W` -/
theorem r1_agg : after (ops1 (F := Ideal)) W (main_v23 : DevRef τ sig) = aggR (W (main_v7 : DevRef τ sig)) (W (main_v11 : DevRef τ sig)) (W (main_v1 : DevRef τ sig)) (W (main_v3 : DevRef τ sig)) := by
  after_results_simp
  rfl
theorem r2_z : after (ops2 (F := Ideal)) W (main_v41 : DevRef τ sig)
    = mlp (add2 (W (main_v7 : DevRef τ sig)) (W (main_v23 : DevRef τ sig))) (layer3 (W (main_arg8 : DevRef τ sig)) 0) (layer2 (W (main_arg9 : DevRef τ sig)) 0) (layer3 (W (main_arg10 : DevRef τ sig)) 0) (layer2 (W (main_arg11 : DevRef τ sig)) 0) := by
  after_results_simp
  rw [ref_w1_0, ref_b1_0, ref_w2_0, ref_b2_0]
  exact ref_mlp _ _ _ _ _ _
theorem r3_mean : after (ops3 (F := Ideal)) W (main_v44 : DevRef τ sig) = colMean (W (main_v41 : DevRef τ sig)) := by
  after_results_simp
  exact ref_mean _
theorem r3_var : after (ops3 (F := Ideal)) W (main_v45 : DevRef τ sig) = colVar (W (main_v41 : DevRef τ sig)) (colMean (W (main_v41 : DevRef τ sig))) := by
  after_results_simp
  exact ref_var _
theorem r4_h : after (ops4 (F := Ideal)) W (main_v65 : DevRef τ sig)
    = bnRef (W (main_v41 : DevRef τ sig)) (W (main_v44 : DevRef τ sig)) (W (main_v45 : DevRef τ sig)) (layer2 (W (main_arg12 : DevRef τ sig)) 0) (layer2 (W (main_arg13 : DevRef τ sig)) 0) := by
  after_results_simp
  rw [ref_g_0, ref_beta_0]
  exact ref_bn _ _ _ _ _

/-! ### Layer 1: one chunk per stage, over any contents `W` -/
theorem r5_agg : after (ops5 (F := Ideal)) W (main_v77 : DevRef τ sig) = aggR (W (main_v65 : DevRef τ sig)) (W (main_v11 : DevRef τ sig)) (W (main_v1 : DevRef τ sig)) (W (main_v3 : DevRef τ sig)) := by
  after_results_simp
  rfl
theorem r6_z : after (ops6 (F := Ideal)) W (main_v95 : DevRef τ sig)
    = mlp (add2 (W (main_v65 : DevRef τ sig)) (W (main_v77 : DevRef τ sig))) (layer3 (W (main_arg8 : DevRef τ sig)) 1) (layer2 (W (main_arg9 : DevRef τ sig)) 1) (layer3 (W (main_arg10 : DevRef τ sig)) 1) (layer2 (W (main_arg11 : DevRef τ sig)) 1) := by
  after_results_simp
  rw [ref_w1_1, ref_b1_1, ref_w2_1, ref_b2_1]
  exact ref_mlp _ _ _ _ _ _
theorem r7_mean : after (ops7 (F := Ideal)) W (main_v98 : DevRef τ sig) = colMean (W (main_v95 : DevRef τ sig)) := by
  after_results_simp
  exact ref_mean _
theorem r7_var : after (ops7 (F := Ideal)) W (main_v99 : DevRef τ sig) = colVar (W (main_v95 : DevRef τ sig)) (colMean (W (main_v95 : DevRef τ sig))) := by
  after_results_simp
  exact ref_var _
theorem r8_h : after (ops8 (F := Ideal)) W (main_v119 : DevRef τ sig)
    = bnRef (W (main_v95 : DevRef τ sig)) (W (main_v98 : DevRef τ sig)) (W (main_v99 : DevRef τ sig)) (layer2 (W (main_arg12 : DevRef τ sig)) 1) (layer2 (W (main_arg13 : DevRef τ sig)) 1) := by
  after_results_simp
  rw [ref_g_1, ref_beta_1]
  exact ref_bn _ _ _ _ _

theorem r9_g : after (ops9 (F := Ideal)) W (main_v131 : DevRef τ sig) = poolR (W (main_v119 : DevRef τ sig)) (W (main_arg3 : DevRef τ sig)) := by
  after_results_simp
  rfl
theorem r10_out : after (ops10 (F := Ideal)) W (main_v140 : DevRef τ sig)
    = mlp (W (main_v131 : DevRef τ sig)) (W (main_arg14 : DevRef τ sig)) (W (main_arg15 : DevRef τ sig)) (W (main_arg16 : DevRef τ sig)) (W (main_arg17 : DevRef τ sig)) := by
  after_results_simp
  exact ref_head _ _ _ _ _
end Chunks

section GenericPass
variable (W : Valuation τ sig (Elt Ideal))
theorem p1_v7 : after (ops1 (F := Ideal)) W (main_v7 : DevRef τ sig) = W (main_v7 : DevRef τ sig) := by after_results_simp
theorem p3_v41 : after (ops3 (F := Ideal)) W (main_v41 : DevRef τ sig) = W (main_v41 : DevRef τ sig) := by after_results_simp
theorem p5_v65 : after (ops5 (F := Ideal)) W (main_v65 : DevRef τ sig) = W (main_v65 : DevRef τ sig) := by after_results_simp
theorem p7_v95 : after (ops7 (F := Ideal)) W (main_v95 : DevRef τ sig) = W (main_v95 : DevRef τ sig) := by after_results_simp
theorem p14_v11 : after (ops4 (F := Ideal)) (after (ops3 (F := Ideal)) (after (ops2 (F := Ideal)) (after (ops1 (F := Ideal)) W))) (main_v11 : DevRef τ sig) = W (main_v11 : DevRef τ sig) := by after_results_simp
theorem p14_v1 : after (ops4 (F := Ideal)) (after (ops3 (F := Ideal)) (after (ops2 (F := Ideal)) (after (ops1 (F := Ideal)) W))) (main_v1 : DevRef τ sig) = W (main_v1 : DevRef τ sig) := by after_results_simp
theorem p14_v3 : after (ops4 (F := Ideal)) (after (ops3 (F := Ideal)) (after (ops2 (F := Ideal)) (after (ops1 (F := Ideal)) W))) (main_v3 : DevRef τ sig) = W (main_v3 : DevRef τ sig) := by after_results_simp
end GenericPass

/-! ## The contents after each chunk, from launch contents `V` -/
section Boundaries
variable (V : Valuation τ sig (Elt Ideal))
abbrev R1 : Valuation τ sig (Elt Ideal) := after (ops0 (F := Ideal)) V
abbrev R2 : Valuation τ sig (Elt Ideal) := after (ops1 (F := Ideal)) (R1 V)
abbrev R3 : Valuation τ sig (Elt Ideal) := after (ops2 (F := Ideal)) (R2 V)
abbrev R4 : Valuation τ sig (Elt Ideal) := after (ops3 (F := Ideal)) (R3 V)
abbrev R5 : Valuation τ sig (Elt Ideal) := after (ops4 (F := Ideal)) (R4 V)
abbrev R6 : Valuation τ sig (Elt Ideal) := after (ops5 (F := Ideal)) (R5 V)
abbrev R7 : Valuation τ sig (Elt Ideal) := after (ops6 (F := Ideal)) (R6 V)
abbrev R8 : Valuation τ sig (Elt Ideal) := after (ops7 (F := Ideal)) (R7 V)
abbrev R9 : Valuation τ sig (Elt Ideal) := after (ops8 (F := Ideal)) (R8 V)
abbrev R10 : Valuation τ sig (Elt Ideal) := after (ops9 (F := Ideal)) (R9 V)
abbrev R11 : Valuation τ sig (Elt Ideal) := after (ops10 (F := Ideal)) (R10 V)
theorem ops_after : after (ops (F := Ideal)) V = R11 V := by
  simp only [ops, after_append]
theorem R2_v7 : R2 V (main_v7 : DevRef τ sig) = R1 V (main_v7 : DevRef τ sig) := p1_v7 (R1 V)
theorem R2_arg8 : R2 V (main_arg8 : DevRef τ sig) = V (main_arg8 : DevRef τ sig) := by
  after_results_simp
theorem R2_arg9 : R2 V (main_arg9 : DevRef τ sig) = V (main_arg9 : DevRef τ sig) := by
  after_results_simp
theorem R2_arg10 : R2 V (main_arg10 : DevRef τ sig) = V (main_arg10 : DevRef τ sig) := by
  after_results_simp
theorem R2_arg11 : R2 V (main_arg11 : DevRef τ sig) = V (main_arg11 : DevRef τ sig) := by
  after_results_simp
theorem R4_v41 : R4 V (main_v41 : DevRef τ sig) = R3 V (main_v41 : DevRef τ sig) := p3_v41 (R3 V)
theorem R4_arg12 : R4 V (main_arg12 : DevRef τ sig) = V (main_arg12 : DevRef τ sig) := by
  after_results_simp
theorem R4_arg13 : R4 V (main_arg13 : DevRef τ sig) = V (main_arg13 : DevRef τ sig) := by
  after_results_simp
theorem R5_v11 : R5 V (main_v11 : DevRef τ sig) = R1 V (main_v11 : DevRef τ sig) := p14_v11 (R1 V)
theorem R5_v1 : R5 V (main_v1 : DevRef τ sig) = R1 V (main_v1 : DevRef τ sig) := p14_v1 (R1 V)
theorem R5_v3 : R5 V (main_v3 : DevRef τ sig) = R1 V (main_v3 : DevRef τ sig) := p14_v3 (R1 V)
theorem R6_v65 : R6 V (main_v65 : DevRef τ sig) = R5 V (main_v65 : DevRef τ sig) := p5_v65 (R5 V)
theorem R6_arg8 : R6 V (main_arg8 : DevRef τ sig) = V (main_arg8 : DevRef τ sig) := by
  after_results_simp
theorem R6_arg9 : R6 V (main_arg9 : DevRef τ sig) = V (main_arg9 : DevRef τ sig) := by
  after_results_simp
theorem R6_arg10 : R6 V (main_arg10 : DevRef τ sig) = V (main_arg10 : DevRef τ sig) := by
  after_results_simp
theorem R6_arg11 : R6 V (main_arg11 : DevRef τ sig) = V (main_arg11 : DevRef τ sig) := by
  after_results_simp
theorem R8_v95 : R8 V (main_v95 : DevRef τ sig) = R7 V (main_v95 : DevRef τ sig) := p7_v95 (R7 V)
theorem R8_arg12 : R8 V (main_arg12 : DevRef τ sig) = V (main_arg12 : DevRef τ sig) := by
  after_results_simp
theorem R8_arg13 : R8 V (main_arg13 : DevRef τ sig) = V (main_arg13 : DevRef τ sig) := by
  after_results_simp
theorem R9_arg3 : R9 V (main_arg3 : DevRef τ sig) = V (main_arg3 : DevRef τ sig) := by
  after_results_simp
theorem R10_arg14 : R10 V (main_arg14 : DevRef τ sig) = V (main_arg14 : DevRef τ sig) := by
  after_results_simp
theorem R10_arg15 : R10 V (main_arg15 : DevRef τ sig) = V (main_arg15 : DevRef τ sig) := by
  after_results_simp
theorem R10_arg16 : R10 V (main_arg16 : DevRef τ sig) = V (main_arg16 : DevRef τ sig) := by
  after_results_simp
theorem R10_arg17 : R10 V (main_arg17 : DevRef τ sig) = V (main_arg17 : DevRef τ sig) := by
  after_results_simp

theorem Q_src : R1 V (main_v1 : DevRef τ sig) = srcR (V (main_arg1 : DevRef τ sig)) := r0_src V
theorem Q_dst : R1 V (main_v3 : DevRef τ sig) = dstR (V (main_arg1 : DevRef τ sig)) := r0_dst V
theorem Q_h0 : R1 V (main_v7 : DevRef τ sig) = lin (V (main_arg0 : DevRef τ sig)) (V (main_arg4 : DevRef τ sig)) (V (main_arg5 : DevRef τ sig)) := r0_h0 V
theorem Q_e : R1 V (main_v11 : DevRef τ sig) = lin (V (main_arg2 : DevRef τ sig)) (V (main_arg6 : DevRef τ sig)) (V (main_arg7 : DevRef τ sig)) := r0_e V
theorem Q_agg0 : R2 V (main_v23 : DevRef τ sig) = aggR (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) := by
  rw [show R2 V = after (ops1 (F := Ideal)) (R1 V) from rfl, r1_agg, Q_h0, Q_e, Q_src, Q_dst]
theorem Q_z0 : R3 V (main_v41 : DevRef τ sig) = (nZ (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) 0) := by
  rw [show R3 V = after (ops2 (F := Ideal)) (R2 V) from rfl, r2_z, R2_v7, Q_h0, Q_agg0, R2_arg8, R2_arg9, R2_arg10, R2_arg11]
  rfl
theorem Q_mv0 : R4 V (main_v44 : DevRef τ sig) = colMean (nZ (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) 0) ∧ R4 V (main_v45 : DevRef τ sig) = colVar (nZ (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) 0) (colMean (nZ (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) 0)) := by
  constructor
  · rw [show R4 V = after (ops3 (F := Ideal)) (R3 V) from rfl, r3_mean, Q_z0]
  · rw [show R4 V = after (ops3 (F := Ideal)) (R3 V) from rfl, r3_var, Q_z0]
theorem Q_h1 : R5 V (main_v65 : DevRef τ sig) = (layerR (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) (V (main_arg12 : DevRef τ sig)) (V (main_arg13 : DevRef τ sig)) 0) := by
  rw [show R5 V = after (ops4 (F := Ideal)) (R4 V) from rfl, r4_h, R4_v41, Q_z0, (Q_mv0 V).1, (Q_mv0 V).2, R4_arg12, R4_arg13]
  rfl
theorem Q_agg1 : R6 V (main_v77 : DevRef τ sig) = aggR (layerR (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) (V (main_arg12 : DevRef τ sig)) (V (main_arg13 : DevRef τ sig)) 0) (lin (V (main_arg2 : DevRef τ sig)) (V (main_arg6 : DevRef τ sig)) (V (main_arg7 : DevRef τ sig))) (srcR (V (main_arg1 : DevRef τ sig))) (dstR (V (main_arg1 : DevRef τ sig))) := by
  rw [show R6 V = after (ops5 (F := Ideal)) (R5 V) from rfl, r5_agg, Q_h1, R5_v11, R5_v1, R5_v3, Q_e, Q_src, Q_dst]
theorem Q_z1 : R7 V (main_v95 : DevRef τ sig) = (nZ (layerR (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) (V (main_arg12 : DevRef τ sig)) (V (main_arg13 : DevRef τ sig)) 0) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) 1) := by
  rw [show R7 V = after (ops6 (F := Ideal)) (R6 V) from rfl, r6_z, R6_v65, Q_h1, Q_agg1, R6_arg8, R6_arg9, R6_arg10, R6_arg11]
  rfl
theorem Q_mv1 : R8 V (main_v98 : DevRef τ sig) = colMean (nZ (layerR (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) (V (main_arg12 : DevRef τ sig)) (V (main_arg13 : DevRef τ sig)) 0) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) 1) ∧ R8 V (main_v99 : DevRef τ sig) = colVar (nZ (layerR (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) (V (main_arg12 : DevRef τ sig)) (V (main_arg13 : DevRef τ sig)) 0) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) 1) (colMean (nZ (layerR (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) (V (main_arg12 : DevRef τ sig)) (V (main_arg13 : DevRef τ sig)) 0) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) 1)) := by
  constructor
  · rw [show R8 V = after (ops7 (F := Ideal)) (R7 V) from rfl, r7_mean, Q_z1]
  · rw [show R8 V = after (ops7 (F := Ideal)) (R7 V) from rfl, r7_var, Q_z1]
theorem Q_h2 : R9 V (main_v119 : DevRef τ sig) = (layerR (layerR (lin (V (main_arg0 : DevRef τ sig)) (V (main_arg4 : DevRef τ sig)) (V (main_arg5 : DevRef τ sig))) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) (V (main_arg12 : DevRef τ sig)) (V (main_arg13 : DevRef τ sig)) 0) (lin (V (main_arg2 : DevRef τ sig)) (V (main_arg6 : DevRef τ sig)) (V (main_arg7 : DevRef τ sig))) (srcR (V (main_arg1 : DevRef τ sig))) (dstR (V (main_arg1 : DevRef τ sig))) (V (main_arg8 : DevRef τ sig)) (V (main_arg9 : DevRef τ sig)) (V (main_arg10 : DevRef τ sig)) (V (main_arg11 : DevRef τ sig)) (V (main_arg12 : DevRef τ sig)) (V (main_arg13 : DevRef τ sig)) 1) := by
  rw [show R9 V = after (ops8 (F := Ideal)) (R8 V) from rfl, r8_h, R8_v95, Q_z1, (Q_mv1 V).1, (Q_mv1 V).2, R8_arg12, R8_arg13]
  rfl
/-- The reference's result, from any launch contents, is the network with the textbook normalisation. -/
theorem R_out : after (ops (F := Ideal)) V (main_v140 : DevRef τ sig) = netR (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [ops_after, show R11 V = after (ops10 (F := Ideal)) (R10 V) from rfl, r10_out,
    show R10 V = after (ops9 (F := Ideal)) (R9 V) from rfl, r9_g, Q_h2]
  rw [show after (ops9 (F := Ideal)) (R9 V) = R10 V from rfl, R10_arg14, R10_arg15, R10_arg16, R10_arg17, R9_arg3]
  rfl
end Boundaries

/-! ## The arguments keep their launch contents -/
section Kept
variable (V : Valuation τ sig (Elt Ideal))
theorem kept_arg0 : after (ops (F := Ideal)) V (main_arg0 : DevRef τ sig) = V (main_arg0 : DevRef τ sig) := by
  rw [ops_after]
  after_results_simp
theorem kept_arg1 : after (ops (F := Ideal)) V (main_arg1 : DevRef τ sig) = V (main_arg1 : DevRef τ sig) := by
  rw [ops_after]
  after_results_simp
theorem kept_arg2 : after (ops (F := Ideal)) V (main_arg2 : DevRef τ sig) = V (main_arg2 : DevRef τ sig) := by
  rw [ops_after]
  after_results_simp
theorem kept_arg3 : after (ops (F := Ideal)) V (main_arg3 : DevRef τ sig) = V (main_arg3 : DevRef τ sig) := by
  rw [ops_after]
  after_results_simp
theorem kept_arg4 : after (ops (F := Ideal)) V (main_arg4 : DevRef τ sig) = V (main_arg4 : DevRef τ sig) := by
  rw [ops_after]
  after_results_simp
theorem kept_arg5 : after (ops (F := Ideal)) V (main_arg5 : DevRef τ sig) = V (main_arg5 : DevRef τ sig) := by
  rw [ops_after]
  after_results_simp
theorem kept_arg6 : after (ops (F := Ideal)) V (main_arg6 : DevRef τ sig) = V (main_arg6 : DevRef τ sig) := by
  rw [ops_after]
  after_results_simp
theorem kept_arg7 : after (ops (F := Ideal)) V (main_arg7 : DevRef τ sig) = V (main_arg7 : DevRef τ sig) := by
  rw [ops_after]
  after_results_simp
theorem kept_arg8 : after (ops (F := Ideal)) V (main_arg8 : DevRef τ sig) = V (main_arg8 : DevRef τ sig) := by
  rw [ops_after]
  after_results_simp
theorem kept_arg9 : after (ops (F := Ideal)) V (main_arg9 : DevRef τ sig) = V (main_arg9 : DevRef τ sig) := by
  rw [ops_after]
  after_results_simp
theorem kept_arg10 : after (ops (F := Ideal)) V (main_arg10 : DevRef τ sig) = V (main_arg10 : DevRef τ sig) := by
  rw [ops_after]
  after_results_simp
theorem kept_arg11 : after (ops (F := Ideal)) V (main_arg11 : DevRef τ sig) = V (main_arg11 : DevRef τ sig) := by
  rw [ops_after]
  after_results_simp
theorem kept_arg12 : after (ops (F := Ideal)) V (main_arg12 : DevRef τ sig) = V (main_arg12 : DevRef τ sig) := by
  rw [ops_after]
  after_results_simp
theorem kept_arg13 : after (ops (F := Ideal)) V (main_arg13 : DevRef τ sig) = V (main_arg13 : DevRef τ sig) := by
  rw [ops_after]
  after_results_simp
theorem kept_arg14 : after (ops (F := Ideal)) V (main_arg14 : DevRef τ sig) = V (main_arg14 : DevRef τ sig) := by
  rw [ops_after]
  after_results_simp
theorem kept_arg15 : after (ops (F := Ideal)) V (main_arg15 : DevRef τ sig) = V (main_arg15 : DevRef τ sig) := by
  rw [ops_after]
  after_results_simp
theorem kept_arg16 : after (ops (F := Ideal)) V (main_arg16 : DevRef τ sig) = V (main_arg16 : DevRef τ sig) := by
  rw [ops_after]
  after_results_simp
theorem kept_arg17 : after (ops (F := Ideal)) V (main_arg17 : DevRef τ sig) = V (main_arg17 : DevRef τ sig) := by
  rw [ops_after]
  after_results_simp
end Kept

end Cert.ReferenceIdeal.Val

end
-- ==== Proof.PreFacts.lean ====
/-
  The precondition decoded. The precondition is a conjunction of eighteen one-bit words, each the reduction by `and`,
  over all entries, of an elementwise comparison: for each of the sixteen float arguments x the comparison
  max x (-x) < +∞, and for row 0 of the [2, 2000000] integer argument (the edge table's source indices) the two signed
  comparisons row0 ≥ 0 and row0 < 200000. The conjunction being 1 makes each conjunct 1; a reduction by `and` that is 1
  met only 1s; an extended real whose absolute value is below +∞ is neither infinity, so it is a real number; a word
  that compares signed ≥ 0 and signed < 200000 has its signed value in [0, 200000). Row 0 is taken by a unit slice at
  offset (0, 0) and a cast of [1, n] to [n], which reads entry (0, k) of the table at position k.
-/
import proofs.«412989_j17643725652192_3_alg».proof.Defs
import proofs.«412989_j17643725652192_3_alg».proof.Proof.Gen.Pre_finite_inputs
import proofs.«412989_j17643725652192_3_alg».proof.Proof.LibRealClosure
import Idealize.ShloMosaic.Lib.ReduceAll
import Idealize.ShloMosaic.Lib.StableHlo.Predicate
import Idealize.ShloMosaic.Lib.ValueIdx
import Idealize.ShloMosaic.Lib.ValueLayout

noncomputable section

namespace Cert.Proof.PreFacts

open Idealize.ShloMosaic Idealize.ShloMosaic.ValueIdx Idealize.SL.Sem RealClosure Cert.Pre_finite_inputs

/-- The scalar shape has one index. -/
instance : Subsingleton S_.Idx := ⟨fun a b => funext fun d => d.elim0⟩

/-- An extended real whose absolute value max x (-x) lies below +∞ is a real number. -/
theorem isReal_of_abs_lt_top (x : EReal) (h : max x (-x) < ⊤) : IsReal x := by
  refine isReal_of_ne ?_ ?_
  · rintro rfl; simp at h
  · rintro rfl; simp at h

/-- The reduction by `and`, over all entries, of the comparison of max x (-x) with the broadcast +∞ being 1 makes every entry of x real. -/
theorem isReal_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant S_ .f32 0x7F800000#32))) init hr hu ix0 = 1#1) :
    ∀ i, IsReal (x i) := by
  intro i
  have hi := Host.reduce_andi_all _ init hr hu ix0 e i
  change Ideal.cmp .olt (max (x i) (-(x i))) (Ideal.ofBits .f32 0x7F800000#32) = 1#1 at hi
  rw [ofBits_pos_inf_f32] at hi
  simp only [Ideal.cmp, StableHlo.Predicate.ofBool_eq_one_iff, decide_eq_true_eq] at hi
  exact isReal_of_abs_lt_top _ hi

/-- A 32-bit word that compares signed ≥ 0 and signed < n against literals has its signed value in [0, n). -/
theorem toInt_range (w lo hi : BitVec 32) (h0 : IntOp.cmpi .sge w lo = 1#1) (h1 : IntOp.cmpi .slt w hi = 1#1) :
    lo.toInt ≤ w.toInt ∧ w.toInt < hi.toInt := by
  unfold IntOp.cmpi at h0 h1
  rw [StableHlo.Predicate.ofBool_eq_one_iff] at h0 h1
  simp only [BitVec.slt, BitVec.sle, decide_eq_true_eq] at h0 h1
  exact ⟨h0, h1⟩

/-- The reduction by `and` of a signed comparison of row 0 of a [2, n] table (a unit slice at offset (0, 0), then a cast of [1, n] to [n]) with a broadcast scalar b being 1 makes the comparison hold at every entry (0, k). -/
theorem row0_of_all {n : Nat} {axes : List (Fin (⟨1, ![n]⟩ : Shape).rank)} (x : IVec ⟨2, ![2, n]⟩ 32) (p : CmpIPredicate) (b : BitVec 32)
    (hs : (⟨2, ![2, n]⟩ : Shape).Slices ![0, 0] ⟨2, ![1, n]⟩) (hc : (⟨2, ![1, n]⟩ : Shape).ShapeCasts ⟨1, ![n]⟩)
    (hb : S_.BroadcastsInDim ⟨1, ![n]⟩ (![] : Fin 0 → Fin (⟨1, ![n]⟩ : Shape).rank)) (hr : (⟨1, ![n]⟩ : Shape).ReducesTo axes S_)
    (hu : 0 < S_.numel) (init : IVec S_ 1)
    (e : Host.reduce IntOp.andi (cmpi p (shapeCast ⟨1, ![n]⟩ (extractStridedSlice ⟨2, ![1, n]⟩ ![0, 0] x hs) hc)
          (broadcastInDim ⟨1, ![n]⟩ ![] hb (constantI S_ 32 b))) init hr hu ix0 = 1#1) (k : Fin n) :
    IntOp.cmpi p (x (ix2 (0 : Fin 2) k)) b = 1#1 := by
  have hi := Host.reduce_andi_all _ init hr hu ix0 e (ix1 k)
  change IntOp.cmpi p (shapeCast ⟨1, ![n]⟩ (extractStridedSlice ⟨2, ![1, n]⟩ ![0, 0] x hs) hc (ix1 k)) b = 1#1 at hi
  rw [shapeCast_1a_a_apply, slice2_axis0_apply 0 x hs (0 : Fin 1) k (0 : Fin 2) rfl] at hi
  exact hi

/-- The signed values of the two bounds. -/
theorem toInt_lo : (0#32 : BitVec 32).toInt = 0 := by decide
theorem toInt_hi : (200000#32 : BitVec 32).toInt = 200000 := by
  rw [StableHlo.Predicate.toInt_ofNat_small 200000 (by norm_num)]; rfl

/-- THE PRECONDITION DECODED: every float argument is real-valued, and every source index of the edge table (row 0) lies in [0, 200000). -/
theorem decoded (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ k : Fin 2000000, 0 ≤ (m ((c.tc : Thread Cert.KernelIdeal.nD Cert.KernelIdeal.τ).loc Cert.KernelIdeal.main_arg1) (ix2 (0 : Fin 2) k)).toInt
          ∧ (m ((c.tc : Thread Cert.KernelIdeal.nD Cert.KernelIdeal.τ).loc Cert.KernelIdeal.main_arg1) (ix2 (0 : Fin 2) k)).toInt < 200000) := by
  have e := congrFun (h c) ix0
  dsimp only [fn, fn_part1, fn_part2, fn_part3, fn_part4, fn_part5] at e
  obtain ⟨e, h89⟩ := IntOp.andi_eq_one.1 e
  obtain ⟨e, h83⟩ := IntOp.andi_eq_one.1 e
  obtain ⟨e, h77⟩ := IntOp.andi_eq_one.1 e
  obtain ⟨e, h72⟩ := IntOp.andi_eq_one.1 e
  obtain ⟨e, h67⟩ := IntOp.andi_eq_one.1 e
  obtain ⟨e, h62⟩ := IntOp.andi_eq_one.1 e
  obtain ⟨e, h57⟩ := IntOp.andi_eq_one.1 e
  obtain ⟨e, h52⟩ := IntOp.andi_eq_one.1 e
  obtain ⟨e, h47⟩ := IntOp.andi_eq_one.1 e
  obtain ⟨e, h42⟩ := IntOp.andi_eq_one.1 e
  obtain ⟨e, h37⟩ := IntOp.andi_eq_one.1 e
  obtain ⟨e, h32⟩ := IntOp.andi_eq_one.1 e
  obtain ⟨e, h27⟩ := IntOp.andi_eq_one.1 e
  obtain ⟨e, h22⟩ := IntOp.andi_eq_one.1 e
  obtain ⟨e, h17⟩ := IntOp.andi_eq_one.1 e
  obtain ⟨e, h12⟩ := IntOp.andi_eq_one.1 e
  obtain ⟨h3, h7⟩ := IntOp.andi_eq_one.1 e
  refine ⟨isReal_of_all _ _ _ _ _ h3, isReal_of_all _ _ _ _ _ h7, isReal_of_all _ _ _ _ _ h12, isReal_of_all _ _ _ _ _ h17,
    isReal_of_all _ _ _ _ _ h22, isReal_of_all _ _ _ _ _ h27, isReal_of_all _ _ _ _ _ h32, isReal_of_all _ _ _ _ _ h37,
    isReal_of_all _ _ _ _ _ h42, isReal_of_all _ _ _ _ _ h47, isReal_of_all _ _ _ _ _ h52, isReal_of_all _ _ _ _ _ h57,
    isReal_of_all _ _ _ _ _ h62, isReal_of_all _ _ _ _ _ h67, isReal_of_all _ _ _ _ _ h72, isReal_of_all _ _ _ _ _ h77, fun k => ?_⟩
  have hk := toInt_range _ (0#32) (200000#32) (row0_of_all _ .sge _ _ _ _ _ _ _ h83 k) (row0_of_all _ .slt _ _ _ _ _ _ _ h89 k)
  rw [toInt_lo, toInt_hi] at hk
  exact hk

/-- Argument 0 is real-valued. -/
theorem real_arg0 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg0) i) :=
  (decoded m h c).1

/-- Argument 2 is real-valued. -/
theorem real_arg2 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg2) i) :=
  (decoded m h c).2.1

/-- Argument 4 is real-valued. -/
theorem real_arg4 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg4) i) :=
  (decoded m h c).2.2.1

/-- Argument 5 is real-valued. -/
theorem real_arg5 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg5) i) :=
  (decoded m h c).2.2.2.1

/-- Argument 6 is real-valued. -/
theorem real_arg6 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg6) i) :=
  (decoded m h c).2.2.2.2.1

/-- Argument 7 is real-valued. -/
theorem real_arg7 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg7) i) :=
  (decoded m h c).2.2.2.2.2.1

/-- Argument 8 is real-valued. -/
theorem real_arg8 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg8) i) :=
  (decoded m h c).2.2.2.2.2.2.1

/-- Argument 9 is real-valued. -/
theorem real_arg9 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg9) i) :=
  (decoded m h c).2.2.2.2.2.2.2.1

/-- Argument 10 is real-valued. -/
theorem real_arg10 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg10) i) :=
  (decoded m h c).2.2.2.2.2.2.2.2.1

/-- Argument 11 is real-valued. -/
theorem real_arg11 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg11) i) :=
  (decoded m h c).2.2.2.2.2.2.2.2.2.1

/-- Argument 12 is real-valued. -/
theorem real_arg12 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg12) i) :=
  (decoded m h c).2.2.2.2.2.2.2.2.2.2.1

/-- Argument 13 is real-valued. -/
theorem real_arg13 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg13) i) :=
  (decoded m h c).2.2.2.2.2.2.2.2.2.2.2.1

/-- Argument 14 is real-valued. -/
theorem real_arg14 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg14) i) :=
  (decoded m h c).2.2.2.2.2.2.2.2.2.2.2.2.1

/-- Argument 15 is real-valued. -/
theorem real_arg15 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg15) i) :=
  (decoded m h c).2.2.2.2.2.2.2.2.2.2.2.2.2.1

/-- Argument 16 is real-valued. -/
theorem real_arg16 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg16) i) :=
  (decoded m h c).2.2.2.2.2.2.2.2.2.2.2.2.2.2.1

/-- Argument 17 is real-valued. -/
theorem real_arg17 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, IsReal (m ((c.tc : Thread Cert.KernelIdeal.nD Cert.KernelIdeal.τ).loc Cert.KernelIdeal.main_arg17) i) :=
  (decoded m h c).2.2.2.2.2.2.2.2.2.2.2.2.2.2.2.1

/-- Every source index of the edge table (row 0 of argument 1), read as a signed integer, lies in [0, 200000). -/
theorem src_range (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ k : Fin 2000000, 0 ≤ (m ((c.tc : Thread Cert.KernelIdeal.nD Cert.KernelIdeal.τ).loc Cert.KernelIdeal.main_arg1) (ix2 (0 : Fin 2) k)).toInt
      ∧ (m ((c.tc : Thread Cert.KernelIdeal.nD Cert.KernelIdeal.τ).loc Cert.KernelIdeal.main_arg1) (ix2 (0 : Fin 2) k)).toInt < 200000 :=
  (decoded m h c).2.2.2.2.2.2.2.2.2.2.2.2.2.2.2.2

end Cert.Proof.PreFacts

end
-- ==== Proof.lean ====
/-
  A two-layer edge-conditioned graph network, written as a pipelined TPU program and as plain array code, computes one
  function on the extended reals wherever every float input is finite and every gather source index lies inside the
  node array.

  Both programs embed nodes and edges by affine maps; each layer gathers the source node's features, adds the edge's,
  clamps at zero, sums the messages into their destination nodes, applies a two-layer perceptron, normalises every
  column by the batch's own mean and variance, and clamps at zero; the node features are then averaged per graph and
  passed through a two-layer head. The pipelined program tiles every dense stage over blocks of rows (a column sum
  becomes the sum of the blocks' partial sums: addition is associative and commutative), rounds matmul operands to a
  narrower format (the identity on extended reals), guards its gather against out-of-range indices (vacuous inside the
  range), clamps the variance at zero (vacuous: a sum of squares is nonnegative) and applies the normalisation as
  `z·s + t` with `s = γ·(σ² + ε)^(-1/2)`, `t = β − μ·s`, which equals `((z − μ)·(σ² + ε)^(-1/2))·γ + β` by
  distributivity once every quantity is a real number — and finite inputs keep every intermediate real.

  The three frames: the two kernel programs' from the launch theorem over their regions, the reference's from its
  straight line of operations with the results dropped. The idealisation rewrote nothing, so `preserves` is trivial.
-/
import proofs.«412989_j17643725652192_3_alg».proof.Defs
import proofs.«412989_j17643725652192_3_alg».proof.Proof.Gen.Kernel
import proofs.«412989_j17643725652192_3_alg».proof.Proof.Gen.Kernel.Frame
import proofs.«412989_j17643725652192_3_alg».proof.Proof.Gen.KernelIdeal
import proofs.«412989_j17643725652192_3_alg».proof.Proof.Gen.KernelIdeal.Frame
import proofs.«412989_j17643725652192_3_alg».proof.Proof.Gen.ReferenceIdeal
import proofs.«412989_j17643725652192_3_alg».proof.Proof.Gen.Pre_finite_inputs
import proofs.«412989_j17643725652192_3_alg».proof.Proof.KRun
import proofs.«412989_j17643725652192_3_alg».proof.Proof.KChain
import proofs.«412989_j17643725652192_3_alg».proof.Proof.RRun
import proofs.«412989_j17643725652192_3_alg».proof.Proof.RChain
import proofs.«412989_j17643725652192_3_alg».proof.Proof.Net
import proofs.«412989_j17643725652192_3_alg».proof.Proof.PreFacts
import proofs.«412989_j17643725652192_3_alg».proof.Proof.StageAgg
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Idealize.ShloMosaic.ValueIdx

/-- The word-level kernel program runs, and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations, none of which writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.Val.kept_arg0 _),
     (h c Cert.ReferenceIdeal.main_arg1).trans (Cert.ReferenceIdeal.Val.kept_arg1 _),
     (h c Cert.ReferenceIdeal.main_arg2).trans (Cert.ReferenceIdeal.Val.kept_arg2 _),
     (h c Cert.ReferenceIdeal.main_arg3).trans (Cert.ReferenceIdeal.Val.kept_arg3 _),
     (h c Cert.ReferenceIdeal.main_arg4).trans (Cert.ReferenceIdeal.Val.kept_arg4 _),
     (h c Cert.ReferenceIdeal.main_arg5).trans (Cert.ReferenceIdeal.Val.kept_arg5 _),
     (h c Cert.ReferenceIdeal.main_arg6).trans (Cert.ReferenceIdeal.Val.kept_arg6 _),
     (h c Cert.ReferenceIdeal.main_arg7).trans (Cert.ReferenceIdeal.Val.kept_arg7 _),
     (h c Cert.ReferenceIdeal.main_arg8).trans (Cert.ReferenceIdeal.Val.kept_arg8 _),
     (h c Cert.ReferenceIdeal.main_arg9).trans (Cert.ReferenceIdeal.Val.kept_arg9 _),
     (h c Cert.ReferenceIdeal.main_arg10).trans (Cert.ReferenceIdeal.Val.kept_arg10 _),
     (h c Cert.ReferenceIdeal.main_arg11).trans (Cert.ReferenceIdeal.Val.kept_arg11 _),
     (h c Cert.ReferenceIdeal.main_arg12).trans (Cert.ReferenceIdeal.Val.kept_arg12 _),
     (h c Cert.ReferenceIdeal.main_arg13).trans (Cert.ReferenceIdeal.Val.kept_arg13 _),
     (h c Cert.ReferenceIdeal.main_arg14).trans (Cert.ReferenceIdeal.Val.kept_arg14 _),
     (h c Cert.ReferenceIdeal.main_arg15).trans (Cert.ReferenceIdeal.Val.kept_arg15 _),
     (h c Cert.ReferenceIdeal.main_arg16).trans (Cert.ReferenceIdeal.Val.kept_arg16 _),
     (h c Cert.ReferenceIdeal.main_arg17).trans (Cert.ReferenceIdeal.Val.kept_arg17 _)⟩)
    (Cert.ReferenceIdeal.Val.run_main (F := Ideal) m ρ)

/-- Both programs end with the result at the network's value: the kernel's chain gives the folded-normalisation
    network of its arguments, the reference's chain the textbook-normalisation network of its own, the arguments
    agree, and on finite inputs the two networks are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hsrc : ∀ c : Dev Cert.KernelIdeal.nD, ∀ k : Fin 2000000,
      0 ≤ (Cert.KernelIdeal.Val.kSrc m c (ix1 k)).toInt ∧ (Cert.KernelIdeal.Val.kSrc m c (ix1 k)).toInt < 200000 :=
    fun c => Cert.Proof.Agg.src_of_arg _ (Cert.Proof.PreFacts.src_range m hpre c)
  refine ⟨fun c => Cert.KernelIdeal.Val.kOut m c, ?_, ?_⟩
  · exact (θ_run Cert.KernelIdeal.defs _ _).mono
      (fun r h c => ⟨(h c).1.trans (Cert.KernelIdeal.Val.T_out m ρ c (hsrc c)), (h c).2⟩)
      (Cert.KernelIdeal.GenV.run_value (F := Ideal) m ρ)
  · refine (θ_run Cert.ReferenceIdeal.defs _ _).mono (fun r h c =>
      ⟨(h c Cert.ReferenceIdeal.main_v140).trans ?_,
       (h c Cert.ReferenceIdeal.main_arg0).trans (Cert.ReferenceIdeal.Val.kept_arg0 _),
       (h c Cert.ReferenceIdeal.main_arg1).trans (Cert.ReferenceIdeal.Val.kept_arg1 _),
       (h c Cert.ReferenceIdeal.main_arg2).trans (Cert.ReferenceIdeal.Val.kept_arg2 _),
       (h c Cert.ReferenceIdeal.main_arg3).trans (Cert.ReferenceIdeal.Val.kept_arg3 _),
       (h c Cert.ReferenceIdeal.main_arg4).trans (Cert.ReferenceIdeal.Val.kept_arg4 _),
       (h c Cert.ReferenceIdeal.main_arg5).trans (Cert.ReferenceIdeal.Val.kept_arg5 _),
       (h c Cert.ReferenceIdeal.main_arg6).trans (Cert.ReferenceIdeal.Val.kept_arg6 _),
       (h c Cert.ReferenceIdeal.main_arg7).trans (Cert.ReferenceIdeal.Val.kept_arg7 _),
       (h c Cert.ReferenceIdeal.main_arg8).trans (Cert.ReferenceIdeal.Val.kept_arg8 _),
       (h c Cert.ReferenceIdeal.main_arg9).trans (Cert.ReferenceIdeal.Val.kept_arg9 _),
       (h c Cert.ReferenceIdeal.main_arg10).trans (Cert.ReferenceIdeal.Val.kept_arg10 _),
       (h c Cert.ReferenceIdeal.main_arg11).trans (Cert.ReferenceIdeal.Val.kept_arg11 _),
       (h c Cert.ReferenceIdeal.main_arg12).trans (Cert.ReferenceIdeal.Val.kept_arg12 _),
       (h c Cert.ReferenceIdeal.main_arg13).trans (Cert.ReferenceIdeal.Val.kept_arg13 _),
       (h c Cert.ReferenceIdeal.main_arg14).trans (Cert.ReferenceIdeal.Val.kept_arg14 _),
       (h c Cert.ReferenceIdeal.main_arg15).trans (Cert.ReferenceIdeal.Val.kept_arg15 _),
       (h c Cert.ReferenceIdeal.main_arg16).trans (Cert.ReferenceIdeal.Val.kept_arg16 _),
       (h c Cert.ReferenceIdeal.main_arg17).trans (Cert.ReferenceIdeal.Val.kept_arg17 _)⟩)
      (Cert.ReferenceIdeal.Val.run_main (F := Ideal) m' ρ')
    obtain ⟨e0, e1, e2, e3, e4, e5, e6, e7, e8, e9, e10, e11, e12, e13, e14, e15, e16, e17⟩ := hagree c
    have hR : after (Cert.ReferenceIdeal.Val.ops (F := Ideal)) (launchContents m' c) (Cert.ReferenceIdeal.main_v140 : DevRef Cert.ReferenceIdeal.τ Cert.ReferenceIdeal.sig)
        = Cert.Net.netR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) :=
      Cert.ReferenceIdeal.Val.R_out (launchContents m' c)
    rw [hR, e0, e1, e2, e3, e4, e5, e6, e7, e8, e9, e10, e11, e12, e13, e14, e15, e16, e17]
    show _ = Cert.KernelIdeal.Val.kOut m c
    rw [Cert.KernelIdeal.Val.kOut_eq]
    exact (Cert.Net.netK_eq_netR _ _ _ _ _ _ _ _ _ _ _ _ _ _ _ _ _ _
      (Cert.Proof.PreFacts.real_arg0 m hpre c) (Cert.Proof.PreFacts.real_arg2 m hpre c) (Cert.Proof.PreFacts.real_arg4 m hpre c)
      (Cert.Proof.PreFacts.real_arg5 m hpre c) (Cert.Proof.PreFacts.real_arg6 m hpre c) (Cert.Proof.PreFacts.real_arg7 m hpre c)
      (Cert.Proof.PreFacts.real_arg8 m hpre c) (Cert.Proof.PreFacts.real_arg9 m hpre c) (Cert.Proof.PreFacts.real_arg10 m hpre c)
      (Cert.Proof.PreFacts.real_arg11 m hpre c) (Cert.Proof.PreFacts.real_arg12 m hpre c) (Cert.Proof.PreFacts.real_arg13 m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
